-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 16384]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨1, ![512]⟩ ⟨1, ![16384]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 16384]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512 .f32) (main_arg2 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Pre_finite_inputs_ReferenceIdeal.lean ====
abbrev S1024x16384 : Shape := ⟨2, ![1024, 16384]⟩
abbrev S16384 : Shape := ⟨1, ![16384]⟩
abbrev S_ : Shape := ⟨0, ![]⟩

class Facts : Prop where
  bcast_S_S1024x16384 : S_.BroadcastsInDim S1024x16384 (![] : Fin 0 → Fin S1024x16384.rank)
  reducesTo_S1024x16384_S_d0_1 : S1024x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S1024x16384 .f32) (main_arg1 : FVec F S16384 .f32) (main_arg2 : FVec F S16384 .f32) : IVec S_ 1 :=
  let main_v0 : FVec F S1024x16384 .f32 := Host.absf main_arg0
  let main_cst : FVec F S_ .f32 := constant S_ .f32 0x7F800000#32
  let main_v1 : FVec F S1024x16384 .f32 := broadcastInDim S1024x16384 ![] bcast_S_S1024x16384 main_cst
  let main_v2 : IVec S1024x16384 1 := cmpf .olt main_v0 main_v1
  let main_c : IVec S_ 1 := constantI S_ 1 1#1
  let main_v3 : IVec S_ 1 := (fun x v => Host.reduce IntOp.andi x v reducesTo_S1024x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S1024x512 : Shape := ⟨2, ![1024, 512]⟩
abbrev S512 : Shape := ⟨1, ![512]⟩
abbrev S32x2x1024 : Shape := ⟨3, ![32, 2, 1024]⟩
abbrev S32 : Shape := ⟨1, ![32]⟩
abbrev S_ : Shape := ⟨0, ![]⟩
abbrev S1024 : Shape := ⟨1, ![1024]⟩
abbrev S1x1x1024 : Shape := ⟨3, ![1, 1, 1024]⟩
abbrev S1x2x1024 : Shape := ⟨3, ![1, 2, 1024]⟩
abbrev S1 : Shape := ⟨1, ![1]⟩
abbrev S2x1024 : Shape := ⟨2, ![2, 1024]⟩
abbrev S1x1024 : Shape := ⟨2, ![1, 1024]⟩
abbrev S1024x1 : Shape := ⟨2, ![1024, 1]⟩
abbrev S1x512 : Shape := ⟨2, ![1, 512]⟩

abbrev nBuf : Space → Nat
  | .hbm => 4
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S512, .f32⟩
  | .hbm, ⟨3, _⟩ => ⟨S1024x512, .bf16⟩
  | .local _ .vmem, ⟨0, _⟩ => ⟨S1024x512, .f32⟩
  | .local _ .vmem, ⟨1, _⟩ => ⟨S512, .f32⟩
  | .local _ .vmem, ⟨2, _⟩ => ⟨S512, .f32⟩
  | .local _ .vmem, ⟨3, _⟩ => ⟨S1024x512, .bf16⟩
  | .local _ .vmem, ⟨4, _⟩ => ⟨S32x2x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_dev32 (d0 : Dev nD) : Nat :=
  let c0_i32_299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_287 : BitVec 32 := 1#32
  let v420 : BitVec 32 := Scalar.addi v2 c1_i32_287
  let c32_i32_288 : BitVec 32 := 32#32
  let c0_i32_289 : BitVec 32 := 0#32
  let v421 : BitVec 1 := Scalar.cmpi .eq c32_i32_288 c0_i32_289
  let c1_i32_290 : BitVec 32 := 1#32
  let v422 : BitVec 32 := Scalar.select v421 c1_i32_290 c32_i32_288
  let v423 : BitVec 32 := Scalar.remsi v420 v422
  let c0_i32_292 : BitVec 32 := 0#32
  let v425 : BitVec 1 := Scalar.cmpi .slt v423 c0_i32_292
  let c0_i32_293 : BitVec 32 := 0#32
  let v426 : BitVec 1 := Scalar.cmpi .slt v422 c0_i32_293
  let v427 : BitVec 1 := Scalar.xori v425 v426
  let c0_i32_291 : BitVec 32 := 0#32
  let v424 : BitVec 1 := Scalar.cmpi .ne v423 c0_i32_291
  let v428 : BitVec 1 := Scalar.andi v427 v424
  let v429 : BitVec 32 := Scalar.addi v423 v422
  let v430 : BitVec 32 := Scalar.select v428 v429 v423
  let c1_i32_298 : BitVec 32 := 1#32
  let v431 : BitVec 32 := Scalar.muli v430 c1_i32_298
  let v432 : BitVec 32 := Scalar.addi c0_i32_299 v431
  v432.toNat
def k0_dev33 (d0 : Dev nD) : Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_304 : BitVec 32 := 2#32
  let v441 : BitVec 32 := Scalar.addi v2 c2_i32_304
  let c32_i32_305 : BitVec 32 := 32#32
  let c0_i32_306 : BitVec 32 := 0#32
  let v442 : BitVec 1 := Scalar.cmpi .eq c32_i32_305 c0_i32_306
  let c1_i32_307 : BitVec 32 := 1#32
  let v443 : BitVec 32 := Scalar.select v442 c1_i32_307 c32_i32_305
  let v444 : BitVec 32 := Scalar.remsi v441 v443
  let c0_i32_309 : BitVec 32 := 0#32
  let v446 : BitVec 1 := Scalar.cmpi .slt v444 c0_i32_309
  let c0_i32_310 : BitVec 32 := 0#32
  let v447 : BitVec 1 := Scalar.cmpi .slt v443 c0_i32_310
  let v448 : BitVec 1 := Scalar.xori v446 v447
  let c0_i32_308 : BitVec 32 := 0#32
  let v445 : BitVec 1 := Scalar.cmpi .ne v444 c0_i32_308
  let v449 : BitVec 1 := Scalar.andi v448 v445
  let v450 : BitVec 32 := Scalar.addi v444 v443
  let v451 : BitVec 32 := Scalar.select v449 v450 v444
  let c1_i32_315 : BitVec 32 := 1#32
  let v452 : BitVec 32 := Scalar.muli v451 c1_i32_315
  let v453 : BitVec 32 := Scalar.addi c0_i32_316 v452
  v453.toNat
def k0_dev34 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_321 : BitVec 32 := 3#32
  let v462 : BitVec 32 := Scalar.addi v2 c3_i32_321
  let c32_i32_322 : BitVec 32 := 32#32
  let c0_i32_323 : BitVec 32 := 0#32
  let v463 : BitVec 1 := Scalar.cmpi .eq c32_i32_322 c0_i32_323
  let c1_i32_324 : BitVec 32 := 1#32
  let v464 : BitVec 32 := Scalar.select v463 c1_i32_324 c32_i32_322
  let v465 : BitVec 32 := Scalar.remsi v462 v464
  let c0_i32_326 : BitVec 32 := 0#32
  let v467 : BitVec 1 := Scalar.cmpi .slt v465 c0_i32_326
  let c0_i32_327 : BitVec 32 := 0#32
  let v468 : BitVec 1 := Scalar.cmpi .slt v464 c0_i32_327
  let v469 : BitVec 1 := Scalar.xori v467 v468
  let c0_i32_325 : BitVec 32 := 0#32
  let v466 : BitVec 1 := Scalar.cmpi .ne v465 c0_i32_325
  let v470 : BitVec 1 := Scalar.andi v469 v466
  let v471 : BitVec 32 := Scalar.addi v465 v464
  let v472 : BitVec 32 := Scalar.select v470 v471 v465
  let c1_i32_332 : BitVec 32 := 1#32
  let v473 : BitVec 32 := Scalar.muli v472 c1_i32_332
  let v474 : BitVec 32 := Scalar.addi c0_i32_333 v473
  v474.toNat
def k0_dev35 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_338 : BitVec 32 := 4#32
  let v483 : BitVec 32 := Scalar.addi v2 c4_i32_338
  let c32_i32_339 : BitVec 32 := 32#32
  let c0_i32_340 : BitVec 32 := 0#32
  let v484 : BitVec 1 := Scalar.cmpi .eq c32_i32_339 c0_i32_340
  let c1_i32_341 : BitVec 32 := 1#32
  let v485 : BitVec 32 := Scalar.select v484 c1_i32_341 c32_i32_339
  let v486 : BitVec 32 := Scalar.remsi v483 v485
  let c0_i32_343 : BitVec 32 := 0#32
  let v488 : BitVec 1 := Scalar.cmpi .slt v486 c0_i32_343
  let c0_i32_344 : BitVec 32 := 0#32
  let v489 : BitVec 1 := Scalar.cmpi .slt v485 c0_i32_344
  let v490 : BitVec 1 := Scalar.xori v488 v489
  let c0_i32_342 : BitVec 32 := 0#32
  let v487 : BitVec 1 := Scalar.cmpi .ne v486 c0_i32_342
  let v491 : BitVec 1 := Scalar.andi v490 v487
  let v492 : BitVec 32 := Scalar.addi v486 v485
  let v493 : BitVec 32 := Scalar.select v491 v492 v486
  let c1_i32_349 : BitVec 32 := 1#32
  let v494 : BitVec 32 := Scalar.muli v493 c1_i32_349
  let v495 : BitVec 32 := Scalar.addi c0_i32_350 v494
  v495.toNat
def k0_dev36 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_355 : BitVec 32 := 5#32
  let v504 : BitVec 32 := Scalar.addi v2 c5_i32_355
  let c32_i32_356 : BitVec 32 := 32#32
  let c0_i32_357 : BitVec 32 := 0#32
  let v505 : BitVec 1 := Scalar.cmpi .eq c32_i32_356 c0_i32_357
  let c1_i32_358 : BitVec 32 := 1#32
  let v506 : BitVec 32 := Scalar.select v505 c1_i32_358 c32_i32_356
  let v507 : BitVec 32 := Scalar.remsi v504 v506
  let c0_i32_360 : BitVec 32 := 0#32
  let v509 : BitVec 1 := Scalar.cmpi .slt v507 c0_i32_360
  let c0_i32_361 : BitVec 32 := 0#32
  let v510 : BitVec 1 := Scalar.cmpi .slt v506 c0_i32_361
  let v511 : BitVec 1 := Scalar.xori v509 v510
  let c0_i32_359 : BitVec 32 := 0#32
  let v508 : BitVec 1 := Scalar.cmpi .ne v507 c0_i32_359
  let v512 : BitVec 1 := Scalar.andi v511 v508
  let v513 : BitVec 32 := Scalar.addi v507 v506
  let v514 : BitVec 32 := Scalar.select v512 v513 v507
  let c1_i32_366 : BitVec 32 := 1#32
  let v515 : BitVec 32 := Scalar.muli v514 c1_i32_366
  let v516 : BitVec 32 := Scalar.addi c0_i32_367 v515
  v516.toNat
def k0_dev37 (d0 : Dev nD) : Nat :=
  let c0_i32_384 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_372 : BitVec 32 := 6#32
  let v525 : BitVec 32 := Scalar.addi v2 c6_i32_372
  let c32_i32_373 : BitVec 32 := 32#32
  let c0_i32_374 : BitVec 32 := 0#32
  let v526 : BitVec 1 := Scalar.cmpi .eq c32_i32_373 c0_i32_374
  let c1_i32_375 : BitVec 32 := 1#32
  let v527 : BitVec 32 := Scalar.select v526 c1_i32_375 c32_i32_373
  let v528 : BitVec 32 := Scalar.remsi v525 v527
  let c0_i32_377 : BitVec 32 := 0#32
  let v530 : BitVec 1 := Scalar.cmpi .slt v528 c0_i32_377
  let c0_i32_378 : BitVec 32 := 0#32
  let v531 : BitVec 1 := Scalar.cmpi .slt v527 c0_i32_378
  let v532 : BitVec 1 := Scalar.xori v530 v531
  let c0_i32_376 : BitVec 32 := 0#32
  let v529 : BitVec 1 := Scalar.cmpi .ne v528 c0_i32_376
  let v533 : BitVec 1 := Scalar.andi v532 v529
  let v534 : BitVec 32 := Scalar.addi v528 v527
  let v535 : BitVec 32 := Scalar.select v533 v534 v528
  let c1_i32_383 : BitVec 32 := 1#32
  let v536 : BitVec 32 := Scalar.muli v535 c1_i32_383
  let v537 : BitVec 32 := Scalar.addi c0_i32_384 v536
  v537.toNat
def k0_dev38 (d0 : Dev nD) : Nat :=
  let c0_i32_401 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_389 : BitVec 32 := 7#32
  let v546 : BitVec 32 := Scalar.addi v2 c7_i32_389
  let c32_i32_390 : BitVec 32 := 32#32
  let c0_i32_391 : BitVec 32 := 0#32
  let v547 : BitVec 1 := Scalar.cmpi .eq c32_i32_390 c0_i32_391
  let c1_i32_392 : BitVec 32 := 1#32
  let v548 : BitVec 32 := Scalar.select v547 c1_i32_392 c32_i32_390
  let v549 : BitVec 32 := Scalar.remsi v546 v548
  let c0_i32_394 : BitVec 32 := 0#32
  let v551 : BitVec 1 := Scalar.cmpi .slt v549 c0_i32_394
  let c0_i32_395 : BitVec 32 := 0#32
  let v552 : BitVec 1 := Scalar.cmpi .slt v548 c0_i32_395
  let v553 : BitVec 1 := Scalar.xori v551 v552
  let c0_i32_393 : BitVec 32 := 0#32
  let v550 : BitVec 1 := Scalar.cmpi .ne v549 c0_i32_393
  let v554 : BitVec 1 := Scalar.andi v553 v550
  let v555 : BitVec 32 := Scalar.addi v549 v548
  let v556 : BitVec 32 := Scalar.select v554 v555 v549
  let c1_i32_400 : BitVec 32 := 1#32
  let v557 : BitVec 32 := Scalar.muli v556 c1_i32_400
  let v558 : BitVec 32 := Scalar.addi c0_i32_401 v557
  v558.toNat
def k0_dev39 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_406 : BitVec 32 := 8#32
  let v567 : BitVec 32 := Scalar.addi v2 c8_i32_406
  let c32_i32_407 : BitVec 32 := 32#32
  let c0_i32_408 : BitVec 32 := 0#32
  let v568 : BitVec 1 := Scalar.cmpi .eq c32_i32_407 c0_i32_408
  let c1_i32_409 : BitVec 32 := 1#32
  let v569 : BitVec 32 := Scalar.select v568 c1_i32_409 c32_i32_407
  let v570 : BitVec 32 := Scalar.remsi v567 v569
  let c0_i32_411 : BitVec 32 := 0#32
  let v572 : BitVec 1 := Scalar.cmpi .slt v570 c0_i32_411
  let c0_i32_412 : BitVec 32 := 0#32
  let v573 : BitVec 1 := Scalar.cmpi .slt v569 c0_i32_412
  let v574 : BitVec 1 := Scalar.xori v572 v573
  let c0_i32_410 : BitVec 32 := 0#32
  let v571 : BitVec 1 := Scalar.cmpi .ne v570 c0_i32_410
  let v575 : BitVec 1 := Scalar.andi v574 v571
  let v576 : BitVec 32 := Scalar.addi v570 v569
  let v577 : BitVec 32 := Scalar.select v575 v576 v570
  let c1_i32_417 : BitVec 32 := 1#32
  let v578 : BitVec 32 := Scalar.muli v577 c1_i32_417
  let v579 : BitVec 32 := Scalar.addi c0_i32_418 v578
  v579.toNat
def k0_dev40 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_423 : BitVec 32 := 9#32
  let v588 : BitVec 32 := Scalar.addi v2 c9_i32_423
  let c32_i32_424 : BitVec 32 := 32#32
  let c0_i32_425 : BitVec 32 := 0#32
  let v589 : BitVec 1 := Scalar.cmpi .eq c32_i32_424 c0_i32_425
  let c1_i32_426 : BitVec 32 := 1#32
  let v590 : BitVec 32 := Scalar.select v589 c1_i32_426 c32_i32_424
  let v591 : BitVec 32 := Scalar.remsi v588 v590
  let c0_i32_428 : BitVec 32 := 0#32
  let v593 : BitVec 1 := Scalar.cmpi .slt v591 c0_i32_428
  let c0_i32_429 : BitVec 32 := 0#32
  let v594 : BitVec 1 := Scalar.cmpi .slt v590 c0_i32_429
  let v595 : BitVec 1 := Scalar.xori v593 v594
  let c0_i32_427 : BitVec 32 := 0#32
  let v592 : BitVec 1 := Scalar.cmpi .ne v591 c0_i32_427
  let v596 : BitVec 1 := Scalar.andi v595 v592
  let v597 : BitVec 32 := Scalar.addi v591 v590
  let v598 : BitVec 32 := Scalar.select v596 v597 v591
  let c1_i32_434 : BitVec 32 := 1#32
  let v599 : BitVec 32 := Scalar.muli v598 c1_i32_434
  let v600 : BitVec 32 := Scalar.addi c0_i32_435 v599
  v600.toNat
def k0_dev41 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_440 : BitVec 32 := 10#32
  let v609 : BitVec 32 := Scalar.addi v2 c10_i32_440
  let c32_i32_441 : BitVec 32 := 32#32
  let c0_i32_442 : BitVec 32 := 0#32
  let v610 : BitVec 1 := Scalar.cmpi .eq c32_i32_441 c0_i32_442
  let c1_i32_443 : BitVec 32 := 1#32
  let v611 : BitVec 32 := Scalar.select v610 c1_i32_443 c32_i32_441
  let v612 : BitVec 32 := Scalar.remsi v609 v611
  let c0_i32_445 : BitVec 32 := 0#32
  let v614 : BitVec 1 := Scalar.cmpi .slt v612 c0_i32_445
  let c0_i32_446 : BitVec 32 := 0#32
  let v615 : BitVec 1 := Scalar.cmpi .slt v611 c0_i32_446
  let v616 : BitVec 1 := Scalar.xori v614 v615
  let c0_i32_444 : BitVec 32 := 0#32
  let v613 : BitVec 1 := Scalar.cmpi .ne v612 c0_i32_444
  let v617 : BitVec 1 := Scalar.andi v616 v613
  let v618 : BitVec 32 := Scalar.addi v612 v611
  let v619 : BitVec 32 := Scalar.select v617 v618 v612
  let c1_i32_451 : BitVec 32 := 1#32
  let v620 : BitVec 32 := Scalar.muli v619 c1_i32_451
  let v621 : BitVec 32 := Scalar.addi c0_i32_452 v620
  v621.toNat
def k0_dev42 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_457 : BitVec 32 := 11#32
  let v630 : BitVec 32 := Scalar.addi v2 c11_i32_457
  let c32_i32_458 : BitVec 32 := 32#32
  let c0_i32_459 : BitVec 32 := 0#32
  let v631 : BitVec 1 := Scalar.cmpi .eq c32_i32_458 c0_i32_459
  let c1_i32_460 : BitVec 32 := 1#32
  let v632 : BitVec 32 := Scalar.select v631 c1_i32_460 c32_i32_458
  let v633 : BitVec 32 := Scalar.remsi v630 v632
  let c0_i32_462 : BitVec 32 := 0#32
  let v635 : BitVec 1 := Scalar.cmpi .slt v633 c0_i32_462
  let c0_i32_463 : BitVec 32 := 0#32
  let v636 : BitVec 1 := Scalar.cmpi .slt v632 c0_i32_463
  let v637 : BitVec 1 := Scalar.xori v635 v636
  let c0_i32_461 : BitVec 32 := 0#32
  let v634 : BitVec 1 := Scalar.cmpi .ne v633 c0_i32_461
  let v638 : BitVec 1 := Scalar.andi v637 v634
  let v639 : BitVec 32 := Scalar.addi v633 v632
  let v640 : BitVec 32 := Scalar.select v638 v639 v633
  let c1_i32_468 : BitVec 32 := 1#32
  let v641 : BitVec 32 := Scalar.muli v640 c1_i32_468
  let v642 : BitVec 32 := Scalar.addi c0_i32_469 v641
  v642.toNat
def k0_dev43 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_474 : BitVec 32 := 12#32
  let v651 : BitVec 32 := Scalar.addi v2 c12_i32_474
  let c32_i32_475 : BitVec 32 := 32#32
  let c0_i32_476 : BitVec 32 := 0#32
  let v652 : BitVec 1 := Scalar.cmpi .eq c32_i32_475 c0_i32_476
  let c1_i32_477 : BitVec 32 := 1#32
  let v653 : BitVec 32 := Scalar.select v652 c1_i32_477 c32_i32_475
  let v654 : BitVec 32 := Scalar.remsi v651 v653
  let c0_i32_479 : BitVec 32 := 0#32
  let v656 : BitVec 1 := Scalar.cmpi .slt v654 c0_i32_479
  let c0_i32_480 : BitVec 32 := 0#32
  let v657 : BitVec 1 := Scalar.cmpi .slt v653 c0_i32_480
  let v658 : BitVec 1 := Scalar.xori v656 v657
  let c0_i32_478 : BitVec 32 := 0#32
  let v655 : BitVec 1 := Scalar.cmpi .ne v654 c0_i32_478
  let v659 : BitVec 1 := Scalar.andi v658 v655
  let v660 : BitVec 32 := Scalar.addi v654 v653
  let v661 : BitVec 32 := Scalar.select v659 v660 v654
  let c1_i32_485 : BitVec 32 := 1#32
  let v662 : BitVec 32 := Scalar.muli v661 c1_i32_485
  let v663 : BitVec 32 := Scalar.addi c0_i32_486 v662
  v663.toNat
def k0_dev44 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_491 : BitVec 32 := 13#32
  let v672 : BitVec 32 := Scalar.addi v2 c13_i32_491
  let c32_i32_492 : BitVec 32 := 32#32
  let c0_i32_493 : BitVec 32 := 0#32
  let v673 : BitVec 1 := Scalar.cmpi .eq c32_i32_492 c0_i32_493
  let c1_i32_494 : BitVec 32 := 1#32
  let v674 : BitVec 32 := Scalar.select v673 c1_i32_494 c32_i32_492
  let v675 : BitVec 32 := Scalar.remsi v672 v674
  let c0_i32_496 : BitVec 32 := 0#32
  let v677 : BitVec 1 := Scalar.cmpi .slt v675 c0_i32_496
  let c0_i32_497 : BitVec 32 := 0#32
  let v678 : BitVec 1 := Scalar.cmpi .slt v674 c0_i32_497
  let v679 : BitVec 1 := Scalar.xori v677 v678
  let c0_i32_495 : BitVec 32 := 0#32
  let v676 : BitVec 1 := Scalar.cmpi .ne v675 c0_i32_495
  let v680 : BitVec 1 := Scalar.andi v679 v676
  let v681 : BitVec 32 := Scalar.addi v675 v674
  let v682 : BitVec 32 := Scalar.select v680 v681 v675
  let c1_i32_502 : BitVec 32 := 1#32
  let v683 : BitVec 32 := Scalar.muli v682 c1_i32_502
  let v684 : BitVec 32 := Scalar.addi c0_i32_503 v683
  v684.toNat
def k0_dev45 (d0 : Dev nD) : Nat :=
  let c0_i32_520 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_508 : BitVec 32 := 14#32
  let v693 : BitVec 32 := Scalar.addi v2 c14_i32_508
  let c32_i32_509 : BitVec 32 := 32#32
  let c0_i32_510 : BitVec 32 := 0#32
  let v694 : BitVec 1 := Scalar.cmpi .eq c32_i32_509 c0_i32_510
  let c1_i32_511 : BitVec 32 := 1#32
  let v695 : BitVec 32 := Scalar.select v694 c1_i32_511 c32_i32_509
  let v696 : BitVec 32 := Scalar.remsi v693 v695
  let c0_i32_513 : BitVec 32 := 0#32
  let v698 : BitVec 1 := Scalar.cmpi .slt v696 c0_i32_513
  let c0_i32_514 : BitVec 32 := 0#32
  let v699 : BitVec 1 := Scalar.cmpi .slt v695 c0_i32_514
  let v700 : BitVec 1 := Scalar.xori v698 v699
  let c0_i32_512 : BitVec 32 := 0#32
  let v697 : BitVec 1 := Scalar.cmpi .ne v696 c0_i32_512
  let v701 : BitVec 1 := Scalar.andi v700 v697
  let v702 : BitVec 32 := Scalar.addi v696 v695
  let v703 : BitVec 32 := Scalar.select v701 v702 v696
  let c1_i32_519 : BitVec 32 := 1#32
  let v704 : BitVec 32 := Scalar.muli v703 c1_i32_519
  let v705 : BitVec 32 := Scalar.addi c0_i32_520 v704
  v705.toNat
def k0_dev46 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_525 : BitVec 32 := 15#32
  let v714 : BitVec 32 := Scalar.addi v2 c15_i32_525
  let c32_i32_526 : BitVec 32 := 32#32
  let c0_i32_527 : BitVec 32 := 0#32
  let v715 : BitVec 1 := Scalar.cmpi .eq c32_i32_526 c0_i32_527
  let c1_i32_528 : BitVec 32 := 1#32
  let v716 : BitVec 32 := Scalar.select v715 c1_i32_528 c32_i32_526
  let v717 : BitVec 32 := Scalar.remsi v714 v716
  let c0_i32_530 : BitVec 32 := 0#32
  let v719 : BitVec 1 := Scalar.cmpi .slt v717 c0_i32_530
  let c0_i32_531 : BitVec 32 := 0#32
  let v720 : BitVec 1 := Scalar.cmpi .slt v716 c0_i32_531
  let v721 : BitVec 1 := Scalar.xori v719 v720
  let c0_i32_529 : BitVec 32 := 0#32
  let v718 : BitVec 1 := Scalar.cmpi .ne v717 c0_i32_529
  let v722 : BitVec 1 := Scalar.andi v721 v718
  let v723 : BitVec 32 := Scalar.addi v717 v716
  let v724 : BitVec 32 := Scalar.select v722 v723 v717
  let c1_i32_536 : BitVec 32 := 1#32
  let v725 : BitVec 32 := Scalar.muli v724 c1_i32_536
  let v726 : BitVec 32 := Scalar.addi c0_i32_537 v725
  v726.toNat
def k0_dev47 (d0 : Dev nD) : Nat :=
  let c0_i32_554 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_542 : BitVec 32 := 16#32
  let v735 : BitVec 32 := Scalar.addi v2 c16_i32_542
  let c32_i32_543 : BitVec 32 := 32#32
  let c0_i32_544 : BitVec 32 := 0#32
  let v736 : BitVec 1 := Scalar.cmpi .eq c32_i32_543 c0_i32_544
  let c1_i32_545 : BitVec 32 := 1#32
  let v737 : BitVec 32 := Scalar.select v736 c1_i32_545 c32_i32_543
  let v738 : BitVec 32 := Scalar.remsi v735 v737
  let c0_i32_547 : BitVec 32 := 0#32
  let v740 : BitVec 1 := Scalar.cmpi .slt v738 c0_i32_547
  let c0_i32_548 : BitVec 32 := 0#32
  let v741 : BitVec 1 := Scalar.cmpi .slt v737 c0_i32_548
  let v742 : BitVec 1 := Scalar.xori v740 v741
  let c0_i32_546 : BitVec 32 := 0#32
  let v739 : BitVec 1 := Scalar.cmpi .ne v738 c0_i32_546
  let v743 : BitVec 1 := Scalar.andi v742 v739
  let v744 : BitVec 32 := Scalar.addi v738 v737
  let v745 : BitVec 32 := Scalar.select v743 v744 v738
  let c1_i32_553 : BitVec 32 := 1#32
  let v746 : BitVec 32 := Scalar.muli v745 c1_i32_553
  let v747 : BitVec 32 := Scalar.addi c0_i32_554 v746
  v747.toNat
def k0_dev48 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_559 : BitVec 32 := 17#32
  let v756 : BitVec 32 := Scalar.addi v2 c17_i32_559
  let c32_i32_560 : BitVec 32 := 32#32
  let c0_i32_561 : BitVec 32 := 0#32
  let v757 : BitVec 1 := Scalar.cmpi .eq c32_i32_560 c0_i32_561
  let c1_i32_562 : BitVec 32 := 1#32
  let v758 : BitVec 32 := Scalar.select v757 c1_i32_562 c32_i32_560
  let v759 : BitVec 32 := Scalar.remsi v756 v758
  let c0_i32_564 : BitVec 32 := 0#32
  let v761 : BitVec 1 := Scalar.cmpi .slt v759 c0_i32_564
  let c0_i32_565 : BitVec 32 := 0#32
  let v762 : BitVec 1 := Scalar.cmpi .slt v758 c0_i32_565
  let v763 : BitVec 1 := Scalar.xori v761 v762
  let c0_i32_563 : BitVec 32 := 0#32
  let v760 : BitVec 1 := Scalar.cmpi .ne v759 c0_i32_563
  let v764 : BitVec 1 := Scalar.andi v763 v760
  let v765 : BitVec 32 := Scalar.addi v759 v758
  let v766 : BitVec 32 := Scalar.select v764 v765 v759
  let c1_i32_570 : BitVec 32 := 1#32
  let v767 : BitVec 32 := Scalar.muli v766 c1_i32_570
  let v768 : BitVec 32 := Scalar.addi c0_i32_571 v767
  v768.toNat
def k0_dev49 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_576 : BitVec 32 := 18#32
  let v777 : BitVec 32 := Scalar.addi v2 c18_i32_576
  let c32_i32_577 : BitVec 32 := 32#32
  let c0_i32_578 : BitVec 32 := 0#32
  let v778 : BitVec 1 := Scalar.cmpi .eq c32_i32_577 c0_i32_578
  let c1_i32_579 : BitVec 32 := 1#32
  let v779 : BitVec 32 := Scalar.select v778 c1_i32_579 c32_i32_577
  let v780 : BitVec 32 := Scalar.remsi v777 v779
  let c0_i32_581 : BitVec 32 := 0#32
  let v782 : BitVec 1 := Scalar.cmpi .slt v780 c0_i32_581
  let c0_i32_582 : BitVec 32 := 0#32
  let v783 : BitVec 1 := Scalar.cmpi .slt v779 c0_i32_582
  let v784 : BitVec 1 := Scalar.xori v782 v783
  let c0_i32_580 : BitVec 32 := 0#32
  let v781 : BitVec 1 := Scalar.cmpi .ne v780 c0_i32_580
  let v785 : BitVec 1 := Scalar.andi v784 v781
  let v786 : BitVec 32 := Scalar.addi v780 v779
  let v787 : BitVec 32 := Scalar.select v785 v786 v780
  let c1_i32_587 : BitVec 32 := 1#32
  let v788 : BitVec 32 := Scalar.muli v787 c1_i32_587
  let v789 : BitVec 32 := Scalar.addi c0_i32_588 v788
  v789.toNat
def k0_dev50 (d0 : Dev nD) : Nat :=
  let c0_i32_605 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_593 : BitVec 32 := 19#32
  let v798 : BitVec 32 := Scalar.addi v2 c19_i32_593
  let c32_i32_594 : BitVec 32 := 32#32
  let c0_i32_595 : BitVec 32 := 0#32
  let v799 : BitVec 1 := Scalar.cmpi .eq c32_i32_594 c0_i32_595
  let c1_i32_596 : BitVec 32 := 1#32
  let v800 : BitVec 32 := Scalar.select v799 c1_i32_596 c32_i32_594
  let v801 : BitVec 32 := Scalar.remsi v798 v800
  let c0_i32_598 : BitVec 32 := 0#32
  let v803 : BitVec 1 := Scalar.cmpi .slt v801 c0_i32_598
  let c0_i32_599 : BitVec 32 := 0#32
  let v804 : BitVec 1 := Scalar.cmpi .slt v800 c0_i32_599
  let v805 : BitVec 1 := Scalar.xori v803 v804
  let c0_i32_597 : BitVec 32 := 0#32
  let v802 : BitVec 1 := Scalar.cmpi .ne v801 c0_i32_597
  let v806 : BitVec 1 := Scalar.andi v805 v802
  let v807 : BitVec 32 := Scalar.addi v801 v800
  let v808 : BitVec 32 := Scalar.select v806 v807 v801
  let c1_i32_604 : BitVec 32 := 1#32
  let v809 : BitVec 32 := Scalar.muli v808 c1_i32_604
  let v810 : BitVec 32 := Scalar.addi c0_i32_605 v809
  v810.toNat
def k0_dev51 (d0 : Dev nD) : Nat :=
  let c0_i32_622 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_610 : BitVec 32 := 20#32
  let v819 : BitVec 32 := Scalar.addi v2 c20_i32_610
  let c32_i32_611 : BitVec 32 := 32#32
  let c0_i32_612 : BitVec 32 := 0#32
  let v820 : BitVec 1 := Scalar.cmpi .eq c32_i32_611 c0_i32_612
  let c1_i32_613 : BitVec 32 := 1#32
  let v821 : BitVec 32 := Scalar.select v820 c1_i32_613 c32_i32_611
  let v822 : BitVec 32 := Scalar.remsi v819 v821
  let c0_i32_615 : BitVec 32 := 0#32
  let v824 : BitVec 1 := Scalar.cmpi .slt v822 c0_i32_615
  let c0_i32_616 : BitVec 32 := 0#32
  let v825 : BitVec 1 := Scalar.cmpi .slt v821 c0_i32_616
  let v826 : BitVec 1 := Scalar.xori v824 v825
  let c0_i32_614 : BitVec 32 := 0#32
  let v823 : BitVec 1 := Scalar.cmpi .ne v822 c0_i32_614
  let v827 : BitVec 1 := Scalar.andi v826 v823
  let v828 : BitVec 32 := Scalar.addi v822 v821
  let v829 : BitVec 32 := Scalar.select v827 v828 v822
  let c1_i32_621 : BitVec 32 := 1#32
  let v830 : BitVec 32 := Scalar.muli v829 c1_i32_621
  let v831 : BitVec 32 := Scalar.addi c0_i32_622 v830
  v831.toNat
def k0_dev52 (d0 : Dev nD) : Nat :=
  let c0_i32_639 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_627 : BitVec 32 := 21#32
  let v840 : BitVec 32 := Scalar.addi v2 c21_i32_627
  let c32_i32_628 : BitVec 32 := 32#32
  let c0_i32_629 : BitVec 32 := 0#32
  let v841 : BitVec 1 := Scalar.cmpi .eq c32_i32_628 c0_i32_629
  let c1_i32_630 : BitVec 32 := 1#32
  let v842 : BitVec 32 := Scalar.select v841 c1_i32_630 c32_i32_628
  let v843 : BitVec 32 := Scalar.remsi v840 v842
  let c0_i32_632 : BitVec 32 := 0#32
  let v845 : BitVec 1 := Scalar.cmpi .slt v843 c0_i32_632
  let c0_i32_633 : BitVec 32 := 0#32
  let v846 : BitVec 1 := Scalar.cmpi .slt v842 c0_i32_633
  let v847 : BitVec 1 := Scalar.xori v845 v846
  let c0_i32_631 : BitVec 32 := 0#32
  let v844 : BitVec 1 := Scalar.cmpi .ne v843 c0_i32_631
  let v848 : BitVec 1 := Scalar.andi v847 v844
  let v849 : BitVec 32 := Scalar.addi v843 v842
  let v850 : BitVec 32 := Scalar.select v848 v849 v843
  let c1_i32_638 : BitVec 32 := 1#32
  let v851 : BitVec 32 := Scalar.muli v850 c1_i32_638
  let v852 : BitVec 32 := Scalar.addi c0_i32_639 v851
  v852.toNat
def k0_dev53 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_644 : BitVec 32 := 22#32
  let v861 : BitVec 32 := Scalar.addi v2 c22_i32_644
  let c32_i32_645 : BitVec 32 := 32#32
  let c0_i32_646 : BitVec 32 := 0#32
  let v862 : BitVec 1 := Scalar.cmpi .eq c32_i32_645 c0_i32_646
  let c1_i32_647 : BitVec 32 := 1#32
  let v863 : BitVec 32 := Scalar.select v862 c1_i32_647 c32_i32_645
  let v864 : BitVec 32 := Scalar.remsi v861 v863
  let c0_i32_649 : BitVec 32 := 0#32
  let v866 : BitVec 1 := Scalar.cmpi .slt v864 c0_i32_649
  let c0_i32_650 : BitVec 32 := 0#32
  let v867 : BitVec 1 := Scalar.cmpi .slt v863 c0_i32_650
  let v868 : BitVec 1 := Scalar.xori v866 v867
  let c0_i32_648 : BitVec 32 := 0#32
  let v865 : BitVec 1 := Scalar.cmpi .ne v864 c0_i32_648
  let v869 : BitVec 1 := Scalar.andi v868 v865
  let v870 : BitVec 32 := Scalar.addi v864 v863
  let v871 : BitVec 32 := Scalar.select v869 v870 v864
  let c1_i32_655 : BitVec 32 := 1#32
  let v872 : BitVec 32 := Scalar.muli v871 c1_i32_655
  let v873 : BitVec 32 := Scalar.addi c0_i32_656 v872
  v873.toNat
def k0_dev54 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_661 : BitVec 32 := 23#32
  let v882 : BitVec 32 := Scalar.addi v2 c23_i32_661
  let c32_i32_662 : BitVec 32 := 32#32
  let c0_i32_663 : BitVec 32 := 0#32
  let v883 : BitVec 1 := Scalar.cmpi .eq c32_i32_662 c0_i32_663
  let c1_i32_664 : BitVec 32 := 1#32
  let v884 : BitVec 32 := Scalar.select v883 c1_i32_664 c32_i32_662
  let v885 : BitVec 32 := Scalar.remsi v882 v884
  let c0_i32_666 : BitVec 32 := 0#32
  let v887 : BitVec 1 := Scalar.cmpi .slt v885 c0_i32_666
  let c0_i32_667 : BitVec 32 := 0#32
  let v888 : BitVec 1 := Scalar.cmpi .slt v884 c0_i32_667
  let v889 : BitVec 1 := Scalar.xori v887 v888
  let c0_i32_665 : BitVec 32 := 0#32
  let v886 : BitVec 1 := Scalar.cmpi .ne v885 c0_i32_665
  let v890 : BitVec 1 := Scalar.andi v889 v886
  let v891 : BitVec 32 := Scalar.addi v885 v884
  let v892 : BitVec 32 := Scalar.select v890 v891 v885
  let c1_i32_672 : BitVec 32 := 1#32
  let v893 : BitVec 32 := Scalar.muli v892 c1_i32_672
  let v894 : BitVec 32 := Scalar.addi c0_i32_673 v893
  v894.toNat
def k0_dev55 (d0 : Dev nD) : Nat :=
  let c0_i32_690 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_678 : BitVec 32 := 24#32
  let v903 : BitVec 32 := Scalar.addi v2 c24_i32_678
  let c32_i32_679 : BitVec 32 := 32#32
  let c0_i32_680 : BitVec 32 := 0#32
  let v904 : BitVec 1 := Scalar.cmpi .eq c32_i32_679 c0_i32_680
  let c1_i32_681 : BitVec 32 := 1#32
  let v905 : BitVec 32 := Scalar.select v904 c1_i32_681 c32_i32_679
  let v906 : BitVec 32 := Scalar.remsi v903 v905
  let c0_i32_683 : BitVec 32 := 0#32
  let v908 : BitVec 1 := Scalar.cmpi .slt v906 c0_i32_683
  let c0_i32_684 : BitVec 32 := 0#32
  let v909 : BitVec 1 := Scalar.cmpi .slt v905 c0_i32_684
  let v910 : BitVec 1 := Scalar.xori v908 v909
  let c0_i32_682 : BitVec 32 := 0#32
  let v907 : BitVec 1 := Scalar.cmpi .ne v906 c0_i32_682
  let v911 : BitVec 1 := Scalar.andi v910 v907
  let v912 : BitVec 32 := Scalar.addi v906 v905
  let v913 : BitVec 32 := Scalar.select v911 v912 v906
  let c1_i32_689 : BitVec 32 := 1#32
  let v914 : BitVec 32 := Scalar.muli v913 c1_i32_689
  let v915 : BitVec 32 := Scalar.addi c0_i32_690 v914
  v915.toNat
def k0_dev56 (d0 : Dev nD) : Nat :=
  let c0_i32_707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_695 : BitVec 32 := 25#32
  let v924 : BitVec 32 := Scalar.addi v2 c25_i32_695
  let c32_i32_696 : BitVec 32 := 32#32
  let c0_i32_697 : BitVec 32 := 0#32
  let v925 : BitVec 1 := Scalar.cmpi .eq c32_i32_696 c0_i32_697
  let c1_i32_698 : BitVec 32 := 1#32
  let v926 : BitVec 32 := Scalar.select v925 c1_i32_698 c32_i32_696
  let v927 : BitVec 32 := Scalar.remsi v924 v926
  let c0_i32_700 : BitVec 32 := 0#32
  let v929 : BitVec 1 := Scalar.cmpi .slt v927 c0_i32_700
  let c0_i32_701 : BitVec 32 := 0#32
  let v930 : BitVec 1 := Scalar.cmpi .slt v926 c0_i32_701
  let v931 : BitVec 1 := Scalar.xori v929 v930
  let c0_i32_699 : BitVec 32 := 0#32
  let v928 : BitVec 1 := Scalar.cmpi .ne v927 c0_i32_699
  let v932 : BitVec 1 := Scalar.andi v931 v928
  let v933 : BitVec 32 := Scalar.addi v927 v926
  let v934 : BitVec 32 := Scalar.select v932 v933 v927
  let c1_i32_706 : BitVec 32 := 1#32
  let v935 : BitVec 32 := Scalar.muli v934 c1_i32_706
  let v936 : BitVec 32 := Scalar.addi c0_i32_707 v935
  v936.toNat
def k0_dev57 (d0 : Dev nD) : Nat :=
  let c0_i32_724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_712 : BitVec 32 := 26#32
  let v945 : BitVec 32 := Scalar.addi v2 c26_i32_712
  let c32_i32_713 : BitVec 32 := 32#32
  let c0_i32_714 : BitVec 32 := 0#32
  let v946 : BitVec 1 := Scalar.cmpi .eq c32_i32_713 c0_i32_714
  let c1_i32_715 : BitVec 32 := 1#32
  let v947 : BitVec 32 := Scalar.select v946 c1_i32_715 c32_i32_713
  let v948 : BitVec 32 := Scalar.remsi v945 v947
  let c0_i32_717 : BitVec 32 := 0#32
  let v950 : BitVec 1 := Scalar.cmpi .slt v948 c0_i32_717
  let c0_i32_718 : BitVec 32 := 0#32
  let v951 : BitVec 1 := Scalar.cmpi .slt v947 c0_i32_718
  let v952 : BitVec 1 := Scalar.xori v950 v951
  let c0_i32_716 : BitVec 32 := 0#32
  let v949 : BitVec 1 := Scalar.cmpi .ne v948 c0_i32_716
  let v953 : BitVec 1 := Scalar.andi v952 v949
  let v954 : BitVec 32 := Scalar.addi v948 v947
  let v955 : BitVec 32 := Scalar.select v953 v954 v948
  let c1_i32_723 : BitVec 32 := 1#32
  let v956 : BitVec 32 := Scalar.muli v955 c1_i32_723
  let v957 : BitVec 32 := Scalar.addi c0_i32_724 v956
  v957.toNat
def k0_dev58 (d0 : Dev nD) : Nat :=
  let c0_i32_741 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_729 : BitVec 32 := 27#32
  let v966 : BitVec 32 := Scalar.addi v2 c27_i32_729
  let c32_i32_730 : BitVec 32 := 32#32
  let c0_i32_731 : BitVec 32 := 0#32
  let v967 : BitVec 1 := Scalar.cmpi .eq c32_i32_730 c0_i32_731
  let c1_i32_732 : BitVec 32 := 1#32
  let v968 : BitVec 32 := Scalar.select v967 c1_i32_732 c32_i32_730
  let v969 : BitVec 32 := Scalar.remsi v966 v968
  let c0_i32_734 : BitVec 32 := 0#32
  let v971 : BitVec 1 := Scalar.cmpi .slt v969 c0_i32_734
  let c0_i32_735 : BitVec 32 := 0#32
  let v972 : BitVec 1 := Scalar.cmpi .slt v968 c0_i32_735
  let v973 : BitVec 1 := Scalar.xori v971 v972
  let c0_i32_733 : BitVec 32 := 0#32
  let v970 : BitVec 1 := Scalar.cmpi .ne v969 c0_i32_733
  let v974 : BitVec 1 := Scalar.andi v973 v970
  let v975 : BitVec 32 := Scalar.addi v969 v968
  let v976 : BitVec 32 := Scalar.select v974 v975 v969
  let c1_i32_740 : BitVec 32 := 1#32
  let v977 : BitVec 32 := Scalar.muli v976 c1_i32_740
  let v978 : BitVec 32 := Scalar.addi c0_i32_741 v977
  v978.toNat
def k0_dev59 (d0 : Dev nD) : Nat :=
  let c0_i32_758 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_746 : BitVec 32 := 28#32
  let v987 : BitVec 32 := Scalar.addi v2 c28_i32_746
  let c32_i32_747 : BitVec 32 := 32#32
  let c0_i32_748 : BitVec 32 := 0#32
  let v988 : BitVec 1 := Scalar.cmpi .eq c32_i32_747 c0_i32_748
  let c1_i32_749 : BitVec 32 := 1#32
  let v989 : BitVec 32 := Scalar.select v988 c1_i32_749 c32_i32_747
  let v990 : BitVec 32 := Scalar.remsi v987 v989
  let c0_i32_751 : BitVec 32 := 0#32
  let v992 : BitVec 1 := Scalar.cmpi .slt v990 c0_i32_751
  let c0_i32_752 : BitVec 32 := 0#32
  let v993 : BitVec 1 := Scalar.cmpi .slt v989 c0_i32_752
  let v994 : BitVec 1 := Scalar.xori v992 v993
  let c0_i32_750 : BitVec 32 := 0#32
  let v991 : BitVec 1 := Scalar.cmpi .ne v990 c0_i32_750
  let v995 : BitVec 1 := Scalar.andi v994 v991
  let v996 : BitVec 32 := Scalar.addi v990 v989
  let v997 : BitVec 32 := Scalar.select v995 v996 v990
  let c1_i32_757 : BitVec 32 := 1#32
  let v998 : BitVec 32 := Scalar.muli v997 c1_i32_757
  let v999 : BitVec 32 := Scalar.addi c0_i32_758 v998
  v999.toNat
def k0_dev60 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_763 : BitVec 32 := 29#32
  let v1008 : BitVec 32 := Scalar.addi v2 c29_i32_763
  let c32_i32_764 : BitVec 32 := 32#32
  let c0_i32_765 : BitVec 32 := 0#32
  let v1009 : BitVec 1 := Scalar.cmpi .eq c32_i32_764 c0_i32_765
  let c1_i32_766 : BitVec 32 := 1#32
  let v1010 : BitVec 32 := Scalar.select v1009 c1_i32_766 c32_i32_764
  let v1011 : BitVec 32 := Scalar.remsi v1008 v1010
  let c0_i32_768 : BitVec 32 := 0#32
  let v1013 : BitVec 1 := Scalar.cmpi .slt v1011 c0_i32_768
  let c0_i32_769 : BitVec 32 := 0#32
  let v1014 : BitVec 1 := Scalar.cmpi .slt v1010 c0_i32_769
  let v1015 : BitVec 1 := Scalar.xori v1013 v1014
  let c0_i32_767 : BitVec 32 := 0#32
  let v1012 : BitVec 1 := Scalar.cmpi .ne v1011 c0_i32_767
  let v1016 : BitVec 1 := Scalar.andi v1015 v1012
  let v1017 : BitVec 32 := Scalar.addi v1011 v1010
  let v1018 : BitVec 32 := Scalar.select v1016 v1017 v1011
  let c1_i32_774 : BitVec 32 := 1#32
  let v1019 : BitVec 32 := Scalar.muli v1018 c1_i32_774
  let v1020 : BitVec 32 := Scalar.addi c0_i32_775 v1019
  v1020.toNat
def k0_dev61 (d0 : Dev nD) : Nat :=
  let c0_i32_792 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_780 : BitVec 32 := 30#32
  let v1029 : BitVec 32 := Scalar.addi v2 c30_i32_780
  let c32_i32_781 : BitVec 32 := 32#32
  let c0_i32_782 : BitVec 32 := 0#32
  let v1030 : BitVec 1 := Scalar.cmpi .eq c32_i32_781 c0_i32_782
  let c1_i32_783 : BitVec 32 := 1#32
  let v1031 : BitVec 32 := Scalar.select v1030 c1_i32_783 c32_i32_781
  let v1032 : BitVec 32 := Scalar.remsi v1029 v1031
  let c0_i32_785 : BitVec 32 := 0#32
  let v1034 : BitVec 1 := Scalar.cmpi .slt v1032 c0_i32_785
  let c0_i32_786 : BitVec 32 := 0#32
  let v1035 : BitVec 1 := Scalar.cmpi .slt v1031 c0_i32_786
  let v1036 : BitVec 1 := Scalar.xori v1034 v1035
  let c0_i32_784 : BitVec 32 := 0#32
  let v1033 : BitVec 1 := Scalar.cmpi .ne v1032 c0_i32_784
  let v1037 : BitVec 1 := Scalar.andi v1036 v1033
  let v1038 : BitVec 32 := Scalar.addi v1032 v1031
  let v1039 : BitVec 32 := Scalar.select v1037 v1038 v1032
  let c1_i32_791 : BitVec 32 := 1#32
  let v1040 : BitVec 32 := Scalar.muli v1039 c1_i32_791
  let v1041 : BitVec 32 := Scalar.addi c0_i32_792 v1040
  v1041.toNat
def k0_dev62 (d0 : Dev nD) : Nat :=
  let c0_i32_809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_797 : BitVec 32 := 31#32
  let v1050 : BitVec 32 := Scalar.addi v2 c31_i32_797
  let c32_i32_798 : BitVec 32 := 32#32
  let c0_i32_799 : BitVec 32 := 0#32
  let v1051 : BitVec 1 := Scalar.cmpi .eq c32_i32_798 c0_i32_799
  let c1_i32_800 : BitVec 32 := 1#32
  let v1052 : BitVec 32 := Scalar.select v1051 c1_i32_800 c32_i32_798
  let v1053 : BitVec 32 := Scalar.remsi v1050 v1052
  let c0_i32_802 : BitVec 32 := 0#32
  let v1055 : BitVec 1 := Scalar.cmpi .slt v1053 c0_i32_802
  let c0_i32_803 : BitVec 32 := 0#32
  let v1056 : BitVec 1 := Scalar.cmpi .slt v1052 c0_i32_803
  let v1057 : BitVec 1 := Scalar.xori v1055 v1056
  let c0_i32_801 : BitVec 32 := 0#32
  let v1054 : BitVec 1 := Scalar.cmpi .ne v1053 c0_i32_801
  let v1058 : BitVec 1 := Scalar.andi v1057 v1054
  let v1059 : BitVec 32 := Scalar.addi v1053 v1052
  let v1060 : BitVec 32 := Scalar.select v1058 v1059 v1053
  let c1_i32_808 : BitVec 32 := 1#32
  let v1061 : BitVec 32 := Scalar.muli v1060 c1_i32_808
  let v1062 : BitVec 32 := Scalar.addi c0_i32_809 v1061
  v1062.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S1024 : S1024x512.Reduces [1] S1024
  bitsLt_bf16_f32 : FTy.bits .bf16 < FTy.bits .f32
  inb_S32x2x1024_S1x1x1024_0_0_0 : ∀ a, (![0, 0, 0] : Fin 3 → Nat) a + S1x1x1024.size a ≤ S32x2x1024.size a
  h_S1x1x1024 : 0 < S1x1x1024.numel
  shapeCasts_S1x1x1024_S1024 : S1x1x1024.ShapeCasts S1024
  shapeCasts_S1024_S1x1x1024 : S1024.ShapeCasts S1x1x1024
  inb_S32x2x1024_S1x2x1024_0_0_0 : ∀ a, (![0, 0, 0] : Fin 3 → Nat) a + S1x2x1024.size a ≤ S32x2x1024.size a
  h_S1x2x1024 : 0 < S1x2x1024.numel
  slices_S1x2x1024_S1x1x1024_0_0_0 : S1x2x1024.Slices ![0, 0, 0] S1x1x1024
  packedbf16_S32x2x1024_S1x2x1024_0_0_0 : (Rect.unit (s := S32x2x1024) ![0, 0, 0] S1x2x1024.size inb_S32x2x1024_S1x2x1024_0_0_0).PackedRows (EltTy.packing .bf16)
  inb_S32x2x1024_S1x1x1024_0_1_0 : ∀ a, (![0, 1, 0] : Fin 3 → Nat) a + S1x1x1024.size a ≤ S32x2x1024.size a
  slices_S1x2x1024_S1x1x1024_0_1_0 : S1x2x1024.Slices ![0, 1, 0] S1x1x1024
  hamt_31 : (31#32 : BitVec 32).msb = false
  inb_S32_S1_1 : ∀ a, (![1] : Fin 1 → Nat) a + S1.size a ≤ S32.size a
  squeezes_S1_S_ : S1.Squeezes S_
  inb_S32x2x1024_S1x2x1024_1_0_0 : ∀ a, (![1, 0, 0] : Fin 3 → Nat) a + S1x2x1024.size a ≤ S32x2x1024.size a
  squeezes_S1x2x1024_S2x1024 : S1x2x1024.Squeezes S2x1024
  wordsbf16_S32x2x1024_S1x2x1024_0_0_0 : (Rect.unit (s := S32x2x1024) ![0, 0, 0] S1x2x1024.size inb_S32x2x1024_S1x2x1024_0_0_0).WholeWords (EltTy.packing .bf16)
  wordsbf16_S32x2x1024_S1x2x1024_1_0_0 : (Rect.unit (s := S32x2x1024) ![1, 0, 0] S1x2x1024.size inb_S32x2x1024_S1x2x1024_1_0_0).WholeWords (EltTy.packing .bf16)
  inb_S32_S1_2 : ∀ a, (![2] : Fin 1 → Nat) a + S1.size a ≤ S32.size a
  inb_S32x2x1024_S1x2x1024_2_0_0 : ∀ a, (![2, 0, 0] : Fin 3 → Nat) a + S1x2x1024.size a ≤ S32x2x1024.size a
  wordsbf16_S32x2x1024_S1x2x1024_2_0_0 : (Rect.unit (s := S32x2x1024) ![2, 0, 0] S1x2x1024.size inb_S32x2x1024_S1x2x1024_2_0_0).WholeWords (EltTy.packing .bf16)
  inb_S32_S1_3 : ∀ a, (![3] : Fin 1 → Nat) a + S1.size a ≤ S32.size a
  inb_S32x2x1024_S1x2x1024_3_0_0 : ∀ a, (![3, 0, 0] : Fin 3 → Nat) a + S1x2x1024.size a ≤ S32x2x1024.size a
  wordsbf16_S32x2x1024_S1x2x1024_3_0_0 : (Rect.unit (s := S32x2x1024) ![3, 0, 0] S1x2x1024.size inb_S32x2x1024_S1x2x1024_3_0_0).WholeWords (EltTy.packing .bf16)
  inb_S32_S1_4 : ∀ a, (![4] : Fin 1 → Nat) a + S1.size a ≤ S32.size a
  inb_S32x2x1024_S1x2x1024_4_0_0 : ∀ a, (![4, 0, 0] : Fin 3 → Nat) a + S1x2x1024.size a ≤ S32x2x1024.size a
  wordsbf16_S32x2x1024_S1x2x1024_4_0_0 : (Rect.unit (s := S32x2x1024) ![4, 0, 0] S1x2x1024.size inb_S32x2x1024_S1x2x1024_4_0_0).WholeWords (EltTy.packing .bf16)
  inb_S32_S1_5 : ∀ a, (![5] : Fin 1 → Nat) a + S1.size a ≤ S32.size a
  inb_S32x2x1024_S1x2x1024_5_0_0 : ∀ a, (![5, 0, 0] : Fin 3 → Nat) a + S1x2x1024.size a ≤ S32x2x1024.size a
  wordsbf16_S32x2x1024_S1x2x1024_5_0_0 : (Rect.unit (s := S32x2x1024) ![5, 0, 0] S1x2x1024.size inb_S32x2x1024_S1x2x1024_5_0_0).WholeWords (EltTy.packing .bf16)
  inb_S32_S1_6 : ∀ a, (![6] : Fin 1 → Nat) a + S1.size a ≤ S32.size a
  inb_S32x2x1024_S1x2x1024_6_0_0 : ∀ a, (![6, 0, 0] : Fin 3 → Nat) a + S1x2x1024.size a ≤ S32x2x1024.size a
  wordsbf16_S32x2x1024_S1x2x1024_6_0_0 : (Rect.unit (s := S32x2x1024) ![6, 0, 0] S1x2x1024.size inb_S32x2x1024_S1x2x1024_6_0_0).WholeWords (EltTy.packing .bf16)
  inb_S32_S1_7 : ∀ a, (![7] : Fin 1 → Nat) a + S1.size a ≤ S32.size a
  inb_S32x2x1024_S1x2x1024_7_0_0 : ∀ a, (![7, 0, 0] : Fin 3 → Nat) a + S1x2x1024.size a ≤ S32x2x1024.size a
  wordsbf16_S32x2x1024_S1x2x1024_7_0_0 : (Rect.unit (s := S32x2x1024) ![7, 0, 0] S1x2x1024.size inb_S32x2x1024_S1x2x1024_7_0_0).WholeWords (EltTy.packing .bf16)
  inb_S32_S1_8 : ∀ a, (![8] : Fin 1 → Nat) a + S1.size a ≤ S32.size a
  inb_S32x2x1024_S1x2x1024_8_0_0 : ∀ a, (![8, 0, 0] : Fin 3 → Nat) a + S1x2x1024.size a ≤ S32x2x1024.size a
  wordsbf16_S32x2x1024_S1x2x1024_8_0_0 : (Rect.unit (s := S32x2x1024) ![8, 0, 0] S1x2x1024.size inb_S32x2x1024_S1x2x1024_8_0_0).WholeWords (EltTy.packing .bf16)
  inb_S32_S1_9 : ∀ a, (![9] : Fin 1 → Nat) a + S1.size a ≤ S32.size a
  inb_S32x2x1024_S1x2x1024_9_0_0 : ∀ a, (![9, 0, 0] : Fin 3 → Nat) a + S1x2x1024.size a ≤ S32x2x1024.size a
  wordsbf16_S32x2x1024_S1x2x1024_9_0_0 : (Rect.unit (s := S32x2x1024) ![9, 0, 0] S1x2x1024.size inb_S32x2x1024_S1x2x1024_9_0_0).WholeWords (EltTy.packing .bf16)
  inb_S32_S1_10 : ∀ a, (![10] : Fin 1 → Nat) a + S1.size a ≤ S32.size a
  inb_S32x2x1024_S1x2x1024_10_0_0 : ∀ a, (![10, 0, 0] : Fin 3 → Nat) a + S1x2x1024.size a ≤ S32x2x1024.size a
  wordsbf16_S32x2x1024_S1x2x1024_10_0_0 : (Rect.unit (s := S32x2x1024) ![10, 0, 0] S1x2x1024.size inb_S32x2x1024_S1x2x1024_10_0_0).WholeWords (EltTy.packing .bf16)
  inb_S32_S1_11 : ∀ a, (![11] : Fin 1 → Nat) a + S1.size a ≤ S32.size a
  inb_S32x2x1024_S1x2x1024_11_0_0 : ∀ a, (![11, 0, 0] : Fin 3 → Nat) a + S1x2x1024.size a ≤ S32x2x1024.size a
  wordsbf16_S32x2x1024_S1x2x1024_11_0_0 : (Rect.unit (s := S32x2x1024) ![11, 0, 0] S1x2x1024.size inb_S32x2x1024_S1x2x1024_11_0_0).WholeWords (EltTy.packing .bf16)
  inb_S32_S1_12 : ∀ a, (![12] : Fin 1 → Nat) a + S1.size a ≤ S32.size a
  inb_S32x2x1024_S1x2x1024_12_0_0 : ∀ a, (![12, 0, 0] : Fin 3 → Nat) a + S1x2x1024.size a ≤ S32x2x1024.size a
  wordsbf16_S32x2x1024_S1x2x1024_12_0_0 : (Rect.unit (s := S32x2x1024) ![12, 0, 0] S1x2x1024.size inb_S32x2x1024_S1x2x1024_12_0_0).WholeWords (EltTy.packing .bf16)
  inb_S32_S1_13 : ∀ a, (![13] : Fin 1 → Nat) a + S1.size a ≤ S32.size a
  inb_S32x2x1024_S1x2x1024_13_0_0 : ∀ a, (![13, 0, 0] : Fin 3 → Nat) a + S1x2x1024.size a ≤ S32x2x1024.size a
  wordsbf16_S32x2x1024_S1x2x1024_13_0_0 : (Rect.unit (s := S32x2x1024) ![13, 0, 0] S1x2x1024.size inb_S32x2x1024_S1x2x1024_13_0_0).WholeWords (EltTy.packing .bf16)
  inb_S32_S1_14 : ∀ a, (![14] : Fin 1 → Nat) a + S1.size a ≤ S32.size a
  inb_S32x2x1024_S1x2x1024_14_0_0 : ∀ a, (![14, 0, 0] : Fin 3 → Nat) a + S1x2x1024.size a ≤ S32x2x1024.size a
  wordsbf16_S32x2x1024_S1x2x1024_14_0_0 : (Rect.unit (s := S32x2x1024) ![14, 0, 0] S1x2x1024.size inb_S32x2x1024_S1x2x1024_14_0_0).WholeWords (EltTy.packing .bf16)
  inb_S32_S1_15 : ∀ a, (![15] : Fin 1 → Nat) a + S1.size a ≤ S32.size a
  inb_S32x2x1024_S1x2x1024_15_0_0 : ∀ a, (![15, 0, 0] : Fin 3 → Nat) a + S1x2x1024.size a ≤ S32x2x1024.size a
  wordsbf16_S32x2x1024_S1x2x1024_15_0_0 : (Rect.unit (s := S32x2x1024) ![15, 0, 0] S1x2x1024.size inb_S32x2x1024_S1x2x1024_15_0_0).WholeWords (EltTy.packing .bf16)
  inb_S32_S1_16 : ∀ a, (![16] : Fin 1 → Nat) a + S1.size a ≤ S32.size a
  inb_S32x2x1024_S1x2x1024_16_0_0 : ∀ a, (![16, 0, 0] : Fin 3 → Nat) a + S1x2x1024.size a ≤ S32x2x1024.size a
  wordsbf16_S32x2x1024_S1x2x1024_16_0_0 : (Rect.unit (s := S32x2x1024) ![16, 0, 0] S1x2x1024.size inb_S32x2x1024_S1x2x1024_16_0_0).WholeWords (EltTy.packing .bf16)
  inb_S32_S1_17 : ∀ a, (![17] : Fin 1 → Nat) a + S1.size a ≤ S32.size a
  inb_S32x2x1024_S1x2x1024_17_0_0 : ∀ a, (![17, 0, 0] : Fin 3 → Nat) a + S1x2x1024.size a ≤ S32x2x1024.size a
  wordsbf16_S32x2x1024_S1x2x1024_17_0_0 : (Rect.unit (s := S32x2x1024) ![17, 0, 0] S1x2x1024.size inb_S32x2x1024_S1x2x1024_17_0_0).WholeWords (EltTy.packing .bf16)
  inb_S32_S1_18 : ∀ a, (![18] : Fin 1 → Nat) a + S1.size a ≤ S32.size a
  inb_S32x2x1024_S1x2x1024_18_0_0 : ∀ a, (![18, 0, 0] : Fin 3 → Nat) a + S1x2x1024.size a ≤ S32x2x1024.size a
  wordsbf16_S32x2x1024_S1x2x1024_18_0_0 : (Rect.unit (s := S32x2x1024) ![18, 0, 0] S1x2x1024.size inb_S32x2x1024_S1x2x1024_18_0_0).WholeWords (EltTy.packing .bf16)
  inb_S32_S1_19 : ∀ a, (![19] : Fin 1 → Nat) a + S1.size a ≤ S32.size a
  inb_S32x2x1024_S1x2x1024_19_0_0 : ∀ a, (![19, 0, 0] : Fin 3 → Nat) a + S1x2x1024.size a ≤ S32x2x1024.size a
  wordsbf16_S32x2x1024_S1x2x1024_19_0_0 : (Rect.unit (s := S32x2x1024) ![19, 0, 0] S1x2x1024.size inb_S32x2x1024_S1x2x1024_19_0_0).WholeWords (EltTy.packing .bf16)
  inb_S32_S1_20 : ∀ a, (![20] : Fin 1 → Nat) a + S1.size a ≤ S32.size a
  inb_S32x2x1024_S1x2x1024_20_0_0 : ∀ a, (![20, 0, 0] : Fin 3 → Nat) a + S1x2x1024.size a ≤ S32x2x1024.size a
  wordsbf16_S32x2x1024_S1x2x1024_20_0_0 : (Rect.unit (s := S32x2x1024) ![20, 0, 0] S1x2x1024.size inb_S32x2x1024_S1x2x1024_20_0_0).WholeWords (EltTy.packing .bf16)
  inb_S32_S1_21 : ∀ a, (![21] : Fin 1 → Nat) a + S1.size a ≤ S32.size a
  inb_S32x2x1024_S1x2x1024_21_0_0 : ∀ a, (![21, 0, 0] : Fin 3 → Nat) a + S1x2x1024.size a ≤ S32x2x1024.size a
  wordsbf16_S32x2x1024_S1x2x1024_21_0_0 : (Rect.unit (s := S32x2x1024) ![21, 0, 0] S1x2x1024.size inb_S32x2x1024_S1x2x1024_21_0_0).WholeWords (EltTy.packing .bf16)
  inb_S32_S1_22 : ∀ a, (![22] : Fin 1 → Nat) a + S1.size a ≤ S32.size a
  inb_S32x2x1024_S1x2x1024_22_0_0 : ∀ a, (![22, 0, 0] : Fin 3 → Nat) a + S1x2x1024.size a ≤ S32x2x1024.size a
  wordsbf16_S32x2x1024_S1x2x1024_22_0_0 : (Rect.unit (s := S32x2x1024) ![22, 0, 0] S1x2x1024.size inb_S32x2x1024_S1x2x1024_22_0_0).WholeWords (EltTy.packing .bf16)
  inb_S32_S1_23 : ∀ a, (![23] : Fin 1 → Nat) a + S1.size a ≤ S32.size a
  inb_S32x2x1024_S1x2x1024_23_0_0 : ∀ a, (![23, 0, 0] : Fin 3 → Nat) a + S1x2x1024.size a ≤ S32x2x1024.size a
  wordsbf16_S32x2x1024_S1x2x1024_23_0_0 : (Rect.unit (s := S32x2x1024) ![23, 0, 0] S1x2x1024.size inb_S32x2x1024_S1x2x1024_23_0_0).WholeWords (EltTy.packing .bf16)
  inb_S32_S1_24 : ∀ a, (![24] : Fin 1 → Nat) a + S1.size a ≤ S32.size a
  inb_S32x2x1024_S1x2x1024_24_0_0 : ∀ a, (![24, 0, 0] : Fin 3 → Nat) a + S1x2x1024.size a ≤ S32x2x1024.size a
  wordsbf16_S32x2x1024_S1x2x1024_24_0_0 : (Rect.unit (s := S32x2x1024) ![24, 0, 0] S1x2x1024.size inb_S32x2x1024_S1x2x1024_24_0_0).WholeWords (EltTy.packing .bf16)
  inb_S32_S1_25 : ∀ a, (![25] : Fin 1 → Nat) a + S1.size a ≤ S32.size a
  inb_S32x2x1024_S1x2x1024_25_0_0 : ∀ a, (![25, 0, 0] : Fin 3 → Nat) a + S1x2x1024.size a ≤ S32x2x1024.size a
  wordsbf16_S32x2x1024_S1x2x1024_25_0_0 : (Rect.unit (s := S32x2x1024) ![25, 0, 0] S1x2x1024.size inb_S32x2x1024_S1x2x1024_25_0_0).WholeWords (EltTy.packing .bf16)
  inb_S32_S1_26 : ∀ a, (![26] : Fin 1 → Nat) a + S1.size a ≤ S32.size a
  inb_S32x2x1024_S1x2x1024_26_0_0 : ∀ a, (![26, 0, 0] : Fin 3 → Nat) a + S1x2x1024.size a ≤ S32x2x1024.size a
  wordsbf16_S32x2x1024_S1x2x1024_26_0_0 : (Rect.unit (s := S32x2x1024) ![26, 0, 0] S1x2x1024.size inb_S32x2x1024_S1x2x1024_26_0_0).WholeWords (EltTy.packing .bf16)
  inb_S32_S1_27 : ∀ a, (![27] : Fin 1 → Nat) a + S1.size a ≤ S32.size a
  inb_S32x2x1024_S1x2x1024_27_0_0 : ∀ a, (![27, 0, 0] : Fin 3 → Nat) a + S1x2x1024.size a ≤ S32x2x1024.size a
  wordsbf16_S32x2x1024_S1x2x1024_27_0_0 : (Rect.unit (s := S32x2x1024) ![27, 0, 0] S1x2x1024.size inb_S32x2x1024_S1x2x1024_27_0_0).WholeWords (EltTy.packing .bf16)
  inb_S32_S1_28 : ∀ a, (![28] : Fin 1 → Nat) a + S1.size a ≤ S32.size a
  inb_S32x2x1024_S1x2x1024_28_0_0 : ∀ a, (![28, 0, 0] : Fin 3 → Nat) a + S1x2x1024.size a ≤ S32x2x1024.size a
  wordsbf16_S32x2x1024_S1x2x1024_28_0_0 : (Rect.unit (s := S32x2x1024) ![28, 0, 0] S1x2x1024.size inb_S32x2x1024_S1x2x1024_28_0_0).WholeWords (EltTy.packing .bf16)
  inb_S32_S1_29 : ∀ a, (![29] : Fin 1 → Nat) a + S1.size a ≤ S32.size a
  inb_S32x2x1024_S1x2x1024_29_0_0 : ∀ a, (![29, 0, 0] : Fin 3 → Nat) a + S1x2x1024.size a ≤ S32x2x1024.size a
  wordsbf16_S32x2x1024_S1x2x1024_29_0_0 : (Rect.unit (s := S32x2x1024) ![29, 0, 0] S1x2x1024.size inb_S32x2x1024_S1x2x1024_29_0_0).WholeWords (EltTy.packing .bf16)
  inb_S32_S1_30 : ∀ a, (![30] : Fin 1 → Nat) a + S1.size a ≤ S32.size a
  inb_S32x2x1024_S1x2x1024_30_0_0 : ∀ a, (![30, 0, 0] : Fin 3 → Nat) a + S1x2x1024.size a ≤ S32x2x1024.size a
  wordsbf16_S32x2x1024_S1x2x1024_30_0_0 : (Rect.unit (s := S32x2x1024) ![30, 0, 0] S1x2x1024.size inb_S32x2x1024_S1x2x1024_30_0_0).WholeWords (EltTy.packing .bf16)
  inb_S32_S1_31 : ∀ a, (![31] : Fin 1 → Nat) a + S1.size a ≤ S32.size a
  inb_S32x2x1024_S1x2x1024_31_0_0 : ∀ a, (![31, 0, 0] : Fin 3 → Nat) a + S1x2x1024.size a ≤ S32x2x1024.size a
  wordsbf16_S32x2x1024_S1x2x1024_31_0_0 : (Rect.unit (s := S32x2x1024) ![31, 0, 0] S1x2x1024.size inb_S32x2x1024_S1x2x1024_31_0_0).WholeWords (EltTy.packing .bf16)
  inb_S32x2x1024_S32x2x1024_0_0_0 : ∀ a, (![0, 0, 0] : Fin 3 → Nat) a + S32x2x1024.size a ≤ S32x2x1024.size a
  h_S32x2x1024 : 0 < S32x2x1024.numel
  reduces_S32x2x1024_S2x1024 : S32x2x1024.Reduces [0] S2x1024
  slices_S2x1024_o0_0_S1x1024 : S2x1024.Slices ![0, 0] S1x1024
  shapeCasts_S1x1024_S1024 : S1x1024.ShapeCasts S1024
  slices_S2x1024_o1_0_S1x1024 : S2x1024.Slices ![1, 0] S1x1024
  shapeCasts_S1024_S1024x1 : S1024.ShapeCasts S1024x1
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1024x1_S1024x512 : S1024x1.Broadcasts S1024x512
  broadcasts_S1x512_S1024x512 : S1x512.Broadcasts S1024x512
  packedbf16_S1024x512_S1024x512_0_0 : (Rect.unit (s := S1024x512) ![0, 0] S1024x512.size inb_S1024x512_S1024x512_0_0).PackedRows (EltTy.packing .bf16)
  hcc0_scratch1 : 4 + S32.numel ≤ 68
  hcc0_scratch2 : 36 + S32.numel ≤ 68
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch1 : DmaSems sig S32 := SemArray.consecutive 4 S32 hcc0_scratch1
abbrev cc0_scratch2 : DmaSems sig S32 := SemArray.consecutive 36 S32 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x16384 : Shape := ⟨2, ![1024, 16384]⟩
abbrev S16384 : Shape := ⟨1, ![16384]⟩
abbrev S_ : Shape := ⟨0, ![]⟩
abbrev S1024 : Shape := ⟨1, ![1024]⟩
abbrev S1024x1 : Shape := ⟨2, ![1024, 1]⟩
abbrev S1x16384 : Shape := ⟨2, ![1, 16384]⟩

abbrev nBuf : Space → Nat
  | .hbm => 48
  | .vmem => 0
  | .smem => 0
  | _ => 0

abbrev bufTy : (tb : Table) → Fin (tcTables nBuf tb) → BufTy
  | .hbm, ⟨0, _⟩ => ⟨S1024x16384, .f32⟩
  | .hbm, ⟨1, _⟩ => ⟨S16384, .f32⟩
  | .hbm, ⟨2, _⟩ => ⟨S16384, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .i32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x16384, .f32⟩
  | .hbm, ⟨17, _⟩ => ⟨S1024x16384, .f32⟩
  | .hbm, ⟨18, _⟩ => ⟨S1024x16384, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S1024, .f32⟩
  | .hbm, ⟨24, _⟩ => ⟨S1024x1, .f32⟩
  | .hbm, ⟨25, _⟩ => ⟨S1024x1, .f32⟩
  | .hbm, ⟨26, _⟩ => ⟨S1024x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x16384, .f32⟩
  | .hbm, ⟨34, _⟩ => ⟨S1024x16384, .f32⟩
  | .hbm, ⟨35, _⟩ => ⟨S1x16384, .f32⟩
  | .hbm, ⟨36, _⟩ => ⟨S1024x16384, .f32⟩
  | .hbm, ⟨37, _⟩ => ⟨S1024x16384, .f32⟩
  | .hbm, ⟨38, _⟩ => ⟨S_, .f32⟩
  | .hbm, ⟨39, _⟩ => ⟨S1024x1, .f32⟩
  | .hbm, ⟨40, _⟩ => ⟨S1024x1, .f32⟩
  | .hbm, ⟨41, _⟩ => ⟨S1024x1, .f32⟩
  | .hbm, ⟨42, _⟩ => ⟨S1024x16384, .f32⟩
  | .hbm, ⟨43, _⟩ => ⟨S1024x16384, .f32⟩
  | .hbm, ⟨44, _⟩ => ⟨S1x16384, .f32⟩
  | .hbm, ⟨45, _⟩ => ⟨S1024x16384, .f32⟩
  | .hbm, ⟨46, _⟩ => ⟨S1024x16384, .f32⟩
  | .hbm, ⟨47, _⟩ => ⟨S1024x16384, .bf16⟩
  | _, _ => ⟨S1024x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]

class Facts₀ : Prop where
  reducesTo_S1024x16384_S1024_d1 : S1024x16384.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x16384_0_1 : S1024x1.BroadcastsInDim S1024x16384 (![0, 1] : Fin 2 → Fin S1024x16384.rank)
  bcast_S16384_S1x16384_1 : S16384.BroadcastsInDim S1x16384 (![1] : Fin 1 → Fin S1x16384.rank)
  bcast_S1x16384_S1024x16384_0_1 : S1x16384.BroadcastsInDim S1024x16384 (![0, 1] : Fin 2 → Fin S1024x16384.rank)
  bitsLt_bf16_f32 : FTy.bits .bf16 < FTy.bits .f32

variable [Facts₀]

class Facts : Prop extends Facts₀ where

variable [Facts]
-- ==== Proof.Ring.lean ====
/-
  The 32 devices as the cyclic group of order 32: `peer c d` is the device `d` places after `c`,
  `orig c d` the device `d` places before it, and `opp d` the offset that undoes `d`.
  Device `c` addresses `peer c d` with its `d`-th signal and its `d`-th copy; so the device that addresses
  `c` at offset `d` is `orig c d`, and `c` reaches `orig c d` again at the offset `opp d`.
-/
import proofs.«900824_g7700000000000825_dist_layernorm_colshard_i_m1024_n512_v7x_i32_bf16_1_alg».proof.Proof.Gen.KernelIdeal

namespace Cert.KernelIdeal.Proto

open Cert.KernelIdeal Idealize.ShloMosaic

/-- The device `d` places after `c` on the ring of 32. -/
def peer (c : Dev nD) (d : Fin 32) : Dev nD := ⟨(c.val + d.val) % 32, Nat.mod_lt _ (by decide)⟩
/-- The device `d` places before `c`. -/
def orig (c : Dev nD) (d : Fin 32) : Dev nD := ⟨(c.val + (32 - d.val)) % 32, Nat.mod_lt _ (by decide)⟩
/-- The offset opposite to `d`: `d + opp d = 0` in the cyclic group. -/
def opp (d : Fin 32) : Fin 32 := ⟨(32 - d.val) % 32, Nat.mod_lt _ (by decide)⟩

theorem orig_peer : ∀ (c : Dev nD) (d : Fin 32), orig (peer c d) d = c := by decide +kernel
theorem peer_orig : ∀ (c : Dev nD) (d : Fin 32), peer (orig c d) d = c := by decide +kernel
theorem peer_opp : ∀ (c : Dev nD) (d : Fin 32), peer c (opp d) = orig c d := by decide +kernel
theorem orig_opp : ∀ (c : Dev nD) (d : Fin 32), orig c (opp d) = peer c d := by decide +kernel
theorem opp_opp : ∀ d : Fin 32, opp (opp d) = d := by decide
theorem opp_ne_zero : ∀ d : Fin 32, d ≠ 0 → opp d ≠ 0 := by decide
theorem peer_ne : ∀ (c : Dev nD) (d : Fin 32), d ≠ 0 → peer c d ≠ c := by decide +kernel
theorem orig_ne : ∀ (c : Dev nD) (d : Fin 32), d ≠ 0 → orig c d ≠ c := by decide +kernel
theorem peer_inj : ∀ (c : Dev nD) (d d' : Fin 32), peer c d = peer c d' → d = d' := by decide +kernel
theorem orig_inj : ∀ (c : Dev nD) (d d' : Fin 32), orig c d = orig c d' → d = d' := by decide +kernel
theorem peer_zero : ∀ c : Dev nD, peer c 0 = c := by decide +kernel

/-- For a fixed offset, stepping forward is a permutation of the devices. -/
def shift (d : Fin 32) : Dev nD ≃ Dev nD := ⟨fun c => peer c d, fun c => orig c d, fun c => orig_peer c d, fun c => peer_orig c d⟩

end Cert.KernelIdeal.Proto
-- ==== Proof.DevTable.lean ====
import proofs.«900824_g7700000000000825_dist_layernorm_colshard_i_m1024_n512_v7x_i32_bf16_1_alg».proof.Proof.Ring

namespace Cert.KernelIdeal.Proto

open Cert.KernelIdeal Cert.KernelIdeal.Gen Idealize.ShloMosaic

theorem dev1_eq : ∀ c : Dev nD, (⟨k0_dev1 c, k0_dev1_lt c⟩ : Dev nD) = peer c 1 := by decide +kernel
theorem dev2_eq : ∀ c : Dev nD, (⟨k0_dev2 c, k0_dev2_lt c⟩ : Dev nD) = peer c 2 := by decide +kernel
theorem dev3_eq : ∀ c : Dev nD, (⟨k0_dev3 c, k0_dev3_lt c⟩ : Dev nD) = peer c 3 := by decide +kernel
theorem dev4_eq : ∀ c : Dev nD, (⟨k0_dev4 c, k0_dev4_lt c⟩ : Dev nD) = peer c 4 := by decide +kernel
theorem dev5_eq : ∀ c : Dev nD, (⟨k0_dev5 c, k0_dev5_lt c⟩ : Dev nD) = peer c 5 := by decide +kernel
theorem dev6_eq : ∀ c : Dev nD, (⟨k0_dev6 c, k0_dev6_lt c⟩ : Dev nD) = peer c 6 := by decide +kernel
theorem dev7_eq : ∀ c : Dev nD, (⟨k0_dev7 c, k0_dev7_lt c⟩ : Dev nD) = peer c 7 := by decide +kernel
theorem dev8_eq : ∀ c : Dev nD, (⟨k0_dev8 c, k0_dev8_lt c⟩ : Dev nD) = peer c 8 := by decide +kernel
theorem dev9_eq : ∀ c : Dev nD, (⟨k0_dev9 c, k0_dev9_lt c⟩ : Dev nD) = peer c 9 := by decide +kernel
theorem dev10_eq : ∀ c : Dev nD, (⟨k0_dev10 c, k0_dev10_lt c⟩ : Dev nD) = peer c 10 := by decide +kernel
theorem dev11_eq : ∀ c : Dev nD, (⟨k0_dev11 c, k0_dev11_lt c⟩ : Dev nD) = peer c 11 := by decide +kernel
theorem dev12_eq : ∀ c : Dev nD, (⟨k0_dev12 c, k0_dev12_lt c⟩ : Dev nD) = peer c 12 := by decide +kernel
theorem dev13_eq : ∀ c : Dev nD, (⟨k0_dev13 c, k0_dev13_lt c⟩ : Dev nD) = peer c 13 := by decide +kernel
theorem dev14_eq : ∀ c : Dev nD, (⟨k0_dev14 c, k0_dev14_lt c⟩ : Dev nD) = peer c 14 := by decide +kernel
theorem dev15_eq : ∀ c : Dev nD, (⟨k0_dev15 c, k0_dev15_lt c⟩ : Dev nD) = peer c 15 := by decide +kernel
theorem dev16_eq : ∀ c : Dev nD, (⟨k0_dev16 c, k0_dev16_lt c⟩ : Dev nD) = peer c 16 := by decide +kernel
theorem dev17_eq : ∀ c : Dev nD, (⟨k0_dev17 c, k0_dev17_lt c⟩ : Dev nD) = peer c 17 := by decide +kernel
theorem dev18_eq : ∀ c : Dev nD, (⟨k0_dev18 c, k0_dev18_lt c⟩ : Dev nD) = peer c 18 := by decide +kernel
theorem dev19_eq : ∀ c : Dev nD, (⟨k0_dev19 c, k0_dev19_lt c⟩ : Dev nD) = peer c 19 := by decide +kernel
theorem dev20_eq : ∀ c : Dev nD, (⟨k0_dev20 c, k0_dev20_lt c⟩ : Dev nD) = peer c 20 := by decide +kernel
theorem dev21_eq : ∀ c : Dev nD, (⟨k0_dev21 c, k0_dev21_lt c⟩ : Dev nD) = peer c 21 := by decide +kernel
theorem dev22_eq : ∀ c : Dev nD, (⟨k0_dev22 c, k0_dev22_lt c⟩ : Dev nD) = peer c 22 := by decide +kernel
theorem dev23_eq : ∀ c : Dev nD, (⟨k0_dev23 c, k0_dev23_lt c⟩ : Dev nD) = peer c 23 := by decide +kernel
theorem dev24_eq : ∀ c : Dev nD, (⟨k0_dev24 c, k0_dev24_lt c⟩ : Dev nD) = peer c 24 := by decide +kernel
theorem dev25_eq : ∀ c : Dev nD, (⟨k0_dev25 c, k0_dev25_lt c⟩ : Dev nD) = peer c 25 := by decide +kernel
theorem dev26_eq : ∀ c : Dev nD, (⟨k0_dev26 c, k0_dev26_lt c⟩ : Dev nD) = peer c 26 := by decide +kernel
theorem dev27_eq : ∀ c : Dev nD, (⟨k0_dev27 c, k0_dev27_lt c⟩ : Dev nD) = peer c 27 := by decide +kernel
theorem dev28_eq : ∀ c : Dev nD, (⟨k0_dev28 c, k0_dev28_lt c⟩ : Dev nD) = peer c 28 := by decide +kernel
theorem dev29_eq : ∀ c : Dev nD, (⟨k0_dev29 c, k0_dev29_lt c⟩ : Dev nD) = peer c 29 := by decide +kernel
theorem dev30_eq : ∀ c : Dev nD, (⟨k0_dev30 c, k0_dev30_lt c⟩ : Dev nD) = peer c 30 := by decide +kernel
theorem dev31_eq : ∀ c : Dev nD, (⟨k0_dev31 c, k0_dev31_lt c⟩ : Dev nD) = peer c 31 := by decide +kernel
theorem dev32_eq : ∀ c : Dev nD, (⟨k0_dev32 c, k0_dev32_lt c⟩ : Dev nD) = peer c 1 := by decide +kernel
theorem dev33_eq : ∀ c : Dev nD, (⟨k0_dev33 c, k0_dev33_lt c⟩ : Dev nD) = peer c 2 := by decide +kernel
theorem dev34_eq : ∀ c : Dev nD, (⟨k0_dev34 c, k0_dev34_lt c⟩ : Dev nD) = peer c 3 := by decide +kernel
theorem dev35_eq : ∀ c : Dev nD, (⟨k0_dev35 c, k0_dev35_lt c⟩ : Dev nD) = peer c 4 := by decide +kernel
theorem dev36_eq : ∀ c : Dev nD, (⟨k0_dev36 c, k0_dev36_lt c⟩ : Dev nD) = peer c 5 := by decide +kernel
theorem dev37_eq : ∀ c : Dev nD, (⟨k0_dev37 c, k0_dev37_lt c⟩ : Dev nD) = peer c 6 := by decide +kernel
theorem dev38_eq : ∀ c : Dev nD, (⟨k0_dev38 c, k0_dev38_lt c⟩ : Dev nD) = peer c 7 := by decide +kernel
theorem dev39_eq : ∀ c : Dev nD, (⟨k0_dev39 c, k0_dev39_lt c⟩ : Dev nD) = peer c 8 := by decide +kernel
theorem dev40_eq : ∀ c : Dev nD, (⟨k0_dev40 c, k0_dev40_lt c⟩ : Dev nD) = peer c 9 := by decide +kernel
theorem dev41_eq : ∀ c : Dev nD, (⟨k0_dev41 c, k0_dev41_lt c⟩ : Dev nD) = peer c 10 := by decide +kernel
theorem dev42_eq : ∀ c : Dev nD, (⟨k0_dev42 c, k0_dev42_lt c⟩ : Dev nD) = peer c 11 := by decide +kernel
theorem dev43_eq : ∀ c : Dev nD, (⟨k0_dev43 c, k0_dev43_lt c⟩ : Dev nD) = peer c 12 := by decide +kernel
theorem dev44_eq : ∀ c : Dev nD, (⟨k0_dev44 c, k0_dev44_lt c⟩ : Dev nD) = peer c 13 := by decide +kernel
theorem dev45_eq : ∀ c : Dev nD, (⟨k0_dev45 c, k0_dev45_lt c⟩ : Dev nD) = peer c 14 := by decide +kernel
theorem dev46_eq : ∀ c : Dev nD, (⟨k0_dev46 c, k0_dev46_lt c⟩ : Dev nD) = peer c 15 := by decide +kernel
theorem dev47_eq : ∀ c : Dev nD, (⟨k0_dev47 c, k0_dev47_lt c⟩ : Dev nD) = peer c 16 := by decide +kernel
theorem dev48_eq : ∀ c : Dev nD, (⟨k0_dev48 c, k0_dev48_lt c⟩ : Dev nD) = peer c 17 := by decide +kernel
theorem dev49_eq : ∀ c : Dev nD, (⟨k0_dev49 c, k0_dev49_lt c⟩ : Dev nD) = peer c 18 := by decide +kernel
theorem dev50_eq : ∀ c : Dev nD, (⟨k0_dev50 c, k0_dev50_lt c⟩ : Dev nD) = peer c 19 := by decide +kernel
theorem dev51_eq : ∀ c : Dev nD, (⟨k0_dev51 c, k0_dev51_lt c⟩ : Dev nD) = peer c 20 := by decide +kernel
theorem dev52_eq : ∀ c : Dev nD, (⟨k0_dev52 c, k0_dev52_lt c⟩ : Dev nD) = peer c 21 := by decide +kernel
theorem dev53_eq : ∀ c : Dev nD, (⟨k0_dev53 c, k0_dev53_lt c⟩ : Dev nD) = peer c 22 := by decide +kernel
theorem dev54_eq : ∀ c : Dev nD, (⟨k0_dev54 c, k0_dev54_lt c⟩ : Dev nD) = peer c 23 := by decide +kernel
theorem dev55_eq : ∀ c : Dev nD, (⟨k0_dev55 c, k0_dev55_lt c⟩ : Dev nD) = peer c 24 := by decide +kernel
theorem dev56_eq : ∀ c : Dev nD, (⟨k0_dev56 c, k0_dev56_lt c⟩ : Dev nD) = peer c 25 := by decide +kernel
theorem dev57_eq : ∀ c : Dev nD, (⟨k0_dev57 c, k0_dev57_lt c⟩ : Dev nD) = peer c 26 := by decide +kernel
theorem dev58_eq : ∀ c : Dev nD, (⟨k0_dev58 c, k0_dev58_lt c⟩ : Dev nD) = peer c 27 := by decide +kernel
theorem dev59_eq : ∀ c : Dev nD, (⟨k0_dev59 c, k0_dev59_lt c⟩ : Dev nD) = peer c 28 := by decide +kernel
theorem dev60_eq : ∀ c : Dev nD, (⟨k0_dev60 c, k0_dev60_lt c⟩ : Dev nD) = peer c 29 := by decide +kernel
theorem dev61_eq : ∀ c : Dev nD, (⟨k0_dev61 c, k0_dev61_lt c⟩ : Dev nD) = peer c 30 := by decide +kernel
theorem dev62_eq : ∀ c : Dev nD, (⟨k0_dev62 c, k0_dev62_lt c⟩ : Dev nD) = peer c 31 := by decide +kernel

end Cert.KernelIdeal.Proto
-- ==== Proof.Proto.lean ====
/-
  The cross-device protocol of the distributed layer norm, as a schedule of rounds.

  Every device `c` owns 63 semaphore cells: its barrier cell, and for every offset `d = 1 … 31` a send cell and a
  receive cell. All the traffic is one round (round 0):
  * the barrier cell of `q` has the 31 duties `d = 1 … 31` of one unit each; duty `d` is paid by the device
    `orig q d` (whose `d`-th signal addresses `q`) and hands `q` the slot of that device's gather buffer that `q` will
    write — slot `opp d`, because `q` reaches `orig q d` at the offset `opp d` — together with the fact that the
    receive cell guarding that slot is at its round 0;
  * the send cell `d` of `c` has one duty, paid by `c`'s own copy number `d` once its source (slot 0 of `c`) has
    been read: it gives back the share of slot 0 the copy was lent;
  * the receive cell `d` of `c` has one duty, paid by the copy number `d` of the device `orig c d` once it has
    landed: it hands `c` its slot `d`, holding what slot 0 of `orig c d` held.
  The whole gather buffer of `c` therefore ends as ONE array `gathered c`: slot `s` holds the two partial row sums
  of device `orig c s`.
-/
import proofs.«900824_g7700000000000825_dist_layernorm_colshard_i_m1024_n512_v7x_i32_bf16_1_alg».proof.Proof.Gen.KernelIdeal.Skeleton
import proofs.«900824_g7700000000000825_dist_layernorm_colshard_i_m1024_n512_v7x_i32_bf16_1_alg».proof.Proof.Gen.KernelIdeal.Launch
import proofs.«900824_g7700000000000825_dist_layernorm_colshard_i_m1024_n512_v7x_i32_bf16_1_alg».proof.Proof.Gen.KernelIdeal.Points
import proofs.«900824_g7700000000000825_dist_layernorm_colshard_i_m1024_n512_v7x_i32_bf16_1_alg».proof.Proof.Gen.KernelIdeal.Frame
import proofs.«900824_g7700000000000825_dist_layernorm_colshard_i_m1024_n512_v7x_i32_bf16_1_alg».proof.Proof.DevTable
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the offset) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Memrefs and cells -/

abbrev xM : Memref sig .tc .vmem S1024x512 .f32 := Memref.whole cc0_stg0_0
abbrev gM : Memref sig .tc .vmem S512 .f32 := Memref.whole cc0_stg1_0
abbrev bM : Memref sig .tc .vmem S512 .f32 := Memref.whole cc0_stg2_0
abbrev oM : Memref sig .tc .vmem S1024x512 .bf16 := Memref.whole cc0_stg3_0
/-- The gather buffer: 32 slots of two rows of 1024. -/
abbrev commM : Memref sig .tc .vmem S32x2x1024 .bf16 := Memref.whole cc0_scratch0

theorem inb_slot (d : Fin 32) : ∀ a, (![d.val, 0, 0] : Fin 3 → Nat) a + S1x2x1024.size a ≤ S32x2x1024.size a := by
  intro a; have := d.isLt; fin_cases a <;> simp [Shape.size] <;> omega

/-- Slot `d` of the gather buffer, as the kernel slices it: rows `[d, 0, 0]` of extent `[1, 2, 1024]`, squeezed. -/
def slotM (d : Fin 32) : Memref sig .tc .vmem S2x1024 .bf16 :=
  ((commM.slice (Rect.unit (s := S32x2x1024) ![d.val, 0, 0] S1x2x1024.size (inb_slot d)) (fun _ => rfl)).squeeze S2x1024 squeezes_S1x2x1024_S2x1024)

abbrev barS : Sem sig := (SemArray.scalar (sig.barrier 0 rfl) : Sems sig S_).sem
/-- The send semaphore of copy `d`: element `d` of the first semaphore array (base 4). -/
def sendS (d : Fin 32) : DmaSem sig := ⟨4 + d.val, by have := d.isLt; show 4 + d.val < 68; omega⟩
/-- The receive semaphore of slot `d`: element `d` of the second semaphore array (base 36). -/
def recvS (d : Fin 32) : DmaSem sig := ⟨36 + d.val, by have := d.isLt; show 36 + d.val < 68; omega⟩

abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))

/-- The credit of one slot's transfer. -/
abbrev N : ℕ := (slotM 1).view.dmaCredit

theorem N_pos : 0 < N := View.dmaCredit_pos _ (by decide)

/-! ## Contents -/

/-- Device `c`'s block of `x`, of the scale and of the shift, as the region finds them. -/
def xblk (c : Dev nD) : Vec F S1024x512 .f32 := iblk m c 0 t0_0
def gblk (c : Dev nD) : Vec F S512 .f32 := iblk m c 1 t0_0
def bblk (c : Dev nD) : Vec F S512 .f32 := iblk m c 2 t0_0

/-- What the gather buffer of device `c` holds once every copy has landed: slot `s`, row 0, holds the row sums of the
    block of device `orig c s`, and row 1 the row sums of its squares. -/
def gathered (c : Dev nD) : Buf (Elt F) ((c : Thread nD τ).loc cc0_scratch0) := fun i =>
  if (i 1).val = 0 then k0_pay2 (xblk m (orig c ⟨(i 0).val, (i 0).isLt⟩)) (ValueIdx.ix3 0 0 ⟨(i 2).val, (i 2).isLt⟩)
  else k0_pay3 (xblk m (orig c ⟨(i 0).val, (i 0).isLt⟩)) (ValueIdx.ix3 0 0 ⟨(i 2).val, (i 2).isLt⟩)

/-- The share of slot 0 still in hand after `n` copies have each been lent the left half of what was left. -/
def remShare : ℕ → PosShare TreeShare
  | 0 => fullShare
  | n + 1 => (remShare n).right
/-- The share of slot 0 lent to copy `d`. -/
def lentShare (d : Fin 32) : PosShare TreeShare := (remShare (d.val - 1)).left

/-- Slot `d` of device `c`'s gather buffer held at share `q` with contents `f`. -/
def slotPts (c : Dev nD) (d : Fin 32) (q : PosShare TreeShare) (f : Buf (Elt F) ((c : Thread nD τ).loc cc0_scratch0)) : sProp 𝕄 :=
  (slotM d).view.loc (c : Thread nD τ) ↦[(slotM d).view.set]{q} f

omit [FloatOps F] in
instance slotPts_storable (c : Dev nD) (d : Fin 32) (q : PosShare TreeShare) (f : Buf (Elt F) ((c : Thread nD τ).loc cc0_scratch0)) :
    BI.Storable (upEmb : UEmb _ 𝕄) (slotPts (F := F) c d q f) := by
  unfold slotPts
  exact (inferInstance : BI.Storable (upEmb : UEmb _ 𝕄)
    (((slotM d).view.loc (c : Thread nD τ)) ↦[(slotM d).view.set]{q} (show Buf (Elt F) ((slotM d).view.loc (c : Thread nD τ)) from f)))

/-! ## The schedule -/

/-- Duty `d` of `q`'s barrier cell: the slot of the signalling device that `q` will write, and that slot's receive cell at round 0. -/
def barPay (q : Dev nD) (d : Fin 32) : sProp 𝕄 :=
  iprop((∃ f, slotPts (orig q d) (opp d) fullShare f) ∗ reached ER (recvCell (orig q d) (opp d)) 0)
/-- The receive cell `d` of `c`: slot `d` holding its final contents. -/
def recvPay (c : Dev nD) (d : Fin 32) : sProp 𝕄 := slotPts c d fullShare (gathered m c)
/-- The send cell `d` of `c`: the lent share of slot 0 back. -/
def sendPay (c : Dev nD) (d : Fin 32) : sProp 𝕄 := slotPts c 0 (lentShare d) (gathered m c)

/-- The offset a transfer semaphore belongs to: `4 + d` and `36 + d` both give `d`. -/
def semIdx (q : DmaSem sig) : Fin 32 := ⟨(q.val + 28) % 32, Nat.mod_lt _ (by decide)⟩

/-- Which DMA semaphores carry a duty: the send semaphores 5 … 35 and the receive semaphores 37 … 67. -/
abbrev IsXferSem (q : DmaSem sig) : Prop := 4 < q.val ∧ q.val ≠ 36

def ringRd : Rounds.Schedule (GSem nD τ sig) (Fin 32) 𝕄 where
  duties g r := if r = 0 ∧ g.1.2 = .tc then
      (match g.2 with
        | .reg s => if s = barS then Finset.univ.erase 0 else ∅
        | .dma q => if IsXferSem q then {0} else ∅)
    else ∅
  unitless _ := False
  amount g _ _ := match g.2 with
    | .reg _ => 1
    | .dma _ => N
  payload g _ d := match g.2 with
    | .reg _ => barPay g.1.1 d
    | .dma q => if 36 ≤ q.val then recvPay m g.1.1 (semIdx q) else sendPay m g.1.1 (semIdx q)
  amount_pos g _ _ _ := by
    cases g.2 with
    | reg _ => exact Nat.one_pos
    | dma _ => exact N_pos

instance ringRd_payload_storable (g : GSem nD τ sig) (r : ℕ) (d : Fin 32) :
    BI.Storable (upEmb : UEmb _ 𝕄) ((ringRd (F := F) m).payload g r d) := by
  show BI.Storable upEmb (match g.2 with
    | .reg _ => barPay g.1.1 d
    | .dma q => if 36 ≤ q.val then recvPay m g.1.1 (semIdx q) else sendPay m g.1.1 (semIdx q))
  unfold barPay recvPay sendPay
  (repeat' split) <;> infer_instance

/-! ### The schedule's tables, cell by cell -/

section Sched
variable (c : Dev nD) (d : Fin 32)

theorem sendS_val : (sendS d).val = 4 + d.val := rfl
theorem recvS_val : (recvS d).val = 36 + d.val := rfl
theorem semIdx_send : semIdx (sendS d) = d := by
  apply Fin.ext; show (4 + d.val + 28) % 32 = d.val; have := d.isLt; omega
theorem semIdx_recv : semIdx (recvS d) = d := by
  apply Fin.ext; show (36 + d.val + 28) % 32 = d.val; have := d.isLt; omega
theorem isXfer_send (hd : d ≠ 0) : IsXferSem (sendS d) := by
  have : d.val ≠ 0 := fun h => hd (Fin.ext h)
  exact ⟨by show 4 < 4 + d.val; omega, by show 4 + d.val ≠ 36; have := d.isLt; omega⟩
theorem isXfer_recv (hd : d ≠ 0) : IsXferSem (recvS d) := by
  have : d.val ≠ 0 := fun h => hd (Fin.ext h)
  exact ⟨by show 4 < 36 + d.val; omega, by show 36 + d.val ≠ 36; omega⟩

theorem duties_bar : (ringRd (F := F) m).duties (barCell c) 0 = Finset.univ.erase 0 := by
  dsimp only [ringRd]; rw [if_pos ⟨rfl, rfl⟩, if_pos rfl]
theorem duties_send (hd : d ≠ 0) : (ringRd (F := F) m).duties (sendCell c d) 0 = {0} := by
  dsimp only [ringRd]; rw [if_pos ⟨rfl, rfl⟩, if_pos (isXfer_send d hd)]
theorem duties_recv (hd : d ≠ 0) : (ringRd (F := F) m).duties (recvCell c d) 0 = {0} := by
  dsimp only [ringRd]; rw [if_pos ⟨rfl, rfl⟩, if_pos (isXfer_recv d hd)]
theorem duties_later (g : GSem nD τ sig) : ∀ r, 1 ≤ r → (ringRd (F := F) m).duties g r = ∅ :=
  fun r hr => by dsimp only [ringRd]; rw [if_neg fun h => by omega]

theorem amount_bar (e : Fin 32) : (ringRd (F := F) m).amount (barCell c) 0 e = 1 := rfl
theorem amount_send (e : Fin 32) : (ringRd (F := F) m).amount (sendCell c d) 0 e = N := rfl
theorem amount_recv (e : Fin 32) : (ringRd (F := F) m).amount (recvCell c d) 0 e = N := rfl

theorem expect_bar : (ringRd (F := F) m).expect (barCell c) 0 = 31 := by
  unfold Schedule.expect Schedule.amountOf
  rw [duties_bar, Finset.sum_congr rfl fun e _ => amount_bar m c e, Finset.sum_const, smul_eq_mul, Nat.mul_one]
  decide
theorem expect_send (hd : d ≠ 0) : (ringRd (F := F) m).expect (sendCell c d) 0 = N := by
  unfold Schedule.expect Schedule.amountOf; rw [duties_send m c d hd, Finset.sum_singleton, amount_send]
theorem expect_recv (hd : d ≠ 0) : (ringRd (F := F) m).expect (recvCell c d) 0 = N := by
  unfold Schedule.expect Schedule.amountOf; rw [duties_recv m c d hd, Finset.sum_singleton, amount_recv]

theorem payload_bar (e : Fin 32) : (ringRd (F := F) m).payload (barCell c) 0 e = barPay c e := rfl
theorem payload_send (e : Fin 32) : (ringRd (F := F) m).payload (sendCell c d) 0 e = sendPay m c d := by
  dsimp only [ringRd]; rw [if_neg (by show ¬ 36 ≤ 4 + d.val; have := d.isLt; omega), semIdx_send]
theorem payload_recv (e : Fin 32) : (ringRd (F := F) m).payload (recvCell c d) 0 e = recvPay m c d := by
  dsimp only [ringRd]; rw [if_pos (by show 36 ≤ 36 + d.val; omega), semIdx_recv]

end Sched

/-! ## The cells by index, what each device owes at launch, the levels -/

/-- The offsets that carry traffic: 1 … 31. -/
abbrev offs : Finset (Fin 32) := Finset.univ.erase 0

/-- A device's 63 cells by index: 0 its barrier cell, `d` (1 … 31) its send cell `d`, `31 + d` its receive cell `d`. -/
def csem (k : Fin 63) : SemLoc sig :=
  if k.val = 0 then .reg barS
  else if h : k.val ≤ 31 then .dma (sendS ⟨k.val, by omega⟩)
  else .dma (recvS ⟨k.val - 31, by have := k.isLt; omega⟩)
abbrev kcell (ck : Dev nD × Fin 63) : GSem nD τ sig := ((ck.1 : Thread nD τ), csem ck.2)
def sIdx (d : Fin 32) : Fin 63 := ⟨d.val, by have := d.isLt; omega⟩
def rIdx (d : Fin 32) : Fin 63 := ⟨31 + d.val, by have := d.isLt; omega⟩

theorem kcell_bar (c : Dev nD) : kcell (c, 0) = barCell c := rfl
theorem kcell_send (c : Dev nD) (d : Fin 32) (hd : d ≠ 0) : kcell (c, sIdx d) = sendCell c d := by
  have h0 : d.val ≠ 0 := fun h => hd (Fin.ext h)
  have h1 : d.val ≤ 31 := by have := d.isLt; omega
  show ((c : Thread nD τ), csem (sIdx d)) = _
  unfold csem sIdx; simp only [h0, h1, if_false, dif_pos]
theorem kcell_recv (c : Dev nD) (d : Fin 32) (hd : d ≠ 0) : kcell (c, rIdx d) = recvCell c d := by
  have h0 : d.val ≠ 0 := fun h => hd (Fin.ext h)
  show ((c : Thread nD τ), csem (rIdx d)) = _
  unfold csem rIdx
  have h1 : ¬ (31 + d.val = 0) := by omega
  have h2 : ¬ (31 + d.val ≤ 31) := by omega
  simp only [h1, h2, if_false, dif_neg, not_false_eq_true]
  congr 2; apply Fin.ext; show 36 + (31 + d.val - 31) = 36 + d.val; omega

/-- What device `c` owes at launch: to every other device one unit on its barrier cell and one slot's credit on the
    receive cell of the slot `c` writes there. -/
def O₀ (c : Dev nD) : CellTallies nD τ sig Unit :=
  ∑ d ∈ offs, (tallyAt (barCell (peer c d)) () 1 + tallyAt (recvCell (peer c d) d) () N)

def L (g : GSem nD τ sig) : Finset Unit := if g.1.2 = .tc then {()} else ∅
/-- Barrier cells at level 1, receive cells (DMA semaphores 36 …) at level 2, everything else (staging, send) at level 0. -/
def lv (g : GSem nD τ sig) (_ : Unit) : ℕ :=
  match g.2 with
  | .reg _ => 1
  | .dma q => if 36 ≤ q.val then 2 else 0

/-! ## The ghost state a device's body starts from -/

/-- Every cell's invariant under the names the launch allocated them at, and every cell at round 0: persistent, held by all. -/
def records (K : Dev nD × Fin 63 → ℕ) : sProp 𝕄 :=
  iprop((bigSep Finset.univ fun ck : Dev nD × Fin 63 => cellInv ER (ringRd m) (K ck) (kcell ck))
    ∗ bigSep Finset.univ fun ck : Dev nD × Fin 63 => reached ER (kcell ck) 0)

instance records_persistent (K : Dev nD × Fin 63 → ℕ) : BI.Persistent (records m K) := by unfold records; infer_instance

/-- The tokens of the duties device `c` pays: for each offset `d`, the unit on the barrier of `peer c d`, the landing in
    its slot `d`, and the departure of its own copy `d`. -/
def payToks (c : Dev nD) : sProp 𝕄 :=
  bigSep offs fun d => iprop(dutyTok ER (barCell (peer c d)) 0 d ∗ dutyTok ER (recvCell (peer c d) d) 0 0 ∗ dutyTok ER (sendCell c d) 0 0)

/-- Device `c`'s positions: round 0 of each of its 63 cells, nothing taken. -/
def positions (c : Dev nD) : sProp 𝕄 := bigSep Finset.univ fun k : Fin 63 => atPos ER (kcell (c, k)) 0 ∅ 0

def ghost (K : Dev nD × Fin 63 → ℕ) (c : Dev nD) : sProp 𝕄 := iprop(records m K ∗ positions c ∗ payToks c)

/-- The launch credit of device `c`: 31 units on its barrier cell, one slot's credit on each receive cell. -/
def credits (c : Dev nD) : sProp 𝕄 :=
  iprop(cred (tallyAt (barCell c) () 31) ∗ bigSep offs fun d => cred (tallyAt (recvCell c d) () N))

/-- The two semaphores of the arrays' element 0, which no copy uses: at zero throughout. -/
def idleSems (c : Dev nD) : sProp 𝕄 := iprop(semVal (sendCell c 0) 0 ∗ semVal (recvCell c 0) 0)

/-- What device `c`'s body starts from, besides its buffers. -/
def start (c : Dev nD) : sProp 𝕄 :=
  iprop((∃ K, ghost m K c) ∗ idleSems c ∗ credits c ∗ levAts L lv)

end Cert.KernelIdeal.Proto

end
-- ==== Proof.Spec.lean ====
/-
  The two formulas of this certificate, over the extended reals and over plain coordinates.

  Row-wise layer normalisation of a 1024 x 16384 array X with a per-column scale Γ and shift B.
  * The one-device form: centre by the row mean m = (Σ_j X r j) / 16384, divide by the square root of the
    centred variance (Σ_j (X r j - m)²) / 16384 plus ε, scale and shift.
  * The distributed form: from the two row totals T0 = Σ_j X r j and T1 = Σ_j (X r j)² (each device adds the 32
    per-device partial sums it has gathered), the mean is T0 · 2⁻¹⁴, the variance T1 · 2⁻¹⁴ - mean², and the centred
    value is multiplied by the reciprocal square root of variance plus ε.
  The literals are kept as their bit patterns: 2⁻¹⁴ (0x38800000), 16384 (0x46800000), ε = f32(1e-5) (0x3727C5AC).
-/
import Idealize.ShloMosaic.PureOps.Ideal

noncomputable section

open scoped BigOperators

namespace Cert.LN

open Idealize.ShloMosaic

/-- 2⁻¹⁴, the reciprocal of the row length, as the distributed form multiplies by it. -/
abbrev cInv : EReal := Ideal.ofBits .f32 0x38800000#32
/-- 16384, the row length, as the one-device form divides by it. -/
abbrev cN : EReal := Ideal.ofBits .f32 0x46800000#32
/-- ε, the same word on both sides. -/
abbrev cEps : EReal := Ideal.ofBits .f32 0x3727C5AC#32

/-- The row mean of the one-device form. -/
def refMean (X : Fin 1024 → Fin 16384 → EReal) (r : Fin 1024) : EReal :=
  Ideal.div (∑ j : Fin 16384, X r j) cN

/-- The centred row variance of the one-device form. -/
def refVar (X : Fin 1024 → Fin 16384 → EReal) (r : Fin 1024) : EReal :=
  Ideal.div (∑ j : Fin 16384, (X r j - refMean X r) * (X r j - refMean X r)) cN

/-- The one-device form's result at row `r`, column `j`. -/
def refOut (X : Fin 1024 → Fin 16384 → EReal) (Γ B : Fin 16384 → EReal) (r : Fin 1024) (j : Fin 16384) : EReal :=
  Ideal.div (Γ j * (X r j - refMean X r)) (Ideal.sqrt (refVar X r + cEps)) + B j

/-- The distributed form's result from one entry `x`, its column's scale `g` and shift `b`, and the row's two totals. -/
def kerOut (x g b T0 T1 : EReal) : EReal :=
  g * ((x - T0 * cInv) * Ideal.rsqrt (T1 * cInv - (T0 * cInv) * (T0 * cInv) + cEps)) + b

/-- Column `k` of device `c`'s block of 512 columns, in the whole row of 16384. -/
def col (c : Fin 32) (k : Fin 512) : Fin 16384 := ⟨c.val * 512 + k.val, by have := c.isLt; have := k.isLt; omega⟩

end Cert.LN

end
-- ==== Proof.PayValue.lean ====
/-
  The kernel body's four pure values, read at an index over the extended reals.

  Each device holds a 1024 x 512 block x of the array. The body forms, per row r, the two partial sums
  Σ_k x r k and Σ_k (x r k)², stores them as a 1 x 1 x 1024 strip each, and, once the 32 pairs of partial sums are
  gathered in a 32 x 2 x 1024 array, adds them over the first axis into the row totals T0 and T1 and writes
  g k · ((x r k - T0 · 2⁻¹⁴) · rsqrt (T1 · 2⁻¹⁴ - (T0 · 2⁻¹⁴)² + ε)) + b k.
  Over the extended reals a change of format is the identity, so the four values read at an index are exactly
  these sums and this formula. The layout steps between them (a unit axis added or dropped, a column or a row
  repeated, one row cut out of two) each read their operand at the evident index.
-/
import proofs.«900824_g7700000000000825_dist_layernorm_colshard_i_m1024_n512_v7x_i32_bf16_1_alg».proof.Proof.Gen.KernelIdeal.Skeleton
import proofs.«900824_g7700000000000825_dist_layernorm_colshard_i_m1024_n512_v7x_i32_bf16_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Idealize.ShloMosaic Idealize.ShloMosaic.ValueIdx

/-! ## Layout steps read at an index given by coordinates -/

/-- An `[a]` array cast to `[1, 1, a]` reads, at `(u, v, i)`, the operand at `i`, whatever the two unit coordinates. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated over `b` columns reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first of two rows cut out reads, at `(u, e)`, the array at `(0, e)`. -/
theorem slice_row0_apply {α : Type} {n : ℕ} (X : (⟨2, ![2, n]⟩ : Shape).Idx → α)
    (h : (⟨2, ![2, n]⟩ : Shape).Slices ![0, 0] ⟨2, ![1, n]⟩) (u : Fin 1) (e : Fin n) :
    extractStridedSlice ⟨2, ![1, n]⟩ ![0, 0] X h (ix2 u e) = X (ix2 (0 : Fin 2) e) :=
  slice2_axis0_apply 0 X h u e (0 : Fin 2) (by have := u.isLt; show 0 = 0 + u.val; omega)

/-- The second of two rows cut out reads, at `(u, e)`, the array at `(1, e)`. -/
theorem slice_row1_apply {α : Type} {n : ℕ} (X : (⟨2, ![2, n]⟩ : Shape).Idx → α)
    (h : (⟨2, ![2, n]⟩ : Shape).Slices ![1, 0] ⟨2, ![1, n]⟩) (u : Fin 1) (e : Fin n) :
    extractStridedSlice ⟨2, ![1, n]⟩ ![1, 0] X h (ix2 u e) = X (ix2 (1 : Fin 2) e) :=
  slice2_axis0_apply 1 X h u e (1 : Fin 2) (by have := u.isLt; show 1 = 1 + u.val; omega)

/-! ## The two sums -/

/-- The sum of a matrix along its rows' entries: at row `r` it is `Σ_k` of the entries `(r, k)`. -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  exact Finset.sum_congr rfl fun k _ => congrArg src (funext fun c => by
    match c with
    | ⟨0, _⟩ => exact Fin.ext rfl
    | ⟨1, _⟩ => exact Fin.ext rfl)

/-- The sum of a stack of `n` matrices over the stack: at `(t, r)` it is `Σ_s` of the entries `(s, t, r)`. -/
theorem sum_axis0_apply {n a b : ℕ} (src : FVec Ideal ⟨3, ![n, a, b]⟩ .f32)
    (h : (⟨3, ![n, a, b]⟩ : Shape).Reduces [0] ⟨2, ![a, b]⟩) (hφ : FKind.Formats .f32)
    (hacc : (0x00000000#32 : BitVec FTy.f32.bits) = 0x00000000#32) (t : Fin a) (r : Fin b) :
    multiReduction (F := Ideal) .add [0] ⟨2, ![a, b]⟩ src 0x00000000#32 h hφ hacc (ix2 t r) = ∑ s : Fin n, src (ix3 s t r) := by
  refine (Ideal.multiReduction_add_single src 0x00000000#32 h hφ hacc (ix2 t r)).trans ?_
  exact Finset.sum_congr rfl fun s _ => congrArg src (funext fun c => by
    match c with
    | ⟨0, _⟩ => exact Fin.ext rfl
    | ⟨1, _⟩ => exact Fin.ext rfl
    | ⟨2, _⟩ => exact Fin.ext rfl)

/-- The reciprocal square root of a vector, at an index. -/
theorem rsqrt_apply {s : Shape} {φ : FTy} (a : FVec Ideal s φ) (i : s.Idx) : rsqrt a i = Ideal.rsqrt (a i) := rfl

/-- A literal word read as a scalar is the extended real it denotes. -/
theorem scalar_ofBits_eq (φ : FTy) (w : BitVec φ.bits) : Scalar.ofBits (F := Ideal) φ w = Ideal.ofBits φ w := rfl

/-! ## The four values -/

/-- The block as the body reads it: a cast to its own shape. -/
theorem pay1_eq (x : Vec Ideal S1024x512 .f32) : Gen.k0_pay1 (F := Ideal) x = x :=
  shapeCast_self x Gen.shapeCasts_S1024x512_S1024x512

/-- … so at every index it is the block's entry there. -/
theorem pay1_apply (x : Vec Ideal S1024x512 .f32) (i : S1024x512.Idx) : Gen.k0_pay1 (F := Ideal) x i = x i :=
  congrFun (pay1_eq x) i

/-- The first strip: the row sums of the block. -/
theorem pay2_apply (x : Vec Ideal S1024x512 .f32) (r : Fin 1024) :
    Gen.k0_pay2 (F := Ideal) x (ix3 0 0 r) = ∑ k : Fin 512, x (ix2 r k) := by
  unfold Gen.k0_pay2
  refine (shapeCast_a_11a_apply _ _ 0 0 r).trans ?_
  refine (truncf_apply (φ := .f32) (ψ := .bf16) _ Gen.bitsLt_bf16_f32 (ix1 r)).trans ?_
  refine (sum_axis1_apply _ _ _ rfl r).trans ?_
  rw [pay1_eq]

/-- The second strip: the row sums of the block's squares. -/
theorem pay3_apply (x : Vec Ideal S1024x512 .f32) (r : Fin 1024) :
    Gen.k0_pay3 (F := Ideal) x (ix3 0 0 r) = ∑ k : Fin 512, x (ix2 r k) * x (ix2 r k) := by
  unfold Gen.k0_pay3
  refine (shapeCast_a_11a_apply _ _ 0 0 r).trans ?_
  refine (truncf_apply (φ := .f32) (ψ := .bf16) _ Gen.bitsLt_bf16_f32 (ix1 r)).trans ?_
  refine (sum_axis1_apply _ _ _ rfl r).trans ?_
  rw [pay1_eq]
  rfl

/-- The result: the distributed form of the layer norm at `(r, k)`, from the gathered partial sums. -/
theorem pay4_apply (xv : FVec Ideal S1024x512 .f32) (comm : Vec Ideal S32x2x1024 .bf16) (g b : Vec Ideal S512 .f32)
    (r : Fin 1024) (k : Fin 512) :
    Gen.k0_pay4 (F := Ideal) xv comm g b (ix2 r k)
      = Cert.LN.kerOut (xv (ix2 r k)) (g (ix1 k)) (b (ix1 k))
          (∑ s : Fin 32, comm (ix3 s 0 r)) (∑ s : Fin 32, comm (ix3 s 1 r)) := by
  unfold Gen.k0_pay4 Cert.LN.kerOut
  simp only [truncf_apply, extf_apply, addf_apply, mulf_apply, subf_apply, rsqrt_apply, broadcast_apply, scalar_ofBits_eq,
    broadcastTo_1b_ab_apply, broadcastTo_a1_ab_apply, shapeCast_a_1a_apply, shapeCast_a_a1_apply, shapeCast_1a_a_apply,
    shapeCast_self, slice_row0_apply, slice_row1_apply]
  rw [sum_axis0_apply, sum_axis0_apply]
  simp only [extf_apply]

/-- info: 'Cert.KernelIdeal.PayValue.pay1_apply' depends on axioms: [propext, Classical.choice, Quot.sound] -/
#guard_msgs in #print axioms pay1_apply

/-- info: 'Cert.KernelIdeal.PayValue.pay2_apply' depends on axioms: [propext, Classical.choice, Quot.sound] -/
#guard_msgs in #print axioms pay2_apply

/-- info: 'Cert.KernelIdeal.PayValue.pay3_apply' depends on axioms: [propext, Classical.choice, Quot.sound] -/
#guard_msgs in #print axioms pay3_apply

/-- info: 'Cert.KernelIdeal.PayValue.pay4_apply' depends on axioms: [propext, Classical.choice, Quot.sound] -/
#guard_msgs in #print axioms pay4_apply

end Cert.KernelIdeal.PayValue

end
-- ==== Proof.LnMath.lean ====
/-
  The arithmetic that joins the two forms of the row-wise layer normalisation (Spec.lean).

  * The three literals as reals: 2⁻¹⁴ = 1/16384, 16384, and ε = 10995116 · 2⁻⁴⁰ > 0.
  * Over finite entries both forms are computed in ℝ. With n = 16384, S₁ = Σ x_j, S₂ = Σ x_j², μ = S₁/n:
        Σ (x_j - μ)² / n  =  S₂/n - μ²,
    because Σ (x_j - μ)² = S₂ - 2 μ S₁ + n μ² and n μ = S₁. The left side is a sum of squares over n, so it is
    ≥ 0 and the variance plus ε is > 0: its square root s is a positive real, the reciprocal square root is s⁻¹,
    and γ · ((x - μ) · s⁻¹) + β = (γ · (x - μ)) / s + β.
    Finiteness is needed: at an infinity the extended reals neither distribute nor cancel.
  * A row sum over 16384 columns is the sum over the 32 blocks of 512 columns, the blocks taken in any order:
    (c, k) ↦ 512 c + k is a bijection Fin 32 × Fin 512 ≃ Fin 16384, and addition is commutative.
-/
import proofs.«900824_g7700000000000825_dist_layernorm_colshard_i_m1024_n512_v7x_i32_bf16_1_alg».proof.Proof.Spec
import Mathlib.Data.EReal.Inv
import Mathlib.Data.EReal.Operations
import Mathlib.Algebra.BigOperators.Ring.Finset
import Mathlib.Algebra.Order.BigOperators.Ring.Finset
import Mathlib.Analysis.SpecialFunctions.Pow.Real
import Mathlib.Tactic.NormNum
import Mathlib.Tactic.Ring
import Mathlib.Tactic.Linarith

noncomputable section

open scoped BigOperators

namespace Cert.LN

open Idealize.ShloMosaic

/-! ### The literals -/

/-- The pattern 0x38800000 is 2⁻¹⁴ = 1/16384. -/
theorem cInv_eq : cInv = ((1 / 16384 : ℝ) : EReal) := by
  simp [cInv, Ideal.ofBits, Ideal.ieee, -EReal.coe_mul]; norm_num

/-- The pattern 0x46800000 is 2¹⁴ = 16384. -/
theorem cN_eq : cN = ((16384 : ℝ) : EReal) := by
  simp [cN, Ideal.ofBits, Ideal.ieee, -EReal.coe_mul]; norm_num

/-- The pattern 0x3727C5AC is (2²³ + 2606508) · 2⁻⁴⁰ = 10995116 / 2⁴⁰, the float nearest 10⁻⁵. -/
theorem cEps_eq : cEps = ((10995116 / 1099511627776 : ℝ) : EReal) := by
  simp [cEps, Ideal.ofBits, Ideal.ieee, -EReal.coe_mul]; norm_num

/-! ### Sums of reals inside the extended reals -/

/-- The inclusion of ℝ in the extended reals commutes with finite sums. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The centred second moment is the raw second moment minus the squared mean:
    Σ (x_j - μ)² / n = Σ x_j² / n - μ² for μ = Σ x_j / n, n = 16384. -/
theorem sum_sq_centred (f : Fin 16384 → ℝ) :
    (∑ j, (f j - (∑ j, f j) * (1 / 16384)) * (f j - (∑ j, f j) * (1 / 16384))) * (1 / 16384)
      = (∑ j, f j * f j) * (1 / 16384) - (∑ j, f j) * (1 / 16384) * ((∑ j, f j) * (1 / 16384)) := by
  generalize hS : ∑ j, f j = S
  have h : ∀ j, (f j - S * (1 / 16384)) * (f j - S * (1 / 16384))
      = f j * f j - (2 * (S * (1 / 16384))) * f j + S * (1 / 16384) * (S * (1 / 16384)) := by
    intro j; ring
  simp only [h, Finset.sum_add_distrib, Finset.sum_sub_distrib, ← Finset.mul_sum, Finset.sum_const,
    Finset.card_univ, Fintype.card_fin, nsmul_eq_mul, hS]
  push_cast
  ring

/-! ### The two forms agree on finite entries -/

theorem kerOut_eq_refOut (X : Fin 1024 → Fin 16384 → EReal) (Γ B : Fin 16384 → EReal)
    (hX : ∀ r j, X r j ≠ ⊤ ∧ X r j ≠ ⊥) (hΓ : ∀ j, Γ j ≠ ⊤ ∧ Γ j ≠ ⊥) (hB : ∀ j, B j ≠ ⊤ ∧ B j ≠ ⊥)
    (r : Fin 1024) (j : Fin 16384) :
    kerOut (X r j) (Γ j) (B j) (∑ j' : Fin 16384, X r j') (∑ j' : Fin 16384, X r j' * X r j')
      = refOut X Γ B r j := by
  obtain ⟨X', rfl⟩ : ∃ X' : Fin 1024 → Fin 16384 → ℝ, X = fun r j => (X' r j : EReal) :=
    ⟨fun r j => (X r j).toReal, by funext r j; exact (EReal.coe_toReal (hX r j).1 (hX r j).2).symm⟩
  obtain ⟨Γ', rfl⟩ : ∃ Γ' : Fin 16384 → ℝ, Γ = fun j => (Γ' j : EReal) :=
    ⟨fun j => (Γ j).toReal, by funext j; exact (EReal.coe_toReal (hΓ j).1 (hΓ j).2).symm⟩
  obtain ⟨B', rfl⟩ : ∃ B' : Fin 16384 → ℝ, B = fun j => (B' j : EReal) :=
    ⟨fun j => (B j).toReal, by funext j; exact (EReal.coe_toReal (hB j).1 (hB j).2).symm⟩
  -- the row's totals, mean and variance as reals
  set f : Fin 16384 → ℝ := X' r with hf
  set μ : ℝ := (∑ j', f j') * (1 / 16384) with hμ
  set V : ℝ := (∑ j', (f j' - μ) * (f j' - μ)) * (1 / 16384) + 10995116 / 1099511627776 with hV
  have hVpos : 0 < V := by
    have h0 : 0 ≤ ∑ j', (f j' - μ) * (f j' - μ) := Finset.sum_nonneg fun j' _ => mul_self_nonneg _
    have h1 : 0 ≤ (∑ j', (f j' - μ) * (f j' - μ)) * (1 / 16384) := mul_nonneg h0 (by norm_num)
    have h2 : (0 : ℝ) < 10995116 / 1099511627776 := by norm_num
    linarith
  have hsqrt : 0 < Real.sqrt V := Real.sqrt_pos.mpr hVpos
  -- the distributed form
  have hker : kerOut ((X' r j : ℝ) : EReal) (Γ' j : EReal) (B' j : EReal)
      (∑ j' : Fin 16384, ((X' r j' : ℝ) : EReal)) (∑ j' : Fin 16384, ((X' r j' : ℝ) : EReal) * ((X' r j' : ℝ) : EReal))
      = ((Γ' j * ((f j - μ) * (Real.sqrt V)⁻¹) + B' j : ℝ) : EReal) := by
    have hV' : (∑ j', f j' * f j') * (1 / 16384) - μ * μ + 10995116 / 1099511627776 = V := by
      rw [hV, hμ, sum_sq_centred]
    unfold kerOut
    rw [cInv_eq, cEps_eq]
    simp only [← EReal.coe_mul, ← coe_sum, ← EReal.coe_sub, ← EReal.coe_add]
    rw [show (∑ j', X' r j' * X' r j') * (1 / 16384) - (∑ j', X' r j') * (1 / 16384) * ((∑ j', X' r j') * (1 / 16384))
        + 10995116 / 1099511627776 = V from hV']
    rw [Ideal.rsqrt_coe, if_neg (not_lt.mpr hVpos.le), if_neg hVpos.ne']
    simp only [← EReal.coe_mul, ← EReal.coe_sub, ← EReal.coe_add]
    rfl
  -- the one-device form
  have href : refOut (fun r j => ((X' r j : ℝ) : EReal)) (fun j => (Γ' j : EReal)) (fun j => (B' j : EReal)) r j
      = ((Γ' j * (f j - μ) * (1 / Real.sqrt V) + B' j : ℝ) : EReal) := by
    have hmean : refMean (fun r j => ((X' r j : ℝ) : EReal)) r = (μ : EReal) := by
      unfold refMean
      rw [cN_eq, Ideal.div_coe (by norm_num), ← coe_sum, ← EReal.coe_mul]
    have hvar : refVar (fun r j => ((X' r j : ℝ) : EReal)) r + cEps = (V : EReal) := by
      unfold refVar
      rw [hmean, cN_eq, cEps_eq, Ideal.div_coe (by norm_num)]
      simp only [← EReal.coe_mul, ← coe_sum, ← EReal.coe_sub, ← EReal.coe_add]
      rfl
    unfold refOut
    rw [hvar, hmean, Ideal.sqrt_coe, if_neg (not_lt.mpr hVpos.le), Ideal.div_coe hsqrt.ne']
    simp only [← EReal.coe_mul, ← EReal.coe_sub, ← EReal.coe_add]
    rfl
  rw [hker, href]
  refine congrArg (fun t : ℝ => (t : EReal)) ?_
  rw [one_div]
  ring

/-! ### A row sum by blocks -/

/-- Block `c`, offset `k` ↦ column `512 c + k`: the 32 blocks of 512 columns tile the row of 16384 exactly. -/
def colEquiv : Fin 32 × Fin 512 ≃ Fin 16384 where
  toFun p := col p.1 p.2
  invFun j := (⟨j.val / 512, by have := j.isLt; omega⟩, ⟨j.val % 512, Nat.mod_lt _ (by norm_num)⟩)
  left_inv p := by
    obtain ⟨⟨c, hc⟩, ⟨k, hk⟩⟩ := p
    simp only [col, Prod.mk.injEq, Fin.mk.injEq]
    constructor <;> omega
  right_inv j := by
    obtain ⟨j, hj⟩ := j
    simp only [col, Fin.mk.injEq]
    omega

theorem sum_blocks (f : Fin 16384 → EReal) (σ : Fin 32 → Fin 32) (hσ : Function.Bijective σ) :
    ∑ s : Fin 32, ∑ k : Fin 512, f (col (σ s) k) = ∑ j : Fin 16384, f j := by
  have h1 := (Equiv.ofBijective σ hσ).sum_comp (fun c => ∑ k : Fin 512, f (col c k))
  simp only [Equiv.ofBijective_apply] at h1
  rw [h1, ← Fintype.sum_prod_type']
  exact colEquiv.sum_comp f

/-- info: 'Cert.LN.kerOut_eq_refOut' depends on axioms: [propext, Classical.choice, Quot.sound] -/
#guard_msgs in #print axioms kerOut_eq_refOut

/-- info: 'Cert.LN.sum_blocks' depends on axioms: [propext, Classical.choice, Quot.sound] -/
#guard_msgs in #print axioms sum_blocks

end Cert.LN

end
-- ==== Proof.RefRun.lean ====
/-
  The one-device layer normalisation, run.

  The program is a straight line of 45 whole-array operations: seven compute the row mean column
  m = (Σ_j X r j) / 16384; the next twenty-three are the variance and its closing selection — the mean again, the centred array
  X - m, its square, the row sums of the squares divided by 16384 - 0, the comparison 16384 - 0 > 0 and the selection
  between that quotient and a constant column —; the last fifteen assemble
  (Γ · (X - m)) / sqrt(var + ε) + B and change the format of the result.
  Every execution terminates with the result array at the composition of those operations' functions over the three
  argument arrays (`refTerm`), the argument arrays unchanged.
-/
import proofs.«900824_g7700000000000825_dist_layernorm_colshard_i_m1024_n512_v7x_i32_bf16_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The composed term, stage by stage -/

/-- The column of row means: the row sums (from the zero word) over the row length 16384. -/
def meanCol {F : FTy → Type} [FloatOps F] (X : (⟨S1024x16384, .f32⟩ : BufTy).Contents (Elt F)) :
    (⟨S1024x1, .f32⟩ : BufTy).Contents (Elt F) :=
  Host.divf
    (broadcastInDim S1024x1 ![0] bcast_S1024_S1024x1_0
      (Host.reduceAdd X (constant S_ .f32 0x00000000#32) reducesTo_S1024x16384_S1024_d1 h_S_))
    (broadcastInDim S1024x1 ![] bcast_S_S1024x1 (constant S_ .f32 0x46800000#32))

/-- The array less its row means. -/
def centred {F : FTy → Type} [FloatOps F] (X : (⟨S1024x16384, .f32⟩ : BufTy).Contents (Elt F)) :
    (⟨S1024x16384, .f32⟩ : BufTy).Contents (Elt F) :=
  subf X (broadcastInDim S1024x16384 ![0, 1] bcast_S1024x1_S1024x16384_0_1 (meanCol X))

/-- The variance's divisor: the row length less the correction 0 (an integer made a float). -/
def divisor {F : FTy → Type} [FloatOps F] : (⟨S_, .f32⟩ : BufTy).Contents (Elt F) :=
  subf (constant S_ .f32 0x46800000#32) (sitofp .f32 (constantI S_ 32 0#32))

/-- The column of row variances: where the divisor is positive, the row sums of the squared centred entries over the
    divisor; elsewhere the constant word 0x7FC00000. -/
def varCol {F : FTy → Type} [FloatOps F] (X : (⟨S1024x16384, .f32⟩ : BufTy).Contents (Elt F)) :
    (⟨S1024x1, .f32⟩ : BufTy).Contents (Elt F) :=
  select
    (broadcastInDim S1024x1 ![] bcast_S_S1024x1 (cmpf .ogt (divisor (F := F)) (constant S_ .f32 0x00000000#32)))
    (Host.divf
      (broadcastInDim S1024x1 ![0] bcast_S1024_S1024x1_0
        (Host.reduceAdd (mulf (centred X) (centred X)) (constant S_ .f32 0x00000000#32)
          reducesTo_S1024x16384_S1024_d1 h_S_))
      (broadcastInDim S1024x1 ![] bcast_S_S1024x1 (divisor (F := F))))
    (broadcastInDim S1024x1 ![] bcast_S_S1024x1 (id (constant S_ .f32 0x7FC00000#32)))

/-- The result array: Γ times the centred array, over the square root of variance plus ε, plus B, in the result's
    format. -/
def refTerm {F : FTy → Type} [FloatOps F] (X : (⟨S1024x16384, .f32⟩ : BufTy).Contents (Elt F))
    (Γ B : (⟨S16384, .f32⟩ : BufTy).Contents (Elt F)) : (⟨S1024x16384, .bf16⟩ : BufTy).Contents (Elt F) :=
  truncf .bf16
    (addf
      (Host.divf
        (mulf
          (broadcastInDim S1024x16384 ![0, 1] bcast_S1x16384_S1024x16384_0_1
            (broadcastInDim S1x16384 ![1] bcast_S16384_S1x16384_1 Γ))
          (centred X))
        (broadcastInDim S1024x16384 ![0, 1] bcast_S1024x1_S1024x16384_0_1
          (Host.sqrt (addf (varCol X)
            (broadcastInDim S1024x1 ![] bcast_S_S1024x1 (constant S_ .f32 0x3727C5AC#32))))))
      (broadcastInDim S1024x16384 ![0, 1] bcast_S1x16384_S1024x16384_0_1
        (broadcastInDim S1x16384 ![1] bcast_S16384_S1x16384_1 B)))
    bitsLt_bf16_f32

/-! ## The straight line -/

/-- The 45 operations in order: the seven before the variance, the variance function's twenty over its own arrays, the
    selection function's three over its own, the fifteen after. -/
abbrev ops {F : FTy → Type} [FloatOps F] : List (HloOp τ sig (Elt F)) :=
  [
    nullary main_cst (constant S_ .f32 0x00000000#32),
    binary main_arg0 main_cst main_v0 ((fun x v => Host.reduceAdd x v reducesTo_S1024x16384_S1024_d1 h_S_) : (⟨S1024x16384, .f32⟩ : BufTy).Contents (Elt F) → (⟨S_, .f32⟩ : BufTy).Contents (Elt F) → (⟨S1024, .f32⟩ : BufTy).Contents (Elt F)),
    unary main_v0 main_v1 (broadcastInDim S1024x1 ![0] bcast_S1024_S1024x1_0 : (⟨S1024, .f32⟩ : BufTy).Contents (Elt F) → (⟨S1024x1, .f32⟩ : BufTy).Contents (Elt F)),
    nullary main_cst_0 (constant S_ .f32 0x46800000#32),
    unary main_cst_0 main_v2 (broadcastInDim S1024x1 ![] bcast_S_S1024x1 : (⟨S_, .f32⟩ : BufTy).Contents (Elt F) → (⟨S1024x1, .f32⟩ : BufTy).Contents (Elt F)),
    binary main_v1 main_v2 main_v3 (Host.divf : (⟨S1024x1, .f32⟩ : BufTy).Contents (Elt F) → (⟨S1024x1, .f32⟩ : BufTy).Contents (Elt F) → (⟨S1024x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S1024x16384_S1024_d1 h_S_),
    TRef.unary main_call0.v0 main_call0.v1 (broadcastInDim S1024x1 ![0] bcast_S1024_S1024x1_0),
    TRef.nullary main_call0.cst_0 (constant S_ .f32 0x46800000#32),
    TRef.unary main_call0.cst_0 main_call0.v2 (broadcastInDim S1024x1 ![] bcast_S_S1024x1),
    TRef.binary main_call0.v1 main_call0.v2 main_call0.v3 Host.divf,
    TRef.unary main_call0.v3 main_call0.v4 (broadcastInDim S1024x16384 ![0, 1] bcast_S1024x1_S1024x16384_0_1),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1024x16384_S1024_d1 h_S_),
    TRef.unary main_call0.v9 main_call0.v10 (broadcastInDim S1024x1 ![0] bcast_S1024_S1024x1_0),
    TRef.unary main_call0.v8 main_call0.v11 (broadcastInDim S1024x1 ![] bcast_S_S1024x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1024x1 ![] bcast_S_S1024x1),
    TRef.ternary main_call0.v13 main_call0.v12 main_call0.call0.v1 main_call0.call0.v2 (fun p a b => select (broadcastInDim S1024x1 ![] bcast_S_S1024x1 p) a b),
    unary main_v3 main_v5 (broadcastInDim S1024x16384 ![0, 1] bcast_S1024x1_S1024x16384_0_1 : (⟨S1024x1, .f32⟩ : BufTy).Contents (Elt F) → (⟨S1024x16384, .f32⟩ : BufTy).Contents (Elt F)),
    binary main_arg0 main_v5 main_v6 (subf : (⟨S1024x16384, .f32⟩ : BufTy).Contents (Elt F) → (⟨S1024x16384, .f32⟩ : BufTy).Contents (Elt F) → (⟨S1024x16384, .f32⟩ : BufTy).Contents (Elt F)),
    unary main_arg1 main_v7 (broadcastInDim S1x16384 ![1] bcast_S16384_S1x16384_1 : (⟨S16384, .f32⟩ : BufTy).Contents (Elt F) → (⟨S1x16384, .f32⟩ : BufTy).Contents (Elt F)),
    unary main_v7 main_v8 (broadcastInDim S1024x16384 ![0, 1] bcast_S1x16384_S1024x16384_0_1 : (⟨S1x16384, .f32⟩ : BufTy).Contents (Elt F) → (⟨S1024x16384, .f32⟩ : BufTy).Contents (Elt F)),
    binary main_v8 main_v6 main_v9 (mulf : (⟨S1024x16384, .f32⟩ : BufTy).Contents (Elt F) → (⟨S1024x16384, .f32⟩ : BufTy).Contents (Elt F) → (⟨S1024x16384, .f32⟩ : BufTy).Contents (Elt F)),
    nullary main_cst_1 (constant S_ .f32 0x3727C5AC#32),
    unary main_cst_1 main_v10 (broadcastInDim S1024x1 ![] bcast_S_S1024x1 : (⟨S_, .f32⟩ : BufTy).Contents (Elt F) → (⟨S1024x1, .f32⟩ : BufTy).Contents (Elt F)),
    binary main_v4 main_v10 main_v11 (addf : (⟨S1024x1, .f32⟩ : BufTy).Contents (Elt F) → (⟨S1024x1, .f32⟩ : BufTy).Contents (Elt F) → (⟨S1024x1, .f32⟩ : BufTy).Contents (Elt F)),
    unary main_v11 main_v12 (Host.sqrt : (⟨S1024x1, .f32⟩ : BufTy).Contents (Elt F) → (⟨S1024x1, .f32⟩ : BufTy).Contents (Elt F)),
    unary main_v12 main_v13 (broadcastInDim S1024x16384 ![0, 1] bcast_S1024x1_S1024x16384_0_1 : (⟨S1024x1, .f32⟩ : BufTy).Contents (Elt F) → (⟨S1024x16384, .f32⟩ : BufTy).Contents (Elt F)),
    binary main_v9 main_v13 main_v14 (Host.divf : (⟨S1024x16384, .f32⟩ : BufTy).Contents (Elt F) → (⟨S1024x16384, .f32⟩ : BufTy).Contents (Elt F) → (⟨S1024x16384, .f32⟩ : BufTy).Contents (Elt F)),
    unary main_arg2 main_v15 (broadcastInDim S1x16384 ![1] bcast_S16384_S1x16384_1 : (⟨S16384, .f32⟩ : BufTy).Contents (Elt F) → (⟨S1x16384, .f32⟩ : BufTy).Contents (Elt F)),
    unary main_v15 main_v16 (broadcastInDim S1024x16384 ![0, 1] bcast_S1x16384_S1024x16384_0_1 : (⟨S1x16384, .f32⟩ : BufTy).Contents (Elt F) → (⟨S1024x16384, .f32⟩ : BufTy).Contents (Elt F)),
    binary main_v14 main_v16 main_v17 (addf : (⟨S1024x16384, .f32⟩ : BufTy).Contents (Elt F) → (⟨S1024x16384, .f32⟩ : BufTy).Contents (Elt F) → (⟨S1024x16384, .f32⟩ : BufTy).Contents (Elt F)),
    unary main_v17 main_v18 ((truncf .bf16 · bitsLt_bf16_f32) : (⟨S1024x16384, .f32⟩ : BufTy).Contents (Elt F) → (⟨S1024x16384, .bf16⟩ : BufTy).Contents (Elt F)) ]

set_option maxRecDepth 2048 in
/-- The program is that line: both functions' bodies put at their calls, the sequencing re-associated. -/
theorem main_eq {F : FTy → Type} [FloatOps F] (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub {F : FTy → Type} [FloatOps F] :
    (ops : List (HloOp τ sig (Elt F))).Forall fun op => op.bufs ⊆ tcRefs τ sig :=
  ⟨
    nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub ..⟩

/-- On the device, for any float values, from any memory with zero counters: every weakly fair execution terminates
    with the result array at `refTerm` of the three argument arrays as they were, and those unchanged. -/
theorem run {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = refTerm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v18).trans (by after_results_simp; rfl),
      (h c main_arg0).trans (by after_results_simp),
      (h c main_arg1).trans (by after_results_simp),
      (h c main_arg2).trans (by after_results_simp)⟩)
    (run_seq scopedRefs_eq scopedSems_eq defs main (fun _ => ops) main_eq (fun _ => ops_sub) m ρ)

/-- info: 'Cert.ReferenceIdeal.RefValue.run' depends on axioms: [propext, Classical.choice, Quot.sound] -/
#guard_msgs in #print axioms run

end Cert.ReferenceIdeal.RefValue

end
-- ==== Proof.RefValue.lean ====
/-
  The one-device layer normalisation's result, read at an entry.

  `refTerm X Γ B` composes whole-array operations; at row r and column j it is the formula `Cert.LN.refOut`:
  * a row sum from the zero word is Σ_j X r j, so the column of means reads (Σ_j X r j) / 16384 at row r;
  * the centred array reads X r j - mean r;
  * the variance's divisor 16384 - 0 is 16384 (the integer 0 made a float is the real 0), which is positive (the word
    0x46800000 is the real 16384), so the selection takes the quotient (Σ_j (X r j - mean r)²) / 16384 and never the
    other constant;
  * a column copied along the rows, and a row copied down the columns, read their one entry of that row or column;
  * the change of format is the identity on the extended reals.
-/
import proofs.«900824_g7700000000000825_dist_layernorm_colshard_i_m1024_n512_v7x_i32_bf16_1_alg».proof.Proof.RefRun
import proofs.«900824_g7700000000000825_dist_layernorm_colshard_i_m1024_n512_v7x_i32_bf16_1_alg».proof.Proof.Spec
import Idealize.ShloMosaic.Lib.IdealHost
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic

open Idealize.ShloMosaic.ValueIdx
open scoped BigOperators

/-- The word 0x46800000 is the real 16384. -/
theorem cN_eq : Ideal.ofBits .f32 0x46800000#32 = ((16384 : ℝ) : EReal) := by
  simp [Ideal.ofBits, Ideal.ieee, -EReal.coe_mul]; norm_num

/-- The row length is positive. -/
theorem cN_pos : (0 : EReal) < Ideal.ofBits .f32 0x46800000#32 := by
  rw [cN_eq]; exact EReal.coe_pos.mpr (by norm_num)

/-- The host's row sums from the zero word: at row `r`, the sum of the row's 16384 entries. -/
theorem rowSum_apply (Y : (⟨2, ![1024, 16384]⟩ : Shape).Idx → EReal) (r : Fin 1024) :
    Host.reduceAdd (F := Ideal) (φ := .f32) Y (constant S_ .f32 0x00000000#32) reducesTo_S1024x16384_S1024_d1 h_S_ (ix1 r)
      = ∑ j : Fin 16384, Y (ix2 r j) := by
  have hR : Shape.Reduces S1024x16384 [1] S1024 := by decide
  rw [hostReduceAdd_apply, Ideal.hostReduceAdd_single reducesTo_S1024x16384_S1024_d1 hR, constant_apply,
    Ideal.ofBits_zero_f32, zero_add]
  refine Finset.sum_congr rfl fun k _ => congrArg Y (funext fun c => ?_)
  match c with
  | ⟨0, _⟩ => rfl
  | ⟨1, _⟩ => rfl

/-- A column of 1024 entries made a 1024 x 1 array reads the column's entry of the row. -/
theorem col_apply (v : (⟨1, ![1024]⟩ : Shape).Idx → EReal) (r : Fin 1024) (q : Fin 1) :
    broadcastInDim S1024x1 ![0] bcast_S1024_S1024x1_0 v (ix2 r q) = v (ix1 r) :=
  broadcastInDim_apply _ _ _ _ _ (fun a => match a with | ⟨0, _⟩ => rfl)

/-- A 1024 x 1 array copied along the rows reads the row's one entry. -/
theorem rows_apply (v : (⟨2, ![1024, 1]⟩ : Shape).Idx → EReal) (r : Fin 1024) (j : Fin 16384) :
    broadcastInDim S1024x16384 ![0, 1] bcast_S1024x1_S1024x16384_0_1 v (ix2 r j) = v (ix2 r (0 : Fin 1)) :=
  broadcastInDim_apply _ _ _ _ _ (fun a => match a with | ⟨0, _⟩ => rfl | ⟨1, _⟩ => rfl)

/-- A row of 16384 entries made a 1 x 16384 array and copied down the rows reads the row's entry of the column. -/
theorem cols_apply (v : (⟨1, ![16384]⟩ : Shape).Idx → EReal) (r : Fin 1024) (j : Fin 16384) :
    broadcastInDim S1024x16384 ![0, 1] bcast_S1x16384_S1024x16384_0_1
        (broadcastInDim S1x16384 ![1] bcast_S16384_S1x16384_1 v) (ix2 r j) = v (ix1 j) := by
  rw [broadcastInDim_apply _ _ _ (ix2 r j) (ix2 (0 : Fin 1) j) (fun a => match a with | ⟨0, _⟩ => rfl | ⟨1, _⟩ => rfl),
    broadcastInDim_apply _ _ _ (ix2 (0 : Fin 1) j) (ix1 j) (fun a => match a with | ⟨0, _⟩ => rfl)]

/-- The host's square root at an entry. -/
theorem hostSqrt_apply {s : Shape} (a : FVec Ideal s .f32) (i : s.Idx) : Host.sqrt a i = Ideal.sqrt (a i) := rfl

/-- The column of row means at a row is the row's mean. -/
theorem meanCol_apply (X : (⟨2, ![1024, 16384]⟩ : Shape).Idx → EReal) (r : Fin 1024) (q : Fin 1) :
    meanCol (F := Ideal) X (ix2 r q) = Cert.LN.refMean (fun r j => X (ix2 r j)) r := by
  unfold meanCol
  rw [hostDivf_apply, col_apply, rowSum_apply, broadcastInDim_scalar_apply, constant_apply]
  rfl

/-- The centred array at an entry: the entry less its row's mean. -/
theorem centred_apply (X : (⟨2, ![1024, 16384]⟩ : Shape).Idx → EReal) (r : Fin 1024) (j : Fin 16384) :
    centred (F := Ideal) X (ix2 r j) = X (ix2 r j) - Cert.LN.refMean (fun r j => X (ix2 r j)) r := by
  unfold centred
  rw [subf_apply, rows_apply, meanCol_apply]

/-- The variance's divisor is the row length: the integer 0 made a float is 0. -/
theorem divisor_apply : divisor (F := Ideal) ix0 = Ideal.ofBits .f32 0x46800000#32 := by
  unfold divisor
  rw [subf_apply, constant_apply, sitofp_apply]
  show Ideal.ofBits .f32 0x46800000#32 - (((0#32 : BitVec 32).toInt : ℝ) : EReal) = _
  simp

/-- The column of row variances at a row is the row's centred variance: the divisor is positive, so the selection
    takes the quotient. -/
theorem varCol_apply (X : (⟨2, ![1024, 16384]⟩ : Shape).Idx → EReal) (r : Fin 1024) (q : Fin 1) :
    varCol (F := Ideal) X (ix2 r q) = Cert.LN.refVar (fun r j => X (ix2 r j)) r := by
  have hc : FloatOps.cmpf (F := Ideal) (φ := .f32) .ogt (Ideal.ofBits .f32 0x46800000#32) 0 = 1#1 := by
    show BitVec.ofBool (decide ((0 : EReal) < Ideal.ofBits .f32 0x46800000#32)) = 1#1
    rw [decide_eq_true cN_pos]; rfl
  unfold varCol
  rw [select_apply, broadcastInDim_scalar_apply, cmpf_apply, divisor_apply, constant_apply, Ideal.ofBits_zero_f32, hc,
    select_one, hostDivf_apply, col_apply, rowSum_apply, broadcastInDim_scalar_apply, divisor_apply]
  show _ = Ideal.div (∑ j : Fin 16384, (X (ix2 r j) - Cert.LN.refMean (fun r j => X (ix2 r j)) r)
      * (X (ix2 r j) - Cert.LN.refMean (fun r j => X (ix2 r j)) r)) (Ideal.ofBits .f32 0x46800000#32)
  refine congrArg (fun s => Ideal.div s (Ideal.ofBits .f32 0x46800000#32)) (Finset.sum_congr rfl fun j _ => ?_)
  rw [mulf_apply, centred_apply]

/-- The result array at row `r`, column `j` is the one-device formula there. -/
theorem refTerm_apply (X : (⟨2, ![1024, 16384]⟩ : Shape).Idx → EReal) (Γ B : (⟨1, ![16384]⟩ : Shape).Idx → EReal)
    (r : Fin 1024) (j : Fin 16384) :
    refTerm (F := Ideal) X Γ B (ix2 r j)
      = Cert.LN.refOut (fun r j => X (ix2 r j)) (fun j => Γ (ix1 j)) (fun j => B (ix1 j)) r j := by
  unfold refTerm
  rw [truncf_apply, addf_apply, hostDivf_apply, mulf_apply, cols_apply, cols_apply, centred_apply, rows_apply,
    hostSqrt_apply, addf_apply, varCol_apply, broadcastInDim_scalar_apply, constant_apply]
  rfl

/-- info: 'Cert.ReferenceIdeal.RefValue.refTerm_apply' depends on axioms: [propext, Classical.choice, Quot.sound] -/
#guard_msgs in #print axioms refTerm_apply

end Cert.ReferenceIdeal.RefValue

end
-- ==== Proof.ValueBridge.lean ====
/-
  Each device's result is its block of the one-device result.

  The array X has 1024 rows and 16384 columns; device c of 32 holds the columns 512 c … 512 c + 511 of X and of the
  scale Γ and shift B. Slot s of the gathered array of device c holds the two partial row sums of the device s places
  before c on the ring. Going once round the ring from c meets every device exactly once, and the 32 blocks of 512
  columns tile a row, so adding the 32 partial sums gives the row's total Σ_j X r j, and likewise Σ_j (X r j)².
  From these two totals the distributed form equals the one-device form at every finite entry, and column k of
  device c's block is column 512 c + k of the whole. So device c's result is block c of the one-device result.
-/
import proofs.«900824_g7700000000000825_dist_layernorm_colshard_i_m1024_n512_v7x_i32_bf16_1_alg».proof.Proof.PayValue
import proofs.«900824_g7700000000000825_dist_layernorm_colshard_i_m1024_n512_v7x_i32_bf16_1_alg».proof.Proof.LnMath
import proofs.«900824_g7700000000000825_dist_layernorm_colshard_i_m1024_n512_v7x_i32_bf16_1_alg».proof.Proof.RefValue
import proofs.«900824_g7700000000000825_dist_layernorm_colshard_i_m1024_n512_v7x_i32_bf16_1_alg».proof.Proof.Spec
import proofs.«900824_g7700000000000825_dist_layernorm_colshard_i_m1024_n512_v7x_i32_bf16_1_alg».proof.Proof.Ring
import Idealize.ShloMosaic.Lib.Layout
import Idealize.ShloMosaic.Lib.ValueIdx
import Mathlib.Data.Fintype.Card

noncomputable section

open scoped BigOperators

namespace Cert.KernelIdeal.ValueBridge

open Idealize.ShloMosaic Idealize.ShloMosaic.ValueIdx

/-! ## The blocks and the gathered array -/

/-- Device `c`'s 512 columns of the array. -/
abbrev xb (X : (⟨2, ![1024, 16384]⟩ : Shape).Idx → EReal) (c : Dev nD) : Vec Ideal S1024x512 .f32 :=
  Layout.block ⟨2, ![1024, 512]⟩ ⟨2, ![1024, 16384]⟩ 1 32 c X

/-- Device `c`'s 512 entries of a row vector (the scale or the shift). -/
abbrev vb (V : (⟨1, ![16384]⟩ : Shape).Idx → EReal) (c : Dev nD) : Vec Ideal S512 .f32 :=
  Layout.block ⟨1, ![512]⟩ ⟨1, ![16384]⟩ 0 32 c V

/-- The gathered array of device `c`: slot `s`, row 0, holds the row sums of the block of the device `s` places before
    `c`, and row 1 the row sums of that block's squares. -/
def gath (x : Dev nD → Vec Ideal S1024x512 .f32) (c : Dev nD) : S32x2x1024.Idx → EReal := fun i =>
  if (i 1).val = 0 then Gen.k0_pay2 (F := Ideal) (x (Proto.orig c ⟨(i 0).val, (i 0).isLt⟩)) (ValueIdx.ix3 0 0 ⟨(i 2).val, (i 2).isLt⟩)
  else Gen.k0_pay3 (F := Ideal) (x (Proto.orig c ⟨(i 0).val, (i 0).isLt⟩)) (ValueIdx.ix3 0 0 ⟨(i 2).val, (i 2).isLt⟩)

/-- Row 0 of slot `s`: the row sums of the block `s` places before `c`. -/
theorem gath_row0 (x : Dev nD → Vec Ideal S1024x512 .f32) (c : Dev nD) (s : Fin 32) (r : Fin 1024) :
    gath x c (ix3 s (0 : Fin 2) r) = Gen.k0_pay2 (F := Ideal) (x (Proto.orig c s)) (ix3 0 0 r) := by
  unfold gath; exact if_pos rfl

/-- Row 1 of slot `s`: the row sums of that block's squares. -/
theorem gath_row1 (x : Dev nD → Vec Ideal S1024x512 .f32) (c : Dev nD) (s : Fin 32) (r : Fin 1024) :
    gath x c (ix3 s (1 : Fin 2) r) = Gen.k0_pay3 (F := Ideal) (x (Proto.orig c s)) (ix3 0 0 r) := by
  unfold gath; exact if_neg Nat.one_ne_zero

/-! ## Where a block's entry lies in the whole -/

/-- Entry `(r, k)` of block `c` is entry `(r, 512 c + k)` of the whole array. -/
theorem idx_block2 (h : Layout.Tiles ⟨2, ![1024, 512]⟩ ⟨2, ![1024, 16384]⟩ 1 32) (c : Dev nD) (r : Fin 1024) (k : Fin 512) :
    h.idx c (ix2 r k) = ix2 r (Cert.LN.col c k) :=
  funext fun a => match a with
    | ⟨0, _⟩ => Fin.ext rfl
    | ⟨1, _⟩ => Fin.ext rfl

/-- Entry `k` of block `c` of a row vector is entry `512 c + k` of the whole. -/
theorem idx_block1 (h : Layout.Tiles ⟨1, ![512]⟩ ⟨1, ![16384]⟩ 0 32) (c : Dev nD) (k : Fin 512) :
    h.idx c (ix1 k) = ix1 (Cert.LN.col c k) :=
  funext fun a => match a with
    | ⟨0, _⟩ => Fin.ext rfl

theorem xb_apply (X : (⟨2, ![1024, 16384]⟩ : Shape).Idx → EReal) (c : Dev nD) (r : Fin 1024) (k : Fin 512) :
    xb X c (ix2 r k) = X (ix2 r (Cert.LN.col c k)) :=
  congrArg X (idx_block2 _ c r k)

theorem vb_apply (V : (⟨1, ![16384]⟩ : Shape).Idx → EReal) (c : Dev nD) (k : Fin 512) :
    vb V c (ix1 k) = V (ix1 (Cert.LN.col c k)) :=
  congrArg V (idx_block1 _ c k)

/-! ## Once round the ring -/

/-- The devices `s` places before `c`, for `s = 0 … 31`, are all the devices, each once. -/
theorem orig_bijective (c : Dev nD) : Function.Bijective (fun s : Fin 32 => (Proto.orig c s : Fin 32)) :=
  Function.Injective.bijective_of_finite fun s s' h => Proto.orig_inj c s s' h

/-- The 32 gathered partial row sums add up to the row's total. -/
theorem total0 (X : (⟨2, ![1024, 16384]⟩ : Shape).Idx → EReal) (c : Dev nD) (r : Fin 1024) :
    ∑ s : Fin 32, gath (xb X) c (ix3 s (0 : Fin 2) r) = ∑ j : Fin 16384, X (ix2 r j) := by
  rw [← Cert.LN.sum_blocks (fun j => X (ix2 r j)) _ (orig_bijective c)]
  refine Finset.sum_congr rfl fun s _ => ?_
  rw [gath_row0, PayValue.pay2_apply]
  exact Finset.sum_congr rfl fun k _ => xb_apply X _ r k

/-- The 32 gathered partial row sums of squares add up to the row's total of squares. -/
theorem total1 (X : (⟨2, ![1024, 16384]⟩ : Shape).Idx → EReal) (c : Dev nD) (r : Fin 1024) :
    ∑ s : Fin 32, gath (xb X) c (ix3 s (1 : Fin 2) r) = ∑ j : Fin 16384, X (ix2 r j) * X (ix2 r j) := by
  rw [← Cert.LN.sum_blocks (fun j => X (ix2 r j) * X (ix2 r j)) _ (orig_bijective c)]
  refine Finset.sum_congr rfl fun s _ => ?_
  rw [gath_row1, PayValue.pay3_apply]
  exact Finset.sum_congr rfl fun k _ => by rw [xb_apply]

/-! ## The result -/

/-- Device `c`'s result is block `c` of the one-device result, when every entry is finite. -/
theorem out_eq_block (X : (⟨2, ![1024, 16384]⟩ : Shape).Idx → EReal) (Γ B : (⟨1, ![16384]⟩ : Shape).Idx → EReal)
    (hX : ∀ i, X i ≠ ⊤ ∧ X i ≠ ⊥) (hΓ : ∀ i, Γ i ≠ ⊤ ∧ Γ i ≠ ⊥) (hB : ∀ i, B i ≠ ⊤ ∧ B i ≠ ⊥) (c : Dev nD) :
    Gen.k0_pay4 (F := Ideal) (Gen.k0_pay1 (F := Ideal) (xb X c)) (gath (xb X) c) (vb Γ c) (vb B c)
      = Layout.block ⟨2, ![1024, 512]⟩ ⟨2, ![1024, 16384]⟩ 1 32 c
          (Cert.ReferenceIdeal.RefValue.refTerm (F := Ideal) X Γ B) := by
  funext i
  obtain ⟨r, k, rfl⟩ : ∃ (r : Fin 1024) (k : Fin 512), i = ix2 r k := ⟨i 0, i 1, eq_ix2 i⟩
  refine (PayValue.pay4_apply _ _ _ _ r k).trans ?_
  rw [PayValue.pay1_apply, xb_apply, vb_apply, vb_apply, total0, total1, Layout.block_apply, idx_block2,
    Cert.ReferenceIdeal.RefValue.refTerm_apply]
  exact Cert.LN.kerOut_eq_refOut (fun r j => X (ix2 r j)) (fun j => Γ (ix1 j)) (fun j => B (ix1 j))
    (fun r j => hX _) (fun j => hΓ _) (fun j => hB _) r (Cert.LN.col c k)

/-! ## From the blocks to the whole -/

/-- The blocks of 512 columns cover the array: if every entry of every block is finite, every entry of the array is. -/
theorem finite_of_blocks2 (X : (⟨2, ![1024, 16384]⟩ : Shape).Idx → EReal)
    (h : ∀ (c : Dev nD) (i : S1024x512.Idx), xb X c i ≠ ⊤ ∧ xb X c i ≠ ⊥) : ∀ i, X i ≠ ⊤ ∧ X i ≠ ⊥ := by
  intro i
  obtain ⟨r, j, rfl⟩ : ∃ (r : Fin 1024) (j : Fin 16384), i = ix2 r j := ⟨i 0, i 1, eq_ix2 i⟩
  obtain ⟨⟨c, k⟩, rfl⟩ := Cert.LN.colEquiv.surjective j
  have e := h c (ix2 r k)
  rw [xb_apply] at e
  exact e

/-- The blocks of 512 entries cover a row vector likewise. -/
theorem finite_of_blocks1 (V : (⟨1, ![16384]⟩ : Shape).Idx → EReal)
    (h : ∀ (c : Dev nD) (i : S512.Idx), vb V c i ≠ ⊤ ∧ vb V c i ≠ ⊥) : ∀ i, V i ≠ ⊤ ∧ V i ≠ ⊥ := by
  intro i
  obtain ⟨j, rfl⟩ : ∃ j : Fin 16384, i = ix1 j := ⟨i 0, eq_ix1 i⟩
  obtain ⟨⟨c, k⟩, rfl⟩ := Cert.LN.colEquiv.surjective j
  have e := h c (ix1 k)
  rw [vb_apply] at e
  exact e

/-- The result for any three families that are the blocks of X, Γ, B and are finite block by block: device `c`'s result
    is block `c` of the one-device result. -/
theorem out_eq_block_of_blocks (X : (⟨2, ![1024, 16384]⟩ : Shape).Idx → EReal) (Γ B : (⟨1, ![16384]⟩ : Shape).Idx → EReal)
    (x : Dev nD → Vec Ideal S1024x512 .f32) (g b : Dev nD → Vec Ideal S512 .f32)
    (hx : ∀ c, x c = Layout.block ⟨2, ![1024, 512]⟩ ⟨2, ![1024, 16384]⟩ 1 32 c X)
    (hg : ∀ c, g c = Layout.block ⟨1, ![512]⟩ ⟨1, ![16384]⟩ 0 32 c Γ)
    (hb : ∀ c, b c = Layout.block ⟨1, ![512]⟩ ⟨1, ![16384]⟩ 0 32 c B)
    (fx : ∀ c i, x c i ≠ ⊤ ∧ x c i ≠ ⊥) (fg : ∀ c i, g c i ≠ ⊤ ∧ g c i ≠ ⊥) (fb : ∀ c i, b c i ≠ ⊤ ∧ b c i ≠ ⊥)
    (c : Dev nD) :
    Gen.k0_pay4 (F := Ideal) (Gen.k0_pay1 (F := Ideal) (x c)) (gath x c) (g c) (b c)
      = Layout.block ⟨2, ![1024, 512]⟩ ⟨2, ![1024, 16384]⟩ 1 32 c
          (Cert.ReferenceIdeal.RefValue.refTerm (F := Ideal) X Γ B) := by
  obtain rfl : x = xb X := funext hx
  obtain rfl : g = vb Γ := funext hg
  obtain rfl : b = vb B := funext hb
  exact out_eq_block X Γ B (finite_of_blocks2 X fx) (finite_of_blocks1 Γ fg) (finite_of_blocks1 B fb) c

/-- info: 'Cert.KernelIdeal.ValueBridge.out_eq_block' depends on axioms: [propext, Classical.choice, Quot.sound] -/
#guard_msgs in #print axioms out_eq_block

/-- info: 'Cert.KernelIdeal.ValueBridge.out_eq_block_of_blocks' depends on axioms: [propext, Classical.choice, Quot.sound] -/
#guard_msgs in #print axioms out_eq_block_of_blocks

/-- info: 'Cert.KernelIdeal.ValueBridge.finite_of_blocks2' depends on axioms: [propext, Classical.choice, Quot.sound] -/
#guard_msgs in #print axioms finite_of_blocks2

/-- info: 'Cert.KernelIdeal.ValueBridge.finite_of_blocks1' depends on axioms: [propext, Classical.choice, Quot.sound] -/
#guard_msgs in #print axioms finite_of_blocks1

end Cert.KernelIdeal.ValueBridge

end
-- ==== Proof.Finite.lean ====
/-
  From the stated input condition to "every entry is a real".

  The condition is all(|x| < +∞) ∧ all(|γ| < +∞) ∧ all(|β| < +∞) over one device's block of the entries
  (1024 × 512) and of the scale and shift (512 each), and it is stated to be true. A conjunction of two bits is 1
  exactly when both are; an "all" that is 1 had a 1 at every index; and |x| = max(x, -x) < +∞ excludes both
  infinities: at x = +∞ the maximum is +∞, at x = -∞ it is -(-∞) = +∞, and +∞ < +∞ is false.
  The pattern 0x7F800000 is +∞.
-/
import proofs.«900824_g7700000000000825_dist_layernorm_colshard_i_m1024_n512_v7x_i32_bf16_1_alg».proof.Pre_finite_inputs_Kernel
import proofs.«900824_g7700000000000825_dist_layernorm_colshard_i_m1024_n512_v7x_i32_bf16_1_alg».proof.Proof.Gen.Pre_finite_inputs_Kernel
import Idealize.ShloMosaic.Lib.ReduceAll
import Idealize.ShloMosaic.Lib.ValueIdx
import Idealize.ShloMosaic.PureOps.Ideal

noncomputable section

namespace Cert.LN

open Idealize.ShloMosaic Idealize.ShloMosaic.ValueIdx

/-- A rank-zero shape has one index. -/
instance subsingleton_scalar_idx : Subsingleton Cert.Pre_finite_inputs_Kernel.S_.Idx :=
  ⟨fun a b => funext fun d => d.elim0⟩

/-- An extended real whose absolute value max(x, -x) lies strictly below +∞ is neither infinity. -/
theorem ne_top_bot_of_abs_lt (x : EReal)
    (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  induction x using EReal.rec with
  | bot => simp [Ideal.cmp] at h
  | coe r => exact ⟨EReal.coe_ne_top r, EReal.coe_ne_bot r⟩
  | top => simp [Ideal.cmp] at h

/-- Where the stated input condition holds of a device's three blocks, every entry of each is a real. -/
theorem finite_of_pre [Cert.Pre_finite_inputs_Kernel.Facts]
    (x : FVec Ideal Cert.Pre_finite_inputs_Kernel.S1024x512 .f32)
    (g b : FVec Ideal Cert.Pre_finite_inputs_Kernel.S512 .f32)
    (h : Cert.Pre_finite_inputs_Kernel.fn (F := Ideal) x g b = (fun _ => 1#1)) :
    (∀ i, x i ≠ ⊤ ∧ x i ≠ ⊥) ∧ (∀ i, g i ≠ ⊤ ∧ g i ≠ ⊥) ∧ (∀ i, b i ≠ ⊤ ∧ b i ≠ ⊥) := by
  have h0 := congrFun h ix0
  dsimp only [Cert.Pre_finite_inputs_Kernel.fn] at h0
  -- the two conjunctions
  obtain ⟨h01, h2⟩ := IntOp.andi_eq_one.1 h0
  obtain ⟨h0', h1⟩ := IntOp.andi_eq_one.1 h01
  -- each "all", read at an index, then the element fact
  refine ⟨fun i => ?_, fun i => ?_, fun i => ?_⟩
  · exact ne_top_bot_of_abs_lt _ (Host.reduce_andi_all _ _ _ _ _ h0' i)
  · exact ne_top_bot_of_abs_lt _ (Host.reduce_andi_all _ _ _ _ _ h1 i)
  · exact ne_top_bot_of_abs_lt _ (Host.reduce_andi_all _ _ _ _ _ h2 i)

/-- info: 'Cert.LN.finite_of_pre' depends on axioms: [propext, Classical.choice, Quot.sound] -/
#guard_msgs in #print axioms finite_of_pre

end Cert.LN

end
-- ==== Proof.Assemble.lean ====
/-
  The five parts of the claim, from the runs.

  A run of the 32-device program that ends with every device's result at the distributed formula of its blocks, and
  the arguments as they were, gives the program's frame by forgetting the result. The one-device program's run gives
  its frame likewise. For the comparison: a device's block as the region finds it is the device's argument array
  (the window is the whole array, at its one grid point), which by hypothesis is block c of the one-device array;
  the stated input condition, device by device, makes every entry of the three whole arrays finite, because the
  blocks cover them; and then each device's result is block c of the one-device result.
-/
import proofs.«900824_g7700000000000825_dist_layernorm_colshard_i_m1024_n512_v7x_i32_bf16_1_alg».proof.Defs
import proofs.«900824_g7700000000000825_dist_layernorm_colshard_i_m1024_n512_v7x_i32_bf16_1_alg».proof.Proof.Gen.Kernel
import proofs.«900824_g7700000000000825_dist_layernorm_colshard_i_m1024_n512_v7x_i32_bf16_1_alg».proof.Proof.Gen.KernelIdeal
import proofs.«900824_g7700000000000825_dist_layernorm_colshard_i_m1024_n512_v7x_i32_bf16_1_alg».proof.Proof.Gen.KernelIdeal.Frame
import proofs.«900824_g7700000000000825_dist_layernorm_colshard_i_m1024_n512_v7x_i32_bf16_1_alg».proof.Proof.Gen.ReferenceIdeal
import proofs.«900824_g7700000000000825_dist_layernorm_colshard_i_m1024_n512_v7x_i32_bf16_1_alg».proof.Proof.Gen.Pre_finite_inputs_Kernel
import proofs.«900824_g7700000000000825_dist_layernorm_colshard_i_m1024_n512_v7x_i32_bf16_1_alg».proof.Proof.Gen.Pre_finite_inputs_ReferenceIdeal
import proofs.«900824_g7700000000000825_dist_layernorm_colshard_i_m1024_n512_v7x_i32_bf16_1_alg».proof.Proof.Proto
import proofs.«900824_g7700000000000825_dist_layernorm_colshard_i_m1024_n512_v7x_i32_bf16_1_alg».proof.Proof.ValueBridge
import proofs.«900824_g7700000000000825_dist_layernorm_colshard_i_m1024_n512_v7x_i32_bf16_1_alg».proof.Proof.Finite
import proofs.«900824_g7700000000000825_dist_layernorm_colshard_i_m1024_n512_v7x_i32_bf16_1_alg».proof.Proof.RefRun
import proofs.«900824_g7700000000000825_dist_layernorm_colshard_i_m1024_n512_v7x_i32_bf16_1_alg».proof.Proof.RefValue
import Idealize.ShloMosaic.Lib.Layout

noncomputable section

namespace Cert.Assemble

open Idealize.ShloMosaic Idealize.SL.Sem
open Idealize.ShloMosaic.TcCoe

/-! ## A device's blocks as the region finds them are its argument arrays -/

section Blocks
open Cert.KernelIdeal Cert.KernelIdeal.Gen Cert.KernelIdeal.Proto

theorem xblk_eq {F : FTy → Type} [FloatOps F] (m : (ℓ : Loc nD τ sig) → Buf (Elt F) ℓ) (c : Dev nD) :
    xblk m c = m ((c.tc : Thread nD τ).loc main_arg0) := by
  unfold xblk iblk
  exact Memref.read_access_unit_zero (Elt F) main_arg0 (funext fun a => Nat.zero_mul _) _ _

theorem gblk_eq {F : FTy → Type} [FloatOps F] (m : (ℓ : Loc nD τ sig) → Buf (Elt F) ℓ) (c : Dev nD) :
    gblk m c = m ((c.tc : Thread nD τ).loc main_arg1) := by
  unfold gblk iblk
  exact Memref.read_access_unit_zero (Elt F) main_arg1 (funext fun a => Nat.zero_mul _) _ _

theorem bblk_eq {F : FTy → Type} [FloatOps F] (m : (ℓ : Loc nD τ sig) → Buf (Elt F) ℓ) (c : Dev nD) :
    bblk m c = m ((c.tc : Thread nD τ).loc main_arg2) := by
  unfold bblk iblk
  exact Memref.read_access_unit_zero (Elt F) main_arg2 (funext fun a => Nat.zero_mul _) _ _

end Blocks

/-! ## The runs, as hypotheses -/

/-- The 32-device program's run at the ideal values: every device's result at the distributed formula of its blocks and
    of the gathered partial sums, its three arguments as they were. -/
abbrev RunI : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1)
            = Cert.KernelIdeal.Gen.k0_pay4 (Cert.KernelIdeal.Gen.k0_pay1 (Cert.KernelIdeal.Proto.xblk m c))
                (Cert.KernelIdeal.Proto.gathered m c) (Cert.KernelIdeal.Proto.gblk m c) (Cert.KernelIdeal.Proto.bblk m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

/-- The 32-device program's run at the machine's words, its result at ANY value `val m c`: only that it runs and leaves
    its arguments as they were is used. -/
abbrev RunK (val : ((ℓ : Loc Cert.Kernel.nD Cert.Kernel.τ Cert.Kernel.sig) → Buf (Elt Bits) ℓ) → (c : Dev Cert.Kernel.nD) →
    Buf (Elt Bits) ((c.tc : Thread Cert.Kernel.nD Cert.Kernel.τ).loc Cert.Kernel.main_v1)) : Prop :=
  ∀ (m : (ℓ : Loc Cert.Kernel.nD Cert.Kernel.τ Cert.Kernel.sig) → Buf (Elt Bits) ℓ) (ρ : Dev Cert.Kernel.nD → PrngReg),
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_v1) = val m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2))

/-! ## The three frames -/

theorem frame_Kernel_of_run
    (val : ((ℓ : Loc Cert.Kernel.nD Cert.Kernel.τ Cert.Kernel.sig) → Buf (Elt Bits) ℓ) → (c : Dev Cert.Kernel.nD) →
      Buf (Elt Bits) ((c.tc : Thread Cert.Kernel.nD Cert.Kernel.τ).loc Cert.Kernel.main_v1))
    (hrun : RunK val) :
    Cert.frame_Kernel (hKernel := Cert.Kernel.Gen.facts) (hPre_finite_inputs_Kernel := Cert.Pre_finite_inputs_Kernel.Gen.facts) :=
  fun m g _ => (θ_run _ _ _).mono (fun _ h c => (h c).2) (hrun m g)

theorem frame_KernelIdeal_of_run (hrun : RunI) :
    Cert.frame_KernelIdeal (hKernelIdeal := Cert.KernelIdeal.Gen.facts) (hPre_finite_inputs_Kernel := Cert.Pre_finite_inputs_Kernel.Gen.facts) :=
  fun m g _ => (θ_run _ _ _).mono (fun _ h c => (h c).2) (hrun m g)

theorem frame_ReferenceIdeal :
    Cert.frame_ReferenceIdeal (hReferenceIdeal := Cert.ReferenceIdeal.Gen.facts)
      (hPre_finite_inputs_ReferenceIdeal := Cert.Pre_finite_inputs_ReferenceIdeal.Gen.facts) :=
  fun m g _ => (θ_run _ _ _).mono (fun _ h c => (h c).2) (Cert.ReferenceIdeal.RefValue.run m g)

/-! ## The comparison -/

section Alg
open Cert.KernelIdeal Cert.KernelIdeal.Gen Cert.KernelIdeal.Proto

/-- The gathered array of the protocol is the gathered array of the value statement, at the blocks as the region finds them. -/
theorem gathered_eq_gath (m : (ℓ : Loc nD τ sig) → Buf (Elt Ideal) ℓ) (c : Dev nD) :
    gathered m c = Cert.KernelIdeal.ValueBridge.gath (fun c => xblk m c) c := rfl

end Alg

theorem algebraic_of_run (hrun : RunI) :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) := by
  intro m g m' g' hpre hblk
  refine ⟨Cert.ReferenceIdeal.RefValue.refTerm (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · refine (θ_run _ _ _).mono (fun r h c => ?_) (hrun m g)
    obtain ⟨hv, h0, h1, h2⟩ := h c
    refine ⟨hv.trans ?_, h0, h1, h2⟩
    have fin := fun c' : Dev Cert.KernelIdeal.nD => Cert.LN.finite_of_pre _ _ _ (hpre c')
    rw [gathered_eq_gath]
    exact Cert.KernelIdeal.ValueBridge.out_eq_block_of_blocks _ _ _
      (fun c => Cert.KernelIdeal.Proto.xblk m c) (fun c => Cert.KernelIdeal.Proto.gblk m c) (fun c => Cert.KernelIdeal.Proto.bblk m c)
      (fun c' => (xblk_eq m c').trans (hblk c').1) (fun c' => (gblk_eq m c').trans (hblk c').2.1)
      (fun c' => (bblk_eq m c').trans (hblk c').2.2)
      (fun c' i => by rw [xblk_eq]; exact (fin c').1 i) (fun c' i => by rw [gblk_eq]; exact (fin c').2.1 i)
      (fun c' i => by rw [bblk_eq]; exact (fin c').2.2 i) c
  · exact (θ_run _ _ _).mono (fun r h => h 0) (Cert.ReferenceIdeal.RefValue.run m' g')

/-! ## The claim -/

/-- The claim from the two runs of the 32-device program (at the machine's words, any result; at the ideal values, the
    result at the distributed formula): the facts' witnesses, then the five parts. -/
theorem claim_of
    (val : ((ℓ : Loc Cert.Kernel.nD Cert.Kernel.τ Cert.Kernel.sig) → Buf (Elt Bits) ℓ) → (c : Dev Cert.Kernel.nD) →
      Buf (Elt Bits) ((c.tc : Thread Cert.Kernel.nD Cert.Kernel.τ).loc Cert.Kernel.main_v1))
    (hK : RunK val) (hI : RunI) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel_of_run val hK, frame_KernelIdeal_of_run hI, frame_ReferenceIdeal, trivial, algebraic_of_run hI⟩

/-- info: 'Cert.Assemble.frame_Kernel_of_run' depends on axioms: [propext, Classical.choice, Quot.sound] -/
#guard_msgs in #print axioms frame_Kernel_of_run

/-- info: 'Cert.Assemble.frame_KernelIdeal_of_run' depends on axioms: [propext, Classical.choice, Quot.sound] -/
#guard_msgs in #print axioms frame_KernelIdeal_of_run

/-- info: 'Cert.Assemble.frame_ReferenceIdeal' depends on axioms: [propext, Classical.choice, Quot.sound] -/
#guard_msgs in #print axioms frame_ReferenceIdeal

/-- info: 'Cert.Assemble.algebraic_of_run' depends on axioms: [propext, Classical.choice, Quot.sound] -/
#guard_msgs in #print axioms algebraic_of_run

/-- info: 'Cert.Assemble.claim_of' depends on axioms: [propext, Classical.choice, Quot.sound] -/
#guard_msgs in #print axioms claim_of

end Cert.Assemble

end
-- ==== Proof.LaunchGhost.lean ====
/-
  The ghost state of the launch: the protocol's resource algebra element funded, every cell's invariant allocated
  for all devices under one update, and the duty tokens dealt to the devices that pay them.

  Each device owns 63 cells. The launch element mints, for every device, its cells' round states at counter zero,
  its positions at round 0, and the tokens of its own cells' duties: the 31 duties of its barrier cell and the one
  duty of each of its 31 send and 31 receive cells. A duty's token belongs with the device that PAYS the duty: duty
  `d` of the barrier cell of `q` and the duty of the receive cell `d` of `q` are paid by `orig q d`, so for every
  offset `d` these tokens travel along the permutation `shift d` of the ring; the send cells' tokens stay.
-/
import proofs.«900824_g7700000000000825_dist_layernorm_colshard_i_m1024_n512_v7x_i32_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores, the cells, the tokens -/

/-- The kernel's own scoped semaphores: the two arrays of 32 DMA semaphores, indices 4 … 67. -/
abbrev osem : Fin 64 → SemLoc sig := fun j => .dma ⟨4 + j.val, by have := j.isLt; show 4 + j.val < 68; omega⟩

theorem ownSemFacts : Pipeline.OwnSemFacts cfg0.spec osem := by decide

/-- A number telling the 63 semaphores of a device apart: 0 for the barrier semaphore, the index for a DMA semaphore. -/
def semCode : SemLoc sig → ℕ
  | .reg _ => 0
  | .dma q => q.val

theorem semCode_csem (k : Fin 63) : semCode (csem k) = if k.val = 0 then 0 else if k.val ≤ 31 then 4 + k.val else 5 + k.val := by
  unfold csem
  by_cases h0 : k.val = 0
  · rw [if_pos h0, if_pos h0]; rfl
  · rw [if_neg h0, if_neg h0]
    by_cases h1 : k.val ≤ 31
    · rw [dif_pos h1, if_pos h1]; rfl
    · rw [dif_neg h1, if_neg h1]; show 36 + (k.val - 31) = 5 + k.val; omega

theorem csem_injective : Function.Injective csem := by
  intro k k' h
  have := congrArg semCode h
  rw [semCode_csem, semCode_csem] at this
  apply Fin.ext
  split_ifs at this <;> omega

theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All the cells of the protocol: 63 on each of the 32 devices. -/
def ringCells : Finset (GSem nD τ sig) := Finset.univ.map ⟨kcell, kcell_injective⟩

/-- The offsets that carry traffic, as a type. -/
abbrev Off : Type := {d : Fin 32 // d ≠ 0}

/-- A device's own cells' duty tokens as minted: the barrier cell's duty `d`, the send cell `d`'s duty, the receive
    cell `d`'s duty, for every offset `d` that carries traffic. -/
def tokOf (cj : Dev nD × (Off ⊕ Off ⊕ Off)) : GSem nD τ sig × ℕ × Fin 32 := match cj.2 with
  | .inl d => (barCell cj.1, 0, d.1)
  | .inr (.inl d) => (sendCell cj.1 d.1, 0, 0)
  | .inr (.inr d) => (recvCell cj.1 d.1, 0, 0)

theorem tokOf_injective : Function.Injective (tokOf : Dev nD × (Off ⊕ Off ⊕ Off) → GSem nD τ sig × ℕ × Fin 32) := by
  rintro ⟨c, j⟩ ⟨c', j'⟩ h
  have h1 : c = c' := by
    have := congrArg (fun x : GSem nD τ sig × ℕ × Fin 32 => x.1.1.1) h
    rcases j with d | d | d <;> rcases j' with d' | d' | d' <;> exact this
  subst h1
  have h2 := congrArg (fun x : GSem nD τ sig × ℕ × Fin 32 => semCode x.1.2) h
  have h3 := congrArg (fun x : GSem nD τ sig × ℕ × Fin 32 => x.2.2) h
  rcases j with d | d | d <;> rcases j' with d' | d' | d' <;>
    simp only [tokOf, semCode, sendS_val, recvS_val] at h2 h3
  · have : d = d' := Subtype.ext h3
    rw [this]
  · have := d'.1.isLt; omega
  · omega
  · have := d.1.isLt; omega
  · have : d = d' := Subtype.ext (Fin.ext (by omega))
    rw [this]
  · have := d.1.isLt; omega
  · omega
  · have := d'.1.isLt; omega
  · have : d = d' := Subtype.ext (Fin.ext (by omega))
    rw [this]

def ringToks : Finset (GSem nD τ sig × ℕ × Fin 32) := Finset.univ.map ⟨tokOf, tokOf_injective⟩

/-- The launch element: the pipeline's and the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep offs fun d => dutyTok ER (barCell c) 0 d) ∗ (bigSep offs fun d => dutyTok ER (sendCell c d) 0 0)
    ∗ bigSep offs fun d => dutyTok ER (recvCell c d) 0 0)

/-- What the launch element deals device `c`. -/
def G (m : (ℓ : Loc nD τ sig) → Buf (Elt F) ℓ) (c : Dev nD) : sProp 𝕄 :=
  iprop((bigSep Finset.univ fun k : Fin 63 => roundState ER (ringRd m) (kcell (c, k)) 0)
    ∗ (bigSep Finset.univ fun k : Fin 63 => iprop(atPos ER (kcell (c, k)) 0 ∅ 0 ∗ reached ER (kcell (c, k)) 0)) ∗ toks c)

/-- What the global step makes of it. -/
def G' (m : (ℓ : Loc nD τ sig) → Buf (Elt F) ℓ) (c : Dev nD) : sProp 𝕄 := iprop((∃ K, ghost m K c) ∗ idleSems c)

/-! ## Funding -/

theorem fund_ring (m : (ℓ : Loc nD τ sig) → Buf (Elt F) ℓ) : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum,
        ← bigSep_subtype_ne 0 (fun d : Fin 32 => (dutyTok ER (barCell c) 0 d : sProp 𝕄)),
        ← bigSep_subtype_ne 0 (fun d : Fin 32 => (dutyTok ER (sendCell c d) 0 0 : sProp 𝕄)),
        ← bigSep_subtype_ne 0 (fun d : Fin 32 => (dutyTok ER (recvCell c d) 0 0 : sProp 𝕄))]
      rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem sIdx_injective : Function.Injective sIdx := fun a b h => Fin.ext (by have := congrArg Fin.val h; exact this)
theorem rIdx_injective : Function.Injective rIdx := fun a b h => Fin.ext (by have := congrArg Fin.val h; simp only [rIdx] at this; omega)

/-- The 63 indices: the barrier's, the send cells', the receive cells'. -/
theorem univ_cells : (Finset.univ : Finset (Fin 63)) = insert 0 (offs.map ⟨sIdx, sIdx_injective⟩ ∪ offs.map ⟨rIdx, rIdx_injective⟩) := by
  ext k
  simp only [Finset.mem_univ, true_iff, Finset.mem_insert, Finset.mem_union, Finset.mem_map, Finset.mem_erase, Function.Embedding.coeFn_mk, and_true]
  by_cases h0 : k.val = 0
  · exact Or.inl (Fin.ext h0)
  · by_cases h1 : k.val ≤ 31
    · exact Or.inr (Or.inl ⟨⟨k.val, by omega⟩, fun h => h0 (by have := congrArg Fin.val h; exact this), Fin.ext rfl⟩)
    · exact Or.inr (Or.inr ⟨⟨k.val - 31, by have := k.isLt; omega⟩, fun h => by have := congrArg Fin.val h; simp only [Fin.val_zero] at this; omega,
        Fin.ext (by show 31 + (k.val - 31) = k.val; omega)⟩)

omit [FloatOps F] in
/-- A device's 63 cells, sorted: its barrier cell, its send cells, its receive cells. -/
theorem bigSep_cells (c : Dev nD) (Φ : GSem nD τ sig → sProp 𝕄) :
    (bigSep Finset.univ fun k : Fin 63 => Φ (kcell (c, k)))
      = iprop(Φ (barCell c) ∗ (bigSep offs fun d => Φ (sendCell c d)) ∗ bigSep offs fun d => Φ (recvCell c d)) := by
  have hd : Disjoint (offs.map ⟨sIdx, sIdx_injective⟩) (offs.map ⟨rIdx, rIdx_injective⟩) := by
    rw [Finset.disjoint_left]
    intro k hs hr
    simp only [Finset.mem_map, Finset.mem_erase, Finset.mem_univ, and_true, Function.Embedding.coeFn_mk] at hs hr
    obtain ⟨d, hd, rfl⟩ := hs
    obtain ⟨d', hd', h⟩ := hr
    have := congrArg Fin.val h
    simp only [rIdx, sIdx] at this
    have h1 := d.isLt
    exact hd' (Fin.ext (by simp only [Fin.val_zero]; omega))
  have h0 : (0 : Fin 63) ∉ offs.map ⟨sIdx, sIdx_injective⟩ ∪ offs.map ⟨rIdx, rIdx_injective⟩ := by
    simp only [Finset.mem_union, Finset.mem_map, Finset.mem_erase, Finset.mem_univ, and_true, Function.Embedding.coeFn_mk, not_or, not_exists, not_and]
    refine ⟨fun d hd h => hd (Fin.ext ?_), fun d hd h => ?_⟩
    · have := congrArg Fin.val h; simp only [sIdx, Fin.val_zero] at this; simpa using this
    · have := congrArg Fin.val h; simp only [rIdx, Fin.val_zero] at this; omega
  have e1 : (bigSep offs fun d => Φ (kcell (c, sIdx d))) = bigSep offs fun d => Φ (sendCell c d) :=
    bigSep_congr fun d hd => by rw [kcell_send c d (Finset.ne_of_mem_erase hd)]
  have e2 : (bigSep offs fun d => Φ (kcell (c, rIdx d))) = bigSep offs fun d => Φ (recvCell c d) :=
    bigSep_congr fun d hd => by rw [kcell_recv c d (Finset.ne_of_mem_erase hd)]
  calc (bigSep Finset.univ fun k : Fin 63 => Φ (kcell (c, k)))
      = iprop(Φ (kcell (c, 0)) ∗ (bigSep offs fun d => Φ (kcell (c, sIdx d))) ∗ bigSep offs fun d => Φ (kcell (c, rIdx d))) := by
        rw [univ_cells, bigSep_insert h0, bigSep_union hd, bigSep_map, bigSep_map]; rfl
    _ = _ := by rw [e1, e2]; rfl

/-- The two arrays of 32 semaphores side by side. -/
def arrays : Fin 32 ⊕ Fin 32 ≃ Fin 64 := finSumFinEquiv

theorem osem_inl (d : Fin 32) : osem (arrays (.inl d)) = .dma (sendS d) := rfl
theorem osem_inr (d : Fin 32) : osem (arrays (.inr d)) = .dma (recvS d) :=
  congrArg SemLoc.dma (Fin.ext (by show 4 + (32 + d.val) = 36 + d.val; omega))

omit [FloatOps F] in
/-- The kernel's own semaphores are the two arrays: every send and receive semaphore, element 0 included. -/
theorem ownSems0_eq (c : Dev nD) : (Pipeline.ownSems0 (Ix := Unit) (Name := ℕ) (U := UU) (Lvl := ℕ) (Val := Elt F) (τ := τ) osem c : sProp 𝕄)
    = iprop((semVal (sendCell c 0) 0 ∗ bigSep offs fun d => semVal (sendCell c d) 0)
        ∗ (semVal (recvCell c 0) 0 ∗ bigSep offs fun d => semVal (recvCell c d) 0)) := by
  calc (Pipeline.ownSems0 (Ix := Unit) (Name := ℕ) (U := UU) (Lvl := ℕ) (Val := Elt F) (τ := τ) osem c : sProp 𝕄)
      = iprop((bigSep Finset.univ fun d : Fin 32 => semVal ((c : Thread nD τ), osem (arrays (.inl d))) 0)
          ∗ bigSep Finset.univ fun d : Fin 32 => semVal ((c : Thread nD τ), osem (arrays (.inr d))) 0) := by
        unfold Pipeline.ownSems0; rw [bigSep_univ_equiv arrays, bigSep_univ_sum]; rfl
    _ = iprop((bigSep Finset.univ fun d : Fin 32 => semVal (sendCell c d) 0) ∗ bigSep Finset.univ fun d : Fin 32 => semVal (recvCell c d) 0) := by
        congr 1
    _ = _ := by
        rw [bigSep_univ_at (fun d : Fin 32 => (semVal (sendCell c d) 0 : sProp 𝕄)) 0,
          bigSep_univ_at (fun d : Fin 32 => (semVal (recvCell c d) 0 : sProp 𝕄)) 0]

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 63 => semVal (kcell (c, k)) 0) ∗ idleSems c) : sProp 𝕄) := by
  rw [ownSems0_eq, unscopedSems0_eq, bigSep_cells c (fun g => semVal g 0)]
  unfold idleSems
  iintro ⟨⟨⟨HS0, HS⟩, HV0, HV⟩, HB⟩
  isplitl [HB HS HV]
  · isplitl [HB]; · iexact HB
    isplitl [HS] <;> iassumption
  isplitl [HS0] <;> iassumption

/-! ## The invariants allocated, device by device -/

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 63 => semVal (kcell (c, k)) 0) ∗ bigSep Finset.univ fun k : Fin 63 => roundState ER (ringRd m) (kcell (c, k)) 0)
      ⊢ (|={Set.univ}=> bigSep Finset.univ fun k : Fin 63 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## The tokens dealt to their payers -/

omit [FloatOps F] in
/-- Two nested `bigSep`s may be taken in either order. -/
theorem bigSep_swap {A B : Type} (s : Finset A) (t : Finset B) (Φ : A → B → sProp 𝕄) :
    (bigSep s fun a => bigSep t fun b => Φ a b) = bigSep t fun b => bigSep s fun a => Φ a b := by
  classical
  induction s using Finset.induction_on with
  | empty => exact (bigSep_emp_const t).symm
  | insert a s ha ih =>
    have h1 : (bigSep (insert a s) fun a => bigSep t fun b => Φ a b)
        = iprop((bigSep t fun b => Φ a b) ∗ bigSep s fun a => bigSep t fun b => Φ a b) := bigSep_insert ha
    have h2 (b : B) : (bigSep (insert a s) fun a => Φ a b) = iprop(Φ a b ∗ bigSep s fun a => Φ a b) := bigSep_insert ha
    rw [h1, ih, ← bigSep_sep']
    exact bigSep_congr fun b _ => (h2 b).symm

omit [FloatOps F] in
/-- For every offset the devices are permuted by the step of that offset: a family over (device, offset) summed over
    the device each device addresses is the family summed over the devices themselves. -/
theorem deal (Ψ : Dev nD → Fin 32 → sProp 𝕄) :
    (bigSep Finset.univ fun c : Dev nD => bigSep offs fun d => Ψ c d)
      = bigSep Finset.univ fun c : Dev nD => bigSep offs fun d => Ψ (peer c d) d := by
  rw [bigSep_swap Finset.univ offs Ψ, bigSep_swap Finset.univ offs (fun c d => Ψ (peer c d) d)]
  exact bigSep_congr fun d _ => bigSep_univ_equiv (shift d) (fun c => Ψ c d)

omit [FloatOps F] in
/-- Every token to the device that pays its duty: duty `d` of a barrier cell and the duty of a receive cell `d` to the
    device `d` places before the cell's owner; the send cells' tokens stay where they are. -/
theorem toks_around : (bigSep Finset.univ fun c : Dev nD => (toks c : sProp 𝕄)) ⊢ bigSep Finset.univ fun c : Dev nD => payToks c := by
  have e : (bigSep Finset.univ fun c : Dev nD => (payToks c : sProp 𝕄))
      = iprop((bigSep Finset.univ fun c : Dev nD => bigSep offs fun d => dutyTok ER (barCell c) 0 d)
          ∗ (bigSep Finset.univ fun c : Dev nD => bigSep offs fun d => dutyTok ER (recvCell c d) 0 0)
          ∗ (bigSep Finset.univ fun c : Dev nD => bigSep offs fun d => dutyTok ER (sendCell c d) 0 0)) := by
    rw [deal (fun c d => (dutyTok ER (barCell c) 0 d : sProp 𝕄)), deal (fun c d => (dutyTok ER (recvCell c d) 0 0 : sProp 𝕄)),
      ← bigSep_sep', ← bigSep_sep']
    exact bigSep_congr fun c _ => by unfold payToks; rw [bigSep_sep', bigSep_sep']
  rw [e]; unfold toks
  rw [bigSep_sep', bigSep_sep']
  iintro ⟨H1, H2, H3⟩
  isplitl [H1]; · iexact H1
  isplitl [H3]; · iexact H3
  iexact H2

/-! ## The global step -/

theorem inv_at (m : (ℓ : Loc nD τ sig) → Buf (Elt F) ℓ) (K : Dev nD × Fin 63 → ℕ) (ck : Dev nD × Fin 63) :
    (bigSep Finset.univ fun ck : Dev nD × Fin 63 => (cellInv ER (ringRd m) (K ck) (kcell ck) : sProp 𝕄)) ⊢ cellInv ER (ringRd m) (K ck) (kcell ck) :=
  bigSep_elim (Finset.mem_univ ck)
omit [FloatOps F] in
theorem reached_at (ck : Dev nD × Fin 63) :
    (bigSep Finset.univ fun ck : Dev nD × Fin 63 => (reached ER (kcell ck) 0 : sProp 𝕄)) ⊢ reached ER (kcell ck) 0 :=
  bigSep_elim (Finset.mem_univ ck)

/-- What stays with device `c` once the records are everybody's: its positions, the tokens it pays with, its two idle semaphores. -/
def linear (c : Dev nD) : sProp 𝕄 := iprop(positions c ∗ payToks c ∗ idleSems c)

theorem ghost_intro (m : (ℓ : Loc nD τ sig) → Buf (Elt F) ℓ) (K : Dev nD × Fin 63 → ℕ) (c : Dev nD) : iprop(records m K ∗ linear c) ⊢ G' m c := by
  unfold linear G' ghost
  iintro ⟨#HR, Hp, Ht, Hi⟩
  isplitl [Hp Ht]
  · iexists K
    isplitr; · iexact HR
    isplitl [Hp] <;> iassumption
  iexact Hi

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : (ℓ : Loc nD τ sig) → Buf (Elt F) ℓ) :
    (bigSep Finset.univ fun c : Dev nD => iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × Fin 63 => iprop(∃ κ : ℕ, cellInv ER (ringRd m) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok, Hidle⟩
  ihave HK := (BI.bigSep_exists_pi Finset.univ (fun (ck : Dev nD × Fin 63) (κ : ℕ) => (cellInv ER (ringRd m) κ (kcell ck) : sProp 𝕄))) $$ HI
  icases HK with ⟨%K, #HI⟩
  ihave Htk := (toks_around (F := F)) $$ Htok
  have key : iprop(records m K ∗ (bigSep Finset.univ fun c : Dev nD => (positions c : sProp 𝕄)) ∗ (bigSep Finset.univ fun c : Dev nD => (payToks c : sProp 𝕄))
        ∗ bigSep Finset.univ fun c : Dev nD => (idleSems c : sProp 𝕄)) ⊢ bigSep Finset.univ (G' m) := by
    rw [← bigSep_sep', ← bigSep_sep']
    exact bigSep_with_persistent (R := records m K) fun c _ => ghost_intro m K c
  iapply key
  isplitr
  · unfold records; isplitl; · iexact HI
    iexact HR
  isplitl [Hat]; · iexact Hat
  isplitl [Htk]; · iexact Htk
  iexact Hidle

/-- The global step: the own and the unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.KernelIdeal.Proto.fund_ring' depends on axioms: [propext, Classical.choice, Quot.sound] -/
#guard_msgs in #print axioms fund_ring

/-- info: 'Cert.KernelIdeal.Proto.glob' depends on axioms: [propext, Classical.choice, Quot.sound] -/
#guard_msgs in #print axioms glob

end Cert.KernelIdeal.Proto

end
-- ==== Proof.Data.lean ====
/-
  The pipeline's proof data of the distributed layer norm on device `c`: what each window's staging buffer holds
  after the body, and the invariant the body starts from and ends in.

  The three input windows keep their blocks. The output window ends holding the normalised block: the printed
  arithmetic of the body applied to the device's block of `x`, the gathered partial sums, and its blocks of the
  scale and the shift. Before the body the device holds its protocol state and its gather buffer at arbitrary
  contents; after it, the gather buffer at its final contents and its 64 transfer semaphores at zero.
-/
import proofs.«900824_g7700000000000825_dist_layernorm_colshard_i_m1024_n512_v7x_i32_bf16_1_alg».proof.Proof.LaunchGhost

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The normalised block device `c` writes: the body's arithmetic of its block of `x`, the gathered sums, its scale and shift. -/
def outAt (c : Dev nD) : Vec F S1024x512 .bf16 := k0_pay4 (k0_pay1 (xblk m c)) (gathered m c) (gblk m c) (bblk m c)

/-- The gather buffer of device `c` held whole at contents `f`. -/
def commPts (c : Dev nD) (f : Buf (Elt F) ((c : Thread nD τ).loc cc0_scratch0)) : sProp 𝕄 :=
  ((c : Thread nD τ).loc cc0_scratch0) ↦{fullShare} f

/-- Before the body: the protocol state and the gather buffer at some contents. -/
def Φ₀ (c : Dev nD) : sProp 𝕄 := iprop(start m c ∗ ∃ f, commPts c f)
/-- After the body: the gather buffer at its final contents, the 64 transfer semaphores at zero. -/
def Φ₁ (c : Dev nD) : sProp 𝕄 :=
  iprop(commPts c (gathered m c) ∗ bigSep Finset.univ fun j : Fin 64 => semVal ((c : Thread nD τ), osem j) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => gblk m c
    | ⟨2, _⟩ => bblk m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Proto

end
-- ==== Proof.Levels.lean ====
/-
  The levels of the cells, and the credit each device is dealt at launch.

  A device waits on three kinds of cell. Its transfer semaphores below 36 (the windows' own and its 32 send cells) sit at
  level 0, its barrier cell at level 1, its receive cells at level 2. What a device owes at launch is, for every offset
  d = 1 … 31, one unit on the barrier cell of the device d places after it and one slot's credit on that device's receive
  cell d: all of it at levels 1 and 2, above every level-0 wait. When it waits on its own barrier cell it has signalled
  all 31 barriers and still owes the 31 landings (`Obar`): receive cells, at level 2, above the barrier's level 1.

  Summed over the payers: the barrier cell of `c` is owed one unit by each of the 31 other devices, and the receive cell
  `d` of `c` one slot's credit by the single device `d` places before `c`. That is the credit `c` holds at launch.
-/
import proofs.«900824_g7700000000000825_dist_layernorm_colshard_i_m1024_n512_v7x_i32_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ring: the offset from one device to another -/

/-- The offset from `p` to `c`: how many places after `p` the device `c` sits. -/
def dist (p c : Dev nD) : Fin 32 := ⟨(c.val + (32 - p.val)) % 32, Nat.mod_lt _ (by decide)⟩

theorem peer_dist : ∀ p c : Dev nD, peer p (dist p c) = c := by decide +kernel
theorem dist_eq_zero_iff : ∀ p c : Dev nD, dist p c = 0 ↔ p = c := by decide +kernel

/-- `c` is `d` places after `p` exactly when `d` is the offset from `p` to `c`. -/
theorem peer_eq_iff (p c : Dev nD) (d : Fin 32) : peer p d = c ↔ d = dist p c :=
  ⟨fun h => peer_inj p d (dist p c) (h.trans (peer_dist p c).symm), fun h => h ▸ peer_dist p c⟩

/-- `c` is `d` places after `p` exactly when `p` is `d` places before `c`. -/
theorem peer_eq_iff_orig (p c : Dev nD) (d : Fin 32) : peer p d = c ↔ p = orig c d :=
  ⟨fun h => h ▸ (orig_peer p d).symm, fun h => h ▸ peer_orig c d⟩

/-- Every device but `c` counted once: 31. -/
theorem card_others : ∀ c : Dev nD, (∑ p : Dev nD, if p = c then 0 else 1) = 31 := by decide +kernel

/-! ## Cells apart -/

theorem bar_eq_iff {a b : Dev nD} : barCell a = barCell b ↔ a = b :=
  ⟨fun h => Fin.ext (congrArg (fun g : GSem nD τ sig => g.1.1.val) h), fun h => h ▸ rfl⟩

theorem recvS_inj {d e : Fin 32} (h : recvS d = recvS e) : d = e := by
  apply Fin.ext
  have := congrArg Fin.val h
  rw [recvS_val, recvS_val] at this
  omega

theorem recv_eq_iff {a b : Dev nD} {d e : Fin 32} : recvCell a d = recvCell b e ↔ a = b ∧ d = e :=
  ⟨fun h => ⟨Fin.ext (congrArg (fun g : GSem nD τ sig => g.1.1.val) h),
      recvS_inj (SemLoc.dma.inj (congrArg Prod.snd h))⟩, fun h => by rw [h.1, h.2]⟩

theorem recv_ne_bar (a b : Dev nD) (d : Fin 32) : recvCell a d ≠ barCell b := fun h => by
  have := congrArg Prod.snd h; cases this

/-! ## What each device owes at launch; the levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (d : Fin 32) (u : Unit) : lv (recvCell c d) u = 2 := by
  show (if 36 ≤ (recvS d).val then 2 else 0) = 2
  rw [recvS_val, if_pos (by omega)]
theorem lv_low (c : Dev nD) (q : DmaSem sig) (hq : q.val < 36) (u : Unit) : lv ((c : Thread nD τ), .dma q) u = 0 := by
  show (if 36 ≤ q.val then 2 else 0) = 0
  rw [if_neg (by omega)]

/-- Where a device owes anything at launch: a barrier cell or a receive cell of a device some offset after it. -/
theorem O₀_pos {c : Dev nD} {g : GSem nD τ sig} {u : Unit} (h : 0 < O₀ c g u) :
    ∃ d ∈ offs, g = barCell (peer c d) ∨ g = recvCell (peer c d) d := by
  unfold O₀ at h
  obtain ⟨d, hd, hpos⟩ := Pipeline.sum_pos_exists h
  refine ⟨d, hd, ?_⟩
  rcases Pipeline.add_pos_cases hpos with h1 | h1
  · exact Or.inl (Pipeline.tallyAt_pos h1).1
  · exact Or.inr (Pipeline.tallyAt_pos h1).1

/-- What a device still owes when it waits on its barrier cell: the 31 landings. -/
def Obar (c : Dev nD) : CellTallies nD τ sig Unit := ∑ d ∈ offs, tallyAt (recvCell (peer c d) d) () N

theorem Obar_pos {c : Dev nD} {g : GSem nD τ sig} {u : Unit} (h : 0 < Obar c g u) :
    ∃ d ∈ offs, g = recvCell (peer c d) d := by
  unfold Obar at h
  obtain ⟨d, hd, hpos⟩ := Pipeline.sum_pos_exists h
  exact ⟨d, hd, (Pipeline.tallyAt_pos hpos).1⟩

omit [FloatOps F] in
/-- A wait on a transfer semaphore below 36 (a window's own, or a send cell): level 0, below everything owed at launch. -/
theorem mayWait_low (c : Dev nD) (q : DmaSem sig) (hq : q.val < 36) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        obtain ⟨d, _, rfl | rfl⟩ := O₀_pos hg <;> (rw [L_tc]; exact Finset.mem_singleton_self _))
      (fun p hp => by rw [Finset.mem_singleton.mp hp, lv_low c q hq])
      (fun g u hg => by
        obtain ⟨d, _, rfl | rfl⟩ := O₀_pos hg
        · rw [lv_bar]; decide
        · rw [lv_recv]; decide)
  · rw [MayWait_zero]; iintro -; iempintro

omit [FloatOps F] in
/-- The wait on the barrier cell: level 1, below the receive cells (level 2) of the landings still owed. -/
theorem mayWait_bar (c : Dev nD) :
    (levAts L lv : sProp 𝕄) ⊢ MayWait (c : Thread nD τ) (.reg barS) () (Obar c) :=
  MayOwe.of_cut (L := L) (lev := lv) 1
    (fun p hp => by rw [Finset.mem_singleton.mp hp, L_tc]; exact Finset.mem_singleton_self _)
    (fun g u hg => by obtain ⟨d, _, rfl⟩ := Obar_pos hg; rw [L_tc]; exact Finset.mem_singleton_self _)
    (fun p hp => by rw [Finset.mem_singleton.mp hp]; exact le_of_eq (lv_bar c ()))
    (fun g u hg => by obtain ⟨d, _, rfl⟩ := Obar_pos hg; rw [lv_recv]; decide)

/-! ## What is owed, split by kind and listed in order -/

/-- The offsets 1 … 31 in order. -/
def offL : List (Fin 32) := [1, 2, 3, 4, 5, 6, 7, 8, 9, 10, 11, 12, 13, 14, 15, 16, 17, 18, 19, 20, 21, 22, 23, 24, 25, 26, 27, 28, 29, 30, 31]

theorem offs_eq : offs = offL.toFinset := by decide
theorem offL_nodup : offL.Nodup := by decide

/-- A sum over the offsets is the sum of the list of its terms in order. -/
theorem sum_offs_eq_list (f : Fin 32 → CellTallies nD τ sig Unit) : ∑ d ∈ offs, f d = (offL.map f).sum := by
  rw [offs_eq, List.sum_toFinset f offL_nodup]

/-- What is owed at launch: the 31 barrier units, and the 31 landings. -/
theorem O₀_split (c : Dev nD) : O₀ c = (∑ d ∈ offs, tallyAt (barCell (peer c d)) () 1) + Obar c := by
  unfold O₀ Obar; exact Finset.sum_add_distrib

theorem Obar_chain (c : Dev nD) : Obar c = (offL.map fun d => tallyAt (recvCell (peer c d) d) () N).sum := by
  unfold Obar; exact sum_offs_eq_list _

theorem O₀_chain (c : Dev nD) :
    O₀ c = (offL.map fun d => tallyAt (barCell (peer c d)) () 1).sum
      + (offL.map fun d => tallyAt (recvCell (peer c d) d) () N).sum := by
  rw [O₀_split, Obar_chain, sum_offs_eq_list]

/-! ## The launch credit -/

/-- What device `p` owes the barrier cell of `c`: one unit, unless `p` is `c` itself. -/
theorem owed_bar (p c : Dev nD) : O₀ p (barCell c) () = if p = c then 0 else 1 := by
  unfold O₀
  rw [Finset.sum_apply, Finsupp.finsetSum_apply]
  rw [Finset.sum_congr rfl fun d _ => show ((tallyAt (barCell (peer p d)) () 1 + tallyAt (recvCell (peer p d) d) () N
        : CellTallies nD τ sig Unit) (barCell c)) () = if d = dist p c then 1 else 0 by
    rw [Pi.add_apply, Finsupp.add_apply, tallyAt_apply, tallyAt_ne_cell (recv_ne_bar _ _ _).symm, Finsupp.zero_apply, Nat.add_zero]
    by_cases h : d = dist p c
    · rw [if_pos h, if_pos ⟨bar_eq_iff.mpr ((peer_eq_iff p c d).mpr h).symm, rfl⟩]
    · rw [if_neg h, if_neg fun h' => h ((peer_eq_iff p c d).mp (bar_eq_iff.mp h'.1).symm)]]
  rw [Finset.sum_ite_eq' offs (dist p c) fun _ => 1]
  by_cases hpc : p = c
  · rw [if_pos hpc, if_neg fun hm => (Finset.mem_erase.mp hm).1 ((dist_eq_zero_iff p c).mpr hpc)]
  · rw [if_neg hpc, if_pos (Finset.mem_erase.mpr ⟨fun h0 => hpc ((dist_eq_zero_iff p c).mp h0), Finset.mem_univ _⟩)]

/-- What device `p` owes the receive cell `d` of `c`: one slot's credit if `p` is `d` places before `c`, else nothing. -/
theorem owed_recv (p c : Dev nD) (d : Fin 32) (hd : d ≠ 0) : O₀ p (recvCell c d) () = if p = orig c d then N else 0 := by
  unfold O₀
  rw [Finset.sum_apply, Finsupp.finsetSum_apply]
  rw [Finset.sum_congr rfl fun e _ => show ((tallyAt (barCell (peer p e)) () 1 + tallyAt (recvCell (peer p e) e) () N
        : CellTallies nD τ sig Unit) (recvCell c d)) () = if e = d then (if p = orig c d then N else 0) else 0 by
    rw [Pi.add_apply, Finsupp.add_apply, tallyAt_ne_cell (recv_ne_bar _ _ _), Finsupp.zero_apply, Nat.zero_add, tallyAt_apply]
    by_cases h : e = d
    · subst h
      rw [if_pos rfl]
      by_cases hp : p = orig c e
      · rw [if_pos hp, if_pos ⟨recv_eq_iff.mpr ⟨((peer_eq_iff_orig p c e).mpr hp).symm, rfl⟩, rfl⟩]
      · rw [if_neg hp, if_neg fun h' => hp ((peer_eq_iff_orig p c e).mp (recv_eq_iff.mp h'.1).1.symm)]
    · rw [if_neg h, if_neg fun h' => h (recv_eq_iff.mp h'.1).2.symm]]
  rw [Finset.sum_ite_eq' offs d fun _ => if p = orig c d then N else 0,
    if_pos (Finset.mem_erase.mpr ⟨hd, Finset.mem_univ _⟩)]

omit [FloatOps F] in
/-- The barrier cell of `c` is dealt the 31 units the other devices owe it. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun p _ => owed_bar p c, card_others]

omit [FloatOps F] in
/-- The receive cell `d` of `c` is dealt the one slot's credit the device `d` places before `c` owes it. -/
theorem launch_recv (c : Dev nD) (d : Fin 32) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun p _ => owed_recv p c d hd,
    Finset.sum_ite_eq' Finset.univ (orig c d) fun _ => N, if_pos (Finset.mem_univ _)]

/-- The receive semaphores as an embedding of the offsets into the semaphore locations. -/
def recvLoc : Fin 32 ↪ SemLoc sig := ⟨fun d => .dma (recvS d), fun _ _ h => recvS_inj (SemLoc.dma.inj h)⟩

omit [FloatOps F] in
/-- The credit a device is dealt at launch holds its barrier cell's 31 units and each receive cell's slot credit. -/
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := offs.map recvLoc) fun sm hsm => ?_).trans ?_
  · obtain ⟨d, _, rfl⟩ := Finset.mem_map.mp hsm
    exact Finset.mem_erase.mpr ⟨fun h => (by cases h), Finset.mem_univ _⟩
  · rw [bigSep_map]
    exact bigSep_mono fun d hd => by
      rw [← launch_recv c d (Finset.mem_erase.mp hd).1]
      exact .refl _

/-- info: 'Cert.KernelIdeal.Proto.mayWait_low' depends on axioms: [propext, Classical.choice, Quot.sound] -/
#guard_msgs in #print axioms mayWait_low
/-- info: 'Cert.KernelIdeal.Proto.mayWait_bar' depends on axioms: [propext, Classical.choice, Quot.sound] -/
#guard_msgs in #print axioms mayWait_bar
/-- info: 'Cert.KernelIdeal.Proto.creds' depends on axioms: [propext, Classical.choice, Quot.sound] -/
#guard_msgs in #print axioms creds

end Cert.KernelIdeal.Proto

end
-- ==== Proof.Launch.lean ====
/-
  The launch: every weakly fair execution of @main on the 32 devices, from any memory with zero counters.

  The launch theorem deals every device its share of the launch element; one global step allocates all the cells'
  invariants and sends each duty token to its payer; the device's launch credit covers its barrier cell's 31 units and
  each receive cell's slot credit, and the level facts put the pipeline's own waits below every wait of the protocol.
  With that the body starts from `Φ₀` and, meeting its obligation, ends in `Φ₁`: the gather buffer and the 64
  transfer semaphores go back to the region's boundary. The three argument arrays are inputs, never written; the
  result array is one block written back at the one point, so it ends holding what the body left in its staging buffer.
-/
import proofs.«900824_g7700000000000825_dist_layernorm_colshard_i_m1024_n512_v7x_i32_bf16_1_alg».proof.Proof.Data
import proofs.«900824_g7700000000000825_dist_layernorm_colshard_i_m1024_n512_v7x_i32_bf16_1_alg».proof.Proof.Levels
import proofs.«900824_g7700000000000825_dist_layernorm_colshard_i_m1024_n512_v7x_i32_bf16_1_alg».proof.Proof.LaunchGhost
import Idealize.ShloMosaic.Lib.Pipeline.Cells

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch theorem's side conditions -/

theorem share_eq (m : (ℓ : Loc nD τ sig) → Buf (Elt F) ℓ) (c : Dev nD) (w : Fin cfg0.W) : (dats m 0 c).share w = fullShare := by
  unfold Dat.share; split <;> rfl

/-- What the launch deals a device — its credit, the level facts, the ghost state of the global step — is what its body starts from. -/
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  icases HG with ⟨HG, Hidle⟩
  isplitl
  · isplitl [HG]; · iexact HG
    isplitl [Hidle]; · iexact Hidle
    isplitl [Hc]; · iexact Hc
    iexact Hlev
  · iempintro

/-- The one scoped buffer that is no staging buffer is the gather buffer. -/
theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ commPts
  iintro ⟨Hs, -, ⟨%f, Hr⟩⟩
  isplitl [Hs]; · iexact Hs
  iexists f; iexact Hr

theorem phi1_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ Pipeline.ownSems0 commPts
  iintro ⟨Hr, Hz⟩
  isplitr; · iempintro
  isplitl [Hz]; · iexact Hz
  iexists (gathered m c); iexact Hr

/-- The four staging semaphores are below the receive semaphores: the pipeline's waits are at level 0. -/
theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The run -/

/-- The windows' arrays after the last point. -/
def finalA (m : (ℓ : Loc nD τ sig) → Buf (Elt F) ℓ) (c : Dev nD) (w : Fin cfg0.W) : Buf (Elt F) ((cfg0.win w).arr.view.loc (c : Thread nD τ)) :=
  (dats m 0 c).arrAt w cfg0.N

def QC (m : (ℓ : Loc nD τ sig) → Buf (Elt F) ℓ) : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of 32 devices, for any float values, from any memory with zero counters: if the body meets its
    obligation on every device, every weakly fair execution of @main terminates and every final state has each
    window's array at its computed contents. -/
theorem run_main (m : (ℓ : Loc nD τ sig) → Buf (Elt F) ℓ) (ρ : Dev nD → PrngReg)
    (hbody : ∀ c : Dev nD, BodyObligation (dats (F := F) m 0 c) (defs₀ (F := F)) Variants.none () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun c => (main_chain c).trans rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays, in closed form -/

/-- The three argument arrays are inputs: after the run they hold what they held. -/
theorem finalA_in (m : (ℓ : Loc nD τ sig) → Buf (Elt F) ℓ) (c : Dev nD) (w : Fin 4) (hw : w = 0 ∨ w = 1 ∨ w = 2) :
    finalA m c w = m ((cfg0.win w).arr.view.loc (c : Thread nD τ)) := by
  rcases hw with rfl | rfl | rfl <;> exact (dats (F := F) m 0 c).arrAt_in _ rfl _

/-- The result array is one block, written back at the one point: it holds what the body left in the staging buffer. -/
theorem finalA_out (m : (ℓ : Loc nD τ sig) → Buf (Elt F) ℓ) (c : Dev nD) : finalA m c (3 : Fin 4) = outAt m c := by
  unfold finalA
  rw [show cfg0.N = (t0_0 : Fin cfg0.N).val + 1 from rfl, (dats m 0 c).arrAt_succ (3 : Fin 4) t0_0, flush0_3 t0_0, if_pos rfl]
  exact Memref.write_access_unit_zero_univ (Elt F) main_v1 (funext fun a => Nat.zero_mul _) _ _ _

/-- The run, read at the program's arrays: the result holds the normalised block, the arguments what they held. -/
theorem run_values (m : (ℓ : Loc nD τ sig) → Buf (Elt F) ℓ) (ρ : Dev nD → PrngReg)
    (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c (3 : Fin 4)).trans (finalA_out m c),
      (h c (0 : Fin 4)).trans (finalA_in m c 0 (Or.inl rfl)),
      (h c (1 : Fin 4)).trans (finalA_in m c 1 (Or.inr (Or.inl rfl))),
      (h c (2 : Fin 4)).trans (finalA_in m c 2 (Or.inr (Or.inr rfl)))⟩) (run_main m ρ hbody)

/-- info: 'Cert.KernelIdeal.Proto.run_main' depends on axioms: [propext, Classical.choice, Quot.sound] -/
#guard_msgs in #print axioms run_main

/-- info: 'Cert.KernelIdeal.Proto.run_values' depends on axioms: [propext, Classical.choice, Quot.sound] -/
#guard_msgs in #print axioms run_values

end Cert.KernelIdeal.Proto

end
-- ==== Proof.BodyDefs.lean ====
/-
  The body of the distributed layer norm on device `c`, stage by stage: what each of its 31-fold unrolled stages
  needs, offset by offset, and the bookkeeping that keeps the not yet needed offsets folded away.

  The body's stages, in program order: 31 signals (one unit on every other device's barrier cell, each handing over the
  slot that device will write); the two partial row sums stored into slot 0; the wait for 31 units on the own
  barrier cell (every other device's slot comes with it); 31 remote copies of slot 0, each lent a share of it; 31
  waits for the landings in slots 1 … 31; the whole buffer read, the normalised block stored; 31 waits for the
  copies' departures (the lent shares come back).
-/
import proofs.«900824_g7700000000000825_dist_layernorm_colshard_i_m1024_n512_v7x_i32_bf16_1_alg».proof.Proof.Proto
import proofs.«900824_g7700000000000825_dist_layernorm_colshard_i_m1024_n512_v7x_i32_bf16_1_alg».proof.Proof.Levels
import Mathlib.Tactic.IrreducibleDef

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions and sums along a list of offsets, foldable -/

/-- A separating conjunction along a list, spelt with the logic's own `∗` so that it can be taken apart head first. -/
def chain : List (Fin 32) → (Fin 32 → sProp 𝕄) → sProp 𝕄
  | [], _ => iprop(emp)
  | [i], Φ => Φ i
  | i :: j :: l, Φ => iprop(Φ i ∗ chain (j :: l) Φ)

omit [FloatOps F] in
theorem bigSepL_eq_chain (l : List (Fin 32)) (Φ : Fin 32 → sProp 𝕄) : bigSepL l Φ = chain l Φ := by
  induction l with
  | nil => rfl
  | cons i l ih =>
    cases l with
    | nil => rfl
    | cons j l => rw [bigSepL_cons_cons, ih]; rfl

omit [FloatOps F] in
theorem chain_peel (i j : Fin 32) (l : List (Fin 32)) (Φ : Fin 32 → sProp 𝕄) : chain (i :: j :: l) Φ ⊢ iprop(Φ i ∗ chain (j :: l) Φ) :=
  Entails.of_eq rfl
omit [FloatOps F] in
theorem chain_last (i : Fin 32) (Φ : Fin 32 → sProp 𝕄) : chain [i] Φ ⊢ Φ i := Entails.of_eq rfl
omit [FloatOps F] in
theorem chain_push (i j : Fin 32) (l : List (Fin 32)) (Φ : Fin 32 → sProp 𝕄) : iprop(Φ i ∗ chain (j :: l) Φ) ⊢ chain (i :: j :: l) Φ :=
  Entails.of_eq rfl

omit [FloatOps F] in
theorem bigSep_offs_chain (Φ : Fin 32 → sProp 𝕄) : bigSep offs Φ = chain offL Φ := by
  rw [bigSep_eq_bigSepL_of_eq offL offs_eq offL_nodup Φ, bigSepL_eq_chain]

/-- A conjunct set aside: the same assertion, not looked into until it is taken out again. -/
irreducible_def aside (P : sProp 𝕄) : sProp 𝕄 := P
omit [FloatOps F] in
theorem aside_out (P : sProp 𝕄) : aside P ⊢ P := Entails.of_eq (aside_def P)
omit [FloatOps F] in
theorem aside_in (P : sProp 𝕄) : P ⊢ aside P := Entails.of_eq (aside_def P).symm

/-- What is owed along a list of offsets on top of `B`, the head first: `g d + …`. -/
def owesL (g : Fin 32 → CellTallies nD τ sig Unit) (B : CellTallies nD τ sig Unit) : List (Fin 32) → CellTallies nD τ sig Unit
  | [] => B
  | d :: l => g d + owesL g B l
theorem owesL_cons (g : Fin 32 → CellTallies nD τ sig Unit) (B : CellTallies nD τ sig Unit) (d : Fin 32) (l : List (Fin 32)) :
    owesL g B (d :: l) = g d + owesL g B l := rfl
theorem owesL_nil (g : Fin 32 → CellTallies nD τ sig Unit) (B : CellTallies nD τ sig Unit) : owesL g B [] = B := rfl
theorem owesL_eq_sum (g : Fin 32 → CellTallies nD τ sig Unit) (B : CellTallies nD τ sig Unit) (l : List (Fin 32)) :
    owesL g B l = (l.map g).sum + B := by
  induction l with
  | nil => rw [owesL_nil, List.map_nil, List.sum_nil, zero_add]
  | cons d l ih => rw [owesL_cons, ih, List.map_cons, List.sum_cons, add_assoc]
/-- The same with the head last: `… + g d`. -/
def owesR (g : Fin 32 → CellTallies nD τ sig Unit) (B : CellTallies nD τ sig Unit) : List (Fin 32) → CellTallies nD τ sig Unit
  | [] => B
  | d :: l => owesR g B l + g d
theorem owesR_cons (g : Fin 32 → CellTallies nD τ sig Unit) (B : CellTallies nD τ sig Unit) (d : Fin 32) (l : List (Fin 32)) :
    owesR g B (d :: l) = owesR g B l + g d := rfl
theorem owesR_nil (g : Fin 32 → CellTallies nD τ sig Unit) (B : CellTallies nD τ sig Unit) : owesR g B [] = B := rfl

/-- One unit on the barrier cell of the device `d` places on. -/
abbrev barOwe (c : Dev nD) (d : Fin 32) : CellTallies nD τ sig Unit := tallyAt (barCell (peer c d)) () 1
/-- One slot's credit on the receive cell `d` of the device `d` places on. -/
abbrev recvOwe (c : Dev nD) (d : Fin 32) : CellTallies nD τ sig Unit := tallyAt (recvCell (peer c d) d) () N

variable (m : (ℓ : Loc nD τ sig) → Buf (Elt F) ℓ)

/-! ## What each stage needs at offset `d` -/

/-- Signal `d`: the addressed barrier cell's invariant and round, the token of its duty `d`, and what the duty hands over —
    slot `opp d` of the own buffer and the round of its receive cell. -/
def sigNeeds (K : Dev nD × Fin 63 → ℕ) (c : Dev nD) (f : Buf (Elt F) ((c : Thread nD τ).loc cc0_scratch0)) (d : Fin 32) : sProp 𝕄 :=
  iprop(cellInv ER (ringRd m) (K (peer c d, 0)) (barCell (peer c d)) ∗ reached ER (barCell (peer c d)) 0 ∗ reached ER (recvCell c (opp d)) 0
    ∗ dutyTok ER (barCell (peer c d)) 0 d ∗ slotPts c (opp d) fullShare f)

/-- Copy `d`: both cells' invariants and rounds, both duties' tokens. -/
def sendNeeds (K : Dev nD × Fin 63 → ℕ) (c : Dev nD) (d : Fin 32) : sProp 𝕄 :=
  iprop(cellInv ER (ringRd m) (K (c, sIdx d)) (sendCell c d) ∗ cellInv ER (ringRd m) (K (peer c d, rIdx d)) (recvCell (peer c d) d)
    ∗ reached ER (sendCell c d) 0 ∗ reached ER (recvCell (peer c d) d) 0
    ∗ dutyTok ER (sendCell c d) 0 0 ∗ dutyTok ER (recvCell (peer c d) d) 0 0)

/-- The destination of copy `d`, as the barrier wait brings it: slot `d` of the device `d` places on, at some contents. -/
def dstNeeds (c : Dev nD) (d : Fin 32) : sProp 𝕄 :=
  iprop((∃ f, slotPts (peer c d) d fullShare f) ∗ reached ER (recvCell (peer c d) d) 0)

/-- The wait for landing `d`: the cell's invariant, its launch credit, the position. -/
def recvNeeds (K : Dev nD × Fin 63 → ℕ) (c : Dev nD) (d : Fin 32) : sProp 𝕄 :=
  iprop(cellInv ER (ringRd m) (K (c, rIdx d)) (recvCell c d) ∗ cred (tallyAt (recvCell c d) () N) ∗ atPos ER (recvCell c d) 0 ∅ 0)

/-- The wait for departure `d`: the cell's invariant and the position (the credit comes from the copy's issue). -/
def departNeeds (K : Dev nD × Fin 63 → ℕ) (c : Dev nD) (d : Fin 32) : sProp 𝕄 :=
  iprop(cellInv ER (ringRd m) (K (c, sIdx d)) (sendCell c d) ∗ atPos ER (sendCell c d) 0 ∅ 0)

/-! ## The body's precondition and postcondition in working form -/

/-- The barrier wait: the own barrier cell's invariant, its launch credit of 31 units, its position. -/
def barNeeds (K : Dev nD × Fin 63 → ℕ) (c : Dev nD) : sProp 𝕄 :=
  iprop(cellInv ER (ringRd m) (K (c, 0)) (barCell c) ∗ cred (tallyAt (barCell c) () 31) ∗ atPos ER (barCell c) 0 ∅ 0)

/-- A staging buffer held whole at contents `X`, spelt through its memref's view. -/
abbrev heldAt {s : Shape} {e : EltTy} (M : Memref sig .tc .vmem s e) (c : Dev nD) (X : Buf (Elt F) (M.view.loc (c : Thread nD τ))) : sProp 𝕄 :=
  M.view.loc (c : Thread nD τ) ↦[M.view.set]{fullShare} X

/-- What the body starts from, sorted by stage, the 31-fold parts folded away. -/
def workPre (K : Dev nD × Fin 63 → ℕ) (c : Dev nD) (f : Buf (Elt F) ((c : Thread nD τ).loc cc0_scratch0)) (W : Waits sig Unit) : sProp 𝕄 :=
  iprop(aside (chain offL (sigNeeds m K c f)) ∗ aside (chain offL (sendNeeds m K c)) ∗ aside (chain offL (recvNeeds m K c))
    ∗ aside (chain offL (departNeeds m K c)) ∗ aside (barNeeds m K c) ∗ levAts L lv ∗ idleSems c
    ∗ slotPts c 0 fullShare f
    ∗ owes (c : Thread nD τ) (owesL (barOwe c) (owesL (recvOwe c) 0 offL) offL) W
    ∗ heldAt xM c (xblk m c) ∗ heldAt gM c (gblk m c) ∗ heldAt bM c (bblk m c) ∗ ∃ fo, heldAt oM c fo)

/-- What the body ends in: the gather buffer's slots at their final contents (slot 0 in its 32 shares), every transfer
    semaphore at zero, nothing owed, the inputs as they were, the output block written. -/
def workPost (c : Dev nD) : sProp 𝕄 :=
  iprop(slotPts c 0 (remShare 31) (gathered m c) ∗ (bigSep offs fun d => slotPts c 0 (lentShare d) (gathered m c))
    ∗ (bigSep offs fun d => slotPts c d fullShare (gathered m c)) ∗ idleSems c
    ∗ (bigSep offs fun d => semVal (sendCell c d) 0) ∗ (bigSep offs fun d => semVal (recvCell c d) 0)
    ∗ (∃ W', owes (c : Thread nD τ) 0 W')
    ∗ heldAt xM c (xblk m c) ∗ heldAt gM c (gblk m c) ∗ heldAt bM c (bblk m c)
    ∗ heldAt oM c (k0_pay4 (k0_pay1 (xblk m c)) (gathered m c) (gblk m c) (bblk m c)))

/-- What the launch leaves device `c` owing, in the order the body pays it: the 31 barrier units, then the 31 landings. -/
theorem O₀_owesL (c : Dev nD) : O₀ c = owesL (barOwe c) (owesL (recvOwe c) 0 offL) offL := by
  rw [owesL_eq_sum, owesL_eq_sum, add_zero]; exact O₀_chain c

open Lean Elab Tactic in
/-- `for_offs d from a to b => tac`: runs `tac` once for each numeral `a … b` in place of the identifier `d`. -/
elab "for_offs " x:ident " from " a:num " to " b:num " => " t:tacticSeq : tactic => do
  for i in [a.getNat : b.getNat + 1] do
    let lit := Syntax.mkNumLit (toString i)
    let t' ← t.raw.replaceM fun s => do
      if s.isIdent && s.getId == x.getId then return some lit else return none
    evalTactic t'

end Cert.KernelIdeal.Proto

end
-- ==== Proof.Shares.lean ====
/-
  Shares and slots of the gather buffer: separation-logic bookkeeping, no program step.

  * A region held at the full share is lent out share by share: halve it, lend the left half, halve the right
    half again, and so on. After 31 halvings the full share is the 31 lent shares together with the remainder,
    and the remainder is still a positive share: the holder can go on reading.
  * The gather buffer of 32 × 2 × 1024 elements is the disjoint union of its 32 slots; slot `d` is the elements
    whose first coordinate is `d`, and index `(row, r)` of the slot is the buffer's `(d, row, r)`.
  * What lands in slot `d` of a device is slot 0 of the device `d` places before it, which is exactly what the
    final contents of the buffer hold there.
-/
import proofs.«900824_g7700000000000825_dist_layernorm_colshard_i_m1024_n512_v7x_i32_bf16_1_alg».proof.Proof.Proto
import Idealize.ShloMosaic.Rules.PointsTo
import Idealize.ShloMosaic.Lib.ValueIdx
import Mathlib.Order.Interval.Finset.Nat
import Mathlib.Algebra.Order.Interval.Finset.Basic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Lending a region share by share -/

omit [FloatOps F] in
/-- After `n` halvings: the full share is the `n` left halves lent so far and what remains. -/
theorem lend_range {ℓ : Loc nD τ sig} (S : Finset (Idx ℓ)) (f : Buf (Elt F) ℓ) (n : ℕ) :
    (ℓ ↦[S]{fullShare} f : sProp 𝕄)
      = iprop((bigSep (Finset.range n) fun k => ℓ ↦[S]{(remShare k).left} f) ∗ ℓ ↦[S]{remShare n} f) := by
  induction n with
  | zero =>
    rw [Finset.range_zero, bigSep_empty]
    exact (BI.equiv_iff.mp emp_sep).symm
  | succ n ih =>
    have hp : (ℓ ↦[S]{remShare n} f : sProp 𝕄)
        ⊣⊢ iprop((ℓ ↦[S]{(remShare n).left} f) ∗ ℓ ↦[S]{(remShare n).right} f) :=
      pointsTo_share (PosShare.mem_left_op_right (remShare n))
    have hs : (ℓ ↦[S]{remShare n} f : sProp 𝕄)
        = iprop((ℓ ↦[S]{(remShare n).left} f) ∗ ℓ ↦[S]{remShare (n + 1)} f) :=
      BI.equiv_iff.mp ⟨hp.1, hp.2⟩
    have assoc : ∀ A B C : sProp 𝕄, iprop(A ∗ (B ∗ C)) = iprop((A ∗ B) ∗ C) :=
      fun A B C => by
        have h : (iprop((A ∗ B) ∗ C) : sProp 𝕄) ⊣⊢ iprop(A ∗ (B ∗ C)) := sep_assoc
        exact (BI.equiv_iff.mp ⟨h.1, h.2⟩).symm
    have comm : ∀ A B : sProp 𝕄, iprop(A ∗ B) = iprop(B ∗ A) :=
      fun A B => by
        have h : (iprop(A ∗ B) : sProp 𝕄) ⊣⊢ iprop(B ∗ A) := sep_comm
        exact BI.equiv_iff.mp ⟨h.1, h.2⟩
    rw [Finset.range_add_one, bigSep_insert Finset.notMem_range_self, ih, hs, assoc,
      comm (bigSep (Finset.range n) fun k => (ℓ ↦[S]{(remShare k).left} f : sProp 𝕄))]
    rfl

/-- The offsets 1 … 31, as numbers, are 0 … 30 shifted by one. -/
theorem offs_map_val :
    (offs : Finset (Fin 32)).map Fin.valEmbedding = (Finset.range 31).map (addRightEmbedding 1) := by
  decide

omit [FloatOps F] in
/-- The full share of a region is the 31 lent shares and the share that stays in hand. -/
theorem lend_all {ℓ : Loc nD τ sig} (S : Finset (Idx ℓ)) (f : Buf (Elt F) ℓ) :
    (ℓ ↦[S]{fullShare} f : sProp 𝕄)
      ⊣⊢ iprop((bigSep offs fun d : Fin 32 => ℓ ↦[S]{lentShare d} f) ∗ ℓ ↦[S]{remShare 31} f) := by
  have h1 := bigSep_map (s := (offs : Finset (Fin 32))) Fin.valEmbedding
    (Φ := fun k : ℕ => (ℓ ↦[S]{(remShare (k - 1)).left} f : sProp 𝕄))
  have h2 := bigSep_map (s := Finset.range 31) (addRightEmbedding 1)
    (Φ := fun k : ℕ => (ℓ ↦[S]{(remShare (k - 1)).left} f : sProp 𝕄))
  rw [offs_map_val] at h1
  have h : (bigSep offs fun d : Fin 32 => (ℓ ↦[S]{lentShare d} f : sProp 𝕄))
      = bigSep (Finset.range 31) fun k => ℓ ↦[S]{(remShare k).left} f :=
    h1.symm.trans (h2.trans (bigSep_congr fun k _ => by
      show (ℓ ↦[S]{(remShare (k + 1 - 1)).left} f : sProp 𝕄) = _
      rw [Nat.add_sub_cancel]))
  rw [h]
  exact ⟨Entails.of_eq (lend_range S f 31), Entails.of_eq (lend_range S f 31).symm⟩

omit [FloatOps F] in
/-- Slot 0 of a device's gather buffer: its full share is the 31 shares lent to the copies and the one kept. -/
theorem slot0_lend (c : Dev nD) (f : Buf (Elt F) ((c : Thread nD τ).loc cc0_scratch0)) :
    (slotPts c 0 fullShare f : sProp 𝕄)
      ⊣⊢ iprop((bigSep offs fun d => slotPts c 0 (lentShare d) f) ∗ slotPts c 0 (remShare 31) f) :=
  lend_all _ f

variable (m : (ℓ : Loc nD τ sig) → Buf (Elt F) ℓ)

/-! ## The slots of the gather buffer, by coordinates -/

/-- Where slot `d`'s index `(row, r)` sits in the gather buffer: at `(d, row, r)`. -/
theorem slot_coord (d : Fin 32) (x : S2x1024.Idx) (a : Fin 3) :
    (((slotM d).view.emb x : S32x2x1024.Idx) a).val = (ValueIdx.ix3 d (x 0) (x 1) : S32x2x1024.Idx) a := by
  have hx : Shape.reshapeEquiv (s := (⟨2 + 1, Matrix.vecCons 1 ![2, 1024]⟩ : Shape)) (s' := (⟨2, ![2, 1024]⟩ : Shape))
      squeezes_S1x2x1024_S2x1024.numel_eq x = Fin.cons ⟨0, Nat.one_pos⟩ x :=
    Shape.reshapeEquiv_cons_one _ x
  unfold slotM
  simp only [Memref.view_squeeze, Memref.view_slice, Memref.view_whole, View.emb_reshape, View.emb_slice, View.emb_whole,
    Function.Embedding.trans_apply, Equiv.coe_toEmbedding, Function.Embedding.refl_apply, Rect.emb_apply]
  rw [hx]
  show ((Rect.unit (s := S32x2x1024) ![d.val, 0, 0] ![1, 2, 1024] (inb_slot d)).emb (Fin.cons ⟨0, Nat.one_pos⟩ x) a : ℕ) = _
  rw [Rect.emb_apply]
  match a with
  | ⟨0, _⟩ => show d.val + 1 * 0 = d.val; omega
  | ⟨1, _⟩ => show 0 + 1 * (x 0).val = (x 0).val; omega
  | ⟨2, _⟩ => show 0 + 1 * (x 1).val = (x 1).val; omega

omit [FloatOps F] in
/-- The first coordinate of every element of slot `d` is `d`. -/
theorem slot_coord0 (d : Fin 32) (x : S2x1024.Idx) :
    (⟨(((slotM d).view.emb x : S32x2x1024.Idx) (0 : Fin 3)).val, (((slotM d).view.emb x : S32x2x1024.Idx) (0 : Fin 3)).isLt⟩ : Fin 32) = d :=
  Fin.ext (slot_coord d x 0)

theorem orig_at_zero (c : Dev nD) : orig c 0 = c := by
  have h := orig_peer c 0
  rwa [peer_zero] at h

/-- The final contents at two places agree when the places name the same source device, row and position. -/
theorem gathered_congr (c c' : Dev nD) (i i' : S32x2x1024.Idx)
    (h0 : orig c ⟨(i 0).val, (i 0).isLt⟩ = orig c' ⟨(i' 0).val, (i' 0).isLt⟩)
    (h1 : (i 1).val = (i' 1).val) (h2 : (i 2).val = (i' 2).val) :
    gathered m c i = gathered m c' i' := by
  have e2 : (⟨(i 2).val, (i 2).isLt⟩ : Fin 1024) = ⟨(i' 2).val, (i' 2).isLt⟩ := Fin.ext h2
  unfold gathered
  rw [h0, h1, e2]

omit [FloatOps F] in
/-- Slot `d` overwritten with what slot 0 of another buffer reads holds, at its index `x`, that buffer's slot-0 element at `x`. -/
theorem slot_write_emb (d : Fin 32) (fd : (slotM d).view.ty.Contents (Elt F)) (g0 : (slotM 0).view.ty.Contents (Elt F))
    (x : S2x1024.Idx) :
    (slotM d).view.write (Elt F) fd ((slotM 0).view.read (Elt F) g0) Finset.univ ((slotM d).view.emb x)
      = g0 ((slotM 0).view.emb x) := by
  rw [View.write_emb_of_mem _ _ (Finset.mem_univ x), View.read_apply, cast_cast]
  exact cast_eq _ _

/-- What a landing writes: slot `d` of device `c'`, overwritten with slot 0 of the device `d` places before it, holds
    on its own elements exactly the final contents of `c'`'s buffer. -/
theorem slot_write_congr (c c' : Dev nD) (d : Fin 32) (q : PosShare TreeShare)
    (fd : Buf (Elt F) ((c' : Thread nD τ).loc cc0_scratch0)) (hcc : orig c' d = c) :
    (slotPts c' d q ((slotM d).view.write (Elt F) fd ((slotM 0).view.read (Elt F) (gathered m c)) Finset.univ) : sProp 𝕄)
      = slotPts c' d q (gathered m c') := by
  unfold slotPts
  refine pointsTo_congr fun i hi => ?_
  obtain ⟨x, -, rfl⟩ := Finset.mem_map.mp hi
  refine (slot_write_emb d fd (gathered m c) x).trans (gathered_congr m c c' _ _ ?_ ?_ ?_)
  · rw [slot_coord0 0 x, slot_coord0 d x, orig_at_zero, hcc]
  · rw [slot_coord 0 x 1, slot_coord d x 1]
  · rw [slot_coord 0 x 2, slot_coord d x 2]

omit [FloatOps F] in
/-- Index `(row, r)` of slot `d` is the buffer's index `(d, row, r)`. -/
theorem slot_coord_eq (d : Fin 32) (x : S2x1024.Idx) :
    ((slotM d).view.emb x : S32x2x1024.Idx) = ValueIdx.ix3 d (x 0) (x 1) :=
  funext fun a => Fin.ext (slot_coord d x a)

omit [FloatOps F] in
/-- Reading slot `d` at `(row, r)` is reading the buffer at `(d, row, r)`. -/
theorem slot_read_at (c : Dev nD) (d : Fin 32) (f : Buf (Elt F) ((c : Thread nD τ).loc cc0_scratch0)) (i : S2x1024.Idx) :
    (slotM d).view.read (Elt F) f i = f (ValueIdx.ix3 d (i 0) (i 1)) := by
  have h : (slotM d).view.read (Elt F) f i = f ((slotM d).view.emb i) := cast_eq _ _
  exact h.trans (congrArg f (slot_coord_eq d i))

/-! ## The slots tile the buffer -/

/-- The elements of slot `d`, as a set of the buffer's indices. -/
def slotSet (d : Fin 32) : Finset S32x2x1024.Idx := (slotM d).view.set

/-- An element of the buffer is in slot `d` exactly when its first coordinate is `d`. -/
theorem mem_slotSet (d : Fin 32) (i : S32x2x1024.Idx) : i ∈ slotSet d ↔ (i (0 : Fin 3)).val = d.val := by
  constructor
  · intro h
    obtain ⟨x, -, e⟩ := Finset.mem_map.mp (show i ∈ Finset.univ.map (slotM d).view.emb from h)
    have h0 := slot_coord d x (0 : Fin 3)
    rw [← e]
    exact h0
  · intro h
    refine (show i ∈ Finset.univ.map (slotM d).view.emb from
      Finset.mem_map.mpr ⟨ValueIdx.ix2 (i (1 : Fin 3)) (i (2 : Fin 3)), Finset.mem_univ _, ?_⟩)
    funext a
    refine Fin.ext ((slot_coord d _ a).trans ?_)
    match a with
    | ⟨0, _⟩ => exact h.symm
    | ⟨1, _⟩ => rfl
    | ⟨2, _⟩ => rfl

/-- Different slots share no element. -/
theorem slotSet_disjoint (d d' : Fin 32) (h : d ≠ d') : Disjoint (slotSet d) (slotSet d') := by
  rw [Finset.disjoint_left]
  intro i hi hi'
  rw [mem_slotSet] at hi hi'
  exact h (Fin.ext (hi.symm.trans hi'))

/-- Every element is in the slot its first coordinate names. -/
theorem slotSet_cover (i : S32x2x1024.Idx) : ∃ d, i ∈ slotSet d :=
  ⟨⟨(i (0 : Fin 3)).val, (i (0 : Fin 3)).isLt⟩, (mem_slotSet _ i).mpr rfl⟩

omit [FloatOps F] in
/-- A region whose elements are tiled by a finite family of pairwise disjoint sets is the family's regions together. -/
theorem pointsTo_tile {ℓ : Loc nD τ sig} {T : Type} [Fintype T] (K : T → Finset (Idx ℓ))
    (hd : ∀ t t', t ≠ t' → Disjoint (K t) (K t')) (hc : ∀ i, ∃ t, i ∈ K t)
    (q : PosShare TreeShare) (f : Buf (Elt F) ℓ) :
    (ℓ ↦{q} f : sProp 𝕄) = bigSep Finset.univ fun t => ℓ ↦[K t]{q} f := by
  have h : (ℓ ↦[Finset.univ.biUnion K]{q} f : sProp 𝕄) = bigSep Finset.univ fun t => ℓ ↦[K t]{q} f :=
    pointsTo_biUnion Finset.univ K (fun t _ t' _ => hd t t')
  have hc' : Finset.univ.biUnion K = Finset.univ := Finset.eq_univ_iff_forall.mpr fun i => by
    obtain ⟨t, ht⟩ := hc i
    exact Finset.mem_biUnion.mpr ⟨t, Finset.mem_univ _, ht⟩
  rw [hc'] at h
  exact h

omit [FloatOps F] in
/-- The whole gather buffer at a share is its 32 slots at that share. -/
theorem comm_slots (c : Dev nD) (q : PosShare TreeShare) (f : Buf (Elt F) ((c : Thread nD τ).loc cc0_scratch0)) :
    ((((c : Thread nD τ).loc cc0_scratch0) ↦{q} f) : sProp 𝕄) ⊣⊢ bigSep Finset.univ fun d : Fin 32 => slotPts c d q f := by
  have h : ((((c : Thread nD τ).loc cc0_scratch0) ↦{q} f) : sProp 𝕄)
      = bigSep Finset.univ fun d : Fin 32 => (((c : Thread nD τ).loc cc0_scratch0) ↦[slotSet d]{q} f) :=
    pointsTo_tile (ℓ := (c : Thread nD τ).loc cc0_scratch0) slotSet slotSet_disjoint slotSet_cover q f
  exact ⟨Entails.of_eq h, Entails.of_eq h.symm⟩

omit [FloatOps F] in
/-- The same with slot 0 set apart from the 31 slots the copies fill. -/
theorem comm_slot0 (c : Dev nD) (q : PosShare TreeShare) (f : Buf (Elt F) ((c : Thread nD τ).loc cc0_scratch0)) :
    ((((c : Thread nD τ).loc cc0_scratch0) ↦{q} f) : sProp 𝕄)
      ⊣⊢ iprop(slotPts c 0 q f ∗ bigSep offs fun d => slotPts c d q f) := by
  have h := comm_slots c q f
  rw [bigSep_univ_split (0 : Fin 32)] at h
  exact h

/-- info: 'Cert.KernelIdeal.Proto.lend_all' depends on axioms: [propext, Classical.choice, Quot.sound] -/
#guard_msgs in #print axioms lend_all

/-- info: 'Cert.KernelIdeal.Proto.slot0_lend' depends on axioms: [propext, Classical.choice, Quot.sound] -/
#guard_msgs in #print axioms slot0_lend

/-- info: 'Cert.KernelIdeal.Proto.slot_write_congr' depends on axioms: [propext, Classical.choice, Quot.sound] -/
#guard_msgs in #print axioms slot_write_congr

/-- info: 'Cert.KernelIdeal.Proto.slot_read_at' depends on axioms: [propext, Classical.choice, Quot.sound] -/
#guard_msgs in #print axioms slot_read_at

/-- info: 'Cert.KernelIdeal.Proto.comm_slots' depends on axioms: [propext, Classical.choice, Quot.sound] -/
#guard_msgs in #print axioms comm_slots

/-- info: 'Cert.KernelIdeal.Proto.comm_slot0' depends on axioms: [propext, Classical.choice, Quot.sound] -/
#guard_msgs in #print axioms comm_slot0

end Cert.KernelIdeal.Proto

end
-- ==== Proof.CloseRule.lean ====
/-
  The end of the body, and the whole gather buffer while slot 0 is still partly lent.

  * When every copy has left and landed, device `c` holds slot 0 of its gather buffer as the 31 lent shares come back
    and the share it kept, and each slot 1 … 31 whole at the final contents: together the whole buffer at the final
    contents. Its 64 transfer semaphores are the two idle ones and the 31 + 31 that the copies used, all at zero.
  * Before that, the body reads the whole buffer while the lent shares of slot 0 are still out. Each full slot
    1 … 31 is cut the same way as slot 0 — 31 lent shares and the remainder — so that all 32 slots are held at the
    remainder share: the whole buffer at that share, readable, beside the cut-off pieces.
-/
import proofs.«900824_g7700000000000825_dist_layernorm_colshard_i_m1024_n512_v7x_i32_bf16_1_alg».proof.Proof.Data
import proofs.«900824_g7700000000000825_dist_layernorm_colshard_i_m1024_n512_v7x_i32_bf16_1_alg».proof.Proof.LaunchGhost
import proofs.«900824_g7700000000000825_dist_layernorm_colshard_i_m1024_n512_v7x_i32_bf16_1_alg».proof.Proof.Shares

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The whole gather buffer, in its two spellings -/

omit [FloatOps F] in
/-- The gather buffer held through its memref is the buffer held whole: the memref's view is all of it. -/
theorem comm_whole (c : Dev nD) (q : PosShare TreeShare) (f : Buf (Elt F) ((c : Thread nD τ).loc cc0_scratch0)) :
    (((commM : Memref sig .tc .vmem S32x2x1024 .bf16).view.loc (c : Thread nD τ)
        ↦[(commM : Memref sig .tc .vmem S32x2x1024 .bf16).view.set]{q} f) : sProp 𝕄)
      = (((c : Thread nD τ).loc cc0_scratch0) ↦{q} f) := by
  have hset : (commM : Memref sig .tc .vmem S32x2x1024 .bf16).view.set = Finset.univ := View.set_whole _
  rw [hset]

/-! ## The end of the body -/

/-- Everything back: the whole gather buffer at its final contents and the 64 transfer semaphores at zero. -/
theorem phi1_intro (m : (ℓ : Loc nD τ sig) → Buf (Elt F) ℓ) (c : Dev nD) :
    iprop(slotPts c 0 (remShare 31) (gathered m c) ∗ (bigSep offs fun d => slotPts c 0 (lentShare d) (gathered m c))
        ∗ (bigSep offs fun d => slotPts c d fullShare (gathered m c)) ∗ idleSems c
        ∗ (bigSep offs fun d => semVal (sendCell c d) 0) ∗ (bigSep offs fun d => semVal (recvCell c d) 0))
      ⊢ Φ₁ m c := by
  have hsem : iprop((semVal (sendCell c 0) 0 ∗ bigSep offs fun d => semVal (sendCell c d) 0)
        ∗ (semVal (recvCell c 0) 0 ∗ bigSep offs fun d => semVal (recvCell c d) 0))
      ⊢ (bigSep Finset.univ fun j : Fin 64 => semVal ((c : Thread nD τ), osem j) 0 : sProp 𝕄) :=
    Entails.of_eq (ownSems0_eq (F := F) c).symm
  unfold Φ₁ commPts idleSems
  iintro ⟨Hrem, Hlent, Hslots, ⟨Hs0, Hr0⟩, Hs, Hr⟩
  isplitl [Hrem Hlent Hslots]
  · iapply (comm_slot0 c fullShare (gathered m c)).2
    isplitl [Hrem Hlent]
    · iapply (slot0_lend c (gathered m c)).2
      isplitl [Hlent] <;> iassumption
    iexact Hslots
  · iapply hsem
    isplitl [Hs0 Hs]
    · isplitl [Hs0] <;> iassumption
    isplitl [Hr0] <;> iassumption

/-! ## The whole buffer at the share that stays in hand -/

omit [FloatOps F] in
/-- A full slot is its 31 lent shares and the share that stays in hand, as an equation. -/
theorem slot_lend_eq (c : Dev nD) (d : Fin 32) (f : Buf (Elt F) ((c : Thread nD τ).loc cc0_scratch0)) :
    (slotPts c d fullShare f : sProp 𝕄)
      = iprop((bigSep offs fun e => slotPts c d (lentShare e) f) ∗ slotPts c d (remShare 31) f) := by
  have h : (slotPts c d fullShare f : sProp 𝕄)
      ⊣⊢ iprop((bigSep offs fun e => slotPts c d (lentShare e) f) ∗ slotPts c d (remShare 31) f) := lend_all _ f
  exact BI.equiv_iff.mp ⟨h.1, h.2⟩

/-- Slot 0 at the share in hand and the slots 1 … 31 whole are the whole buffer at the share in hand and, of each of
    the slots 1 … 31, the 31 lent shares. -/
theorem comm_lower (m : (ℓ : Loc nD τ sig) → Buf (Elt F) ℓ) (c : Dev nD) :
    iprop(slotPts c 0 (remShare 31) (gathered m c) ∗ bigSep offs fun d => slotPts c d fullShare (gathered m c))
      ⊣⊢ iprop(((commM : Memref sig .tc .vmem S32x2x1024 .bf16).view.loc (c : Thread nD τ)
            ↦[(commM : Memref sig .tc .vmem S32x2x1024 .bf16).view.set]{remShare 31} gathered m c)
          ∗ bigSep offs fun d => bigSep offs fun e => slotPts c d (lentShare e) (gathered m c)) := by
  have hw := comm_slot0 c (remShare 31) (gathered m c)
  rw [comm_whole c (remShare 31) (gathered m c),
    bigSep_congr (s := offs) (fun d _ => slot_lend_eq (F := F) c d (gathered m c)), bigSep_sep']
  constructor
  · iintro ⟨H0, Hl, Hr⟩
    isplitl [H0 Hr]
    · iapply hw.2
      isplitl [H0] <;> iassumption
    iexact Hl
  · iintro ⟨Hw, Hl⟩
    ihave H := hw.1 $$ Hw
    icases H with ⟨H0, Hr⟩
    isplitl [H0]; · iexact H0
    isplitl [Hl] <;> iassumption

/-- info: 'Cert.KernelIdeal.Proto.phi1_intro' depends on axioms: [propext, Classical.choice, Quot.sound] -/
#guard_msgs in #print axioms phi1_intro

/-- info: 'Cert.KernelIdeal.Proto.comm_lower' depends on axioms: [propext, Classical.choice, Quot.sound] -/
#guard_msgs in #print axioms comm_lower

end Cert.KernelIdeal.Proto

end
-- ==== Proof.BarrierRule.lean ====
/-
  The wait of a device on its own barrier cell.

  The barrier cell of `c` has 31 duties of one unit in its single round, duty d paid by the device d places before `c`.
  A wait for 31 therefore takes the whole round, and with it all 31 payloads: duty d hands `c` the slot `opp d` of the
  device d places before it. The device d places before `c` is the device `opp d` places after it, so, counted by
  e = opp d (which runs through 1 … 31 as d does), `c` holds for every offset e the slot e of the device e places after
  it, together with the fact that the receive cell guarding that slot is at its round 0: what its copy number e needs.
  The barrier semaphore is not the kernel's own, and the cell is left open at round 1.
-/
import proofs.«900824_g7700000000000825_dist_layernorm_colshard_i_m1024_n512_v7x_i32_bf16_1_alg».proof.Proof.Proto
import proofs.«900824_g7700000000000825_dist_layernorm_colshard_i_m1024_n512_v7x_i32_bf16_1_alg».proof.Proof.Levels

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The opposite offset permutes 1 … 31 -/

/-- `opp` as an embedding: it is its own inverse. -/
def oppEmb : Fin 32 ↪ Fin 32 := ⟨opp, fun a b h => by rw [← opp_opp a, ← opp_opp b, h]⟩

theorem offs_map_opp : offs.map oppEmb = offs := by
  ext e
  simp only [Finset.mem_map, Finset.mem_erase, Finset.mem_univ, and_true]
  constructor
  · rintro ⟨d, hd, rfl⟩; exact opp_ne_zero d hd
  · intro he; exact ⟨opp e, opp_ne_zero e he, opp_opp e⟩

/-! ## The whole round of the barrier cell, counted by the offset of the slot handed over -/

theorem rest_bar (c : Dev nD) :
    bigSep ((ringRd (F := F) m).duties (barCell c) 0 \ ∅) (fun d => (ringRd (F := F) m).payload (barCell c) 0 d)
      = bigSep offs fun e => iprop((∃ f, slotPts (F := F) (peer c e) e fullShare f) ∗ reached ER (recvCell (peer c e) e) 0) := by
  rw [Finset.sdiff_empty, duties_bar, ← offs_map_opp, bigSep_map]
  refine bigSep_congr fun e _ => ?_
  rw [payload_bar]
  show iprop((∃ f, slotPts (orig c e) (opp e) fullShare f) ∗ reached ER (recvCell (orig c e) (opp e)) 0)
    = iprop((∃ f, slotPts (peer c (opp e)) (opp e) fullShare f) ∗ reached ER (recvCell (peer c (opp e)) (opp e)) 0)
  rw [peer_opp]

/-! ## The wait -/

/-- The wait for 31 on the barrier cell, while still owing `O` at cells above the barrier's level: every other device's
    slot for `c` comes back, and the cell stands at round 1. -/
theorem wp_wait_bar (c : Dev nD) (κ : ℕ) {n : ℕ} {α : Type} {Q : α → sProp 𝕄}
    {k : PUnit → Prog (TpuEff nD τ sig (Elt F) Λ₀ .tc) α} (O : CellTallies nD τ sig Unit) (W : Waits sig Unit)
    (hmw : (levAts L lv : sProp 𝕄) ⊢ MayWait (c : Thread nD τ) (.reg barS) () O) (hn : n = 31 := by decide) :
    iprop(cellInv ER (ringRd m) κ (barCell c) ∗ cred (tallyAt (barCell c) () 31) ∗ owes (c : Thread nD τ) O W
        ∗ atPos ER (barCell c) 0 ∅ 0 ∗ levAts L lv)
      ⊢ iprop((((∃ W', owes (c : Thread nD τ) O W')
                ∗ (bigSep offs fun e => iprop((∃ f, slotPts (F := F) (peer c e) e fullShare f) ∗ reached ER (recvCell (peer c e) e) 0))
                ∗ atPos ER (barCell c) 1 ∅ 0)
              -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) := by
  subst hn
  iintro ⟨#HI, Hc, HO, Hat, #Hlev⟩ Hk
  iapply (Rounds.wp_wait_rest_token Variants.none ER (ringRd m) (c : Thread nD τ) none (κ := κ)
      (wpE_semWait_eq Variants.none (c : Thread nD τ) none Set.univ) (Set.mem_univ _) () (O := O) (W := W) (R := 0) (m := 0) (T := ∅)
      (by rw [Nat.zero_add, expect_bar])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hslots := (Entails.of_eq (rest_bar m c)) $$ Hpay
  iapply Hk
  isplitl [HO]; · iexists _; iexact HO
  isplitl [Hslots]; · iexact Hslots
  iexact Hat

/-- The same at what the device owes when it reaches that wait: the 31 landings. -/
theorem wp_wait_bar_Obar (c : Dev nD) (κ : ℕ) {n : ℕ} {α : Type} {Q : α → sProp 𝕄}
    {k : PUnit → Prog (TpuEff nD τ sig (Elt F) Λ₀ .tc) α} (W : Waits sig Unit) (hn : n = 31 := by decide) :
    let O := Obar c
    iprop(cellInv ER (ringRd m) κ (barCell c) ∗ cred (tallyAt (barCell c) () 31) ∗ owes (c : Thread nD τ) O W
        ∗ atPos ER (barCell c) 0 ∅ 0 ∗ levAts L lv)
      ⊢ iprop((((∃ W', owes (c : Thread nD τ) O W')
                ∗ (bigSep offs fun e => iprop((∃ f, slotPts (F := F) (peer c e) e fullShare f) ∗ reached ER (recvCell (peer c e) e) 0))
                ∗ atPos ER (barCell c) 1 ∅ 0)
              -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) :=
  wp_wait_bar m c κ (Obar c) W (mayWait_bar c) hn

/-- The same with the 31 landings listed in order. -/
theorem wp_wait_bar_chain (c : Dev nD) (κ : ℕ) {n : ℕ} {α : Type} {Q : α → sProp 𝕄}
    {k : PUnit → Prog (TpuEff nD τ sig (Elt F) Λ₀ .tc) α} (W : Waits sig Unit) (hn : n = 31 := by decide) :
    let O := (offL.map fun d => tallyAt (recvCell (peer c d) d) () N).sum
    iprop(cellInv ER (ringRd m) κ (barCell c) ∗ cred (tallyAt (barCell c) () 31) ∗ owes (c : Thread nD τ) O W
        ∗ atPos ER (barCell c) 0 ∅ 0 ∗ levAts L lv)
      ⊢ iprop((((∃ W', owes (c : Thread nD τ) O W')
                ∗ (bigSep offs fun e => iprop((∃ f, slotPts (F := F) (peer c e) e fullShare f) ∗ reached ER (recvCell (peer c e) e) 0))
                ∗ atPos ER (barCell c) 1 ∅ 0)
              -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) := by
  rw [← Obar_chain]
  exact wp_wait_bar m c κ (Obar c) W (mayWait_bar c) hn

/-- info: 'Cert.KernelIdeal.Proto.wp_wait_bar' depends on axioms: [propext, Classical.choice, Quot.sound] -/
#guard_msgs in #print axioms wp_wait_bar
/-- info: 'Cert.KernelIdeal.Proto.wp_wait_bar_chain' depends on axioms: [propext, Classical.choice, Quot.sound] -/
#guard_msgs in #print axioms wp_wait_bar_chain

end Cert.KernelIdeal.Proto

end
-- ==== Proof.BodyWrap.lean ====
/-
  What the launch hands a device, sorted for the body; and the body's lemma in the form the pipeline asks for it.

  A device starts with: every cell's invariant and round (shared by all), its 63 positions, the tokens of the duties it
  pays, its launch credit, the level facts, its two idle semaphores, its gather buffer at some contents, what it owes,
  and its four staging buffers. The body uses them stage by stage, 31 offsets at a time:
  * signal d needs the addressed barrier cell's invariant and round, its duty's token, and what the duty hands over:
    slot `opp d` of the own buffer with its receive cell's round — so the slots 1 … 31 are counted by the opposite offset;
  * copy d needs both cells' invariants, rounds and duty tokens; the wait for landing d the receive cell's invariant,
    credit and position; the wait for departure d the send cell's invariant and position; the barrier wait the own
    barrier cell's invariant, its 31 units of credit and its position.
  Each family is a conjunction over the offsets 1 … 31, listed in order and set aside until its stage. At the end the
  gather buffer is whole again at its final contents, all 64 transfer semaphores are at zero, nothing is owed, the three
  input blocks are as they were and the output block is written: what the pipeline takes back.
-/
import proofs.«900824_g7700000000000825_dist_layernorm_colshard_i_m1024_n512_v7x_i32_bf16_1_alg».proof.Proof.BodyDefs
import proofs.«900824_g7700000000000825_dist_layernorm_colshard_i_m1024_n512_v7x_i32_bf16_1_alg».proof.Proof.Data
import proofs.«900824_g7700000000000825_dist_layernorm_colshard_i_m1024_n512_v7x_i32_bf16_1_alg».proof.Proof.CloseRule
import proofs.«900824_g7700000000000825_dist_layernorm_colshard_i_m1024_n512_v7x_i32_bf16_1_alg».proof.Proof.BarrierRule
import proofs.«900824_g7700000000000825_dist_layernorm_colshard_i_m1024_n512_v7x_i32_bf16_1_alg».proof.Proof.Shares
import proofs.«900824_g7700000000000825_dist_layernorm_colshard_i_m1024_n512_v7x_i32_bf16_1_alg».proof.Proof.LaunchGhost

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
/-! ## The records, cell by cell -/

theorem rec_inv (K : Dev nD × Fin 63 → ℕ) (ck : Dev nD × Fin 63) : records m K ⊢ cellInv ER (ringRd m) (K ck) (kcell ck) := by
  unfold records
  iintro ⟨HI, -⟩
  iapply (inv_at m K ck); iexact HI

theorem rec_reached (K : Dev nD × Fin 63 → ℕ) (ck : Dev nD × Fin 63) : records m K ⊢ reached ER (kcell ck) 0 := by
  unfold records
  iintro ⟨-, HR⟩
  iapply (reached_at (F := F) ck); iexact HR

theorem rec_inv_bar (K : Dev nD × Fin 63 → ℕ) (q : Dev nD) : records m K ⊢ cellInv ER (ringRd m) (K (q, 0)) (barCell q) :=
  rec_inv m K (q, 0)
theorem rec_inv_send (K : Dev nD × Fin 63 → ℕ) (q : Dev nD) (d : Fin 32) (hd : d ≠ 0) :
    records m K ⊢ cellInv ER (ringRd m) (K (q, sIdx d)) (sendCell q d) :=
  (rec_inv m K (q, sIdx d)).trans (Entails.of_eq (by rw [kcell_send q d hd]))
theorem rec_inv_recv (K : Dev nD × Fin 63 → ℕ) (q : Dev nD) (d : Fin 32) (hd : d ≠ 0) :
    records m K ⊢ cellInv ER (ringRd m) (K (q, rIdx d)) (recvCell q d) :=
  (rec_inv m K (q, rIdx d)).trans (Entails.of_eq (by rw [kcell_recv q d hd]))
theorem rec_reached_bar (K : Dev nD × Fin 63 → ℕ) (q : Dev nD) : records m K ⊢ reached ER (barCell q) 0 :=
  rec_reached m K (q, 0)
theorem rec_reached_send (K : Dev nD × Fin 63 → ℕ) (q : Dev nD) (d : Fin 32) (hd : d ≠ 0) :
    records m K ⊢ reached ER (sendCell q d) 0 :=
  (rec_reached m K (q, sIdx d)).trans (Entails.of_eq (by rw [kcell_send q d hd]))
theorem rec_reached_recv (K : Dev nD × Fin 63 → ℕ) (q : Dev nD) (d : Fin 32) (hd : d ≠ 0) :
    records m K ⊢ reached ER (recvCell q d) 0 :=
  (rec_reached m K (q, rIdx d)).trans (Entails.of_eq (by rw [kcell_recv q d hd]))

/-! ## The 31-fold parts, offset by offset -/

theorem sig_fold (K : Dev nD × Fin 63 → ℕ) (c : Dev nD) (f : Buf (Elt F) ((c : Thread nD τ).loc cc0_scratch0)) :
    iprop(records m K ∗ bigSep offs fun d => iprop(dutyTok ER (barCell (peer c d)) 0 d ∗ slotPts c (opp d) fullShare f))
      ⊢ bigSep offs (sigNeeds m K c f) :=
  bigSep_with_persistent (R := records m K) fun d hd => by
    have hd0 : d ≠ 0 := Finset.ne_of_mem_erase hd
    unfold sigNeeds
    iintro ⟨#HR, Ht, Hs⟩
    isplitr; · iapply (rec_inv_bar m K (peer c d)); iexact HR
    isplitr; · iapply (rec_reached_bar m K (peer c d)); iexact HR
    isplitr; · iapply (rec_reached_recv m K c (opp d) (opp_ne_zero d hd0)); iexact HR
    isplitl [Ht]; · iexact Ht
    iexact Hs

theorem send_fold (K : Dev nD × Fin 63 → ℕ) (c : Dev nD) :
    iprop(records m K ∗ bigSep offs fun d => iprop(dutyTok ER (sendCell c d) 0 0 ∗ dutyTok ER (recvCell (peer c d) d) 0 0))
      ⊢ bigSep offs (sendNeeds m K c) :=
  bigSep_with_persistent (R := records m K) fun d hd => by
    have hd0 : d ≠ 0 := Finset.ne_of_mem_erase hd
    unfold sendNeeds
    iintro ⟨#HR, Hs, Hr⟩
    isplitr; · iapply (rec_inv_send m K c d hd0); iexact HR
    isplitr; · iapply (rec_inv_recv m K (peer c d) d hd0); iexact HR
    isplitr; · iapply (rec_reached_send m K c d hd0); iexact HR
    isplitr; · iapply (rec_reached_recv m K (peer c d) d hd0); iexact HR
    isplitl [Hs]; · iexact Hs
    iexact Hr

theorem recv_fold (K : Dev nD × Fin 63 → ℕ) (c : Dev nD) :
    iprop(records m K ∗ bigSep offs fun d => iprop(cred (tallyAt (recvCell c d) () N) ∗ atPos ER (recvCell c d) 0 ∅ 0))
      ⊢ bigSep offs (recvNeeds m K c) :=
  bigSep_with_persistent (R := records m K) fun d hd => by
    have hd0 : d ≠ 0 := Finset.ne_of_mem_erase hd
    unfold recvNeeds
    iintro ⟨#HR, Hc, Hat⟩
    isplitr; · iapply (rec_inv_recv m K c d hd0); iexact HR
    isplitl [Hc]; · iexact Hc
    iexact Hat

theorem depart_fold (K : Dev nD × Fin 63 → ℕ) (c : Dev nD) :
    iprop(records m K ∗ bigSep offs fun d => atPos ER (sendCell c d) 0 ∅ 0)
      ⊢ bigSep offs (departNeeds m K c) :=
  bigSep_with_persistent (R := records m K) fun d hd => by
    have hd0 : d ≠ 0 := Finset.ne_of_mem_erase hd
    unfold departNeeds
    iintro ⟨#HR, Hat⟩
    isplitr; · iapply (rec_inv_send m K c d hd0); iexact HR
    iexact Hat

omit [FloatOps F] in
/-- The slots 1 … 31, counted by the opposite offset. -/
theorem slots_opp (c : Dev nD) (f : Buf (Elt F) ((c : Thread nD τ).loc cc0_scratch0)) :
    (bigSep offs fun d => slotPts c d fullShare f) = bigSep offs fun d => slotPts c (opp d) fullShare f := by
  conv_lhs => rw [← offs_map_opp, bigSep_map]
  rfl

/-! ## The 31-fold parts folded -/

theorem sig_ready (K : Dev nD × Fin 63 → ℕ) (c : Dev nD) (f : Buf (Elt F) ((c : Thread nD τ).loc cc0_scratch0)) :
    iprop(records m K ∗ (bigSep offs fun d => dutyTok ER (barCell (peer c d)) 0 d) ∗ bigSep offs fun d => slotPts c d fullShare f)
      ⊢ aside (chain offL (sigNeeds m K c f)) := by
  rw [slots_opp c f, ← bigSep_sep', ← bigSep_offs_chain]
  exact (sig_fold m K c f).trans (aside_in _)

theorem send_ready (K : Dev nD × Fin 63 → ℕ) (c : Dev nD) :
    iprop(records m K ∗ (bigSep offs fun d => dutyTok ER (sendCell c d) 0 0) ∗ bigSep offs fun d => dutyTok ER (recvCell (peer c d) d) 0 0)
      ⊢ aside (chain offL (sendNeeds m K c)) := by
  rw [← bigSep_sep', ← bigSep_offs_chain]
  exact (send_fold m K c).trans (aside_in _)

theorem recv_ready (K : Dev nD × Fin 63 → ℕ) (c : Dev nD) :
    iprop(records m K ∗ (bigSep offs fun d => cred (tallyAt (recvCell c d) () N)) ∗ bigSep offs fun d => atPos ER (recvCell c d) 0 ∅ 0)
      ⊢ aside (chain offL (recvNeeds m K c)) := by
  rw [← bigSep_sep', ← bigSep_offs_chain]
  exact (recv_fold m K c).trans (aside_in _)

theorem depart_ready (K : Dev nD × Fin 63 → ℕ) (c : Dev nD) :
    iprop(records m K ∗ bigSep offs fun d => atPos ER (sendCell c d) 0 ∅ 0)
      ⊢ aside (chain offL (departNeeds m K c)) := by
  rw [← bigSep_offs_chain]
  exact (depart_fold m K c).trans (aside_in _)

theorem bar_ready (K : Dev nD × Fin 63 → ℕ) (c : Dev nD) :
    iprop(records m K ∗ cred (tallyAt (barCell c) () 31) ∗ atPos ER (barCell c) 0 ∅ 0) ⊢ aside (barNeeds m K c) := by
  refine (?_ : _ ⊢ barNeeds m K c).trans (aside_in _)
  unfold barNeeds
  iintro ⟨#HR, Hc, Hat⟩
  isplitr; · iapply (rec_inv_bar m K c); iexact HR
  isplitl [Hc]; · iexact Hc
  iexact Hat

/-! ## A staging buffer held whole, in its two spellings -/

omit [FloatOps F] in
theorem held_x (c : Dev nD) (X : Buf (Elt F) ((c : Thread nD τ).loc cc0_stg0_0)) :
    (heldAt xM c X : sProp 𝕄) = (((c : Thread nD τ).loc cc0_stg0_0) ↦{fullShare} X) := by
  have hset : (xM : Memref sig .tc .vmem S1024x512 .f32).view.set = Finset.univ := View.set_whole _
  show ((xM : Memref sig .tc .vmem S1024x512 .f32).view.loc (c : Thread nD τ) ↦[(xM : Memref sig .tc .vmem S1024x512 .f32).view.set]{fullShare} X : sProp 𝕄) = _
  rw [hset]
omit [FloatOps F] in
theorem held_g (c : Dev nD) (X : Buf (Elt F) ((c : Thread nD τ).loc cc0_stg1_0)) :
    (heldAt gM c X : sProp 𝕄) = (((c : Thread nD τ).loc cc0_stg1_0) ↦{fullShare} X) := by
  have hset : (gM : Memref sig .tc .vmem S512 .f32).view.set = Finset.univ := View.set_whole _
  show ((gM : Memref sig .tc .vmem S512 .f32).view.loc (c : Thread nD τ) ↦[(gM : Memref sig .tc .vmem S512 .f32).view.set]{fullShare} X : sProp 𝕄) = _
  rw [hset]
omit [FloatOps F] in
theorem held_b (c : Dev nD) (X : Buf (Elt F) ((c : Thread nD τ).loc cc0_stg2_0)) :
    (heldAt bM c X : sProp 𝕄) = (((c : Thread nD τ).loc cc0_stg2_0) ↦{fullShare} X) := by
  have hset : (bM : Memref sig .tc .vmem S512 .f32).view.set = Finset.univ := View.set_whole _
  show ((bM : Memref sig .tc .vmem S512 .f32).view.loc (c : Thread nD τ) ↦[(bM : Memref sig .tc .vmem S512 .f32).view.set]{fullShare} X : sProp 𝕄) = _
  rw [hset]
omit [FloatOps F] in
theorem held_o (c : Dev nD) (X : Buf (Elt F) ((c : Thread nD τ).loc cc0_stg3_0)) :
    (heldAt oM c X : sProp 𝕄) = (((c : Thread nD τ).loc cc0_stg3_0) ↦{fullShare} X) := by
  have hset : (oM : Memref sig .tc .vmem S1024x512 .bf16).view.set = Finset.univ := View.set_whole _
  show ((oM : Memref sig .tc .vmem S1024x512 .bf16).view.loc (c : Thread nD τ) ↦[(oM : Memref sig .tc .vmem S1024x512 .bf16).view.set]{fullShare} X : sProp 𝕄) = _
  rw [hset]

/-! ## What the launch hands a device, sorted by stage -/

theorem work_intro (K : Dev nD × Fin 63 → ℕ) (c : Dev nD) (f : Buf (Elt F) ((c : Thread nD τ).loc cc0_scratch0)) (W : Waits sig Unit) :
    iprop(ghost m K c ∗ idleSems c ∗ credits c ∗ levAts L lv ∗ commPts c f ∗ owes (c : Thread nD τ) (O₀ c) W
        ∗ (((c : Thread nD τ).loc cc0_stg0_0) ↦{fullShare} xblk m c) ∗ (((c : Thread nD τ).loc cc0_stg1_0) ↦{fullShare} gblk m c)
        ∗ (((c : Thread nD τ).loc cc0_stg2_0) ↦{fullShare} bblk m c)
        ∗ ∃ fo : Buf (Elt F) ((c : Thread nD τ).loc cc0_stg3_0), ((c : Thread nD τ).loc cc0_stg3_0) ↦{fullShare} fo)
      ⊢ workPre m K c f W := by
  unfold ghost credits commPts workPre positions payToks
  rw [bigSep_cells c (fun g => (atPos ER g 0 ∅ 0 : sProp 𝕄)), bigSep_sep', bigSep_sep', ← O₀_owesL, held_x, held_g, held_b]
  iintro ⟨⟨#HR, ⟨HatB, HatS, HatV⟩, ⟨HtB, HtV, HtS⟩⟩, Hidle, ⟨HcB, HcV⟩, #Hlev, Hcomm, HO, Hx, Hg, Hb, ⟨%fo, Ho⟩⟩
  ihave Hsl := (comm_slot0 c fullShare f).1 $$ Hcomm
  icases Hsl with ⟨Hs0, Hsl⟩
  isplitl [HtB Hsl]
  · iapply (sig_ready m K c f)
    isplitr; · iexact HR
    isplitl [HtB]; · iexact HtB
    iexact Hsl
  isplitl [HtS HtV]
  · iapply (send_ready m K c)
    isplitr; · iexact HR
    isplitl [HtS]; · iexact HtS
    iexact HtV
  isplitl [HcV HatV]
  · iapply (recv_ready m K c)
    isplitr; · iexact HR
    isplitl [HcV]; · iexact HcV
    iexact HatV
  isplitl [HatS]
  · iapply (depart_ready m K c)
    isplitr; · iexact HR
    iexact HatS
  isplitl [HcB HatB]
  · iapply (bar_ready m K c)
    isplitr; · iexact HR
    isplitl [HcB]; · iexact HcB
    iexact HatB
  isplitr; · iexact Hlev
  isplitl [Hidle]; · iexact Hidle
  isplitl [Hs0]; · iexact Hs0
  isplitl [HO]; · iexact HO
  isplitl [Hx]; · iexact Hx
  isplitl [Hg]; · iexact Hg
  isplitl [Hb]; · iexact Hb
  iexists fo
  rw [held_o]
  iexact Ho

/-! ## The body lemma handed to the pipeline's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the pipeline hands the body at its one point. -/
def obPre (c : Dev nD) : sProp 𝕄 :=
  iprop((dats m 0 c).Φ t0_0.castSucc ∗ (dats m 0 c).owesAt () t0_0.castSucc
    ∗ (∃ d, (∃ f : Buf (Elt F) ((c : Thread nD τ).loc cc0_stg0_0), ⌜f = (dats m 0 c).before (0 : Fin 4) t0_0 d⌝ ∗ (((c : Thread nD τ).loc cc0_stg0_0) ↦{fullShare} f)))
    ∗ (∃ d, (∃ f : Buf (Elt F) ((c : Thread nD τ).loc cc0_stg1_0), ⌜f = (dats m 0 c).before (1 : Fin 4) t0_0 d⌝ ∗ (((c : Thread nD τ).loc cc0_stg1_0) ↦{fullShare} f)))
    ∗ (∃ d, (∃ f : Buf (Elt F) ((c : Thread nD τ).loc cc0_stg2_0), ⌜f = (dats m 0 c).before (2 : Fin 4) t0_0 d⌝ ∗ (((c : Thread nD τ).loc cc0_stg2_0) ↦{fullShare} f)))
    ∗ (∃ d, (∃ f : Buf (Elt F) ((c : Thread nD τ).loc cc0_stg3_0), ⌜f = (dats m 0 c).before (3 : Fin 4) t0_0 d⌝ ∗ (((c : Thread nD τ).loc cc0_stg3_0) ↦{fullShare} f))))

/-- What it takes back. -/
def obPost (c : Dev nD) : sProp 𝕄 :=
  iprop((dats m 0 c).Φ t0_0.succ ∗ (dats m 0 c).owesAt () t0_0.succ
    ∗ (∃ f : Buf (Elt F) ((c : Thread nD τ).loc cc0_stg0_0), ⌜f = (dats m 0 c).after (0 : Fin 4) t0_0⌝ ∗ (((c : Thread nD τ).loc cc0_stg0_0) ↦{fullShare} f))
    ∗ (∃ f : Buf (Elt F) ((c : Thread nD τ).loc cc0_stg1_0), ⌜f = (dats m 0 c).after (1 : Fin 4) t0_0⌝ ∗ (((c : Thread nD τ).loc cc0_stg1_0) ↦{fullShare} f))
    ∗ (∃ f : Buf (Elt F) ((c : Thread nD τ).loc cc0_stg2_0), ⌜f = (dats m 0 c).after (2 : Fin 4) t0_0⌝ ∗ (((c : Thread nD τ).loc cc0_stg2_0) ↦{fullShare} f))
    ∗ (∃ f : Buf (Elt F) ((c : Thread nD τ).loc cc0_stg3_0), ⌜f = (dats m 0 c).after (3 : Fin 4) t0_0⌝ ∗ (((c : Thread nD τ).loc cc0_stg3_0) ↦{fullShare} f)))

set_option maxRecDepth 8000 in
theorem before_x (c : Dev nD) (d) : (dats m 0 c).before (0 : Fin 4) t0_0 d = xblk m c := by
  unfold Dat.before; rw [if_pos (fetch0_0 t0_0)]; rfl
set_option maxRecDepth 8000 in
theorem before_g (c : Dev nD) (d) : (dats m 0 c).before (1 : Fin 4) t0_0 d = gblk m c := by
  unfold Dat.before; rw [if_pos (fetch0_1 t0_0)]; rfl
set_option maxRecDepth 8000 in
theorem before_b (c : Dev nD) (d) : (dats m 0 c).before (2 : Fin 4) t0_0 d = bblk m c := by
  unfold Dat.before; rw [if_pos (fetch0_2 t0_0)]; rfl

/-- The end of the body in the form the pipeline takes it back. -/
theorem post_intro (c : Dev nD) : workPost m c ⊢ obPost m c := by
  unfold workPost obPost
  rw [show (dats m 0 c).Φ t0_0.succ = Φ₁ m c from rfl, held_x, held_g, held_b, held_o]
  iintro ⟨H1, H2, H3, H4, H5, H6, ⟨%W', HO⟩, Hx, Hg, Hb, Ho⟩
  isplitl [H1 H2 H3 H4 H5 H6]
  · iapply (phi1_intro m c)
    isplitl [H1]; · iexact H1
    isplitl [H2]; · iexact H2
    isplitl [H3]; · iexact H3
    isplitl [H4]; · iexact H4
    isplitl [H5]; · iexact H5
    iexact H6
  isplitl [HO]
  · iexists W'
    isplitr; · ipureintro; exact fun _ _ => Or.inl (Set.mem_univ _)
    iexact HO
  isplitl [Hx]; · iexists (xblk m c); isplitr; · ipureintro; rfl
                  iexact Hx
  isplitl [Hg]; · iexists (gblk m c); isplitr; · ipureintro; rfl
                  iexact Hg
  isplitl [Hb]; · iexists (bblk m c); isplitr; · ipureintro; rfl
                  iexact Hb
  iexists (outAt m c); isplitr; · ipureintro; rfl
  iexact Ho

set_option maxRecDepth 8000 in
/-- The library's body obligation on device `c`, from the body's own lemma. -/
theorem body_obligation_of
    (hsb : ∀ (K : Dev nD × Fin 63 → ℕ) (c : Dev nD) (f : Buf (Elt F) ((c : Thread nD τ).loc cc0_scratch0)) (W : Waits sig Unit)
        (Kt : PUnit → sProp 𝕄),
      iprop(workPre m K c f W ∗ (workPost m c -∗ Kt ⟨⟩))
        ⊢ wp frame (wpE (defs₀ (F := F)) Variants.none (c : Thread nD τ) none) Set.univ
            (cc0_body (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_scratch0) (Memref.isWhole_whole _) cc0_scratch1 cc0_scratch2) Kt)
    (c : Dev nD) : BodyObligation (dats (F := F) m 0 c) (defs₀ (F := F)) Variants.none () Set.univ := fun t => by
  rw [fin_N0 t]
  rw [bigSep_W0, bigSep_W0]
  simp only [owns_whole_eq]
  show obPre m c ⊢ wp frame (wpE (defs₀ (F := F)) Variants.none (c : Thread nD τ) none) Set.univ
            (cc0_body (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_scratch0) (Memref.isWhole_whole _) cc0_scratch1 cc0_scratch2) (fun _ => obPost m c)
  unfold obPre
  rw [show (dats m 0 c).Φ t0_0.castSucc = Φ₀ m c from rfl]
  unfold Φ₀ start
  iintro ⟨⟨⟨⟨%K, Hg⟩, Hidle, Hcred, Hlev⟩, ⟨%f, Hcomm⟩⟩, ⟨%W, -, HO⟩, ⟨%d0, %f0, %hf0, Hx⟩, ⟨%d1, %f1, %hf1, Hgm⟩, ⟨%d2, %f2, %hf2, Hb⟩, ⟨%d3, %f3, -, Ho⟩⟩
  rw [before_x] at hf0; rw [before_g] at hf1; rw [before_b] at hf2
  subst hf0 hf1 hf2
  iapply (hsb K c f W fun _ => obPost m c)
  isplitr []
  · iapply (work_intro m K c f W)
    isplitl [Hg]; · iexact Hg
    isplitl [Hidle]; · iexact Hidle
    isplitl [Hcred]; · iexact Hcred
    isplitl [Hlev]; · iexact Hlev
    isplitl [Hcomm]; · iexact Hcomm
    isplitl [HO]; · iexact HO
    isplitl [Hx]; · iexact Hx
    isplitl [Hgm]; · iexact Hgm
    isplitl [Hb]; · iexact Hb
    iexists f3; iexact Ho
  · iintro H
    iapply (post_intro m c); iexact H

/-- info: 'Cert.KernelIdeal.Proto.work_intro' depends on axioms: [propext, Classical.choice, Quot.sound] -/
#guard_msgs in #print axioms work_intro
/-- info: 'Cert.KernelIdeal.Proto.post_intro' depends on axioms: [propext, Classical.choice, Quot.sound] -/
#guard_msgs in #print axioms post_intro
/-- info: 'Cert.KernelIdeal.Proto.body_obligation_of' depends on axioms: [propext, Classical.choice, Quot.sound] -/
#guard_msgs in #print axioms body_obligation_of

end Cert.KernelIdeal.Proto

end
-- ==== Proof.SignalRule.lean ====
/-
  A device's signal to the barrier of a peer, as one rule for every offset.

  Before any copy, device c tells each device d places after it that the slot that device will write on c is free:
  it raises that device's barrier cell by one. The duty it pays there is duty d of the peer's barrier cell, and the
  duty's payload is the slot of the signalling device that the peer will write, held whole, with that slot's receive
  cell at round 0. The signalling device is the device d places before the peer, which is c; the peer reaches c at the
  opposite offset, so the slot is c's slot number "opposite of d".
-/
import proofs.«900824_g7700000000000825_dist_layernorm_colshard_i_m1024_n512_v7x_i32_bf16_1_alg».proof.Proof.Proto
import Idealize.ShloMosaic.Lib.Rounds

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device `c` holds of its slot "opposite of `d`", with that slot's receive cell at round 0, is the payload of
    duty `d` of the barrier cell of the device `d` places after `c`. -/
theorem barPay_of_slot (c : Dev nD) (d : Fin 32) (f : Buf (Elt F) ((c : Thread nD τ).loc cc0_scratch0)) :
    iprop(slotPts c (opp d) fullShare f ∗ reached ER (recvCell c (opp d)) 0) ⊢ (barPay (peer c d) d : sProp 𝕄) := by
  unfold barPay
  rw [orig_peer c d]
  iintro ⟨Hs, Hr⟩
  isplitl [Hs]
  · iexists f; iexact Hs
  · iexact Hr

/-- The signal number `d` of device `c`, addressed to `n`, the device `d` places after `c`. -/
theorem wp_signal_slot (m : (ℓ : Loc nD τ sig) → Buf (Elt F) ℓ) (c n : Dev nD) (d : Fin 32) (hd : d ≠ 0) (hn : n = peer c d) (κ : ℕ)
    {α : Type} {Q : α → sProp 𝕄} {k : PUnit → Prog (TpuEff nD τ sig (Elt F) Λ₀ .tc) α}
    (f : Buf (Elt F) ((c : Thread nD τ).loc cc0_scratch0)) (O : CellTallies nD τ sig Unit) (W : Waits sig Unit) :
    iprop(cellInv ER (ringRd m) κ (barCell (peer c d)) ∗ reached ER (barCell (peer c d)) 0 ∗ reached ER (recvCell c (opp d)) 0
        ∗ dutyTok ER (barCell (peer c d)) 0 d ∗ slotPts c (opp d) fullShare f
        ∗ owes (c : Thread nD τ) (tallyAt (barCell (peer c d)) () 1 + O) W)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal ((n : Thread nD τ)) barS 1) k) Q) := by
  subst hn
  have hpre : iprop(cellInv ER (ringRd m) κ (barCell (peer c d)) ∗ reached ER (barCell (peer c d)) 0 ∗ reached ER (recvCell c (opp d)) 0
        ∗ dutyTok ER (barCell (peer c d)) 0 d ∗ slotPts c (opp d) fullShare f
        ∗ owes (c : Thread nD τ) (tallyAt (barCell (peer c d)) () 1 + O) W)
      ⊢ (iprop(cellInv ER (ringRd m) κ (barCell (peer c d)) ∗ owes (c : Thread nD τ) (tallyAt (barCell (peer c d)) () 1 + O) W
        ∗ dutyTok ER (barCell (peer c d)) 0 d ∗ (ringRd m).payload (barCell (peer c d)) 0 d
        ∗ reached ER (barCell (peer c d)) 0) : sProp 𝕄) := by
    iintro ⟨HI, HrB, HrV, Htok, Hslot, HO⟩
    isplitl [HI]
    · iexact HI
    isplitl [HO]
    · iexact HO
    isplitl [Htok]
    · iexact Htok
    isplitr [HrB]
    · rw [payload_bar]
      iapply (barPay_of_slot c d f)
      isplitl [Hslot]
      · iexact Hslot
      · iexact HrV
    · iexact HrB
  exact hpre.trans (Rounds.wp_signal Variants.none ER (ringRd m) (c : Thread nD τ) none
    (dst := (peer c d : Thread nD τ)) (sem := barS) (κ := κ) (r := 0) (d := d) (k' := 1) (k := k) (Q := Q)
    (by rw [duties_bar]; exact Finset.mem_erase.mpr ⟨hd, Finset.mem_univ _⟩) (amount_bar m (peer c d) d) () O (add_comm _ _) (W := W))

/-- info: 'Cert.KernelIdeal.Proto.barPay_of_slot' depends on axioms: [propext, Classical.choice, Quot.sound] -/
#guard_msgs in #print axioms barPay_of_slot

/-- info: 'Cert.KernelIdeal.Proto.wp_signal_slot' depends on axioms: [propext, Classical.choice, Quot.sound] -/
#guard_msgs in #print axioms wp_signal_slot

end Cert.KernelIdeal.Proto

end
-- ==== Proof.SendRule.lean ====
/-
  The remote copy of slot 0 into a peer's slot, as one rule for every offset.

  Device c sends the two rows of its slot 0 (its own partial row sums) to slot e of the device e places after it.
  The copy pays two duties: on c's own send cell e, which gives back the share of slot 0 the copy was lent, and on
  the receive cell e of the peer, which hands the peer its slot e. What lands there is what slot 0 of c holds; since
  the device e places before the peer is c itself, and the device 0 places before c is c, that is exactly what the
  peer's gathered array holds in slot e. Element (t, r) of slot d is element (d, t, r) of the 32 x 2 x 1024 array,
  and the credit of a slot's transfer is the same for every slot: it depends on the array, the slot's extent and the
  element type only.
-/
import proofs.«900824_g7700000000000825_dist_layernorm_colshard_i_m1024_n512_v7x_i32_bf16_1_alg».proof.Proof.Proto
import Idealize.ShloMosaic.Lib.Rounds
import Idealize.ShloMosaic.Lib.ValueIdx
import Idealize.ShloMosaic.Lib.ValueLayout
import Idealize.ShloMosaic.Lib.Pipeline.Value
import Idealize.ShloMosaic.Rules.PointsTo

noncomputable section

namespace Cert.KernelIdeal.Proto

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring: zero places before a device is the device -/

private theorem orig_zero : ∀ c : Dev nD, orig c 0 = c := by decide +kernel

/-! ## A slot's credit and a slot's elements -/

/-- The credit of a transfer into slot `e` completing on any DMA semaphore is the one credit `N`. -/
theorem slot_amount (e : Fin 32) (q : DmaSem sig) : (slotM e).view.amount (.dma q) = N := rfl

/-- Element `(t, r)` of slot `d` is element `(d, t, r)` of the gather buffer. -/
private theorem slot_emb (d : Fin 32) (t : Fin 2) (r : Fin 1024) :
    ((slotM d).view.emb (ix2 t r) : S32x2x1024.Idx) = ix3 d t r := by
  have h : ((slotM d).view.emb (ix2 t r) : S32x2x1024.Idx)
      = (Rect.unit (s := S32x2x1024) ![d.val, 0, 0] S1x2x1024.size (inb_slot d)).emb
          (Shape.reshapeEquiv (squeezes_S1x2x1024_S2x1024).numel_eq (ix2 t r)) := rfl
  rw [h, reshapeEquiv_ix2_1ab]
  funext a
  match a with
  | ⟨0, _⟩ => exact Fin.ext (by show d.val + 1 * 0 = d.val; omega)
  | ⟨1, _⟩ => exact Fin.ext (by show 0 + 1 * t.val = t.val; omega)
  | ⟨2, _⟩ => exact Fin.ext (by show 0 + 1 * r.val = r.val; omega)

/-- The gathered array at `(s, t, r)`: the row sums (row 0) or the row sums of squares (row 1) of the block of the
    device `s` places before `c`, at row `r`. -/
theorem gathered_ix3 (m : (ℓ : Loc nD τ sig) → Buf (Elt F) ℓ) (c : Dev nD) (s : Fin 32) (t : Fin 2) (r : Fin 1024) :
    gathered m c (ix3 s t r)
      = if t.val = 0 then k0_pay2 (xblk m (orig c s)) (ix3 0 0 r) else k0_pay3 (xblk m (orig c s)) (ix3 0 0 r) := rfl

/-- The gathered array read through slot `d` at `(t, r)` is its entry `(d, t, r)`. -/
private theorem slot_read (m : (ℓ : Loc nD τ sig) → Buf (Elt F) ℓ) (c : Dev nD) (d : Fin 32) (t : Fin 2) (r : Fin 1024) :
    (slotM d).view.read (Elt F) (gathered m c) (ix2 t r) = gathered m c (ix3 d t r) :=
  (cast_eq _ _).trans (congrArg (gathered m c) (slot_emb d t r))

/-- Slot 0 of `c`, landed in slot `e` of the device `e` places after `c`, is that device's gathered array there. -/
theorem slot_landed (m : (ℓ : Loc nD τ sig) → Buf (Elt F) ℓ) (c : Dev nD) (e : Fin 32)
    (fd : Buf (Elt F) ((peer c e : Thread nD τ).loc cc0_scratch0)) :
    (((slotM e).view.loc (peer c e : Thread nD τ)) ↦[(slotM e).view.set]{fullShare}
        ((slotM e).view.write (Elt F) fd ((slotM 0).view.read (Elt F) (gathered m c)) Finset.univ) : sProp 𝕄)
      = slotPts (peer c e) e fullShare (gathered m (peer c e)) := by
  unfold slotPts
  refine pointsTo_congr fun i hi => ?_
  obtain ⟨y, rfl⟩ := View.exists_emb_of_mem_set _ hi
  obtain ⟨t, r, rfl⟩ : ∃ (t : Fin 2) (r : Fin 1024), y = ix2 t r := ⟨y 0, y 1, eq_ix2 y⟩
  -- what the written buffer reads through slot `e` is what slot 0 of `c` reads; so does the peer's gathered array
  have hw : (slotM e).view.read (Elt F) ((slotM e).view.write (Elt F) fd ((slotM 0).view.read (Elt F) (gathered m c)) Finset.univ) (ix2 t r)
      = (slotM 0).view.read (Elt F) (gathered m c) (ix2 t r) :=
    View.read_write_of_mem (v := (slotM e).view) fd _ (Finset.mem_univ (ix2 t r))
  have hg : (slotM e).view.read (Elt F) (gathered m (peer c e)) (ix2 t r)
      = (slotM 0).view.read (Elt F) (gathered m c) (ix2 t r) := by
    rw [slot_read, slot_read, gathered_ix3, gathered_ix3, orig_zero, orig_peer]
  exact (cast_inj (congrArg (Elt F) (slotM e).view.elt_eq)).mp (hw.trans hg.symm)

/-! ## The rule -/

/-- The remote copy number `e` of device `c`, addressed to `n`, the device `e` places after `c`. -/
theorem wp_send_slot (m : (ℓ : Loc nD τ sig) → Buf (Elt F) ℓ) (c n : Dev nD) (e : Fin 32) (he : e ≠ 0) (hn : n = peer c e) (κ₁ κ₂ : ℕ)
    {hsc : (slotM e : Memref sig (Dev.tc n : Thread nD τ).2.kind .vmem S2x1024 .bf16).view.ref.isScScratch = false}
    {hsrc : (slotM 0 : Memref sig .tc .vmem S2x1024 .bf16).view.WordExact} {hdst : (slotM e : Memref sig .tc .vmem S2x1024 .bf16).view.WordExact}
    {hsem : DmaTarget.Typed .vmem (.dma (recvS e)) (.remote (Dev.tc n : Thread nD τ) (slotM e) (.dma (sendS e)) hsc)}
    {α : Type} {Q : α → sProp 𝕄} {k : PUnit → Prog (TpuEff nD τ sig (Elt F) Λ₀ .tc) α}
    (fd : Buf (Elt F) ((peer c e : Thread nD τ).loc cc0_scratch0)) (O : CellTallies nD τ sig Unit) (W : Waits sig Unit) :
    iprop(cellInv ER (ringRd m) κ₁ (sendCell c e) ∗ cellInv ER (ringRd m) κ₂ (recvCell (peer c e) e)
        ∗ slotPts c 0 (lentShare e) (gathered m c) ∗ slotPts (peer c e) e fullShare fd
        ∗ owes (c : Thread nD τ) (O + tallyAt (recvCell (peer c e) e) () N) W
        ∗ dutyTok ER (sendCell c e) 0 0 ∗ reached ER (sendCell c e) 0
        ∗ dutyTok ER (recvCell (peer c e) e) 0 0 ∗ reached ER (recvCell (peer c e) e) 0)
      ⊢ iprop(((cred (tallyAt (sendCell c e) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (slotM 0) (.remote (Dev.tc n : Thread nD τ) (slotM e) (.dma (sendS e)) hsc) (.dma (recvS e)) hsrc hdst hsem) k) Q) := by
  subst hn
  unfold slotPts
  exact Rounds.wp_send_pointsTo Variants.none ER (ringRd m) (c : Thread nD τ) none (κ₁ := κ₁) (κ₂ := κ₂)
    (c' := (peer c e : Thread nD τ)) (src := slotM 0) (dst := slotM e) (sS := .dma (sendS e)) (sem := .dma (recvS e))
    (hsc := hsc) (hsrc := hsrc) (hdst := hdst) (hsem := hsem) (k := k) (Q := Q) (q := lentShare e) (fs := gathered m c)
    (r₁ := 0) (r₂ := 0) (d₁ := 0) (d₂ := 0) (fd := fd)
    (by rw [duties_send m c e he]; exact Finset.mem_singleton_self _)
    (by rw [duties_recv m (peer c e) e he]; exact Finset.mem_singleton_self _)
    () () N (slot_amount e (recvS e)) (amount_send m c e 0) (amount_recv m (peer c e) e 0) O rfl (W := W)
    (by rw [payload_send]; exact BI.Entails.refl _)
    (by rw [payload_recv]; unfold recvPay; rw [slot_landed m c e fd])

/-- info: 'Cert.KernelIdeal.Proto.slot_landed' depends on axioms: [propext, Classical.choice, Quot.sound] -/
#guard_msgs in #print axioms slot_landed

/-- info: 'Cert.KernelIdeal.Proto.wp_send_slot' depends on axioms: [propext, Classical.choice, Quot.sound] -/
#guard_msgs in #print axioms wp_send_slot

end Cert.KernelIdeal.Proto

end
-- ==== Proof.WaitRules.lean ====
/-
  The two waits of a device on its own transfer cells, at any offset d = 1 … 31.

  Each of these cells has a single duty in its single round, so a wait for one slot's credit takes the whole round: the
  device hands in the credit token it holds for the cell and gets the duty's payload — for the receive cell d its slot d
  with the final contents, for the send cell d the share of slot 0 that copy d was lent — and then, no later round having
  a duty, closes the cell and has its counter back at zero.
-/
import proofs.«900824_g7700000000000825_dist_layernorm_colshard_i_m1024_n512_v7x_i32_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The whole round of a transfer cell is its one payload -/

theorem rest_recv (c : Dev nD) (d : Fin 32) (hd : d ≠ 0) :
    bigSep ((ringRd (F := F) m).duties (recvCell c d) 0 \ ∅) (fun e => (ringRd (F := F) m).payload (recvCell c d) 0 e)
      = slotPts c d fullShare (gathered m c) := by
  rw [Finset.sdiff_empty, duties_recv m c d hd, bigSep_singleton, payload_recv]
  rfl

theorem rest_send (c : Dev nD) (d : Fin 32) (hd : d ≠ 0) :
    bigSep ((ringRd (F := F) m).duties (sendCell c d) 0 \ ∅) (fun e => (ringRd (F := F) m).payload (sendCell c d) 0 e)
      = slotPts c 0 (lentShare d) (gathered m c) := by
  rw [Finset.sdiff_empty, duties_send m c d hd, bigSep_singleton, payload_send]
  rfl

/-! ## The two waits -/

/-- The wait on the receive cell `d`: slot `d` comes back whole with its final contents, and the cell's counter at zero. -/
theorem wp_wait_recv (c : Dev nD) (d : Fin 32) (hd : d ≠ 0) (κ : ℕ)
    {src dst : Memref sig .tc .vmem S2x1024 .bf16} {hsrc : src.view.WordExact} {hdst : dst.view.WordExact}
    {α : Type} {Q : α → sProp 𝕄} {k : PUnit → Prog (TpuEff nD τ sig (Elt F) Λ₀ .tc) α} (W : Waits sig Unit)
    (hN : dst.view.dmaCredit = N := by rfl) :
    iprop(cellInv ER (ringRd m) κ (recvCell c d) ∗ cred (tallyAt (recvCell c d) () N) ∗ owes (c : Thread nD τ) 0 W
        ∗ atPos ER (recvCell c d) 0 ∅ 0)
      ⊢ iprop((((∃ W', owes (c : Thread nD τ) 0 W') ∗ slotPts c d fullShare (gathered m c) ∗ semVal (recvCell c d) 0)
              -∗ wp frame (wpE (defs₀ (F := F)) Variants.none (c : Thread nD τ) none) Set.univ (k ⟨⟩) Q)
          -∗ wp frame (wpE (defs₀ (F := F)) Variants.none (c : Thread nD τ) none) Set.univ
              (.op (.waitDma2 (recvS d) src dst hsrc hdst) k) Q) := by
  iintro ⟨#HI, Hc, HO, Hat⟩ Hk
  iapply (Rounds.wp_wait_rest_token Variants.none ER (ringRd m) (c : Thread nD τ) none (κ := κ)
      (fun K => (wpE_waitDma2_eq Variants.none (c : Thread nD τ) none Set.univ K).trans (by rw [hN]))
      (Set.mem_univ _) () (O := 0) (W := W) (R := 0) (m := 0) (T := ∅)
      (by rw [Nat.zero_add, expect_recv m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hslot := (Entails.of_eq (rest_recv m c d hd)) $$ Hpay
  imod (Rounds.cell_close ER (ringRd m) (Set.mem_univ κ) (fun h => h) (R := 0 + 1) (duties_later m (recvCell c d))) $$ [Hat] with Hz
  · isplitr; · iexact HI
    iexact Hat
  iapply Hk
  isplitl [HO]; · iexists _; iexact HO
  isplitl [Hslot]; · iexact Hslot
  iexact Hz

/-- The wait on the send cell `d`: the share of slot 0 lent to copy `d` comes back, and the cell's counter at zero. -/
theorem wp_wait_send (c : Dev nD) (d : Fin 32) (hd : d ≠ 0) (κ : ℕ)
    {src dst : Memref sig .tc .vmem S2x1024 .bf16} {hsrc : src.view.WordExact} {hdst : dst.view.WordExact}
    {α : Type} {Q : α → sProp 𝕄} {k : PUnit → Prog (TpuEff nD τ sig (Elt F) Λ₀ .tc) α} (W : Waits sig Unit)
    (hN : dst.view.dmaCredit = N := by rfl) :
    iprop(cellInv ER (ringRd m) κ (sendCell c d) ∗ cred (tallyAt (sendCell c d) () N) ∗ owes (c : Thread nD τ) 0 W
        ∗ atPos ER (sendCell c d) 0 ∅ 0)
      ⊢ iprop((((∃ W', owes (c : Thread nD τ) 0 W') ∗ slotPts c 0 (lentShare d) (gathered m c) ∗ semVal (sendCell c d) 0)
              -∗ wp frame (wpE (defs₀ (F := F)) Variants.none (c : Thread nD τ) none) Set.univ (k ⟨⟩) Q)
          -∗ wp frame (wpE (defs₀ (F := F)) Variants.none (c : Thread nD τ) none) Set.univ
              (.op (.waitDma2 (sendS d) src dst hsrc hdst) k) Q) := by
  iintro ⟨#HI, Hc, HO, Hat⟩ Hk
  iapply (Rounds.wp_wait_rest_token Variants.none ER (ringRd m) (c : Thread nD τ) none (κ := κ)
      (fun K => (wpE_waitDma2_eq Variants.none (c : Thread nD τ) none Set.univ K).trans (by rw [hN]))
      (Set.mem_univ _) () (O := 0) (W := W) (R := 0) (m := 0) (T := ∅)
      (by rw [Nat.zero_add, expect_send m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hslot := (Entails.of_eq (rest_send m c d hd)) $$ Hpay
  imod (Rounds.cell_close ER (ringRd m) (Set.mem_univ κ) (fun h => h) (R := 0 + 1) (duties_later m (sendCell c d))) $$ [Hat] with Hz
  · isplitr; · iexact HI
    iexact Hat
  iapply Hk
  isplitl [HO]; · iexists _; iexact HO
  isplitl [Hslot]; · iexact Hslot
  iexact Hz

/-- info: 'Cert.KernelIdeal.Proto.wp_wait_recv' depends on axioms: [propext, Classical.choice, Quot.sound] -/
#guard_msgs in #print axioms wp_wait_recv
/-- info: 'Cert.KernelIdeal.Proto.wp_wait_send' depends on axioms: [propext, Classical.choice, Quot.sound] -/
#guard_msgs in #print axioms wp_wait_send

end Cert.KernelIdeal.Proto

end
-- ==== Proof.Slot0Rule.lean ====
/-
  A device writes its own two rows into slot 0 of its gather buffer, through the whole buffer, while it holds
  slot 0 only: the other 31 slots have just been handed to the devices that will fill them.

  * A load or a store through the whole 32 × 2 × 1024 buffer at a rectangle whose first coordinate is pinned to 0
    touches elements of slot 0 only (an element is in slot d exactly when its first coordinate is d), so holding
    slot 0 is enough: the rules for a load and a store ask for the elements accessed, not for the buffer.
  * A store of one row of a two-row block is two steps: the block's words are loaded, the row is put in its place
    among them, the words are stored. Doing this for row 0 and then for row 1 leaves the block holding the first
    row in row 0 and the second in row 1, whatever it held before.
  * Row 0 is the device's row sums and row 1 its row sums of squares; the final contents of the buffer hold in
    slot s the two rows of the device s places before, and 0 places before a device is the device itself. So after
    the two stores slot 0 holds the final contents.
-/
import proofs.«900824_g7700000000000825_dist_layernorm_colshard_i_m1024_n512_v7x_i32_bf16_1_alg».proof.Proof.Proto
import proofs.«900824_g7700000000000825_dist_layernorm_colshard_i_m1024_n512_v7x_i32_bf16_1_alg».proof.Proof.Shares
import Idealize.ShloMosaic.Rules.Step
import Idealize.ShloMosaic.Rules.PointsTo
import Idealize.ShloMosaic.Lib.ValueIdx
import Mathlib.Order.Interval.Finset.Nat
import Mathlib.Algebra.Order.Interval.Finset.Basic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Rectangles of the gather buffer that lie in slot 0 -/

/-- A unit-stride rectangle of the buffer whose first coordinate is pinned to 0 lies in slot 0. -/
theorem setOn_unit_subset_slot0 (off size : Fin 3 → ℕ) (inb : ∀ a, off a + size a ≤ S32x2x1024.size a)
    (h0 : off 0 = 0) (h1 : size 0 = 1) :
    (commM.view.setOn (Rect.unit (s := S32x2x1024) off size inb).toLoadRect.set : Finset S32x2x1024.Idx) ⊆ slotSet 0 := by
  intro i hi
  obtain ⟨x, hx, rfl⟩ := Finset.mem_map.mp hi
  have hx0 := (Rect.mem_set_unit.mp hx) (0 : Fin 3)
  refine (mem_slotSet 0 _).mpr ?_
  show (x (0 : Fin 3)).val = 0
  omega

/-! ## A load through the whole buffer while only slot 0 is held -/

theorem wp_load_slot0 (c : Dev nD) (q : PosShare TreeShare) (f : Buf (Elt F) ((c : Thread nD τ).loc cc0_scratch0))
    {r : LoadRect S32x2x1024} {hl : commM.view.LoadsAt r} {α : Type} {Q : α → sProp 𝕄}
    {k : (r.shape.Idx → Elt F .bf16) → Prog (TpuEff nD τ sig (Elt F) Λ₀ .tc) α}
    (hr : (commM.view.setOn r.set : Finset S32x2x1024.Idx) ⊆ slotSet 0) :
    (slotPts c 0 q f : sProp 𝕄)
      ⊢ iprop((slotPts c 0 q f -∗ wp frame (wpE (defs₀ (F := F)) Variants.none (c : Thread nD τ) none) Set.univ (k (commM.view.readAt (Elt F) r f)) Q)
          -∗ wp frame (wpE (defs₀ (F := F)) Variants.none (c : Thread nD τ) none) Set.univ (.op (.load commM r hl) k) Q) := by
  unfold slotPts
  exact wp_load Variants.none (c : Thread nD τ) none Set.univ (m := commM) (S := slotSet 0) hr

/-- The elements a store through the same kind of rectangle touches lie in slot 0 as well. -/
theorem access_unit_subset_slot0 (off size : Fin 3 → ℕ) (inb : ∀ a, off a + size a ≤ S32x2x1024.size a)
    (h0 : off 0 = 0) (h1 : size 0 = 1) :
    ((commM.access (Rect.unit (s := S32x2x1024) off size inb)).setOn Finset.univ : Finset S32x2x1024.Idx) ⊆ slotSet 0 := by
  intro i hi
  obtain ⟨y, -, rfl⟩ := Finset.mem_map.mp hi
  refine (mem_slotSet 0 _).mpr ?_
  have hy : (y (0 : Fin 3)).val < size 0 := (y (0 : Fin 3)).isLt
  show ((Rect.unit (s := S32x2x1024) off size inb).emb y (0 : Fin 3) : ℕ) = 0
  rw [Rect.emb_apply]
  have e1 : (Rect.unit (s := S32x2x1024) off size inb).off (0 : Fin 3) = off 0 := rfl
  have e2 : (Rect.unit (s := S32x2x1024) off size inb).stride (0 : Fin 3) = 1 := rfl
  rw [e1, e2, h0]
  omega

/-! ## A store into slot 0 through the whole buffer -/

theorem wp_store_slot0 (c : Dev nD) (f : Buf (Elt F) ((c : Thread nD τ).loc cc0_scratch0))
    {off size : Fin 3 → ℕ} {inb : ∀ a, off a + size a ≤ S32x2x1024.size a} (h0 : off 0 = 0) (h1 : size 0 = 1)
    {w : (Rect.unit (s := S32x2x1024) off size inb).shape.Idx → Elt F .bf16}
    {hs : (commM.access (Rect.unit (s := S32x2x1024) off size inb)).Stores Finset.univ}
    {hm : (Finset.univ : Finset (Rect.unit (s := S32x2x1024) off size inb).shape.Idx) = Finset.univ
      ∨ ∀ a, (Rect.unit (s := S32x2x1024) off size inb).stride a = 1}
    {α : Type} {Q : α → sProp 𝕄} {k : PUnit → Prog (TpuEff nD τ sig (Elt F) Λ₀ .tc) α} :
    (slotPts c 0 fullShare f : sProp 𝕄)
      ⊢ iprop((slotPts c 0 fullShare ((commM.access (Rect.unit (s := S32x2x1024) off size inb)).write (Elt F) f w Finset.univ)
              -∗ wp frame (wpE (defs₀ (F := F)) Variants.none (c : Thread nD τ) none) Set.univ (k ⟨⟩) Q)
          -∗ wp frame (wpE (defs₀ (F := F)) Variants.none (c : Thread nD τ) none) Set.univ
              (.op (.store commM (Rect.unit (s := S32x2x1024) off size inb) w Finset.univ hs hm) k) Q) := by
  unfold slotPts
  exact wp_store Variants.none (c : Thread nD τ) none Set.univ (m := commM) (r := Rect.unit (s := S32x2x1024) off size inb)
    (S := slotSet 0) (access_unit_subset_slot0 off size inb h0 h1)

/-! ## A store of rows that are part of their words: the words loaded, blended, stored -/

theorem wp_storeSub_slot0 (c : Dev nD) (f : Buf (Elt F) ((c : Thread nD τ).loc cc0_scratch0))
    {inb : ∀ a, (![0, 0, 0] : Fin 3 → ℕ) a + S1x2x1024.size a ≤ S32x2x1024.size a}
    {w : ((Rect.unit (s := S32x2x1024) ![0, 0, 0] S1x2x1024.size inb).shape.Idx → Elt F .bf16)
      → ((Rect.unit (s := S32x2x1024) ![0, 0, 0] S1x2x1024.size inb).shape.Idx → Elt F .bf16)}
    {hl : commM.view.LoadsAt (Rect.unit (s := S32x2x1024) ![0, 0, 0] S1x2x1024.size inb).toLoadRect}
    {hs : (commM.access (Rect.unit (s := S32x2x1024) ![0, 0, 0] S1x2x1024.size inb)).Stores Finset.univ}
    {α : Type} {Q : α → sProp 𝕄} {k : PUnit → Prog (TpuEff nD τ sig (Elt F) Λ₀ .tc) α} :
    (slotPts c 0 fullShare f : sProp 𝕄)
      ⊢ iprop((slotPts c 0 fullShare ((commM.access (Rect.unit (s := S32x2x1024) ![0, 0, 0] S1x2x1024.size inb)).write (Elt F) f
                (w (commM.view.readAt (Elt F) (Rect.unit (s := S32x2x1024) ![0, 0, 0] S1x2x1024.size inb).toLoadRect f)) Finset.univ)
              -∗ wp frame (wpE (defs₀ (F := F)) Variants.none (c : Thread nD τ) none) Set.univ (k ⟨⟩) Q)
          -∗ wp frame (wpE (defs₀ (F := F)) Variants.none (c : Thread nD τ) none) Set.univ
              (.op (.load commM (Rect.unit (s := S32x2x1024) ![0, 0, 0] S1x2x1024.size inb).toLoadRect hl) fun old =>
                .op (.store commM (Rect.unit (s := S32x2x1024) ![0, 0, 0] S1x2x1024.size inb) (w old) Finset.univ hs (.inl rfl)) fun _ => k ⟨⟩) Q) := by
  iintro Hs Hk
  iapply (wp_load_slot0 c fullShare f (hl := hl) (setOn_unit_subset_slot0 _ _ inb rfl rfl)) $$ Hs
  iintro Hs
  iapply (wp_store_slot0 c f (inb := inb) rfl rfl) $$ Hs
  iexact Hk

/-! ## The value: after both stores slot 0 holds the device's own two rows -/

/-- A block of two rows with row 0 replaced, then row 1 replaced, reads the first replacement in row 0 and the second in row 1. -/
theorem blend_rows {α : Type} (o : S1x2x1024.Idx → α) (p2 p3 : S1x1x1024.Idx → α)
    (h0 : S1x2x1024.Slices ![0, 0, 0] S1x1x1024) (h1 : S1x2x1024.Slices ![0, 1, 0] S1x1x1024) (y : S1x2x1024.Idx) :
    updateSlice (updateSlice o p2 ![0, 0, 0] h0) p3 ![0, 1, 0] h1 y
      = if (y (1 : Fin 3)).val = 0 then p2 (ValueIdx.ix3 0 0 (y (2 : Fin 3))) else p3 (ValueIdx.ix3 0 0 (y (2 : Fin 3))) := by
  have hy0 : (y (0 : Fin 3)).val = 0 := by have := (y (0 : Fin 3)).isLt; change _ < 1 at this; omega
  have hy1 : (y (1 : Fin 3)).val < 2 := (y (1 : Fin 3)).isLt
  have hy2 : (y (2 : Fin 3)).val < 1024 := (y (2 : Fin 3)).isLt
  by_cases hy : (y (1 : Fin 3)).val = 0
  · rw [if_pos hy]
    unfold updateSlice
    rw [dif_neg (fun h => by have := (h (1 : Fin 3)).1; change 1 ≤ (y (1 : Fin 3)).val at this; omega)]
    rw [dif_pos (fun a => by
      match a with
      | ⟨0, _⟩ => exact ⟨Nat.zero_le _, by change (y (0 : Fin 3)).val < 0 + 1; omega⟩
      | ⟨1, _⟩ => exact ⟨Nat.zero_le _, by change (y (1 : Fin 3)).val < 0 + 1; omega⟩
      | ⟨2, _⟩ => exact ⟨Nat.zero_le _, by change (y (2 : Fin 3)).val < 0 + 1024; omega⟩)]
    refine congrArg p2 (funext fun b => Fin.ext ?_)
    match b with
    | ⟨0, _⟩ => change (y (0 : Fin 3)).val - 0 = 0; omega
    | ⟨1, _⟩ => change (y (1 : Fin 3)).val - 0 = 0; omega
    | ⟨2, _⟩ => change (y (2 : Fin 3)).val - 0 = (y (2 : Fin 3)).val; omega
  · rw [if_neg hy]
    unfold updateSlice
    rw [dif_pos (fun a => by
      match a with
      | ⟨0, _⟩ => exact ⟨Nat.zero_le _, by change (y (0 : Fin 3)).val < 0 + 1; omega⟩
      | ⟨1, _⟩ => exact ⟨by change 1 ≤ (y (1 : Fin 3)).val; omega, by change (y (1 : Fin 3)).val < 1 + 1; omega⟩
      | ⟨2, _⟩ => exact ⟨Nat.zero_le _, by change (y (2 : Fin 3)).val < 0 + 1024; omega⟩)]
    refine congrArg p3 (funext fun b => Fin.ext ?_)
    match b with
    | ⟨0, _⟩ => change (y (0 : Fin 3)).val - 0 = 0; omega
    | ⟨1, _⟩ => change (y (1 : Fin 3)).val - 1 = 0; omega
    | ⟨2, _⟩ => change (y (2 : Fin 3)).val - 0 = (y (2 : Fin 3)).val; omega

omit [FloatOps F] in
/-- The words of slot 0 after the two blended stores, at an index of the two-row block. -/
theorem stored2_apply {inb : ∀ a, (![0, 0, 0] : Fin 3 → ℕ) a + S1x2x1024.size a ≤ S32x2x1024.size a}
    (f0 : (commM.access (Rect.unit (s := S32x2x1024) ![0, 0, 0] S1x2x1024.size inb)).ty.Contents (Elt F))
    (p2 p3 : S1x1x1024.Idx → Elt F .bf16)
    (sl0 : S1x2x1024.Slices ![0, 0, 0] S1x1x1024) (sl1 : S1x2x1024.Slices ![0, 1, 0] S1x1x1024) (y : S1x2x1024.Idx) :
    (commM.access (Rect.unit (s := S32x2x1024) ![0, 0, 0] S1x2x1024.size inb)).write (Elt F)
        ((commM.access (Rect.unit (s := S32x2x1024) ![0, 0, 0] S1x2x1024.size inb)).write (Elt F) f0
          (updateSlice (commM.view.readAt (Elt F) (Rect.unit (s := S32x2x1024) ![0, 0, 0] S1x2x1024.size inb).toLoadRect f0) p2 ![0, 0, 0] sl0) Finset.univ)
        (updateSlice (commM.view.readAt (Elt F) (Rect.unit (s := S32x2x1024) ![0, 0, 0] S1x2x1024.size inb).toLoadRect
          ((commM.access (Rect.unit (s := S32x2x1024) ![0, 0, 0] S1x2x1024.size inb)).write (Elt F) f0
            (updateSlice (commM.view.readAt (Elt F) (Rect.unit (s := S32x2x1024) ![0, 0, 0] S1x2x1024.size inb).toLoadRect f0) p2 ![0, 0, 0] sl0) Finset.univ))
          p3 ![0, 1, 0] sl1) Finset.univ
        ((commM.access (Rect.unit (s := S32x2x1024) ![0, 0, 0] S1x2x1024.size inb)).emb y)
      = if (y (1 : Fin 3)).val = 0 then p2 (ValueIdx.ix3 0 0 (y (2 : Fin 3))) else p3 (ValueIdx.ix3 0 0 (y (2 : Fin 3))) := by
  rw [View.write_emb_of_mem _ _ (Finset.mem_univ y), View.readAt_rect, View.readAt_rect]
  rw [View.read_write_univ, blend_rows]
  exact cast_eq _ _

variable (m : (ℓ : Loc nD τ sig) → Buf (Elt F) ℓ)

/-- The final contents at an element of the two-row block at slot 0: the device's own row sums (row 0) or row sums of
    squares (row 1), because the device 0 places before a device is the device. -/
theorem gathered_block0 (c : Dev nD) {inb : ∀ a, (![0, 0, 0] : Fin 3 → ℕ) a + S1x2x1024.size a ≤ S32x2x1024.size a}
    (y : S1x2x1024.Idx) :
    gathered m c ((commM.access (Rect.unit (s := S32x2x1024) ![0, 0, 0] S1x2x1024.size inb)).emb y)
      = if (y (1 : Fin 3)).val = 0 then k0_pay2 (xblk m c) (ValueIdx.ix3 0 0 (y (2 : Fin 3)))
        else k0_pay3 (xblk m c) (ValueIdx.ix3 0 0 (y (2 : Fin 3))) := by
  have hy0 : (y (0 : Fin 3)).val = 0 := by have := (y (0 : Fin 3)).isLt; change _ < 1 at this; omega
  generalize hi : ((commM.access (Rect.unit (s := S32x2x1024) ![0, 0, 0] S1x2x1024.size inb)).emb y : S32x2x1024.Idx) = i
  have h0 : (i (0 : Fin 3)).val = 0 := by rw [← hi]; show 0 + 1 * (y (0 : Fin 3)).val = 0; omega
  have h1 : (i (1 : Fin 3)).val = (y (1 : Fin 3)).val := by rw [← hi]; show 0 + 1 * (y (1 : Fin 3)).val = _; omega
  have h2 : (i (2 : Fin 3)).val = (y (2 : Fin 3)).val := by rw [← hi]; show 0 + 1 * (y (2 : Fin 3)).val = _; omega
  have e0 : (⟨(i (0 : Fin 3)).val, (i (0 : Fin 3)).isLt⟩ : Fin 32) = 0 := Fin.ext h0
  have e2 : (⟨(i (2 : Fin 3)).val, (i (2 : Fin 3)).isLt⟩ : Fin 1024) = y (2 : Fin 3) := Fin.ext h2
  show gathered m c i = _
  unfold gathered
  rw [e0, e2, h1, orig_at_zero]

/-- After the two blended stores slot 0 holds, on its own elements, the final contents of the buffer. -/
theorem slot0_stored (c : Dev nD) (f0 : Buf (Elt F) ((c : Thread nD τ).loc cc0_scratch0))
    {inb : ∀ a, (![0, 0, 0] : Fin 3 → ℕ) a + S1x2x1024.size a ≤ S32x2x1024.size a}
    (sl0 : S1x2x1024.Slices ![0, 0, 0] S1x1x1024) (sl1 : S1x2x1024.Slices ![0, 1, 0] S1x1x1024) :
    (slotPts c 0 fullShare
      ((commM.access (Rect.unit (s := S32x2x1024) ![0, 0, 0] S1x2x1024.size inb)).write (Elt F)
        ((commM.access (Rect.unit (s := S32x2x1024) ![0, 0, 0] S1x2x1024.size inb)).write (Elt F) f0
          (updateSlice (commM.view.readAt (Elt F) (Rect.unit (s := S32x2x1024) ![0, 0, 0] S1x2x1024.size inb).toLoadRect f0)
            (k0_pay2 (xblk m c)) ![0, 0, 0] sl0) Finset.univ)
        (updateSlice (commM.view.readAt (Elt F) (Rect.unit (s := S32x2x1024) ![0, 0, 0] S1x2x1024.size inb).toLoadRect
          ((commM.access (Rect.unit (s := S32x2x1024) ![0, 0, 0] S1x2x1024.size inb)).write (Elt F) f0
            (updateSlice (commM.view.readAt (Elt F) (Rect.unit (s := S32x2x1024) ![0, 0, 0] S1x2x1024.size inb).toLoadRect f0)
              (k0_pay2 (xblk m c)) ![0, 0, 0] sl0) Finset.univ))
          (k0_pay3 (xblk m c)) ![0, 1, 0] sl1) Finset.univ) : sProp 𝕄)
      = slotPts c 0 fullShare (gathered m c) := by
  unfold slotPts
  refine pointsTo_congr fun i hi => ?_
  obtain ⟨x, -, rfl⟩ := Finset.mem_map.mp hi
  exact (stored2_apply (inb := inb) f0 (k0_pay2 (xblk m c)) (k0_pay3 (xblk m c)) sl0 sl1
      (Shape.reshapeEquiv squeezes_S1x2x1024_S2x1024.numel_eq x)).trans
    (gathered_block0 m c (inb := inb) (Shape.reshapeEquiv squeezes_S1x2x1024_S2x1024.numel_eq x)).symm

/-! ## The block of x, read whole -/

omit [FloatOps F] in
/-- A load of the whole staged block of x reads the block. -/
theorem read_xblk (c : Dev nD) {inbx : ∀ a, (![0, 0] : Fin 2 → ℕ) a + S1024x512.size a ≤ S1024x512.size a} :
    xM.view.readAt (Elt F) (Rect.unit (s := S1024x512) ![0, 0] S1024x512.size inbx).toLoadRect (xblk m c) = xblk m c :=
  Memref.readAt_unit_zero (Elt F) cc0_stg0_0 (funext fun a => by fin_cases a <;> rfl) _ _

/-! ## The same rules against programs written with binds -/

theorem wp_load_slot0_bind (c : Dev nD) (q : PosShare TreeShare) (f : Buf (Elt F) ((c : Thread nD τ).loc cc0_scratch0))
    {r : LoadRect S32x2x1024} {hl : commM.view.LoadsAt r} {α : Type} {Q : α → sProp 𝕄}
    {k : (r.shape.Idx → Elt F .bf16) → Prog (TpuEff nD τ sig (Elt F) Λ₀ .tc) α}
    (hr : (commM.view.setOn r.set : Finset S32x2x1024.Idx) ⊆ slotSet 0) :
    (slotPts c 0 q f : sProp 𝕄)
      ⊢ iprop((slotPts c 0 q f -∗ wp frame (wpE (defs₀ (F := F)) Variants.none (c : Thread nD τ) none) Set.univ (k (commM.view.readAt (Elt F) r f)) Q)
          -∗ wp frame (wpE (defs₀ (F := F)) Variants.none (c : Thread nD τ) none) Set.univ (Prog.lift (.load commM r hl) >>= k) Q) :=
  wp_load_slot0 c q f hr

theorem wp_storeSub_slot0_bind (c : Dev nD) (f : Buf (Elt F) ((c : Thread nD τ).loc cc0_scratch0))
    {inb : ∀ a, (![0, 0, 0] : Fin 3 → ℕ) a + S1x2x1024.size a ≤ S32x2x1024.size a}
    {w : ((Rect.unit (s := S32x2x1024) ![0, 0, 0] S1x2x1024.size inb).shape.Idx → Elt F .bf16)
      → ((Rect.unit (s := S32x2x1024) ![0, 0, 0] S1x2x1024.size inb).shape.Idx → Elt F .bf16)}
    {hl : commM.view.LoadsAt (Rect.unit (s := S32x2x1024) ![0, 0, 0] S1x2x1024.size inb).toLoadRect}
    {hs : (commM.access (Rect.unit (s := S32x2x1024) ![0, 0, 0] S1x2x1024.size inb)).Stores Finset.univ}
    {α : Type} {Q : α → sProp 𝕄} {k : PUnit → Prog (TpuEff nD τ sig (Elt F) Λ₀ .tc) α} :
    (slotPts c 0 fullShare f : sProp 𝕄)
      ⊢ iprop((slotPts c 0 fullShare ((commM.access (Rect.unit (s := S32x2x1024) ![0, 0, 0] S1x2x1024.size inb)).write (Elt F) f
                (w (commM.view.readAt (Elt F) (Rect.unit (s := S32x2x1024) ![0, 0, 0] S1x2x1024.size inb).toLoadRect f)) Finset.univ)
              -∗ wp frame (wpE (defs₀ (F := F)) Variants.none (c : Thread nD τ) none) Set.univ (k ⟨⟩) Q)
          -∗ wp frame (wpE (defs₀ (F := F)) Variants.none (c : Thread nD τ) none) Set.univ
              (storeSubelements commM (Rect.unit (s := S32x2x1024) ![0, 0, 0] S1x2x1024.size inb) w hl hs >>= k) Q) :=
  wp_storeSub_slot0 c f (w := w)

/-! ## The whole fragment: two dead loads and the two stores of the device's own rows -/

theorem wp_slot0_rows (c : Dev nD) (f : Buf (Elt F) ((c : Thread nD τ).loc cc0_scratch0))
    (X : Vec F S1024x512 .f32) (hX : X = xblk m c)
    {inb1 : ∀ a, (![0, 0, 0] : Fin 3 → ℕ) a + S1x1x1024.size a ≤ S32x2x1024.size a}
    {inb2 : ∀ a, (![0, 1, 0] : Fin 3 → ℕ) a + S1x1x1024.size a ≤ S32x2x1024.size a}
    {inb : ∀ a, (![0, 0, 0] : Fin 3 → ℕ) a + S1x2x1024.size a ≤ S32x2x1024.size a}
    {sl0 : S1x2x1024.Slices ![0, 0, 0] S1x1x1024} {sl1 : S1x2x1024.Slices ![0, 1, 0] S1x1x1024}
    {hl1 : commM.view.LoadsAt (Rect.unit (s := S32x2x1024) ![0, 0, 0] S1x1x1024.size inb1).toLoadRect}
    {hl2 : commM.view.LoadsAt (Rect.unit (s := S32x2x1024) ![0, 1, 0] S1x1x1024.size inb2).toLoadRect}
    {hl : commM.view.LoadsAt (Rect.unit (s := S32x2x1024) ![0, 0, 0] S1x2x1024.size inb).toLoadRect}
    {hs : (commM.access (Rect.unit (s := S32x2x1024) ![0, 0, 0] S1x2x1024.size inb)).Stores Finset.univ}
    {α : Type} {Q : α → sProp 𝕄} (rest : Prog (TpuEff nD τ sig (Elt F) Λ₀ .tc) α) :
    (slotPts c 0 fullShare f : sProp 𝕄)
      ⊢ iprop((slotPts c 0 fullShare (gathered m c)
              -∗ wp frame (wpE (defs₀ (F := F)) Variants.none (c : Thread nD τ) none) Set.univ rest Q)
          -∗ wp frame (wpE (defs₀ (F := F)) Variants.none (c : Thread nD τ) none) Set.univ
              (Prog.op (TpuEff.load commM (Rect.unit (s := S32x2x1024) ![0, 0, 0] S1x1x1024.size inb1).toLoadRect hl1)
                fun (v411 : Vec F S1x1x1024 .bf16) => do
                  storeSubelements commM (Rect.unit (s := S32x2x1024) ![0, 0, 0] S1x2x1024.size inb)
                    (fun old => updateSlice old (k0_pay2 X) ![0, 0, 0] sl0) hl hs
                  let v417 : Vec F S1x1x1024 .bf16 ← Prog.lift (TpuEff.load commM (Rect.unit (s := S32x2x1024) ![0, 1, 0] S1x1x1024.size inb2).toLoadRect hl2)
                  storeSubelements commM (Rect.unit (s := S32x2x1024) ![0, 0, 0] S1x2x1024.size inb)
                    (fun old => updateSlice old (k0_pay3 X) ![0, 1, 0] sl1) hl hs
                  rest) Q) := by
  subst hX
  iintro Hs Hk
  iapply (wp_load_slot0 c fullShare f (hl := hl1) (setOn_unit_subset_slot0 _ _ inb1 rfl rfl)) $$ Hs
  iintro Hs
  iapply (wp_storeSub_slot0_bind c f (inb := inb) (hl := hl) (hs := hs)
    (w := fun old => updateSlice old (k0_pay2 (xblk m c)) ![0, 0, 0] sl0)) $$ Hs
  iintro Hs
  iapply (wp_load_slot0_bind c fullShare _ (hl := hl2) (setOn_unit_subset_slot0 _ _ inb2 rfl rfl)) $$ Hs
  iintro Hs
  iapply (wp_storeSub_slot0_bind c _ (inb := inb) (hl := hl) (hs := hs)
    (w := fun old => updateSlice old (k0_pay3 (xblk m c)) ![0, 1, 0] sl1)) $$ Hs
  rw [slot0_stored m c f sl0 sl1]
  iexact Hk

/-- info: 'Cert.KernelIdeal.Proto.wp_load_slot0' depends on axioms: [propext, Classical.choice, Quot.sound] -/
#guard_msgs in #print axioms wp_load_slot0

/-- info: 'Cert.KernelIdeal.Proto.wp_store_slot0' depends on axioms: [propext, Classical.choice, Quot.sound] -/
#guard_msgs in #print axioms wp_store_slot0

/-- info: 'Cert.KernelIdeal.Proto.wp_storeSub_slot0' depends on axioms: [propext, Classical.choice, Quot.sound] -/
#guard_msgs in #print axioms wp_storeSub_slot0

/-- info: 'Cert.KernelIdeal.Proto.slot0_stored' depends on axioms: [propext, Classical.choice, Quot.sound] -/
#guard_msgs in #print axioms slot0_stored

/-- info: 'Cert.KernelIdeal.Proto.wp_slot0_rows' depends on axioms: [propext, Classical.choice, Quot.sound] -/
#guard_msgs in #print axioms wp_slot0_rows

end Cert.KernelIdeal.Proto

end
-- ==== Proof.BodyLemmas.lean ====
/-
  Small facts the body's stages use: folded conjunctions taken apart and put together, reversed and turned back into
  conjunctions over the set of offsets; the evidence that the wait on the own barrier cell is below what is still owed.
-/
import proofs.«900824_g7700000000000825_dist_layernorm_colshard_i_m1024_n512_v7x_i32_bf16_1_alg».proof.Proof.BodyDefs

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- One more conjunct in front of a folded conjunction, whatever its length. -/
theorem chain_cons_intro (i : Fin 32) (l : List (Fin 32)) (Φ : Fin 32 → sProp 𝕄) : iprop(Φ i ∗ chain l Φ) ⊢ chain (i :: l) Φ := by
  cases l with
  | nil => exact (sep_emp (PROP := sProp 𝕄)).1
  | cons j l => exact Entails.of_eq rfl

omit [FloatOps F] in
/-- The empty conjunction, to start a pile from. -/
theorem chain_nil_intro (Φ : Fin 32 → sProp 𝕄) : (BI.emp : sProp 𝕄) ⊢ chain [] Φ := Entails.of_eq rfl

omit [FloatOps F] in
theorem chain_eq_bigSep (l : List (Fin 32)) (hl : l.Nodup) (Φ : Fin 32 → sProp 𝕄) : chain l Φ = bigSep l.toFinset Φ := by
  rw [← bigSepL_eq_chain, ← bigSep_eq_bigSepL l hl Φ]

/-- The offsets 31 … 1: the order in which a stage's results pile up when each is put in front. -/
abbrev offLr : List (Fin 32) := [31, 30, 29, 28, 27, 26, 25, 24, 23, 22, 21, 20, 19, 18, 17, 16, 15, 14, 13, 12, 11, 10, 9, 8, 7, 6, 5, 4, 3, 2, 1]
theorem offs_eq_r : offs = offLr.toFinset := by decide
theorem offLr_nodup : offLr.Nodup := by decide

omit [FloatOps F] in
/-- A pile in reverse order is the conjunction over the offsets. -/
theorem chain_offLr (Φ : Fin 32 → sProp 𝕄) : chain offLr Φ = bigSep offs Φ := by
  rw [chain_eq_bigSep offLr offLr_nodup Φ, ← offs_eq_r]
omit [FloatOps F] in
theorem chain_offL (Φ : Fin 32 → sProp 𝕄) : chain offL Φ = bigSep offs Φ := (bigSep_offs_chain Φ).symm

omit [FloatOps F] in
/-- Waiting on the own barrier cell is allowed while only the 31 landings are owed. -/
theorem mayWait_bar_owesL (c : Dev nD) :
    (levAts L lv : sProp 𝕄) ⊢ MayWait (c : Thread nD τ) (.reg barS) () (owesL (recvOwe c) 0 offL) := by
  rw [owesL_eq_sum, add_zero, ← Obar_chain]; exact mayWait_bar c

end Cert.KernelIdeal.Proto

end
-- ==== Proof.ReadWrite.lean ====
/-
  Reading a whole buffer reads its contents; writing a whole buffer unmasked leaves the payload.

  The compute stage of the body loads the whole gather buffer, the whole blocks of the scale and of the shift, and
  stores the whole output block. Each of these accesses is through the rectangle of the buffer's own sizes at zero
  offsets, which is the whole buffer: the load returns the contents and the store replaces them.
-/
import proofs.«900824_g7700000000000825_dist_layernorm_colshard_i_m1024_n512_v7x_i32_bf16_1_alg».proof.Proof.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
/-- A load of the whole gather buffer reads its contents. -/
theorem read_comm (c : Dev nD) {inb : ∀ a, (![0, 0, 0] : Fin 3 → ℕ) a + S32x2x1024.size a ≤ S32x2x1024.size a}
    (f : Buf (Elt F) ((c : Thread nD τ).loc cc0_scratch0)) :
    commM.view.readAt (Elt F) (Rect.unit (s := S32x2x1024) ![0, 0, 0] S32x2x1024.size inb).toLoadRect f = f :=
  Memref.readAt_unit_zero (Elt F) cc0_scratch0 (funext fun a => by fin_cases a <;> rfl) _ _

omit [FloatOps F] in
/-- A load of the whole staged block of the scale reads the block. -/
theorem read_g (c : Dev nD) {inb : ∀ a, (![0] : Fin 1 → ℕ) a + S512.size a ≤ S512.size a}
    (f : Buf (Elt F) ((c : Thread nD τ).loc cc0_stg1_0)) :
    gM.view.readAt (Elt F) (Rect.unit (s := S512) ![0] S512.size inb).toLoadRect f = f :=
  Memref.readAt_unit_zero (Elt F) cc0_stg1_0 (funext fun a => by fin_cases a; rfl) _ _

omit [FloatOps F] in
/-- A load of the whole staged block of the shift reads the block. -/
theorem read_b (c : Dev nD) {inb : ∀ a, (![0] : Fin 1 → ℕ) a + S512.size a ≤ S512.size a}
    (f : Buf (Elt F) ((c : Thread nD τ).loc cc0_stg2_0)) :
    bM.view.readAt (Elt F) (Rect.unit (s := S512) ![0] S512.size inb).toLoadRect f = f :=
  Memref.readAt_unit_zero (Elt F) cc0_stg2_0 (funext fun a => by fin_cases a; rfl) _ _

omit [FloatOps F] in
/-- A load of the whole staged output block reads whatever it holds. -/
theorem read_o (c : Dev nD) {inb : ∀ a, (![0, 0] : Fin 2 → ℕ) a + S1024x512.size a ≤ S1024x512.size a}
    (f : Buf (Elt F) ((c : Thread nD τ).loc cc0_stg3_0)) :
    oM.view.readAt (Elt F) (Rect.unit (s := S1024x512) ![0, 0] S1024x512.size inb).toLoadRect f = f :=
  Memref.readAt_unit_zero (Elt F) cc0_stg3_0 (funext fun a => by fin_cases a <;> rfl) _ _

omit [FloatOps F] in
/-- An unmasked store over the whole staged output block leaves the payload. -/
theorem write_out (c : Dev nD) {inb : ∀ a, (![0, 0] : Fin 2 → ℕ) a + S1024x512.size a ≤ S1024x512.size a}
    (fo w : Buf (Elt F) ((c : Thread nD τ).loc cc0_stg3_0)) :
    ((oM.access (Rect.unit (s := S1024x512) ![0, 0] S1024x512.size inb)) : View sig .tc _ _ _).write (Elt F) fo w Finset.univ = w :=
  Memref.write_access_unit_zero_univ (Elt F) cc0_stg3_0 (funext fun a => by fin_cases a <;> rfl) _ _ _

/-- info: 'Cert.KernelIdeal.Proto.read_comm' depends on axioms: [propext, Classical.choice, Quot.sound] -/
#guard_msgs in #print axioms read_comm

/-- info: 'Cert.KernelIdeal.Proto.write_out' depends on axioms: [propext, Classical.choice, Quot.sound] -/
#guard_msgs in #print axioms write_out

end Cert.KernelIdeal.Proto

end
-- ==== Proof.Body.lean ====
/-
  The body of the distributed layer norm on one device, run stage by stage from the folded working precondition.
-/
import proofs.«900824_g7700000000000825_dist_layernorm_colshard_i_m1024_n512_v7x_i32_bf16_1_alg».proof.Proof.BodyDefs
import proofs.«900824_g7700000000000825_dist_layernorm_colshard_i_m1024_n512_v7x_i32_bf16_1_alg».proof.Proof.SignalRule
import proofs.«900824_g7700000000000825_dist_layernorm_colshard_i_m1024_n512_v7x_i32_bf16_1_alg».proof.Proof.SendRule
import proofs.«900824_g7700000000000825_dist_layernorm_colshard_i_m1024_n512_v7x_i32_bf16_1_alg».proof.Proof.WaitRules
import proofs.«900824_g7700000000000825_dist_layernorm_colshard_i_m1024_n512_v7x_i32_bf16_1_alg».proof.Proof.BarrierRule
import proofs.«900824_g7700000000000825_dist_layernorm_colshard_i_m1024_n512_v7x_i32_bf16_1_alg».proof.Proof.CloseRule
import proofs.«900824_g7700000000000825_dist_layernorm_colshard_i_m1024_n512_v7x_i32_bf16_1_alg».proof.Proof.Slot0Rule
import proofs.«900824_g7700000000000825_dist_layernorm_colshard_i_m1024_n512_v7x_i32_bf16_1_alg».proof.Proof.BodyLemmas
import proofs.«900824_g7700000000000825_dist_layernorm_colshard_i_m1024_n512_v7x_i32_bf16_1_alg».proof.Proof.ReadWrite

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq

open Lean Elab Tactic in
/-- `for_copies d from a to b => tac`: as `for_offs`; besides, in `tac` the identifier `copyDevEq` stands for the equation of
    the printed device chain of copy `d` (chain number `31 + d`) and `HcN` for a hypothesis name of copy `d`'s own. -/
elab "for_copies " x:ident " from " a:num " to " b:num " => " t:tacticSeq : tactic => do
  for i in [a.getNat : b.getNat + 1] do
    let lit := Syntax.mkNumLit (toString i)
    let eqn := mkIdent (Name.mkSimple s!"dev{i + 31}_eq")
    let hc := mkIdent (Name.mkSimple s!"Hc_{i}")
    let t' ← t.raw.replaceM fun s => do
      if s.isIdent && s.getId == x.getId then return some lit
      else if s.isIdent && s.getId == `copyDevEq then return some eqn
      else if s.isIdent && s.getId == `HcN then return some hc
      else return none
    evalTactic t'

/-- The send rule with the landing's credit first among what is owed, as the body's list of dues has it. -/
theorem wp_send_slot' (c n : Dev nD) (e : Fin 32) (he : e ≠ 0) (hn : n = peer c e) (κ₁ κ₂ : ℕ)
    {hsc : (slotM e : Memref sig (Dev.tc n : Thread nD τ).2.kind .vmem S2x1024 .bf16).view.ref.isScScratch = false}
    {hsrc : (slotM 0 : Memref sig .tc .vmem S2x1024 .bf16).view.WordExact} {hdst : (slotM e : Memref sig .tc .vmem S2x1024 .bf16).view.WordExact}
    {hsem : DmaTarget.Typed .vmem (.dma (recvS e)) (.remote (Dev.tc n : Thread nD τ) (slotM e) (.dma (sendS e)) hsc)}
    {α : Type} {Q : α → sProp 𝕄} {k : PUnit → Prog (TpuEff nD τ sig (Elt F) Λ₀ .tc) α}
    (fd : Buf (Elt F) ((peer c e : Thread nD τ).loc cc0_scratch0)) (O : CellTallies nD τ sig Unit) (W : Waits sig Unit) :
    iprop(cellInv ER (ringRd m) κ₁ (sendCell c e) ∗ cellInv ER (ringRd m) κ₂ (recvCell (peer c e) e)
        ∗ slotPts c 0 (lentShare e) (gathered m c) ∗ slotPts (peer c e) e fullShare fd
        ∗ owes (c : Thread nD τ) (tallyAt (recvCell (peer c e) e) () N + O) W
        ∗ dutyTok ER (sendCell c e) 0 0 ∗ reached ER (sendCell c e) 0
        ∗ dutyTok ER (recvCell (peer c e) e) 0 0 ∗ reached ER (recvCell (peer c e) e) 0)
      ⊢ iprop(((cred (tallyAt (sendCell c e) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (slotM 0) (.remote (Dev.tc n : Thread nD τ) (slotM e) (.dma (sendS e)) hsc) (.dma (recvS e)) hsrc hdst hsem) k) Q) := by
  rw [add_comm (tallyAt (recvCell (peer c e) e) () N) O]
  exact wp_send_slot m c n e he hn κ₁ κ₂ fd O W

/-- The output block as the run leaves it — one whole-array write of the body's arithmetic over what the loads read —
    is the normalised block. -/
theorem out_restate (c : Dev nD) (fo : Buf (Elt F) ((c : Thread nD τ).loc cc0_stg3_0))
    {inbo : ∀ a, (![0, 0] : Fin 2 → ℕ) a + S1024x512.size a ≤ S1024x512.size a}
    {inbx : ∀ a, (![0, 0] : Fin 2 → ℕ) a + S1024x512.size a ≤ S1024x512.size a}
    {inbc : ∀ a, (![0, 0, 0] : Fin 3 → ℕ) a + S32x2x1024.size a ≤ S32x2x1024.size a}
    {inbg : ∀ a, (![0] : Fin 1 → ℕ) a + S512.size a ≤ S512.size a} {inbb : ∀ a, (![0] : Fin 1 → ℕ) a + S512.size a ≤ S512.size a} :
    (heldAt oM c (oM.view.writes (Elt F) fo [⟨Rect.unit (s := S1024x512) ![0, 0] S1024x512.size inbo,
        k0_pay4 (k0_pay1 (xM.view.readAt (Elt F) (Rect.unit (s := S1024x512) ![0, 0] S1024x512.size inbx).toLoadRect (xblk m c)))
          (commM.view.readAt (Elt F) (Rect.unit (s := S32x2x1024) ![0, 0, 0] S32x2x1024.size inbc).toLoadRect (gathered m c))
          (gM.view.readAt (Elt F) (Rect.unit (s := S512) ![0] S512.size inbg).toLoadRect (gblk m c))
          (bM.view.readAt (Elt F) (Rect.unit (s := S512) ![0] S512.size inbb).toLoadRect (bblk m c))⟩]) : sProp 𝕄)
      ⊢ heldAt oM c (k0_pay4 (k0_pay1 (xblk m c)) (gathered m c) (gblk m c) (bblk m c)) := by
  rw [View.writes_singleton, read_xblk m c, read_comm c, read_g c, read_b c]
  exact Entails.of_eq (congrArg (fun X => (heldAt oM c X : sProp 𝕄)) (write_out c fo _))

set_option maxHeartbeats 4000000 in
theorem sound_body (K : Dev nD × Fin 63 → ℕ) (c : Dev nD) (f : Buf (Elt F) ((c : Thread nD τ).loc cc0_scratch0)) (W : Waits sig Unit) (Kt : PUnit → sProp 𝕄) :
    iprop(workPre m K c f W ∗ (workPost m c -∗ Kt ⟨⟩))
      ⊢ wp frame (wpE (defs₀ (F := F)) Variants.none c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2) Kt := by
  unfold workPre
  simp only [offL, chain, sigNeeds, sendNeeds, recvNeeds, departNeeds, barNeeds]
  iintro ⟨⟨Hsig, Hsend, Hrecv, Hdep, Hbar, #Hlev, Hidle, Hs0, HO, Hx, Hg, Hb, ⟨%fo, Ho⟩⟩, Hk⟩
  -- the 31 signals
  for_offs d from 1 to 30 =>
    sl_exec
    ihave Hsig := (aside_out _) $$ Hsig
    icases Hsig with ⟨⟨HI, Hr, Hv, Ht, Hsl⟩, Hsig⟩
    ihave Hsig := (aside_in _) $$ Hsig
    rw [owesL_cons]
    iapply (wp_signal_slot m c _ d (by decide) rfl _ _ _ _) $$ [HI Hr Hv Ht Hsl HO]
    · isplitl [HI]; · iexact HI
      isplitl [Hr]; · iexact Hr
      isplitl [Hv]; · iexact Hv
      isplitl [Ht]; · iexact Ht
      isplitl [Hsl]; · iexact Hsl
      iexact HO
    iintro HO
  for_offs d from 31 to 31 =>
    sl_exec
    ihave Hsig := (aside_out _) $$ Hsig
    icases Hsig with ⟨HI, Hr, Hv, Ht, Hsl⟩
    rw [owesL_cons]
    iapply (wp_signal_slot m c _ d (by decide) rfl _ _ _ _) $$ [HI Hr Hv Ht Hsl HO]
    · isplitl [HI]; · iexact HI
      isplitl [Hr]; · iexact Hr
      isplitl [Hv]; · iexact Hv
      isplitl [Ht]; · iexact Ht
      isplitl [Hsl]; · iexact Hsl
      iexact HO
    iintro HO
  sl_exec
  -- the two partial row sums into slot 0
  iapply (wp_slot0_rows m c f _ (read_xblk m c) _) $$ Hs0
  iintro Hs0
  sl_exec
  -- the wait for the 31 units on the own barrier cell
  ihave Hbar := (aside_out _) $$ Hbar
  icases Hbar with ⟨#HIb, Hcb, Hab⟩
  rw [owesL_nil]
  iapply (wp_wait_bar m c _ _ _ (mayWait_bar_owesL c)) $$ [Hcb HO Hab]
  · isplitr; · iexact HIb
    isplitl [Hcb]; · iexact Hcb
    isplitl [HO]; · iexact HO
    isplitl [Hab]; · iexact Hab
    iexact Hlev
  rw [bigSep_offs_chain]
  simp only [offL, chain]
  iintro ⟨⟨%W1, HO⟩, Hdst, Hab⟩
  ihave Hdst := (aside_in _) $$ Hdst
  -- slot 0 lent share by share to the 31 copies
  ihave Hsh := (slot0_lend c _).1 $$ Hs0
  rw [bigSep_offs_chain]
  simp only [offL, chain]
  icases Hsh with ⟨Hsh, Hs0⟩
  ihave Hsh := (aside_in _) $$ Hsh
  for_copies d from 1 to 30 =>
    sl_exec
    ihave Hsend := (aside_out _) $$ Hsend
    icases Hsend with ⟨⟨HIs, HIr, Hrs, Hrr, Hts, Htr⟩, Hsend⟩
    ihave Hsend := (aside_in _) $$ Hsend
    ihave Hdst := (aside_out _) $$ Hdst
    icases Hdst with ⟨⟨⟨%fd, Hd⟩, -⟩, Hdst⟩
    ihave Hdst := (aside_in _) $$ Hdst
    ihave Hsh := (aside_out _) $$ Hsh
    icases Hsh with ⟨Hq, Hsh⟩
    ihave Hsh := (aside_in _) $$ Hsh
    rw [owesL_cons]
    iapply (wp_send_slot' m c _ d (by decide) (copyDevEq c) _ _ fd _ _) $$ [HIs HIr Hq Hd HO Hts Hrs Htr Hrr]
    · isplitl [HIs]; · iexact HIs
      isplitl [HIr]; · iexact HIr
      isplitl [Hq]; · iexact Hq
      isplitl [Hd]; · iexact Hd
      isplitl [HO]; · iexact HO
      isplitl [Hts]; · iexact Hts
      isplitl [Hrs]; · iexact Hrs
      isplitl [Htr]; · iexact Htr
      iexact Hrr
    iintro ⟨Hc, HO⟩
    ihave HcN := (aside_in _) $$ Hc
  for_copies d from 31 to 31 =>
    sl_exec
    ihave Hsend := (aside_out _) $$ Hsend
    icases Hsend with ⟨HIs, HIr, Hrs, Hrr, Hts, Htr⟩
    ihave Hdst := (aside_out _) $$ Hdst
    icases Hdst with ⟨⟨%fd, Hd⟩, -⟩
    ihave Hsh := (aside_out _) $$ Hsh
    icases Hsh with Hq
    rw [owesL_cons]
    iapply (wp_send_slot' m c _ d (by decide) (copyDevEq c) _ _ fd _ _) $$ [HIs HIr Hq Hd HO Hts Hrs Htr Hrr]
    · isplitl [HIs]; · iexact HIs
      isplitl [HIr]; · iexact HIr
      isplitl [Hq]; · iexact Hq
      isplitl [Hd]; · iexact Hd
      isplitl [HO]; · iexact HO
      isplitl [Hts]; · iexact Hts
      isplitl [Hrs]; · iexact Hrs
      isplitl [Htr]; · iexact Htr
      iexact Hrr
    iintro ⟨Hc, HO⟩
    ihave HcN := (aside_in _) $$ Hc
  -- the 31 landings
  rw [owesL_nil]
  ihave Hslots := (chain_nil_intro (fun e => slotPts c e fullShare (gathered m c))) $$ []
  · iempintro
  ihave Hslots := (aside_in _) $$ Hslots
  ihave Hzr := (chain_nil_intro (fun e => semVal (recvCell c e) 0)) $$ []
  · iempintro
  ihave Hzr := (aside_in _) $$ Hzr
  for_offs d from 1 to 30 =>
    sl_exec
    ihave Hrecv := (aside_out _) $$ Hrecv
    icases Hrecv with ⟨⟨HI, Hcd, Hat⟩, Hrecv⟩
    ihave Hrecv := (aside_in _) $$ Hrecv
    iapply (wp_wait_recv m c d (by decide) _ _) $$ [HI Hcd HO Hat]
    · isplitl [HI]; · iexact HI
      isplitl [Hcd]; · iexact Hcd
      isplitl [HO]; · iexact HO
      iexact Hat
    iintro ⟨⟨%W2, HO⟩, Hsl, Hz⟩
    ihave Hslots := (aside_out _) $$ Hslots
    ihave Hslots := (chain_cons_intro d _ (fun e => slotPts c e fullShare (gathered m c))) $$ [Hsl Hslots]
    · isplitl [Hsl]; · iexact Hsl
      iexact Hslots
    ihave Hslots := (aside_in _) $$ Hslots
    ihave Hzr := (aside_out _) $$ Hzr
    ihave Hzr := (chain_cons_intro d _ (fun e => semVal (recvCell c e) 0)) $$ [Hz Hzr]
    · isplitl [Hz]; · iexact Hz
      iexact Hzr
    ihave Hzr := (aside_in _) $$ Hzr
  for_offs d from 31 to 31 =>
    sl_exec
    ihave Hrecv := (aside_out _) $$ Hrecv
    icases Hrecv with ⟨HI, Hcd, Hat⟩
    iapply (wp_wait_recv m c d (by decide) _ _) $$ [HI Hcd HO Hat]
    · isplitl [HI]; · iexact HI
      isplitl [Hcd]; · iexact Hcd
      isplitl [HO]; · iexact HO
      iexact Hat
    iintro ⟨⟨%W2, HO⟩, Hsl, Hz⟩
    ihave Hslots := (aside_out _) $$ Hslots
    ihave Hslots := (chain_cons_intro d _ (fun e => slotPts c e fullShare (gathered m c))) $$ [Hsl Hslots]
    · isplitl [Hsl]; · iexact Hsl
      iexact Hslots
    ihave Hslots := (aside_in _) $$ Hslots
    ihave Hzr := (aside_out _) $$ Hzr
    ihave Hzr := (chain_cons_intro d _ (fun e => semVal (recvCell c e) 0)) $$ [Hz Hzr]
    · isplitl [Hz]; · iexact Hz
      iexact Hzr
    ihave Hzr := (aside_in _) $$ Hzr
  -- the whole buffer read at the share still in hand, the normalised block stored
  ihave Hslots := (aside_out _) $$ Hslots
  ihave Hslots := (Entails.of_eq (chain_offLr _)) $$ Hslots
  ihave Hw := (comm_lower m c).1 $$ [Hs0 Hslots]
  · isplitl [Hs0]; · iexact Hs0
    iexact Hslots
  icases Hw with ⟨Hwhole, Hpieces⟩
  ihave Hpieces := (aside_in _) $$ Hpieces
  sl_exec
  -- the gathered slots back at their full share
  ihave Hpieces := (aside_out _) $$ Hpieces
  ihave Hw := (comm_lower m c).2 $$ [Hwhole Hpieces]
  · isplitl [Hwhole]; · iexact Hwhole
    iexact Hpieces
  icases Hw with ⟨Hs0, Hslots⟩
  ihave Hslots := (aside_in _) $$ Hslots
  -- the 31 departures
  ihave Hqs := (chain_nil_intro (fun e => slotPts c 0 (lentShare e) (gathered m c))) $$ []
  · iempintro
  ihave Hqs := (aside_in _) $$ Hqs
  ihave Hzs := (chain_nil_intro (fun e => semVal (sendCell c e) 0)) $$ []
  · iempintro
  ihave Hzs := (aside_in _) $$ Hzs
  for_copies d from 1 to 30 =>
    try sl_exec
    ihave Hdep := (aside_out _) $$ Hdep
    icases Hdep with ⟨⟨HI, Hat⟩, Hdep⟩
    ihave Hdep := (aside_in _) $$ Hdep
    ihave Hc := (aside_out _) $$ HcN
    iapply (wp_wait_send m c d (by decide) _ _) $$ [HI Hc HO Hat]
    · isplitl [HI]; · iexact HI
      isplitl [Hc]; · iexact Hc
      isplitl [HO]; · iexact HO
      iexact Hat
    iintro ⟨⟨%W3, HO⟩, Hq, Hz⟩
    ihave Hqs := (aside_out _) $$ Hqs
    ihave Hqs := (chain_cons_intro d _ (fun e => slotPts c 0 (lentShare e) (gathered m c))) $$ [Hq Hqs]
    · isplitl [Hq]; · iexact Hq
      iexact Hqs
    ihave Hqs := (aside_in _) $$ Hqs
    ihave Hzs := (aside_out _) $$ Hzs
    ihave Hzs := (chain_cons_intro d _ (fun e => semVal (sendCell c e) 0)) $$ [Hz Hzs]
    · isplitl [Hz]; · iexact Hz
      iexact Hzs
    ihave Hzs := (aside_in _) $$ Hzs
  for_copies d from 31 to 31 =>
    try sl_exec
    ihave Hdep := (aside_out _) $$ Hdep
    icases Hdep with ⟨HI, Hat⟩
    ihave Hc := (aside_out _) $$ HcN
    iapply (wp_wait_send m c d (by decide) _ _) $$ [HI Hc HO Hat]
    · isplitl [HI]; · iexact HI
      isplitl [Hc]; · iexact Hc
      isplitl [HO]; · iexact HO
      iexact Hat
    iintro ⟨⟨%W3, HO⟩, Hq, Hz⟩
    ihave Hqs := (aside_out _) $$ Hqs
    ihave Hqs := (chain_cons_intro d _ (fun e => slotPts c 0 (lentShare e) (gathered m c))) $$ [Hq Hqs]
    · isplitl [Hq]; · iexact Hq
      iexact Hqs
    ihave Hqs := (aside_in _) $$ Hqs
    ihave Hzs := (aside_out _) $$ Hzs
    ihave Hzs := (chain_cons_intro d _ (fun e => semVal (sendCell c e) 0)) $$ [Hz Hzs]
    · isplitl [Hz]; · iexact Hz
      iexact Hzs
    ihave Hzs := (aside_in _) $$ Hzs
  try sl_exec
  -- the end: everything back in the shape the launch takes
  sl_unfold_run_names
  rw [show ((Prog.ret PUnit.unit).bind fun __r => (Pure.pure PUnit.unit : Prog (TpuEff nD τ sig (Elt F) Λ₀ .tc) PUnit)) = Prog.ret PUnit.unit from rfl, wp_ret]
  imodintro
  iapply Hk
  unfold workPost
  ihave Hqs := (aside_out _) $$ Hqs
  ihave Hqs := (Entails.of_eq (chain_offLr _)) $$ Hqs
  ihave Hzs := (aside_out _) $$ Hzs
  ihave Hzs := (Entails.of_eq (chain_offLr _)) $$ Hzs
  ihave Hzr := (aside_out _) $$ Hzr
  ihave Hzr := (Entails.of_eq (chain_offLr _)) $$ Hzr
  ihave Hslots := (aside_out _) $$ Hslots
  isplitl [Hs0]; · iexact Hs0
  isplitl [Hqs]; · iexact Hqs
  isplitl [Hslots]; · iexact Hslots
  isplitl [Hidle]; · iexact Hidle
  isplitl [Hzs]; · iexact Hzs
  isplitl [Hzr]; · iexact Hzr
  isplitl [HO]; · iexists _; iexact HO
  isplitl [Hx]; · iexact Hx
  isplitl [Hg]; · iexact Hg
  isplitl [Hb]; · iexact Hb
  iapply (out_restate m c fo)
  iexact Ho

end Cert.KernelIdeal.Proto

end
-- ==== Proof.KRing.lean ====
/-
  The 32 devices as the cyclic group of order 32: `peer c d` is the device `d` places after `c`,
  `orig c d` the device `d` places before it, and `opp d` the offset that undoes `d`.
  Device `c` addresses `peer c d` with its `d`-th signal and its `d`-th copy; so the device that addresses
  `c` at offset `d` is `orig c d`, and `c` reaches `orig c d` again at the offset `opp d`.
-/
import proofs.«900824_g7700000000000825_dist_layernorm_colshard_i_m1024_n512_v7x_i32_bf16_1_alg».proof.Proof.Gen.Kernel

namespace Cert.Kernel.Proto

open Cert.Kernel Idealize.ShloMosaic

/-- The device `d` places after `c` on the ring of 32. -/
def peer (c : Dev nD) (d : Fin 32) : Dev nD := ⟨(c.val + d.val) % 32, Nat.mod_lt _ (by decide)⟩
/-- The device `d` places before `c`. -/
def orig (c : Dev nD) (d : Fin 32) : Dev nD := ⟨(c.val + (32 - d.val)) % 32, Nat.mod_lt _ (by decide)⟩
/-- The offset opposite to `d`: `d + opp d = 0` in the cyclic group. -/
def opp (d : Fin 32) : Fin 32 := ⟨(32 - d.val) % 32, Nat.mod_lt _ (by decide)⟩

theorem orig_peer : ∀ (c : Dev nD) (d : Fin 32), orig (peer c d) d = c := by decide +kernel
theorem peer_orig : ∀ (c : Dev nD) (d : Fin 32), peer (orig c d) d = c := by decide +kernel
theorem peer_opp : ∀ (c : Dev nD) (d : Fin 32), peer c (opp d) = orig c d := by decide +kernel
theorem orig_opp : ∀ (c : Dev nD) (d : Fin 32), orig c (opp d) = peer c d := by decide +kernel
theorem opp_opp : ∀ d : Fin 32, opp (opp d) = d := by decide
theorem opp_ne_zero : ∀ d : Fin 32, d ≠ 0 → opp d ≠ 0 := by decide
theorem peer_ne : ∀ (c : Dev nD) (d : Fin 32), d ≠ 0 → peer c d ≠ c := by decide +kernel
theorem orig_ne : ∀ (c : Dev nD) (d : Fin 32), d ≠ 0 → orig c d ≠ c := by decide +kernel
theorem peer_inj : ∀ (c : Dev nD) (d d' : Fin 32), peer c d = peer c d' → d = d' := by decide +kernel
theorem orig_inj : ∀ (c : Dev nD) (d d' : Fin 32), orig c d = orig c d' → d = d' := by decide +kernel
theorem peer_zero : ∀ c : Dev nD, peer c 0 = c := by decide +kernel

/-- For a fixed offset, stepping forward is a permutation of the devices. -/
def shift (d : Fin 32) : Dev nD ≃ Dev nD := ⟨fun c => peer c d, fun c => orig c d, fun c => orig_peer c d, fun c => peer_orig c d⟩

end Cert.Kernel.Proto
-- ==== Proof.KDevTable.lean ====
import proofs.«900824_g7700000000000825_dist_layernorm_colshard_i_m1024_n512_v7x_i32_bf16_1_alg».proof.Proof.KRing

namespace Cert.Kernel.Proto

open Cert.Kernel Cert.Kernel.Gen Idealize.ShloMosaic

theorem dev1_eq : ∀ c : Dev nD, (⟨k0_dev1 c, k0_dev1_lt c⟩ : Dev nD) = peer c 1 := by decide +kernel
theorem dev2_eq : ∀ c : Dev nD, (⟨k0_dev2 c, k0_dev2_lt c⟩ : Dev nD) = peer c 2 := by decide +kernel
theorem dev3_eq : ∀ c : Dev nD, (⟨k0_dev3 c, k0_dev3_lt c⟩ : Dev nD) = peer c 3 := by decide +kernel
theorem dev4_eq : ∀ c : Dev nD, (⟨k0_dev4 c, k0_dev4_lt c⟩ : Dev nD) = peer c 4 := by decide +kernel
theorem dev5_eq : ∀ c : Dev nD, (⟨k0_dev5 c, k0_dev5_lt c⟩ : Dev nD) = peer c 5 := by decide +kernel
theorem dev6_eq : ∀ c : Dev nD, (⟨k0_dev6 c, k0_dev6_lt c⟩ : Dev nD) = peer c 6 := by decide +kernel
theorem dev7_eq : ∀ c : Dev nD, (⟨k0_dev7 c, k0_dev7_lt c⟩ : Dev nD) = peer c 7 := by decide +kernel
theorem dev8_eq : ∀ c : Dev nD, (⟨k0_dev8 c, k0_dev8_lt c⟩ : Dev nD) = peer c 8 := by decide +kernel
theorem dev9_eq : ∀ c : Dev nD, (⟨k0_dev9 c, k0_dev9_lt c⟩ : Dev nD) = peer c 9 := by decide +kernel
theorem dev10_eq : ∀ c : Dev nD, (⟨k0_dev10 c, k0_dev10_lt c⟩ : Dev nD) = peer c 10 := by decide +kernel
theorem dev11_eq : ∀ c : Dev nD, (⟨k0_dev11 c, k0_dev11_lt c⟩ : Dev nD) = peer c 11 := by decide +kernel
theorem dev12_eq : ∀ c : Dev nD, (⟨k0_dev12 c, k0_dev12_lt c⟩ : Dev nD) = peer c 12 := by decide +kernel
theorem dev13_eq : ∀ c : Dev nD, (⟨k0_dev13 c, k0_dev13_lt c⟩ : Dev nD) = peer c 13 := by decide +kernel
theorem dev14_eq : ∀ c : Dev nD, (⟨k0_dev14 c, k0_dev14_lt c⟩ : Dev nD) = peer c 14 := by decide +kernel
theorem dev15_eq : ∀ c : Dev nD, (⟨k0_dev15 c, k0_dev15_lt c⟩ : Dev nD) = peer c 15 := by decide +kernel
theorem dev16_eq : ∀ c : Dev nD, (⟨k0_dev16 c, k0_dev16_lt c⟩ : Dev nD) = peer c 16 := by decide +kernel
theorem dev17_eq : ∀ c : Dev nD, (⟨k0_dev17 c, k0_dev17_lt c⟩ : Dev nD) = peer c 17 := by decide +kernel
theorem dev18_eq : ∀ c : Dev nD, (⟨k0_dev18 c, k0_dev18_lt c⟩ : Dev nD) = peer c 18 := by decide +kernel
theorem dev19_eq : ∀ c : Dev nD, (⟨k0_dev19 c, k0_dev19_lt c⟩ : Dev nD) = peer c 19 := by decide +kernel
theorem dev20_eq : ∀ c : Dev nD, (⟨k0_dev20 c, k0_dev20_lt c⟩ : Dev nD) = peer c 20 := by decide +kernel
theorem dev21_eq : ∀ c : Dev nD, (⟨k0_dev21 c, k0_dev21_lt c⟩ : Dev nD) = peer c 21 := by decide +kernel
theorem dev22_eq : ∀ c : Dev nD, (⟨k0_dev22 c, k0_dev22_lt c⟩ : Dev nD) = peer c 22 := by decide +kernel
theorem dev23_eq : ∀ c : Dev nD, (⟨k0_dev23 c, k0_dev23_lt c⟩ : Dev nD) = peer c 23 := by decide +kernel
theorem dev24_eq : ∀ c : Dev nD, (⟨k0_dev24 c, k0_dev24_lt c⟩ : Dev nD) = peer c 24 := by decide +kernel
theorem dev25_eq : ∀ c : Dev nD, (⟨k0_dev25 c, k0_dev25_lt c⟩ : Dev nD) = peer c 25 := by decide +kernel
theorem dev26_eq : ∀ c : Dev nD, (⟨k0_dev26 c, k0_dev26_lt c⟩ : Dev nD) = peer c 26 := by decide +kernel
theorem dev27_eq : ∀ c : Dev nD, (⟨k0_dev27 c, k0_dev27_lt c⟩ : Dev nD) = peer c 27 := by decide +kernel
theorem dev28_eq : ∀ c : Dev nD, (⟨k0_dev28 c, k0_dev28_lt c⟩ : Dev nD) = peer c 28 := by decide +kernel
theorem dev29_eq : ∀ c : Dev nD, (⟨k0_dev29 c, k0_dev29_lt c⟩ : Dev nD) = peer c 29 := by decide +kernel
theorem dev30_eq : ∀ c : Dev nD, (⟨k0_dev30 c, k0_dev30_lt c⟩ : Dev nD) = peer c 30 := by decide +kernel
theorem dev31_eq : ∀ c : Dev nD, (⟨k0_dev31 c, k0_dev31_lt c⟩ : Dev nD) = peer c 31 := by decide +kernel
theorem dev32_eq : ∀ c : Dev nD, (⟨k0_dev32 c, k0_dev32_lt c⟩ : Dev nD) = peer c 1 := by decide +kernel
theorem dev33_eq : ∀ c : Dev nD, (⟨k0_dev33 c, k0_dev33_lt c⟩ : Dev nD) = peer c 2 := by decide +kernel
theorem dev34_eq : ∀ c : Dev nD, (⟨k0_dev34 c, k0_dev34_lt c⟩ : Dev nD) = peer c 3 := by decide +kernel
theorem dev35_eq : ∀ c : Dev nD, (⟨k0_dev35 c, k0_dev35_lt c⟩ : Dev nD) = peer c 4 := by decide +kernel
theorem dev36_eq : ∀ c : Dev nD, (⟨k0_dev36 c, k0_dev36_lt c⟩ : Dev nD) = peer c 5 := by decide +kernel
theorem dev37_eq : ∀ c : Dev nD, (⟨k0_dev37 c, k0_dev37_lt c⟩ : Dev nD) = peer c 6 := by decide +kernel
theorem dev38_eq : ∀ c : Dev nD, (⟨k0_dev38 c, k0_dev38_lt c⟩ : Dev nD) = peer c 7 := by decide +kernel
theorem dev39_eq : ∀ c : Dev nD, (⟨k0_dev39 c, k0_dev39_lt c⟩ : Dev nD) = peer c 8 := by decide +kernel
theorem dev40_eq : ∀ c : Dev nD, (⟨k0_dev40 c, k0_dev40_lt c⟩ : Dev nD) = peer c 9 := by decide +kernel
theorem dev41_eq : ∀ c : Dev nD, (⟨k0_dev41 c, k0_dev41_lt c⟩ : Dev nD) = peer c 10 := by decide +kernel
theorem dev42_eq : ∀ c : Dev nD, (⟨k0_dev42 c, k0_dev42_lt c⟩ : Dev nD) = peer c 11 := by decide +kernel
theorem dev43_eq : ∀ c : Dev nD, (⟨k0_dev43 c, k0_dev43_lt c⟩ : Dev nD) = peer c 12 := by decide +kernel
theorem dev44_eq : ∀ c : Dev nD, (⟨k0_dev44 c, k0_dev44_lt c⟩ : Dev nD) = peer c 13 := by decide +kernel
theorem dev45_eq : ∀ c : Dev nD, (⟨k0_dev45 c, k0_dev45_lt c⟩ : Dev nD) = peer c 14 := by decide +kernel
theorem dev46_eq : ∀ c : Dev nD, (⟨k0_dev46 c, k0_dev46_lt c⟩ : Dev nD) = peer c 15 := by decide +kernel
theorem dev47_eq : ∀ c : Dev nD, (⟨k0_dev47 c, k0_dev47_lt c⟩ : Dev nD) = peer c 16 := by decide +kernel
theorem dev48_eq : ∀ c : Dev nD, (⟨k0_dev48 c, k0_dev48_lt c⟩ : Dev nD) = peer c 17 := by decide +kernel
theorem dev49_eq : ∀ c : Dev nD, (⟨k0_dev49 c, k0_dev49_lt c⟩ : Dev nD) = peer c 18 := by decide +kernel
theorem dev50_eq : ∀ c : Dev nD, (⟨k0_dev50 c, k0_dev50_lt c⟩ : Dev nD) = peer c 19 := by decide +kernel
theorem dev51_eq : ∀ c : Dev nD, (⟨k0_dev51 c, k0_dev51_lt c⟩ : Dev nD) = peer c 20 := by decide +kernel
theorem dev52_eq : ∀ c : Dev nD, (⟨k0_dev52 c, k0_dev52_lt c⟩ : Dev nD) = peer c 21 := by decide +kernel
theorem dev53_eq : ∀ c : Dev nD, (⟨k0_dev53 c, k0_dev53_lt c⟩ : Dev nD) = peer c 22 := by decide +kernel
theorem dev54_eq : ∀ c : Dev nD, (⟨k0_dev54 c, k0_dev54_lt c⟩ : Dev nD) = peer c 23 := by decide +kernel
theorem dev55_eq : ∀ c : Dev nD, (⟨k0_dev55 c, k0_dev55_lt c⟩ : Dev nD) = peer c 24 := by decide +kernel
theorem dev56_eq : ∀ c : Dev nD, (⟨k0_dev56 c, k0_dev56_lt c⟩ : Dev nD) = peer c 25 := by decide +kernel
theorem dev57_eq : ∀ c : Dev nD, (⟨k0_dev57 c, k0_dev57_lt c⟩ : Dev nD) = peer c 26 := by decide +kernel
theorem dev58_eq : ∀ c : Dev nD, (⟨k0_dev58 c, k0_dev58_lt c⟩ : Dev nD) = peer c 27 := by decide +kernel
theorem dev59_eq : ∀ c : Dev nD, (⟨k0_dev59 c, k0_dev59_lt c⟩ : Dev nD) = peer c 28 := by decide +kernel
theorem dev60_eq : ∀ c : Dev nD, (⟨k0_dev60 c, k0_dev60_lt c⟩ : Dev nD) = peer c 29 := by decide +kernel
theorem dev61_eq : ∀ c : Dev nD, (⟨k0_dev61 c, k0_dev61_lt c⟩ : Dev nD) = peer c 30 := by decide +kernel
theorem dev62_eq : ∀ c : Dev nD, (⟨k0_dev62 c, k0_dev62_lt c⟩ : Dev nD) = peer c 31 := by decide +kernel

end Cert.Kernel.Proto
-- ==== Proof.KProto.lean ====
/-
  The cross-device protocol of the distributed layer norm, as a schedule of rounds.

  Every device `c` owns 63 semaphore cells: its barrier cell, and for every offset `d = 1 … 31` a send cell and a
  receive cell. All the traffic is one round (round 0):
  * the barrier cell of `q` has the 31 duties `d = 1 … 31` of one unit each; duty `d` is paid by the device
    `orig q d` (whose `d`-th signal addresses `q`) and hands `q` the slot of that device's gather buffer that `q` will
    write — slot `opp d`, because `q` reaches `orig q d` at the offset `opp d` — together with the fact that the
    receive cell guarding that slot is at its round 0;
  * the send cell `d` of `c` has one duty, paid by `c`'s own copy number `d` once its source (slot 0 of `c`) has
    been read: it gives back the share of slot 0 the copy was lent;
  * the receive cell `d` of `c` has one duty, paid by the copy number `d` of the device `orig c d` once it has
    landed: it hands `c` its slot `d`, holding what slot 0 of `orig c d` held.
  The whole gather buffer of `c` therefore ends as ONE array `gathered c`: slot `s` holds the two partial row sums
  of device `orig c s`.
-/
import proofs.«900824_g7700000000000825_dist_layernorm_colshard_i_m1024_n512_v7x_i32_bf16_1_alg».proof.Proof.Gen.Kernel.Skeleton
import proofs.«900824_g7700000000000825_dist_layernorm_colshard_i_m1024_n512_v7x_i32_bf16_1_alg».proof.Proof.Gen.Kernel.Launch
import proofs.«900824_g7700000000000825_dist_layernorm_colshard_i_m1024_n512_v7x_i32_bf16_1_alg».proof.Proof.Gen.Kernel.Points
import proofs.«900824_g7700000000000825_dist_layernorm_colshard_i_m1024_n512_v7x_i32_bf16_1_alg».proof.Proof.Gen.Kernel.Frame
import proofs.«900824_g7700000000000825_dist_layernorm_colshard_i_m1024_n512_v7x_i32_bf16_1_alg».proof.Proof.KDevTable
import Idealize.ShloMosaic.Lib.Pipeline.Launch
import Idealize.ShloMosaic.Lib.Pipeline.Kit
import Idealize.ShloMosaic.Lib.Tactic
import Idealize.ShloMosaic.Lib.ValueIdx

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the offset) -/

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## Memrefs and cells -/

abbrev xM : Memref sig .tc .vmem S1024x512 .f32 := Memref.whole cc0_stg0_0
abbrev gM : Memref sig .tc .vmem S512 .f32 := Memref.whole cc0_stg1_0
abbrev bM : Memref sig .tc .vmem S512 .f32 := Memref.whole cc0_stg2_0
abbrev oM : Memref sig .tc .vmem S1024x512 .bf16 := Memref.whole cc0_stg3_0
/-- The gather buffer: 32 slots of two rows of 1024. -/
abbrev commM : Memref sig .tc .vmem S32x2x1024 .bf16 := Memref.whole cc0_scratch0

theorem inb_slot (d : Fin 32) : ∀ a, (![d.val, 0, 0] : Fin 3 → Nat) a + S1x2x1024.size a ≤ S32x2x1024.size a := by
  intro a; have := d.isLt; fin_cases a <;> simp [Shape.size] <;> omega

/-- Slot `d` of the gather buffer, as the kernel slices it: rows `[d, 0, 0]` of extent `[1, 2, 1024]`, squeezed. -/
def slotM (d : Fin 32) : Memref sig .tc .vmem S2x1024 .bf16 :=
  ((commM.slice (Rect.unit (s := S32x2x1024) ![d.val, 0, 0] S1x2x1024.size (inb_slot d)) (fun _ => rfl)).squeeze S2x1024 squeezes_S1x2x1024_S2x1024)

abbrev barS : Sem sig := (SemArray.scalar (sig.barrier 0 rfl) : Sems sig S_).sem
/-- The send semaphore of copy `d`: element `d` of the first semaphore array (base 4). -/
def sendS (d : Fin 32) : DmaSem sig := ⟨4 + d.val, by have := d.isLt; show 4 + d.val < 68; omega⟩
/-- The receive semaphore of slot `d`: element `d` of the second semaphore array (base 36). -/
def recvS (d : Fin 32) : DmaSem sig := ⟨36 + d.val, by have := d.isLt; show 36 + d.val < 68; omega⟩

abbrev barCell (c : Dev nD) : GSem nD τ sig := ((c : Thread nD τ), .reg barS)
abbrev sendCell (c : Dev nD) (d : Fin 32) : GSem nD τ sig := ((c : Thread nD τ), .dma (sendS d))
abbrev recvCell (c : Dev nD) (d : Fin 32) : GSem nD τ sig := ((c : Thread nD τ), .dma (recvS d))

/-- The credit of one slot's transfer. -/
abbrev N : ℕ := (slotM 1).view.dmaCredit

theorem N_pos : 0 < N := View.dmaCredit_pos _ (by decide)

/-! ## Contents -/

/-- Device `c`'s block of `x`, of the scale and of the shift, as the region finds them. -/
def xblk (c : Dev nD) : Vec F S1024x512 .f32 := iblk m c 0 t0_0
def gblk (c : Dev nD) : Vec F S512 .f32 := iblk m c 1 t0_0
def bblk (c : Dev nD) : Vec F S512 .f32 := iblk m c 2 t0_0

/-- What the gather buffer of device `c` holds once every copy has landed: slot `s`, row 0, holds the row sums of the
    block of device `orig c s`, and row 1 the row sums of its squares. -/
def gathered (c : Dev nD) : Buf (Elt F) ((c : Thread nD τ).loc cc0_scratch0) := fun i =>
  if (i 1).val = 0 then k0_pay2 (xblk m (orig c ⟨(i 0).val, (i 0).isLt⟩)) (ValueIdx.ix3 0 0 ⟨(i 2).val, (i 2).isLt⟩)
  else k0_pay3 (xblk m (orig c ⟨(i 0).val, (i 0).isLt⟩)) (ValueIdx.ix3 0 0 ⟨(i 2).val, (i 2).isLt⟩)

/-- The share of slot 0 still in hand after `n` copies have each been lent the left half of what was left. -/
def remShare : ℕ → PosShare TreeShare
  | 0 => fullShare
  | n + 1 => (remShare n).right
/-- The share of slot 0 lent to copy `d`. -/
def lentShare (d : Fin 32) : PosShare TreeShare := (remShare (d.val - 1)).left

/-- Slot `d` of device `c`'s gather buffer held at share `q` with contents `f`. -/
def slotPts (c : Dev nD) (d : Fin 32) (q : PosShare TreeShare) (f : Buf (Elt F) ((c : Thread nD τ).loc cc0_scratch0)) : sProp 𝕄 :=
  (slotM d).view.loc (c : Thread nD τ) ↦[(slotM d).view.set]{q} f

omit [FloatOps F] in
instance slotPts_storable (c : Dev nD) (d : Fin 32) (q : PosShare TreeShare) (f : Buf (Elt F) ((c : Thread nD τ).loc cc0_scratch0)) :
    BI.Storable (upEmb : UEmb _ 𝕄) (slotPts (F := F) c d q f) := by
  unfold slotPts
  exact (inferInstance : BI.Storable (upEmb : UEmb _ 𝕄)
    (((slotM d).view.loc (c : Thread nD τ)) ↦[(slotM d).view.set]{q} (show Buf (Elt F) ((slotM d).view.loc (c : Thread nD τ)) from f)))

/-! ## The schedule -/

/-- Duty `d` of `q`'s barrier cell: the slot of the signalling device that `q` will write, and that slot's receive cell at round 0. -/
def barPay (q : Dev nD) (d : Fin 32) : sProp 𝕄 :=
  iprop((∃ f, slotPts (orig q d) (opp d) fullShare f) ∗ reached ER (recvCell (orig q d) (opp d)) 0)
/-- The receive cell `d` of `c`: slot `d` holding its final contents. -/
def recvPay (c : Dev nD) (d : Fin 32) : sProp 𝕄 := slotPts c d fullShare (gathered m c)
/-- The send cell `d` of `c`: the lent share of slot 0 back. -/
def sendPay (c : Dev nD) (d : Fin 32) : sProp 𝕄 := slotPts c 0 (lentShare d) (gathered m c)

/-- The offset a transfer semaphore belongs to: `4 + d` and `36 + d` both give `d`. -/
def semIdx (q : DmaSem sig) : Fin 32 := ⟨(q.val + 28) % 32, Nat.mod_lt _ (by decide)⟩

/-- Which DMA semaphores carry a duty: the send semaphores 5 … 35 and the receive semaphores 37 … 67. -/
abbrev IsXferSem (q : DmaSem sig) : Prop := 4 < q.val ∧ q.val ≠ 36

def ringRd : Rounds.Schedule (GSem nD τ sig) (Fin 32) 𝕄 where
  duties g r := if r = 0 ∧ g.1.2 = .tc then
      (match g.2 with
        | .reg s => if s = barS then Finset.univ.erase 0 else ∅
        | .dma q => if IsXferSem q then {0} else ∅)
    else ∅
  unitless _ := False
  amount g _ _ := match g.2 with
    | .reg _ => 1
    | .dma _ => N
  payload g _ d := match g.2 with
    | .reg _ => barPay g.1.1 d
    | .dma q => if 36 ≤ q.val then recvPay m g.1.1 (semIdx q) else sendPay m g.1.1 (semIdx q)
  amount_pos g _ _ _ := by
    cases g.2 with
    | reg _ => exact Nat.one_pos
    | dma _ => exact N_pos

instance ringRd_payload_storable (g : GSem nD τ sig) (r : ℕ) (d : Fin 32) :
    BI.Storable (upEmb : UEmb _ 𝕄) ((ringRd (F := F) m).payload g r d) := by
  show BI.Storable upEmb (match g.2 with
    | .reg _ => barPay g.1.1 d
    | .dma q => if 36 ≤ q.val then recvPay m g.1.1 (semIdx q) else sendPay m g.1.1 (semIdx q))
  unfold barPay recvPay sendPay
  (repeat' split) <;> infer_instance

/-! ### The schedule's tables, cell by cell -/

section Sched
variable (c : Dev nD) (d : Fin 32)

theorem sendS_val : (sendS d).val = 4 + d.val := rfl
theorem recvS_val : (recvS d).val = 36 + d.val := rfl
theorem semIdx_send : semIdx (sendS d) = d := by
  apply Fin.ext; show (4 + d.val + 28) % 32 = d.val; have := d.isLt; omega
theorem semIdx_recv : semIdx (recvS d) = d := by
  apply Fin.ext; show (36 + d.val + 28) % 32 = d.val; have := d.isLt; omega
theorem isXfer_send (hd : d ≠ 0) : IsXferSem (sendS d) := by
  have : d.val ≠ 0 := fun h => hd (Fin.ext h)
  exact ⟨by show 4 < 4 + d.val; omega, by show 4 + d.val ≠ 36; have := d.isLt; omega⟩
theorem isXfer_recv (hd : d ≠ 0) : IsXferSem (recvS d) := by
  have : d.val ≠ 0 := fun h => hd (Fin.ext h)
  exact ⟨by show 4 < 36 + d.val; omega, by show 36 + d.val ≠ 36; omega⟩

theorem duties_bar : (ringRd (F := F) m).duties (barCell c) 0 = Finset.univ.erase 0 := by
  dsimp only [ringRd]; rw [if_pos ⟨rfl, rfl⟩, if_pos rfl]
theorem duties_send (hd : d ≠ 0) : (ringRd (F := F) m).duties (sendCell c d) 0 = {0} := by
  dsimp only [ringRd]; rw [if_pos ⟨rfl, rfl⟩, if_pos (isXfer_send d hd)]
theorem duties_recv (hd : d ≠ 0) : (ringRd (F := F) m).duties (recvCell c d) 0 = {0} := by
  dsimp only [ringRd]; rw [if_pos ⟨rfl, rfl⟩, if_pos (isXfer_recv d hd)]
theorem duties_later (g : GSem nD τ sig) : ∀ r, 1 ≤ r → (ringRd (F := F) m).duties g r = ∅ :=
  fun r hr => by dsimp only [ringRd]; rw [if_neg fun h => by omega]

theorem amount_bar (e : Fin 32) : (ringRd (F := F) m).amount (barCell c) 0 e = 1 := rfl
theorem amount_send (e : Fin 32) : (ringRd (F := F) m).amount (sendCell c d) 0 e = N := rfl
theorem amount_recv (e : Fin 32) : (ringRd (F := F) m).amount (recvCell c d) 0 e = N := rfl

theorem expect_bar : (ringRd (F := F) m).expect (barCell c) 0 = 31 := by
  unfold Schedule.expect Schedule.amountOf
  rw [duties_bar, Finset.sum_congr rfl fun e _ => amount_bar m c e, Finset.sum_const, smul_eq_mul, Nat.mul_one]
  decide
theorem expect_send (hd : d ≠ 0) : (ringRd (F := F) m).expect (sendCell c d) 0 = N := by
  unfold Schedule.expect Schedule.amountOf; rw [duties_send m c d hd, Finset.sum_singleton, amount_send]
theorem expect_recv (hd : d ≠ 0) : (ringRd (F := F) m).expect (recvCell c d) 0 = N := by
  unfold Schedule.expect Schedule.amountOf; rw [duties_recv m c d hd, Finset.sum_singleton, amount_recv]

theorem payload_bar (e : Fin 32) : (ringRd (F := F) m).payload (barCell c) 0 e = barPay c e := rfl
theorem payload_send (e : Fin 32) : (ringRd (F := F) m).payload (sendCell c d) 0 e = sendPay m c d := by
  dsimp only [ringRd]; rw [if_neg (by show ¬ 36 ≤ 4 + d.val; have := d.isLt; omega), semIdx_send]
theorem payload_recv (e : Fin 32) : (ringRd (F := F) m).payload (recvCell c d) 0 e = recvPay m c d := by
  dsimp only [ringRd]; rw [if_pos (by show 36 ≤ 36 + d.val; omega), semIdx_recv]

end Sched

/-! ## The cells by index, what each device owes at launch, the levels -/

/-- The offsets that carry traffic: 1 … 31. -/
abbrev offs : Finset (Fin 32) := Finset.univ.erase 0

/-- A device's 63 cells by index: 0 its barrier cell, `d` (1 … 31) its send cell `d`, `31 + d` its receive cell `d`. -/
def csem (k : Fin 63) : SemLoc sig :=
  if k.val = 0 then .reg barS
  else if h : k.val ≤ 31 then .dma (sendS ⟨k.val, by omega⟩)
  else .dma (recvS ⟨k.val - 31, by have := k.isLt; omega⟩)
abbrev kcell (ck : Dev nD × Fin 63) : GSem nD τ sig := ((ck.1 : Thread nD τ), csem ck.2)
def sIdx (d : Fin 32) : Fin 63 := ⟨d.val, by have := d.isLt; omega⟩
def rIdx (d : Fin 32) : Fin 63 := ⟨31 + d.val, by have := d.isLt; omega⟩

theorem kcell_bar (c : Dev nD) : kcell (c, 0) = barCell c := rfl
theorem kcell_send (c : Dev nD) (d : Fin 32) (hd : d ≠ 0) : kcell (c, sIdx d) = sendCell c d := by
  have h0 : d.val ≠ 0 := fun h => hd (Fin.ext h)
  have h1 : d.val ≤ 31 := by have := d.isLt; omega
  show ((c : Thread nD τ), csem (sIdx d)) = _
  unfold csem sIdx; simp only [h0, h1, if_false, dif_pos]
theorem kcell_recv (c : Dev nD) (d : Fin 32) (hd : d ≠ 0) : kcell (c, rIdx d) = recvCell c d := by
  have h0 : d.val ≠ 0 := fun h => hd (Fin.ext h)
  show ((c : Thread nD τ), csem (rIdx d)) = _
  unfold csem rIdx
  have h1 : ¬ (31 + d.val = 0) := by omega
  have h2 : ¬ (31 + d.val ≤ 31) := by omega
  simp only [h1, h2, if_false, dif_neg, not_false_eq_true]
  congr 2; apply Fin.ext; show 36 + (31 + d.val - 31) = 36 + d.val; omega

/-- What device `c` owes at launch: to every other device one unit on its barrier cell and one slot's credit on the
    receive cell of the slot `c` writes there. -/
def O₀ (c : Dev nD) : CellTallies nD τ sig Unit :=
  ∑ d ∈ offs, (tallyAt (barCell (peer c d)) () 1 + tallyAt (recvCell (peer c d) d) () N)

def L (g : GSem nD τ sig) : Finset Unit := if g.1.2 = .tc then {()} else ∅
/-- Barrier cells at level 1, receive cells (DMA semaphores 36 …) at level 2, everything else (staging, send) at level 0. -/
def lv (g : GSem nD τ sig) (_ : Unit) : ℕ :=
  match g.2 with
  | .reg _ => 1
  | .dma q => if 36 ≤ q.val then 2 else 0

/-! ## The ghost state a device's body starts from -/

/-- Every cell's invariant under the names the launch allocated them at, and every cell at round 0: persistent, held by all. -/
def records (K : Dev nD × Fin 63 → ℕ) : sProp 𝕄 :=
  iprop((bigSep Finset.univ fun ck : Dev nD × Fin 63 => cellInv ER (ringRd m) (K ck) (kcell ck))
    ∗ bigSep Finset.univ fun ck : Dev nD × Fin 63 => reached ER (kcell ck) 0)

instance records_persistent (K : Dev nD × Fin 63 → ℕ) : BI.Persistent (records m K) := by unfold records; infer_instance

/-- The tokens of the duties device `c` pays: for each offset `d`, the unit on the barrier of `peer c d`, the landing in
    its slot `d`, and the departure of its own copy `d`. -/
def payToks (c : Dev nD) : sProp 𝕄 :=
  bigSep offs fun d => iprop(dutyTok ER (barCell (peer c d)) 0 d ∗ dutyTok ER (recvCell (peer c d) d) 0 0 ∗ dutyTok ER (sendCell c d) 0 0)

/-- Device `c`'s positions: round 0 of each of its 63 cells, nothing taken. -/
def positions (c : Dev nD) : sProp 𝕄 := bigSep Finset.univ fun k : Fin 63 => atPos ER (kcell (c, k)) 0 ∅ 0

def ghost (K : Dev nD × Fin 63 → ℕ) (c : Dev nD) : sProp 𝕄 := iprop(records m K ∗ positions c ∗ payToks c)

/-- The launch credit of device `c`: 31 units on its barrier cell, one slot's credit on each receive cell. -/
def credits (c : Dev nD) : sProp 𝕄 :=
  iprop(cred (tallyAt (barCell c) () 31) ∗ bigSep offs fun d => cred (tallyAt (recvCell c d) () N))

/-- The two semaphores of the arrays' element 0, which no copy uses: at zero throughout. -/
def idleSems (c : Dev nD) : sProp 𝕄 := iprop(semVal (sendCell c 0) 0 ∗ semVal (recvCell c 0) 0)

/-- What device `c`'s body starts from, besides its buffers. -/
def start (c : Dev nD) : sProp 𝕄 :=
  iprop((∃ K, ghost m K c) ∗ idleSems c ∗ credits c ∗ levAts L lv)

end Cert.Kernel.Proto

end
-- ==== Proof.KLaunchGhost.lean ====
/-
  The ghost state of the launch: the protocol's resource algebra element funded, every cell's invariant allocated
  for all devices under one update, and the duty tokens dealt to the devices that pay them.

  Each device owns 63 cells. The launch element mints, for every device, its cells' round states at counter zero,
  its positions at round 0, and the tokens of its own cells' duties: the 31 duties of its barrier cell and the one
  duty of each of its 31 send and 31 receive cells. A duty's token belongs with the device that PAYS the duty: duty
  `d` of the barrier cell of `q` and the duty of the receive cell `d` of `q` are paid by `orig q d`, so for every
  offset `d` these tokens travel along the permutation `shift d` of the ring; the send cells' tokens stay.
-/
import proofs.«900824_g7700000000000825_dist_layernorm_colshard_i_m1024_n512_v7x_i32_bf16_1_alg».proof.Proof.KProto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores, the cells, the tokens -/

/-- The kernel's own scoped semaphores: the two arrays of 32 DMA semaphores, indices 4 … 67. -/
abbrev osem : Fin 64 → SemLoc sig := fun j => .dma ⟨4 + j.val, by have := j.isLt; show 4 + j.val < 68; omega⟩

theorem ownSemFacts : Pipeline.OwnSemFacts cfg0.spec osem := by decide

/-- A number telling the 63 semaphores of a device apart: 0 for the barrier semaphore, the index for a DMA semaphore. -/
def semCode : SemLoc sig → ℕ
  | .reg _ => 0
  | .dma q => q.val

theorem semCode_csem (k : Fin 63) : semCode (csem k) = if k.val = 0 then 0 else if k.val ≤ 31 then 4 + k.val else 5 + k.val := by
  unfold csem
  by_cases h0 : k.val = 0
  · rw [if_pos h0, if_pos h0]; rfl
  · rw [if_neg h0, if_neg h0]
    by_cases h1 : k.val ≤ 31
    · rw [dif_pos h1, if_pos h1]; rfl
    · rw [dif_neg h1, if_neg h1]; show 36 + (k.val - 31) = 5 + k.val; omega

theorem csem_injective : Function.Injective csem := by
  intro k k' h
  have := congrArg semCode h
  rw [semCode_csem, semCode_csem] at this
  apply Fin.ext
  split_ifs at this <;> omega

theorem kcell_injective : Function.Injective (kcell : Dev nD × Fin 63 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- All the cells of the protocol: 63 on each of the 32 devices. -/
def ringCells : Finset (GSem nD τ sig) := Finset.univ.map ⟨kcell, kcell_injective⟩

/-- The offsets that carry traffic, as a type. -/
abbrev Off : Type := {d : Fin 32 // d ≠ 0}

/-- A device's own cells' duty tokens as minted: the barrier cell's duty `d`, the send cell `d`'s duty, the receive
    cell `d`'s duty, for every offset `d` that carries traffic. -/
def tokOf (cj : Dev nD × (Off ⊕ Off ⊕ Off)) : GSem nD τ sig × ℕ × Fin 32 := match cj.2 with
  | .inl d => (barCell cj.1, 0, d.1)
  | .inr (.inl d) => (sendCell cj.1 d.1, 0, 0)
  | .inr (.inr d) => (recvCell cj.1 d.1, 0, 0)

theorem tokOf_injective : Function.Injective (tokOf : Dev nD × (Off ⊕ Off ⊕ Off) → GSem nD τ sig × ℕ × Fin 32) := by
  rintro ⟨c, j⟩ ⟨c', j'⟩ h
  have h1 : c = c' := by
    have := congrArg (fun x : GSem nD τ sig × ℕ × Fin 32 => x.1.1.1) h
    rcases j with d | d | d <;> rcases j' with d' | d' | d' <;> exact this
  subst h1
  have h2 := congrArg (fun x : GSem nD τ sig × ℕ × Fin 32 => semCode x.1.2) h
  have h3 := congrArg (fun x : GSem nD τ sig × ℕ × Fin 32 => x.2.2) h
  rcases j with d | d | d <;> rcases j' with d' | d' | d' <;>
    simp only [tokOf, semCode, sendS_val, recvS_val] at h2 h3
  · have : d = d' := Subtype.ext h3
    rw [this]
  · have := d'.1.isLt; omega
  · omega
  · have := d.1.isLt; omega
  · have : d = d' := Subtype.ext (Fin.ext (by omega))
    rw [this]
  · have := d.1.isLt; omega
  · omega
  · have := d'.1.isLt; omega
  · have : d = d' := Subtype.ext (Fin.ext (by omega))
    rw [this]

def ringToks : Finset (GSem nD τ sig × ℕ × Fin 32) := Finset.univ.map ⟨tokOf, tokOf_injective⟩

/-- The launch element: the pipeline's and the protocol's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep offs fun d => dutyTok ER (barCell c) 0 d) ∗ (bigSep offs fun d => dutyTok ER (sendCell c d) 0 0)
    ∗ bigSep offs fun d => dutyTok ER (recvCell c d) 0 0)

/-- What the launch element deals device `c`. -/
def G (m : (ℓ : Loc nD τ sig) → Buf (Elt F) ℓ) (c : Dev nD) : sProp 𝕄 :=
  iprop((bigSep Finset.univ fun k : Fin 63 => roundState ER (ringRd m) (kcell (c, k)) 0)
    ∗ (bigSep Finset.univ fun k : Fin 63 => iprop(atPos ER (kcell (c, k)) 0 ∅ 0 ∗ reached ER (kcell (c, k)) 0)) ∗ toks c)

/-- What the global step makes of it. -/
def G' (m : (ℓ : Loc nD τ sig) → Buf (Elt F) ℓ) (c : Dev nD) : sProp 𝕄 := iprop((∃ K, ghost m K c) ∗ idleSems c)

/-! ## Funding -/

theorem fund_ring (m : (ℓ : Loc nD τ sig) → Buf (Elt F) ℓ) : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 63 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_univ_sum,
        ← bigSep_subtype_ne 0 (fun d : Fin 32 => (dutyTok ER (barCell c) 0 d : sProp 𝕄)),
        ← bigSep_subtype_ne 0 (fun d : Fin 32 => (dutyTok ER (sendCell c d) 0 0 : sProp 𝕄)),
        ← bigSep_subtype_ne 0 (fun d : Fin 32 => (dutyTok ER (recvCell c d) 0 0 : sProp 𝕄))]
      rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem sIdx_injective : Function.Injective sIdx := fun a b h => Fin.ext (by have := congrArg Fin.val h; exact this)
theorem rIdx_injective : Function.Injective rIdx := fun a b h => Fin.ext (by have := congrArg Fin.val h; simp only [rIdx] at this; omega)

/-- The 63 indices: the barrier's, the send cells', the receive cells'. -/
theorem univ_cells : (Finset.univ : Finset (Fin 63)) = insert 0 (offs.map ⟨sIdx, sIdx_injective⟩ ∪ offs.map ⟨rIdx, rIdx_injective⟩) := by
  ext k
  simp only [Finset.mem_univ, true_iff, Finset.mem_insert, Finset.mem_union, Finset.mem_map, Finset.mem_erase, Function.Embedding.coeFn_mk, and_true]
  by_cases h0 : k.val = 0
  · exact Or.inl (Fin.ext h0)
  · by_cases h1 : k.val ≤ 31
    · exact Or.inr (Or.inl ⟨⟨k.val, by omega⟩, fun h => h0 (by have := congrArg Fin.val h; exact this), Fin.ext rfl⟩)
    · exact Or.inr (Or.inr ⟨⟨k.val - 31, by have := k.isLt; omega⟩, fun h => by have := congrArg Fin.val h; simp only [Fin.val_zero] at this; omega,
        Fin.ext (by show 31 + (k.val - 31) = k.val; omega)⟩)

omit [FloatOps F] in
/-- A device's 63 cells, sorted: its barrier cell, its send cells, its receive cells. -/
theorem bigSep_cells (c : Dev nD) (Φ : GSem nD τ sig → sProp 𝕄) :
    (bigSep Finset.univ fun k : Fin 63 => Φ (kcell (c, k)))
      = iprop(Φ (barCell c) ∗ (bigSep offs fun d => Φ (sendCell c d)) ∗ bigSep offs fun d => Φ (recvCell c d)) := by
  have hd : Disjoint (offs.map ⟨sIdx, sIdx_injective⟩) (offs.map ⟨rIdx, rIdx_injective⟩) := by
    rw [Finset.disjoint_left]
    intro k hs hr
    simp only [Finset.mem_map, Finset.mem_erase, Finset.mem_univ, and_true, Function.Embedding.coeFn_mk] at hs hr
    obtain ⟨d, hd, rfl⟩ := hs
    obtain ⟨d', hd', h⟩ := hr
    have := congrArg Fin.val h
    simp only [rIdx, sIdx] at this
    have h1 := d.isLt
    exact hd' (Fin.ext (by simp only [Fin.val_zero]; omega))
  have h0 : (0 : Fin 63) ∉ offs.map ⟨sIdx, sIdx_injective⟩ ∪ offs.map ⟨rIdx, rIdx_injective⟩ := by
    simp only [Finset.mem_union, Finset.mem_map, Finset.mem_erase, Finset.mem_univ, and_true, Function.Embedding.coeFn_mk, not_or, not_exists, not_and]
    refine ⟨fun d hd h => hd (Fin.ext ?_), fun d hd h => ?_⟩
    · have := congrArg Fin.val h; simp only [sIdx, Fin.val_zero] at this; simpa using this
    · have := congrArg Fin.val h; simp only [rIdx, Fin.val_zero] at this; omega
  have e1 : (bigSep offs fun d => Φ (kcell (c, sIdx d))) = bigSep offs fun d => Φ (sendCell c d) :=
    bigSep_congr fun d hd => by rw [kcell_send c d (Finset.ne_of_mem_erase hd)]
  have e2 : (bigSep offs fun d => Φ (kcell (c, rIdx d))) = bigSep offs fun d => Φ (recvCell c d) :=
    bigSep_congr fun d hd => by rw [kcell_recv c d (Finset.ne_of_mem_erase hd)]
  calc (bigSep Finset.univ fun k : Fin 63 => Φ (kcell (c, k)))
      = iprop(Φ (kcell (c, 0)) ∗ (bigSep offs fun d => Φ (kcell (c, sIdx d))) ∗ bigSep offs fun d => Φ (kcell (c, rIdx d))) := by
        rw [univ_cells, bigSep_insert h0, bigSep_union hd, bigSep_map, bigSep_map]; rfl
    _ = _ := by rw [e1, e2]; rfl

/-- The two arrays of 32 semaphores side by side. -/
def arrays : Fin 32 ⊕ Fin 32 ≃ Fin 64 := finSumFinEquiv

theorem osem_inl (d : Fin 32) : osem (arrays (.inl d)) = .dma (sendS d) := rfl
theorem osem_inr (d : Fin 32) : osem (arrays (.inr d)) = .dma (recvS d) :=
  congrArg SemLoc.dma (Fin.ext (by show 4 + (32 + d.val) = 36 + d.val; omega))

omit [FloatOps F] in
/-- The kernel's own semaphores are the two arrays: every send and receive semaphore, element 0 included. -/
theorem ownSems0_eq (c : Dev nD) : (Pipeline.ownSems0 (Ix := Unit) (Name := ℕ) (U := UU) (Lvl := ℕ) (Val := Elt F) (τ := τ) osem c : sProp 𝕄)
    = iprop((semVal (sendCell c 0) 0 ∗ bigSep offs fun d => semVal (sendCell c d) 0)
        ∗ (semVal (recvCell c 0) 0 ∗ bigSep offs fun d => semVal (recvCell c d) 0)) := by
  calc (Pipeline.ownSems0 (Ix := Unit) (Name := ℕ) (U := UU) (Lvl := ℕ) (Val := Elt F) (τ := τ) osem c : sProp 𝕄)
      = iprop((bigSep Finset.univ fun d : Fin 32 => semVal ((c : Thread nD τ), osem (arrays (.inl d))) 0)
          ∗ bigSep Finset.univ fun d : Fin 32 => semVal ((c : Thread nD τ), osem (arrays (.inr d))) 0) := by
        unfold Pipeline.ownSems0; rw [bigSep_univ_equiv arrays, bigSep_univ_sum]; rfl
    _ = iprop((bigSep Finset.univ fun d : Fin 32 => semVal (sendCell c d) 0) ∗ bigSep Finset.univ fun d : Fin 32 => semVal (recvCell c d) 0) := by
        congr 1
    _ = _ := by
        rw [bigSep_univ_at (fun d : Fin 32 => (semVal (sendCell c d) 0 : sProp 𝕄)) 0,
          bigSep_univ_at (fun d : Fin 32 => (semVal (recvCell c d) 0 : sProp 𝕄)) 0]

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 63 => semVal (kcell (c, k)) 0) ∗ idleSems c) : sProp 𝕄) := by
  rw [ownSems0_eq, unscopedSems0_eq, bigSep_cells c (fun g => semVal g 0)]
  unfold idleSems
  iintro ⟨⟨⟨HS0, HS⟩, HV0, HV⟩, HB⟩
  isplitl [HB HS HV]
  · isplitl [HB]; · iexact HB
    isplitl [HS] <;> iassumption
  isplitl [HS0] <;> iassumption

/-! ## The invariants allocated, device by device -/

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hidle⟩
  imod (show iprop((bigSep Finset.univ fun k : Fin 63 => semVal (kcell (c, k)) 0) ∗ bigSep Finset.univ fun k : Fin 63 => roundState ER (ringRd m) (kcell (c, k)) 0)
      ⊢ (|={Set.univ}=> bigSep Finset.univ fun k : Fin 63 => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hidle

/-! ## The tokens dealt to their payers -/

omit [FloatOps F] in
/-- Two nested `bigSep`s may be taken in either order. -/
theorem bigSep_swap {A B : Type} (s : Finset A) (t : Finset B) (Φ : A → B → sProp 𝕄) :
    (bigSep s fun a => bigSep t fun b => Φ a b) = bigSep t fun b => bigSep s fun a => Φ a b := by
  classical
  induction s using Finset.induction_on with
  | empty => exact (bigSep_emp_const t).symm
  | insert a s ha ih =>
    have h1 : (bigSep (insert a s) fun a => bigSep t fun b => Φ a b)
        = iprop((bigSep t fun b => Φ a b) ∗ bigSep s fun a => bigSep t fun b => Φ a b) := bigSep_insert ha
    have h2 (b : B) : (bigSep (insert a s) fun a => Φ a b) = iprop(Φ a b ∗ bigSep s fun a => Φ a b) := bigSep_insert ha
    rw [h1, ih, ← bigSep_sep']
    exact bigSep_congr fun b _ => (h2 b).symm

omit [FloatOps F] in
/-- For every offset the devices are permuted by the step of that offset: a family over (device, offset) summed over
    the device each device addresses is the family summed over the devices themselves. -/
theorem deal (Ψ : Dev nD → Fin 32 → sProp 𝕄) :
    (bigSep Finset.univ fun c : Dev nD => bigSep offs fun d => Ψ c d)
      = bigSep Finset.univ fun c : Dev nD => bigSep offs fun d => Ψ (peer c d) d := by
  rw [bigSep_swap Finset.univ offs Ψ, bigSep_swap Finset.univ offs (fun c d => Ψ (peer c d) d)]
  exact bigSep_congr fun d _ => bigSep_univ_equiv (shift d) (fun c => Ψ c d)

omit [FloatOps F] in
/-- Every token to the device that pays its duty: duty `d` of a barrier cell and the duty of a receive cell `d` to the
    device `d` places before the cell's owner; the send cells' tokens stay where they are. -/
theorem toks_around : (bigSep Finset.univ fun c : Dev nD => (toks c : sProp 𝕄)) ⊢ bigSep Finset.univ fun c : Dev nD => payToks c := by
  have e : (bigSep Finset.univ fun c : Dev nD => (payToks c : sProp 𝕄))
      = iprop((bigSep Finset.univ fun c : Dev nD => bigSep offs fun d => dutyTok ER (barCell c) 0 d)
          ∗ (bigSep Finset.univ fun c : Dev nD => bigSep offs fun d => dutyTok ER (recvCell c d) 0 0)
          ∗ (bigSep Finset.univ fun c : Dev nD => bigSep offs fun d => dutyTok ER (sendCell c d) 0 0)) := by
    rw [deal (fun c d => (dutyTok ER (barCell c) 0 d : sProp 𝕄)), deal (fun c d => (dutyTok ER (recvCell c d) 0 0 : sProp 𝕄)),
      ← bigSep_sep', ← bigSep_sep']
    exact bigSep_congr fun c _ => by unfold payToks; rw [bigSep_sep', bigSep_sep']
  rw [e]; unfold toks
  rw [bigSep_sep', bigSep_sep']
  iintro ⟨H1, H2, H3⟩
  isplitl [H1]; · iexact H1
  isplitl [H3]; · iexact H3
  iexact H2

/-! ## The global step -/

theorem inv_at (m : (ℓ : Loc nD τ sig) → Buf (Elt F) ℓ) (K : Dev nD × Fin 63 → ℕ) (ck : Dev nD × Fin 63) :
    (bigSep Finset.univ fun ck : Dev nD × Fin 63 => (cellInv ER (ringRd m) (K ck) (kcell ck) : sProp 𝕄)) ⊢ cellInv ER (ringRd m) (K ck) (kcell ck) :=
  bigSep_elim (Finset.mem_univ ck)
omit [FloatOps F] in
theorem reached_at (ck : Dev nD × Fin 63) :
    (bigSep Finset.univ fun ck : Dev nD × Fin 63 => (reached ER (kcell ck) 0 : sProp 𝕄)) ⊢ reached ER (kcell ck) 0 :=
  bigSep_elim (Finset.mem_univ ck)

/-- What stays with device `c` once the records are everybody's: its positions, the tokens it pays with, its two idle semaphores. -/
def linear (c : Dev nD) : sProp 𝕄 := iprop(positions c ∗ payToks c ∗ idleSems c)

theorem ghost_intro (m : (ℓ : Loc nD τ sig) → Buf (Elt F) ℓ) (K : Dev nD × Fin 63 → ℕ) (c : Dev nD) : iprop(records m K ∗ linear c) ⊢ G' m c := by
  unfold linear G' ghost
  iintro ⟨#HR, Hp, Ht, Hi⟩
  isplitl [Hp Ht]
  · iexists K
    isplitr; · iexact HR
    isplitl [Hp] <;> iassumption
  iexact Hi

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup (m : (ℓ : Loc nD τ sig) → Buf (Elt F) ℓ) :
    (bigSep Finset.univ fun c : Dev nD => iprop((bigSep Finset.univ fun k : Fin 63 => iprop(∃ κ : ℕ, cellInv ER (ringRd m) κ (kcell (c, k))))
          ∗ (bigSep Finset.univ fun k : Fin 63 => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × Fin 63 => iprop(∃ κ : ℕ, cellInv ER (ringRd m) κ (kcell ck))),
    bigSep_congr (s := Finset.univ) (fun (c : Dev nD) _ => bigSep_sep' Finset.univ (fun k : Fin 63 => (atPos ER (kcell (c, k)) 0 ∅ 0 : sProp 𝕄)) (fun k => reached ER (kcell (c, k)) 0)),
    bigSep_sep', ← bigSep_univ_prod (fun ck : Dev nD × Fin 63 => (reached ER (kcell ck) 0 : sProp 𝕄))]
  iintro ⟨HI, ⟨Hat, #HR⟩, Htok, Hidle⟩
  ihave HK := (BI.bigSep_exists_pi Finset.univ (fun (ck : Dev nD × Fin 63) (κ : ℕ) => (cellInv ER (ringRd m) κ (kcell ck) : sProp 𝕄))) $$ HI
  icases HK with ⟨%K, #HI⟩
  ihave Htk := (toks_around (F := F)) $$ Htok
  have key : iprop(records m K ∗ (bigSep Finset.univ fun c : Dev nD => (positions c : sProp 𝕄)) ∗ (bigSep Finset.univ fun c : Dev nD => (payToks c : sProp 𝕄))
        ∗ bigSep Finset.univ fun c : Dev nD => (idleSems c : sProp 𝕄)) ⊢ bigSep Finset.univ (G' m) := by
    rw [← bigSep_sep', ← bigSep_sep']
    exact bigSep_with_persistent (R := records m K) fun c _ => ghost_intro m K c
  iapply key
  isplitr
  · unfold records; isplitl; · iexact HI
    iexact HR
  isplitl [Hat]; · iexact Hat
  isplitl [Htk]; · iexact Htk
  iexact Hidle

/-- The global step: the own and the unscoped semaphores of every device at once. -/
theorem glob (m : (ℓ : Loc nD τ sig) → Buf (Elt F) ℓ) : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- info: 'Cert.Kernel.Proto.fund_ring' depends on axioms: [propext, Classical.choice, Quot.sound] -/
#guard_msgs in #print axioms fund_ring

/-- info: 'Cert.Kernel.Proto.glob' depends on axioms: [propext, Classical.choice, Quot.sound] -/
#guard_msgs in #print axioms glob

end Cert.Kernel.Proto

end
-- ==== Proof.KData.lean ====
/-
  The pipeline's proof data of the distributed layer norm on device `c`: what each window's staging buffer holds
  after the body, and the invariant the body starts from and ends in.

  The three input windows keep their blocks. The output window ends holding the normalised block: the printed
  arithmetic of the body applied to the device's block of `x`, the gathered partial sums, and its blocks of the
  scale and the shift. Before the body the device holds its protocol state and its gather buffer at arbitrary
  contents; after it, the gather buffer at its final contents and its 64 transfer semaphores at zero.
-/
import proofs.«900824_g7700000000000825_dist_layernorm_colshard_i_m1024_n512_v7x_i32_bf16_1_alg».proof.Proof.KLaunchGhost

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The normalised block device `c` writes: the body's arithmetic of its block of `x`, the gathered sums, its scale and shift. -/
def outAt (c : Dev nD) : Vec F S1024x512 .bf16 := k0_pay4 (k0_pay1 (xblk m c)) (gathered m c) (gblk m c) (bblk m c)

/-- The gather buffer of device `c` held whole at contents `f`. -/
def commPts (c : Dev nD) (f : Buf (Elt F) ((c : Thread nD τ).loc cc0_scratch0)) : sProp 𝕄 :=
  ((c : Thread nD τ).loc cc0_scratch0) ↦{fullShare} f

/-- Before the body: the protocol state and the gather buffer at some contents. -/
def Φ₀ (c : Dev nD) : sProp 𝕄 := iprop(start m c ∗ ∃ f, commPts c f)
/-- After the body: the gather buffer at its final contents, the 64 transfer semaphores at zero. -/
def Φ₁ (c : Dev nD) : sProp 𝕄 :=
  iprop(commPts c (gathered m c) ∗ bigSep Finset.univ fun j : Fin 64 => semVal ((c : Thread nD τ), osem j) 0)

def dats (_ : Fin 1) (c : Dev nD) : Dat τ (Elt F) Unit ℕ UU ℕ cfg0 c where
  A w := m ((cfg0.win w).arr.view.loc (c : Thread nD τ))
  after w _ := match w with
    | ⟨0, _⟩ => xblk m c
    | ⟨1, _⟩ => gblk m c
    | ⟨2, _⟩ => bblk m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.Kernel.Proto

end
-- ==== Proof.KLevels.lean ====
/-
  The levels of the cells, and the credit each device is dealt at launch.

  A device waits on three kinds of cell. Its transfer semaphores below 36 (the windows' own and its 32 send cells) sit at
  level 0, its barrier cell at level 1, its receive cells at level 2. What a device owes at launch is, for every offset
  d = 1 … 31, one unit on the barrier cell of the device d places after it and one slot's credit on that device's receive
  cell d: all of it at levels 1 and 2, above every level-0 wait. When it waits on its own barrier cell it has signalled
  all 31 barriers and still owes the 31 landings (`Obar`): receive cells, at level 2, above the barrier's level 1.

  Summed over the payers: the barrier cell of `c` is owed one unit by each of the 31 other devices, and the receive cell
  `d` of `c` one slot's credit by the single device `d` places before `c`. That is the credit `c` holds at launch.
-/
import proofs.«900824_g7700000000000825_dist_layernorm_colshard_i_m1024_n512_v7x_i32_bf16_1_alg».proof.Proof.KProto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The ring: the offset from one device to another -/

/-- The offset from `p` to `c`: how many places after `p` the device `c` sits. -/
def dist (p c : Dev nD) : Fin 32 := ⟨(c.val + (32 - p.val)) % 32, Nat.mod_lt _ (by decide)⟩

theorem peer_dist : ∀ p c : Dev nD, peer p (dist p c) = c := by decide +kernel
theorem dist_eq_zero_iff : ∀ p c : Dev nD, dist p c = 0 ↔ p = c := by decide +kernel

/-- `c` is `d` places after `p` exactly when `d` is the offset from `p` to `c`. -/
theorem peer_eq_iff (p c : Dev nD) (d : Fin 32) : peer p d = c ↔ d = dist p c :=
  ⟨fun h => peer_inj p d (dist p c) (h.trans (peer_dist p c).symm), fun h => h ▸ peer_dist p c⟩

/-- `c` is `d` places after `p` exactly when `p` is `d` places before `c`. -/
theorem peer_eq_iff_orig (p c : Dev nD) (d : Fin 32) : peer p d = c ↔ p = orig c d :=
  ⟨fun h => h ▸ (orig_peer p d).symm, fun h => h ▸ peer_orig c d⟩

/-- Every device but `c` counted once: 31. -/
theorem card_others : ∀ c : Dev nD, (∑ p : Dev nD, if p = c then 0 else 1) = 31 := by decide +kernel

/-! ## Cells apart -/

theorem bar_eq_iff {a b : Dev nD} : barCell a = barCell b ↔ a = b :=
  ⟨fun h => Fin.ext (congrArg (fun g : GSem nD τ sig => g.1.1.val) h), fun h => h ▸ rfl⟩

theorem recvS_inj {d e : Fin 32} (h : recvS d = recvS e) : d = e := by
  apply Fin.ext
  have := congrArg Fin.val h
  rw [recvS_val, recvS_val] at this
  omega

theorem recv_eq_iff {a b : Dev nD} {d e : Fin 32} : recvCell a d = recvCell b e ↔ a = b ∧ d = e :=
  ⟨fun h => ⟨Fin.ext (congrArg (fun g : GSem nD τ sig => g.1.1.val) h),
      recvS_inj (SemLoc.dma.inj (congrArg Prod.snd h))⟩, fun h => by rw [h.1, h.2]⟩

theorem recv_ne_bar (a b : Dev nD) (d : Fin 32) : recvCell a d ≠ barCell b := fun h => by
  have := congrArg Prod.snd h; cases this

/-! ## What each device owes at launch; the levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c : Dev nD) (d : Fin 32) (u : Unit) : lv (recvCell c d) u = 2 := by
  show (if 36 ≤ (recvS d).val then 2 else 0) = 2
  rw [recvS_val, if_pos (by omega)]
theorem lv_low (c : Dev nD) (q : DmaSem sig) (hq : q.val < 36) (u : Unit) : lv ((c : Thread nD τ), .dma q) u = 0 := by
  show (if 36 ≤ q.val then 2 else 0) = 0
  rw [if_neg (by omega)]

/-- Where a device owes anything at launch: a barrier cell or a receive cell of a device some offset after it. -/
theorem O₀_pos {c : Dev nD} {g : GSem nD τ sig} {u : Unit} (h : 0 < O₀ c g u) :
    ∃ d ∈ offs, g = barCell (peer c d) ∨ g = recvCell (peer c d) d := by
  unfold O₀ at h
  obtain ⟨d, hd, hpos⟩ := Pipeline.sum_pos_exists h
  refine ⟨d, hd, ?_⟩
  rcases Pipeline.add_pos_cases hpos with h1 | h1
  · exact Or.inl (Pipeline.tallyAt_pos h1).1
  · exact Or.inr (Pipeline.tallyAt_pos h1).1

/-- What a device still owes when it waits on its barrier cell: the 31 landings. -/
def Obar (c : Dev nD) : CellTallies nD τ sig Unit := ∑ d ∈ offs, tallyAt (recvCell (peer c d) d) () N

theorem Obar_pos {c : Dev nD} {g : GSem nD τ sig} {u : Unit} (h : 0 < Obar c g u) :
    ∃ d ∈ offs, g = recvCell (peer c d) d := by
  unfold Obar at h
  obtain ⟨d, hd, hpos⟩ := Pipeline.sum_pos_exists h
  exact ⟨d, hd, (Pipeline.tallyAt_pos hpos).1⟩

omit [FloatOps F] in
/-- A wait on a transfer semaphore below 36 (a window's own, or a send cell): level 0, below everything owed at launch. -/
theorem mayWait_low (c : Dev nD) (q : DmaSem sig) (hq : q.val < 36) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        obtain ⟨d, _, rfl | rfl⟩ := O₀_pos hg <;> (rw [L_tc]; exact Finset.mem_singleton_self _))
      (fun p hp => by rw [Finset.mem_singleton.mp hp, lv_low c q hq])
      (fun g u hg => by
        obtain ⟨d, _, rfl | rfl⟩ := O₀_pos hg
        · rw [lv_bar]; decide
        · rw [lv_recv]; decide)
  · rw [MayWait_zero]; iintro -; iempintro

omit [FloatOps F] in
/-- The wait on the barrier cell: level 1, below the receive cells (level 2) of the landings still owed. -/
theorem mayWait_bar (c : Dev nD) :
    (levAts L lv : sProp 𝕄) ⊢ MayWait (c : Thread nD τ) (.reg barS) () (Obar c) :=
  MayOwe.of_cut (L := L) (lev := lv) 1
    (fun p hp => by rw [Finset.mem_singleton.mp hp, L_tc]; exact Finset.mem_singleton_self _)
    (fun g u hg => by obtain ⟨d, _, rfl⟩ := Obar_pos hg; rw [L_tc]; exact Finset.mem_singleton_self _)
    (fun p hp => by rw [Finset.mem_singleton.mp hp]; exact le_of_eq (lv_bar c ()))
    (fun g u hg => by obtain ⟨d, _, rfl⟩ := Obar_pos hg; rw [lv_recv]; decide)

/-! ## What is owed, split by kind and listed in order -/

/-- The offsets 1 … 31 in order. -/
def offL : List (Fin 32) := [1, 2, 3, 4, 5, 6, 7, 8, 9, 10, 11, 12, 13, 14, 15, 16, 17, 18, 19, 20, 21, 22, 23, 24, 25, 26, 27, 28, 29, 30, 31]

theorem offs_eq : offs = offL.toFinset := by decide
theorem offL_nodup : offL.Nodup := by decide

/-- A sum over the offsets is the sum of the list of its terms in order. -/
theorem sum_offs_eq_list (f : Fin 32 → CellTallies nD τ sig Unit) : ∑ d ∈ offs, f d = (offL.map f).sum := by
  rw [offs_eq, List.sum_toFinset f offL_nodup]

/-- What is owed at launch: the 31 barrier units, and the 31 landings. -/
theorem O₀_split (c : Dev nD) : O₀ c = (∑ d ∈ offs, tallyAt (barCell (peer c d)) () 1) + Obar c := by
  unfold O₀ Obar; exact Finset.sum_add_distrib

theorem Obar_chain (c : Dev nD) : Obar c = (offL.map fun d => tallyAt (recvCell (peer c d) d) () N).sum := by
  unfold Obar; exact sum_offs_eq_list _

theorem O₀_chain (c : Dev nD) :
    O₀ c = (offL.map fun d => tallyAt (barCell (peer c d)) () 1).sum
      + (offL.map fun d => tallyAt (recvCell (peer c d) d) () N).sum := by
  rw [O₀_split, Obar_chain, sum_offs_eq_list]

/-! ## The launch credit -/

/-- What device `p` owes the barrier cell of `c`: one unit, unless `p` is `c` itself. -/
theorem owed_bar (p c : Dev nD) : O₀ p (barCell c) () = if p = c then 0 else 1 := by
  unfold O₀
  rw [Finset.sum_apply, Finsupp.finsetSum_apply]
  rw [Finset.sum_congr rfl fun d _ => show ((tallyAt (barCell (peer p d)) () 1 + tallyAt (recvCell (peer p d) d) () N
        : CellTallies nD τ sig Unit) (barCell c)) () = if d = dist p c then 1 else 0 by
    rw [Pi.add_apply, Finsupp.add_apply, tallyAt_apply, tallyAt_ne_cell (recv_ne_bar _ _ _).symm, Finsupp.zero_apply, Nat.add_zero]
    by_cases h : d = dist p c
    · rw [if_pos h, if_pos ⟨bar_eq_iff.mpr ((peer_eq_iff p c d).mpr h).symm, rfl⟩]
    · rw [if_neg h, if_neg fun h' => h ((peer_eq_iff p c d).mp (bar_eq_iff.mp h'.1).symm)]]
  rw [Finset.sum_ite_eq' offs (dist p c) fun _ => 1]
  by_cases hpc : p = c
  · rw [if_pos hpc, if_neg fun hm => (Finset.mem_erase.mp hm).1 ((dist_eq_zero_iff p c).mpr hpc)]
  · rw [if_neg hpc, if_pos (Finset.mem_erase.mpr ⟨fun h0 => hpc ((dist_eq_zero_iff p c).mp h0), Finset.mem_univ _⟩)]

/-- What device `p` owes the receive cell `d` of `c`: one slot's credit if `p` is `d` places before `c`, else nothing. -/
theorem owed_recv (p c : Dev nD) (d : Fin 32) (hd : d ≠ 0) : O₀ p (recvCell c d) () = if p = orig c d then N else 0 := by
  unfold O₀
  rw [Finset.sum_apply, Finsupp.finsetSum_apply]
  rw [Finset.sum_congr rfl fun e _ => show ((tallyAt (barCell (peer p e)) () 1 + tallyAt (recvCell (peer p e) e) () N
        : CellTallies nD τ sig Unit) (recvCell c d)) () = if e = d then (if p = orig c d then N else 0) else 0 by
    rw [Pi.add_apply, Finsupp.add_apply, tallyAt_ne_cell (recv_ne_bar _ _ _), Finsupp.zero_apply, Nat.zero_add, tallyAt_apply]
    by_cases h : e = d
    · subst h
      rw [if_pos rfl]
      by_cases hp : p = orig c e
      · rw [if_pos hp, if_pos ⟨recv_eq_iff.mpr ⟨((peer_eq_iff_orig p c e).mpr hp).symm, rfl⟩, rfl⟩]
      · rw [if_neg hp, if_neg fun h' => hp ((peer_eq_iff_orig p c e).mp (recv_eq_iff.mp h'.1).1.symm)]
    · rw [if_neg h, if_neg fun h' => h (recv_eq_iff.mp h'.1).2.symm]]
  rw [Finset.sum_ite_eq' offs d fun _ => if p = orig c d then N else 0,
    if_pos (Finset.mem_erase.mpr ⟨hd, Finset.mem_univ _⟩)]

omit [FloatOps F] in
/-- The barrier cell of `c` is dealt the 31 units the other devices owe it. -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun p _ => owed_bar p c, card_others]

omit [FloatOps F] in
/-- The receive cell `d` of `c` is dealt the one slot's credit the device `d` places before `c` owes it. -/
theorem launch_recv (c : Dev nD) (d : Fin 32) (hd : d ≠ 0) :
    tallyOn (recvCell c d) (launchCredit (Pipeline.owing O₀) 0 (recvCell c d)) = (tallyAt (recvCell c d) () N : CellTallies nD τ sig Unit) := by
  unfold tallyAt; refine congrArg _ (Finsupp.ext fun u => ?_); cases u
  rw [Pipeline.launchCredit_owing, Finsupp.single_eq_same, Finset.sum_congr rfl fun p _ => owed_recv p c d hd,
    Finset.sum_ite_eq' Finset.univ (orig c d) fun _ => N, if_pos (Finset.mem_univ _)]

/-- The receive semaphores as an embedding of the offsets into the semaphore locations. -/
def recvLoc : Fin 32 ↪ SemLoc sig := ⟨fun d => .dma (recvS d), fun _ _ h => recvS_inj (SemLoc.dma.inj h)⟩

omit [FloatOps F] in
/-- The credit a device is dealt at launch holds its barrier cell's 31 units and each receive cell's slot credit. -/
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := offs.map recvLoc) fun sm hsm => ?_).trans ?_
  · obtain ⟨d, _, rfl⟩ := Finset.mem_map.mp hsm
    exact Finset.mem_erase.mpr ⟨fun h => (by cases h), Finset.mem_univ _⟩
  · rw [bigSep_map]
    exact bigSep_mono fun d hd => by
      rw [← launch_recv c d (Finset.mem_erase.mp hd).1]
      exact .refl _

/-- info: 'Cert.Kernel.Proto.mayWait_low' depends on axioms: [propext, Classical.choice, Quot.sound] -/
#guard_msgs in #print axioms mayWait_low
/-- info: 'Cert.Kernel.Proto.mayWait_bar' depends on axioms: [propext, Classical.choice, Quot.sound] -/
#guard_msgs in #print axioms mayWait_bar
/-- info: 'Cert.Kernel.Proto.creds' depends on axioms: [propext, Classical.choice, Quot.sound] -/
#guard_msgs in #print axioms creds

end Cert.Kernel.Proto

end
-- ==== Proof.KLaunch.lean ====
/-
  The launch: every weakly fair execution of @main on the 32 devices, from any memory with zero counters.

  The launch theorem deals every device its share of the launch element; one global step allocates all the cells'
  invariants and sends each duty token to its payer; the device's launch credit covers its barrier cell's 31 units and
  each receive cell's slot credit, and the level facts put the pipeline's own waits below every wait of the protocol.
  With that the body starts from `Φ₀` and, meeting its obligation, ends in `Φ₁`: the gather buffer and the 64
  transfer semaphores go back to the region's boundary. The three argument arrays are inputs, never written; the
  result array is one block written back at the one point, so it ends holding what the body left in its staging buffer.
-/
import proofs.«900824_g7700000000000825_dist_layernorm_colshard_i_m1024_n512_v7x_i32_bf16_1_alg».proof.Proof.KData
import proofs.«900824_g7700000000000825_dist_layernorm_colshard_i_m1024_n512_v7x_i32_bf16_1_alg».proof.Proof.KLevels
import proofs.«900824_g7700000000000825_dist_layernorm_colshard_i_m1024_n512_v7x_i32_bf16_1_alg».proof.Proof.KLaunchGhost
import Idealize.ShloMosaic.Lib.Pipeline.Cells

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The launch theorem's side conditions -/

theorem share_eq (m : (ℓ : Loc nD τ sig) → Buf (Elt F) ℓ) (c : Dev nD) (w : Fin cfg0.W) : (dats m 0 c).share w = fullShare := by
  unfold Dat.share; split <;> rfl

/-- What the launch deals a device — its credit, the level facts, the ghost state of the global step — is what its body starts from. -/
theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  icases HG with ⟨HG, Hidle⟩
  isplitl
  · isplitl [HG]; · iexact HG
    isplitl [Hidle]; · iexact Hidle
    isplitl [Hc]; · iexact Hc
    iexact Hlev
  · iempintro

/-- The one scoped buffer that is no staging buffer is the gather buffer. -/
theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ commPts
  iintro ⟨Hs, -, ⟨%f, Hr⟩⟩
  isplitl [Hs]; · iexact Hs
  iexists f; iexact Hr

theorem phi1_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁ Pipeline.ownSems0 commPts
  iintro ⟨Hr, Hz⟩
  isplitr; · iempintro
  isplitl [Hz]; · iexact Hz
  iexists (gathered m c); iexact Hr

/-- The four staging semaphores are below the receive semaphores: the pipeline's waits are at level 0. -/
theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr rfl)

/-! ## The run -/

/-- The windows' arrays after the last point. -/
def finalA (m : (ℓ : Loc nD τ sig) → Buf (Elt F) ℓ) (c : Dev nD) (w : Fin cfg0.W) : Buf (Elt F) ((cfg0.win w).arr.view.loc (c : Thread nD τ)) :=
  (dats m 0 c).arrAt w cfg0.N

def QC (m : (ℓ : Loc nD τ sig) → Buf (Elt F) ℓ) : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of 32 devices, for any float values, from any memory with zero counters: if the body meets its
    obligation on every device, every weakly fair execution of @main terminates and every final state has each
    window's array at its computed contents. -/
theorem run_main (m : (ℓ : Loc nD τ sig) → Buf (Elt F) ℓ) (ρ : Dev nD → PrngReg)
    (hbody : ∀ c : Dev nD, BodyObligation (dats (F := F) m 0 c) (defs₀ (F := F)) Variants.none () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ Variants.none m ρ main
    (hmain := fun c => (main_chain c).trans rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-! ## The final arrays, in closed form -/

/-- The three argument arrays are inputs: after the run they hold what they held. -/
theorem finalA_in (m : (ℓ : Loc nD τ sig) → Buf (Elt F) ℓ) (c : Dev nD) (w : Fin 4) (hw : w = 0 ∨ w = 1 ∨ w = 2) :
    finalA m c w = m ((cfg0.win w).arr.view.loc (c : Thread nD τ)) := by
  rcases hw with rfl | rfl | rfl <;> exact (dats (F := F) m 0 c).arrAt_in _ rfl _

/-- The result array is one block, written back at the one point: it holds what the body left in the staging buffer. -/
theorem finalA_out (m : (ℓ : Loc nD τ sig) → Buf (Elt F) ℓ) (c : Dev nD) : finalA m c (3 : Fin 4) = outAt m c := by
  unfold finalA
  rw [show cfg0.N = (t0_0 : Fin cfg0.N).val + 1 from rfl, (dats m 0 c).arrAt_succ (3 : Fin 4) t0_0, flush0_3 t0_0, if_pos rfl]
  exact Memref.write_access_unit_zero_univ (Elt F) main_v1 (funext fun a => Nat.zero_mul _) _ _ _

/-- The run, read at the program's arrays: the result holds the normalised block, the arguments what they held. -/
theorem run_values (m : (ℓ : Loc nD τ sig) → Buf (Elt F) ℓ) (ρ : Dev nD → PrngReg)
    (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c (3 : Fin 4)).trans (finalA_out m c),
      (h c (0 : Fin 4)).trans (finalA_in m c 0 (Or.inl rfl)),
      (h c (1 : Fin 4)).trans (finalA_in m c 1 (Or.inr (Or.inl rfl))),
      (h c (2 : Fin 4)).trans (finalA_in m c 2 (Or.inr (Or.inr rfl)))⟩) (run_main m ρ hbody)

/-- info: 'Cert.Kernel.Proto.run_main' depends on axioms: [propext, Classical.choice, Quot.sound] -/
#guard_msgs in #print axioms run_main

/-- info: 'Cert.Kernel.Proto.run_values' depends on axioms: [propext, Classical.choice, Quot.sound] -/
#guard_msgs in #print axioms run_values

end Cert.Kernel.Proto

end
-- ==== Proof.KBodyDefs.lean ====
/-
  The body of the distributed layer norm on device `c`, stage by stage: what each of its 31-fold unrolled stages
  needs, offset by offset, and the bookkeeping that keeps the not yet needed offsets folded away.

  The body's stages, in program order: 31 signals (one unit on every other device's barrier cell, each handing over the
  slot that device will write); the two partial row sums stored into slot 0; the wait for 31 units on the own
  barrier cell (every other device's slot comes with it); 31 remote copies of slot 0, each lent a share of it; 31
  waits for the landings in slots 1 … 31; the whole buffer read, the normalised block stored; 31 waits for the
  copies' departures (the lent shares come back).
-/
import proofs.«900824_g7700000000000825_dist_layernorm_colshard_i_m1024_n512_v7x_i32_bf16_1_alg».proof.Proof.KProto
import proofs.«900824_g7700000000000825_dist_layernorm_colshard_i_m1024_n512_v7x_i32_bf16_1_alg».proof.Proof.KLevels
import Mathlib.Tactic.IrreducibleDef

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions and sums along a list of offsets, foldable -/

/-- A separating conjunction along a list, spelt with the logic's own `∗` so that it can be taken apart head first. -/
def chain : List (Fin 32) → (Fin 32 → sProp 𝕄) → sProp 𝕄
  | [], _ => iprop(emp)
  | [i], Φ => Φ i
  | i :: j :: l, Φ => iprop(Φ i ∗ chain (j :: l) Φ)

omit [FloatOps F] in
theorem bigSepL_eq_chain (l : List (Fin 32)) (Φ : Fin 32 → sProp 𝕄) : bigSepL l Φ = chain l Φ := by
  induction l with
  | nil => rfl
  | cons i l ih =>
    cases l with
    | nil => rfl
    | cons j l => rw [bigSepL_cons_cons, ih]; rfl

omit [FloatOps F] in
theorem chain_peel (i j : Fin 32) (l : List (Fin 32)) (Φ : Fin 32 → sProp 𝕄) : chain (i :: j :: l) Φ ⊢ iprop(Φ i ∗ chain (j :: l) Φ) :=
  Entails.of_eq rfl
omit [FloatOps F] in
theorem chain_last (i : Fin 32) (Φ : Fin 32 → sProp 𝕄) : chain [i] Φ ⊢ Φ i := Entails.of_eq rfl
omit [FloatOps F] in
theorem chain_push (i j : Fin 32) (l : List (Fin 32)) (Φ : Fin 32 → sProp 𝕄) : iprop(Φ i ∗ chain (j :: l) Φ) ⊢ chain (i :: j :: l) Φ :=
  Entails.of_eq rfl

omit [FloatOps F] in
theorem bigSep_offs_chain (Φ : Fin 32 → sProp 𝕄) : bigSep offs Φ = chain offL Φ := by
  rw [bigSep_eq_bigSepL_of_eq offL offs_eq offL_nodup Φ, bigSepL_eq_chain]

/-- A conjunct set aside: the same assertion, not looked into until it is taken out again. -/
irreducible_def aside (P : sProp 𝕄) : sProp 𝕄 := P
omit [FloatOps F] in
theorem aside_out (P : sProp 𝕄) : aside P ⊢ P := Entails.of_eq (aside_def P)
omit [FloatOps F] in
theorem aside_in (P : sProp 𝕄) : P ⊢ aside P := Entails.of_eq (aside_def P).symm

/-- What is owed along a list of offsets on top of `B`, the head first: `g d + …`. -/
def owesL (g : Fin 32 → CellTallies nD τ sig Unit) (B : CellTallies nD τ sig Unit) : List (Fin 32) → CellTallies nD τ sig Unit
  | [] => B
  | d :: l => g d + owesL g B l
theorem owesL_cons (g : Fin 32 → CellTallies nD τ sig Unit) (B : CellTallies nD τ sig Unit) (d : Fin 32) (l : List (Fin 32)) :
    owesL g B (d :: l) = g d + owesL g B l := rfl
theorem owesL_nil (g : Fin 32 → CellTallies nD τ sig Unit) (B : CellTallies nD τ sig Unit) : owesL g B [] = B := rfl
theorem owesL_eq_sum (g : Fin 32 → CellTallies nD τ sig Unit) (B : CellTallies nD τ sig Unit) (l : List (Fin 32)) :
    owesL g B l = (l.map g).sum + B := by
  induction l with
  | nil => rw [owesL_nil, List.map_nil, List.sum_nil, zero_add]
  | cons d l ih => rw [owesL_cons, ih, List.map_cons, List.sum_cons, add_assoc]
/-- The same with the head last: `… + g d`. -/
def owesR (g : Fin 32 → CellTallies nD τ sig Unit) (B : CellTallies nD τ sig Unit) : List (Fin 32) → CellTallies nD τ sig Unit
  | [] => B
  | d :: l => owesR g B l + g d
theorem owesR_cons (g : Fin 32 → CellTallies nD τ sig Unit) (B : CellTallies nD τ sig Unit) (d : Fin 32) (l : List (Fin 32)) :
    owesR g B (d :: l) = owesR g B l + g d := rfl
theorem owesR_nil (g : Fin 32 → CellTallies nD τ sig Unit) (B : CellTallies nD τ sig Unit) : owesR g B [] = B := rfl

/-- One unit on the barrier cell of the device `d` places on. -/
abbrev barOwe (c : Dev nD) (d : Fin 32) : CellTallies nD τ sig Unit := tallyAt (barCell (peer c d)) () 1
/-- One slot's credit on the receive cell `d` of the device `d` places on. -/
abbrev recvOwe (c : Dev nD) (d : Fin 32) : CellTallies nD τ sig Unit := tallyAt (recvCell (peer c d) d) () N

variable (m : (ℓ : Loc nD τ sig) → Buf (Elt F) ℓ)

/-! ## What each stage needs at offset `d` -/

/-- Signal `d`: the addressed barrier cell's invariant and round, the token of its duty `d`, and what the duty hands over —
    slot `opp d` of the own buffer and the round of its receive cell. -/
def sigNeeds (K : Dev nD × Fin 63 → ℕ) (c : Dev nD) (f : Buf (Elt F) ((c : Thread nD τ).loc cc0_scratch0)) (d : Fin 32) : sProp 𝕄 :=
  iprop(cellInv ER (ringRd m) (K (peer c d, 0)) (barCell (peer c d)) ∗ reached ER (barCell (peer c d)) 0 ∗ reached ER (recvCell c (opp d)) 0
    ∗ dutyTok ER (barCell (peer c d)) 0 d ∗ slotPts c (opp d) fullShare f)

/-- Copy `d`: both cells' invariants and rounds, both duties' tokens. -/
def sendNeeds (K : Dev nD × Fin 63 → ℕ) (c : Dev nD) (d : Fin 32) : sProp 𝕄 :=
  iprop(cellInv ER (ringRd m) (K (c, sIdx d)) (sendCell c d) ∗ cellInv ER (ringRd m) (K (peer c d, rIdx d)) (recvCell (peer c d) d)
    ∗ reached ER (sendCell c d) 0 ∗ reached ER (recvCell (peer c d) d) 0
    ∗ dutyTok ER (sendCell c d) 0 0 ∗ dutyTok ER (recvCell (peer c d) d) 0 0)

/-- The destination of copy `d`, as the barrier wait brings it: slot `d` of the device `d` places on, at some contents. -/
def dstNeeds (c : Dev nD) (d : Fin 32) : sProp 𝕄 :=
  iprop((∃ f, slotPts (peer c d) d fullShare f) ∗ reached ER (recvCell (peer c d) d) 0)

/-- The wait for landing `d`: the cell's invariant, its launch credit, the position. -/
def recvNeeds (K : Dev nD × Fin 63 → ℕ) (c : Dev nD) (d : Fin 32) : sProp 𝕄 :=
  iprop(cellInv ER (ringRd m) (K (c, rIdx d)) (recvCell c d) ∗ cred (tallyAt (recvCell c d) () N) ∗ atPos ER (recvCell c d) 0 ∅ 0)

/-- The wait for departure `d`: the cell's invariant and the position (the credit comes from the copy's issue). -/
def departNeeds (K : Dev nD × Fin 63 → ℕ) (c : Dev nD) (d : Fin 32) : sProp 𝕄 :=
  iprop(cellInv ER (ringRd m) (K (c, sIdx d)) (sendCell c d) ∗ atPos ER (sendCell c d) 0 ∅ 0)

/-! ## The body's precondition and postcondition in working form -/

/-- The barrier wait: the own barrier cell's invariant, its launch credit of 31 units, its position. -/
def barNeeds (K : Dev nD × Fin 63 → ℕ) (c : Dev nD) : sProp 𝕄 :=
  iprop(cellInv ER (ringRd m) (K (c, 0)) (barCell c) ∗ cred (tallyAt (barCell c) () 31) ∗ atPos ER (barCell c) 0 ∅ 0)

/-- A staging buffer held whole at contents `X`, spelt through its memref's view. -/
abbrev heldAt {s : Shape} {e : EltTy} (M : Memref sig .tc .vmem s e) (c : Dev nD) (X : Buf (Elt F) (M.view.loc (c : Thread nD τ))) : sProp 𝕄 :=
  M.view.loc (c : Thread nD τ) ↦[M.view.set]{fullShare} X

/-- What the body starts from, sorted by stage, the 31-fold parts folded away. -/
def workPre (K : Dev nD × Fin 63 → ℕ) (c : Dev nD) (f : Buf (Elt F) ((c : Thread nD τ).loc cc0_scratch0)) (W : Waits sig Unit) : sProp 𝕄 :=
  iprop(aside (chain offL (sigNeeds m K c f)) ∗ aside (chain offL (sendNeeds m K c)) ∗ aside (chain offL (recvNeeds m K c))
    ∗ aside (chain offL (departNeeds m K c)) ∗ aside (barNeeds m K c) ∗ levAts L lv ∗ idleSems c
    ∗ slotPts c 0 fullShare f
    ∗ owes (c : Thread nD τ) (owesL (barOwe c) (owesL (recvOwe c) 0 offL) offL) W
    ∗ heldAt xM c (xblk m c) ∗ heldAt gM c (gblk m c) ∗ heldAt bM c (bblk m c) ∗ ∃ fo, heldAt oM c fo)

/-- What the body ends in: the gather buffer's slots at their final contents (slot 0 in its 32 shares), every transfer
    semaphore at zero, nothing owed, the inputs as they were, the output block written. -/
def workPost (c : Dev nD) : sProp 𝕄 :=
  iprop(slotPts c 0 (remShare 31) (gathered m c) ∗ (bigSep offs fun d => slotPts c 0 (lentShare d) (gathered m c))
    ∗ (bigSep offs fun d => slotPts c d fullShare (gathered m c)) ∗ idleSems c
    ∗ (bigSep offs fun d => semVal (sendCell c d) 0) ∗ (bigSep offs fun d => semVal (recvCell c d) 0)
    ∗ (∃ W', owes (c : Thread nD τ) 0 W')
    ∗ heldAt xM c (xblk m c) ∗ heldAt gM c (gblk m c) ∗ heldAt bM c (bblk m c)
    ∗ heldAt oM c (k0_pay4 (k0_pay1 (xblk m c)) (gathered m c) (gblk m c) (bblk m c)))

/-- What the launch leaves device `c` owing, in the order the body pays it: the 31 barrier units, then the 31 landings. -/
theorem O₀_owesL (c : Dev nD) : O₀ c = owesL (barOwe c) (owesL (recvOwe c) 0 offL) offL := by
  rw [owesL_eq_sum, owesL_eq_sum, add_zero]; exact O₀_chain c

open Lean Elab Tactic in
/-- `for_offs d from a to b => tac`: runs `tac` once for each numeral `a … b` in place of the identifier `d`. -/
elab "for_offs " x:ident " from " a:num " to " b:num " => " t:tacticSeq : tactic => do
  for i in [a.getNat : b.getNat + 1] do
    let lit := Syntax.mkNumLit (toString i)
    let t' ← t.raw.replaceM fun s => do
      if s.isIdent && s.getId == x.getId then return some lit else return none
    evalTactic t'

end Cert.Kernel.Proto

end
-- ==== Proof.KShares.lean ====
/-
  Shares and slots of the gather buffer: separation-logic bookkeeping, no program step.

  * A region held at the full share is lent out share by share: halve it, lend the left half, halve the right
    half again, and so on. After 31 halvings the full share is the 31 lent shares together with the remainder,
    and the remainder is still a positive share: the holder can go on reading.
  * The gather buffer of 32 × 2 × 1024 elements is the disjoint union of its 32 slots; slot `d` is the elements
    whose first coordinate is `d`, and index `(row, r)` of the slot is the buffer's `(d, row, r)`.
  * What lands in slot `d` of a device is slot 0 of the device `d` places before it, which is exactly what the
    final contents of the buffer hold there.
-/
import proofs.«900824_g7700000000000825_dist_layernorm_colshard_i_m1024_n512_v7x_i32_bf16_1_alg».proof.Proof.KProto
import Idealize.ShloMosaic.Rules.PointsTo
import Idealize.ShloMosaic.Lib.ValueIdx
import Mathlib.Order.Interval.Finset.Nat
import Mathlib.Algebra.Order.Interval.Finset.Basic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Lending a region share by share -/

omit [FloatOps F] in
/-- After `n` halvings: the full share is the `n` left halves lent so far and what remains. -/
theorem lend_range {ℓ : Loc nD τ sig} (S : Finset (Idx ℓ)) (f : Buf (Elt F) ℓ) (n : ℕ) :
    (ℓ ↦[S]{fullShare} f : sProp 𝕄)
      = iprop((bigSep (Finset.range n) fun k => ℓ ↦[S]{(remShare k).left} f) ∗ ℓ ↦[S]{remShare n} f) := by
  induction n with
  | zero =>
    rw [Finset.range_zero, bigSep_empty]
    exact (BI.equiv_iff.mp emp_sep).symm
  | succ n ih =>
    have hp : (ℓ ↦[S]{remShare n} f : sProp 𝕄)
        ⊣⊢ iprop((ℓ ↦[S]{(remShare n).left} f) ∗ ℓ ↦[S]{(remShare n).right} f) :=
      pointsTo_share (PosShare.mem_left_op_right (remShare n))
    have hs : (ℓ ↦[S]{remShare n} f : sProp 𝕄)
        = iprop((ℓ ↦[S]{(remShare n).left} f) ∗ ℓ ↦[S]{remShare (n + 1)} f) :=
      BI.equiv_iff.mp ⟨hp.1, hp.2⟩
    have assoc : ∀ A B C : sProp 𝕄, iprop(A ∗ (B ∗ C)) = iprop((A ∗ B) ∗ C) :=
      fun A B C => by
        have h : (iprop((A ∗ B) ∗ C) : sProp 𝕄) ⊣⊢ iprop(A ∗ (B ∗ C)) := sep_assoc
        exact (BI.equiv_iff.mp ⟨h.1, h.2⟩).symm
    have comm : ∀ A B : sProp 𝕄, iprop(A ∗ B) = iprop(B ∗ A) :=
      fun A B => by
        have h : (iprop(A ∗ B) : sProp 𝕄) ⊣⊢ iprop(B ∗ A) := sep_comm
        exact BI.equiv_iff.mp ⟨h.1, h.2⟩
    rw [Finset.range_add_one, bigSep_insert Finset.notMem_range_self, ih, hs, assoc,
      comm (bigSep (Finset.range n) fun k => (ℓ ↦[S]{(remShare k).left} f : sProp 𝕄))]
    rfl

/-- The offsets 1 … 31, as numbers, are 0 … 30 shifted by one. -/
theorem offs_map_val :
    (offs : Finset (Fin 32)).map Fin.valEmbedding = (Finset.range 31).map (addRightEmbedding 1) := by
  decide

omit [FloatOps F] in
/-- The full share of a region is the 31 lent shares and the share that stays in hand. -/
theorem lend_all {ℓ : Loc nD τ sig} (S : Finset (Idx ℓ)) (f : Buf (Elt F) ℓ) :
    (ℓ ↦[S]{fullShare} f : sProp 𝕄)
      ⊣⊢ iprop((bigSep offs fun d : Fin 32 => ℓ ↦[S]{lentShare d} f) ∗ ℓ ↦[S]{remShare 31} f) := by
  have h1 := bigSep_map (s := (offs : Finset (Fin 32))) Fin.valEmbedding
    (Φ := fun k : ℕ => (ℓ ↦[S]{(remShare (k - 1)).left} f : sProp 𝕄))
  have h2 := bigSep_map (s := Finset.range 31) (addRightEmbedding 1)
    (Φ := fun k : ℕ => (ℓ ↦[S]{(remShare (k - 1)).left} f : sProp 𝕄))
  rw [offs_map_val] at h1
  have h : (bigSep offs fun d : Fin 32 => (ℓ ↦[S]{lentShare d} f : sProp 𝕄))
      = bigSep (Finset.range 31) fun k => ℓ ↦[S]{(remShare k).left} f :=
    h1.symm.trans (h2.trans (bigSep_congr fun k _ => by
      show (ℓ ↦[S]{(remShare (k + 1 - 1)).left} f : sProp 𝕄) = _
      rw [Nat.add_sub_cancel]))
  rw [h]
  exact ⟨Entails.of_eq (lend_range S f 31), Entails.of_eq (lend_range S f 31).symm⟩

omit [FloatOps F] in
/-- Slot 0 of a device's gather buffer: its full share is the 31 shares lent to the copies and the one kept. -/
theorem slot0_lend (c : Dev nD) (f : Buf (Elt F) ((c : Thread nD τ).loc cc0_scratch0)) :
    (slotPts c 0 fullShare f : sProp 𝕄)
      ⊣⊢ iprop((bigSep offs fun d => slotPts c 0 (lentShare d) f) ∗ slotPts c 0 (remShare 31) f) :=
  lend_all _ f

variable (m : (ℓ : Loc nD τ sig) → Buf (Elt F) ℓ)

/-! ## The slots of the gather buffer, by coordinates -/

/-- Where slot `d`'s index `(row, r)` sits in the gather buffer: at `(d, row, r)`. -/
theorem slot_coord (d : Fin 32) (x : S2x1024.Idx) (a : Fin 3) :
    (((slotM d).view.emb x : S32x2x1024.Idx) a).val = (ValueIdx.ix3 d (x 0) (x 1) : S32x2x1024.Idx) a := by
  have hx : Shape.reshapeEquiv (s := (⟨2 + 1, Matrix.vecCons 1 ![2, 1024]⟩ : Shape)) (s' := (⟨2, ![2, 1024]⟩ : Shape))
      squeezes_S1x2x1024_S2x1024.numel_eq x = Fin.cons ⟨0, Nat.one_pos⟩ x :=
    Shape.reshapeEquiv_cons_one _ x
  unfold slotM
  simp only [Memref.view_squeeze, Memref.view_slice, Memref.view_whole, View.emb_reshape, View.emb_slice, View.emb_whole,
    Function.Embedding.trans_apply, Equiv.coe_toEmbedding, Function.Embedding.refl_apply, Rect.emb_apply]
  rw [hx]
  show ((Rect.unit (s := S32x2x1024) ![d.val, 0, 0] ![1, 2, 1024] (inb_slot d)).emb (Fin.cons ⟨0, Nat.one_pos⟩ x) a : ℕ) = _
  rw [Rect.emb_apply]
  match a with
  | ⟨0, _⟩ => show d.val + 1 * 0 = d.val; omega
  | ⟨1, _⟩ => show 0 + 1 * (x 0).val = (x 0).val; omega
  | ⟨2, _⟩ => show 0 + 1 * (x 1).val = (x 1).val; omega

omit [FloatOps F] in
/-- The first coordinate of every element of slot `d` is `d`. -/
theorem slot_coord0 (d : Fin 32) (x : S2x1024.Idx) :
    (⟨(((slotM d).view.emb x : S32x2x1024.Idx) (0 : Fin 3)).val, (((slotM d).view.emb x : S32x2x1024.Idx) (0 : Fin 3)).isLt⟩ : Fin 32) = d :=
  Fin.ext (slot_coord d x 0)

theorem orig_at_zero (c : Dev nD) : orig c 0 = c := by
  have h := orig_peer c 0
  rwa [peer_zero] at h

/-- The final contents at two places agree when the places name the same source device, row and position. -/
theorem gathered_congr (c c' : Dev nD) (i i' : S32x2x1024.Idx)
    (h0 : orig c ⟨(i 0).val, (i 0).isLt⟩ = orig c' ⟨(i' 0).val, (i' 0).isLt⟩)
    (h1 : (i 1).val = (i' 1).val) (h2 : (i 2).val = (i' 2).val) :
    gathered m c i = gathered m c' i' := by
  have e2 : (⟨(i 2).val, (i 2).isLt⟩ : Fin 1024) = ⟨(i' 2).val, (i' 2).isLt⟩ := Fin.ext h2
  unfold gathered
  rw [h0, h1, e2]

omit [FloatOps F] in
/-- Slot `d` overwritten with what slot 0 of another buffer reads holds, at its index `x`, that buffer's slot-0 element at `x`. -/
theorem slot_write_emb (d : Fin 32) (fd : (slotM d).view.ty.Contents (Elt F)) (g0 : (slotM 0).view.ty.Contents (Elt F))
    (x : S2x1024.Idx) :
    (slotM d).view.write (Elt F) fd ((slotM 0).view.read (Elt F) g0) Finset.univ ((slotM d).view.emb x)
      = g0 ((slotM 0).view.emb x) := by
  rw [View.write_emb_of_mem _ _ (Finset.mem_univ x), View.read_apply, cast_cast]
  exact cast_eq _ _

/-- What a landing writes: slot `d` of device `c'`, overwritten with slot 0 of the device `d` places before it, holds
    on its own elements exactly the final contents of `c'`'s buffer. -/
theorem slot_write_congr (c c' : Dev nD) (d : Fin 32) (q : PosShare TreeShare)
    (fd : Buf (Elt F) ((c' : Thread nD τ).loc cc0_scratch0)) (hcc : orig c' d = c) :
    (slotPts c' d q ((slotM d).view.write (Elt F) fd ((slotM 0).view.read (Elt F) (gathered m c)) Finset.univ) : sProp 𝕄)
      = slotPts c' d q (gathered m c') := by
  unfold slotPts
  refine pointsTo_congr fun i hi => ?_
  obtain ⟨x, -, rfl⟩ := Finset.mem_map.mp hi
  refine (slot_write_emb d fd (gathered m c) x).trans (gathered_congr m c c' _ _ ?_ ?_ ?_)
  · rw [slot_coord0 0 x, slot_coord0 d x, orig_at_zero, hcc]
  · rw [slot_coord 0 x 1, slot_coord d x 1]
  · rw [slot_coord 0 x 2, slot_coord d x 2]

omit [FloatOps F] in
/-- Index `(row, r)` of slot `d` is the buffer's index `(d, row, r)`. -/
theorem slot_coord_eq (d : Fin 32) (x : S2x1024.Idx) :
    ((slotM d).view.emb x : S32x2x1024.Idx) = ValueIdx.ix3 d (x 0) (x 1) :=
  funext fun a => Fin.ext (slot_coord d x a)

omit [FloatOps F] in
/-- Reading slot `d` at `(row, r)` is reading the buffer at `(d, row, r)`. -/
theorem slot_read_at (c : Dev nD) (d : Fin 32) (f : Buf (Elt F) ((c : Thread nD τ).loc cc0_scratch0)) (i : S2x1024.Idx) :
    (slotM d).view.read (Elt F) f i = f (ValueIdx.ix3 d (i 0) (i 1)) := by
  have h : (slotM d).view.read (Elt F) f i = f ((slotM d).view.emb i) := cast_eq _ _
  exact h.trans (congrArg f (slot_coord_eq d i))

/-! ## The slots tile the buffer -/

/-- The elements of slot `d`, as a set of the buffer's indices. -/
def slotSet (d : Fin 32) : Finset S32x2x1024.Idx := (slotM d).view.set

/-- An element of the buffer is in slot `d` exactly when its first coordinate is `d`. -/
theorem mem_slotSet (d : Fin 32) (i : S32x2x1024.Idx) : i ∈ slotSet d ↔ (i (0 : Fin 3)).val = d.val := by
  constructor
  · intro h
    obtain ⟨x, -, e⟩ := Finset.mem_map.mp (show i ∈ Finset.univ.map (slotM d).view.emb from h)
    have h0 := slot_coord d x (0 : Fin 3)
    rw [← e]
    exact h0
  · intro h
    refine (show i ∈ Finset.univ.map (slotM d).view.emb from
      Finset.mem_map.mpr ⟨ValueIdx.ix2 (i (1 : Fin 3)) (i (2 : Fin 3)), Finset.mem_univ _, ?_⟩)
    funext a
    refine Fin.ext ((slot_coord d _ a).trans ?_)
    match a with
    | ⟨0, _⟩ => exact h.symm
    | ⟨1, _⟩ => rfl
    | ⟨2, _⟩ => rfl

/-- Different slots share no element. -/
theorem slotSet_disjoint (d d' : Fin 32) (h : d ≠ d') : Disjoint (slotSet d) (slotSet d') := by
  rw [Finset.disjoint_left]
  intro i hi hi'
  rw [mem_slotSet] at hi hi'
  exact h (Fin.ext (hi.symm.trans hi'))

/-- Every element is in the slot its first coordinate names. -/
theorem slotSet_cover (i : S32x2x1024.Idx) : ∃ d, i ∈ slotSet d :=
  ⟨⟨(i (0 : Fin 3)).val, (i (0 : Fin 3)).isLt⟩, (mem_slotSet _ i).mpr rfl⟩

omit [FloatOps F] in
/-- A region whose elements are tiled by a finite family of pairwise disjoint sets is the family's regions together. -/
theorem pointsTo_tile {ℓ : Loc nD τ sig} {T : Type} [Fintype T] (K : T → Finset (Idx ℓ))
    (hd : ∀ t t', t ≠ t' → Disjoint (K t) (K t')) (hc : ∀ i, ∃ t, i ∈ K t)
    (q : PosShare TreeShare) (f : Buf (Elt F) ℓ) :
    (ℓ ↦{q} f : sProp 𝕄) = bigSep Finset.univ fun t => ℓ ↦[K t]{q} f := by
  have h : (ℓ ↦[Finset.univ.biUnion K]{q} f : sProp 𝕄) = bigSep Finset.univ fun t => ℓ ↦[K t]{q} f :=
    pointsTo_biUnion Finset.univ K (fun t _ t' _ => hd t t')
  have hc' : Finset.univ.biUnion K = Finset.univ := Finset.eq_univ_iff_forall.mpr fun i => by
    obtain ⟨t, ht⟩ := hc i
    exact Finset.mem_biUnion.mpr ⟨t, Finset.mem_univ _, ht⟩
  rw [hc'] at h
  exact h

omit [FloatOps F] in
/-- The whole gather buffer at a share is its 32 slots at that share. -/
theorem comm_slots (c : Dev nD) (q : PosShare TreeShare) (f : Buf (Elt F) ((c : Thread nD τ).loc cc0_scratch0)) :
    ((((c : Thread nD τ).loc cc0_scratch0) ↦{q} f) : sProp 𝕄) ⊣⊢ bigSep Finset.univ fun d : Fin 32 => slotPts c d q f := by
  have h : ((((c : Thread nD τ).loc cc0_scratch0) ↦{q} f) : sProp 𝕄)
      = bigSep Finset.univ fun d : Fin 32 => (((c : Thread nD τ).loc cc0_scratch0) ↦[slotSet d]{q} f) :=
    pointsTo_tile (ℓ := (c : Thread nD τ).loc cc0_scratch0) slotSet slotSet_disjoint slotSet_cover q f
  exact ⟨Entails.of_eq h, Entails.of_eq h.symm⟩

omit [FloatOps F] in
/-- The same with slot 0 set apart from the 31 slots the copies fill. -/
theorem comm_slot0 (c : Dev nD) (q : PosShare TreeShare) (f : Buf (Elt F) ((c : Thread nD τ).loc cc0_scratch0)) :
    ((((c : Thread nD τ).loc cc0_scratch0) ↦{q} f) : sProp 𝕄)
      ⊣⊢ iprop(slotPts c 0 q f ∗ bigSep offs fun d => slotPts c d q f) := by
  have h := comm_slots c q f
  rw [bigSep_univ_split (0 : Fin 32)] at h
  exact h

/-- info: 'Cert.Kernel.Proto.lend_all' depends on axioms: [propext, Classical.choice, Quot.sound] -/
#guard_msgs in #print axioms lend_all

/-- info: 'Cert.Kernel.Proto.slot0_lend' depends on axioms: [propext, Classical.choice, Quot.sound] -/
#guard_msgs in #print axioms slot0_lend

/-- info: 'Cert.Kernel.Proto.slot_write_congr' depends on axioms: [propext, Classical.choice, Quot.sound] -/
#guard_msgs in #print axioms slot_write_congr

/-- info: 'Cert.Kernel.Proto.slot_read_at' depends on axioms: [propext, Classical.choice, Quot.sound] -/
#guard_msgs in #print axioms slot_read_at

/-- info: 'Cert.Kernel.Proto.comm_slots' depends on axioms: [propext, Classical.choice, Quot.sound] -/
#guard_msgs in #print axioms comm_slots

/-- info: 'Cert.Kernel.Proto.comm_slot0' depends on axioms: [propext, Classical.choice, Quot.sound] -/
#guard_msgs in #print axioms comm_slot0

end Cert.Kernel.Proto

end
-- ==== Proof.KCloseRule.lean ====
/-
  The end of the body, and the whole gather buffer while slot 0 is still partly lent.

  * When every copy has left and landed, device `c` holds slot 0 of its gather buffer as the 31 lent shares come back
    and the share it kept, and each slot 1 … 31 whole at the final contents: together the whole buffer at the final
    contents. Its 64 transfer semaphores are the two idle ones and the 31 + 31 that the copies used, all at zero.
  * Before that, the body reads the whole buffer while the lent shares of slot 0 are still out. Each full slot
    1 … 31 is cut the same way as slot 0 — 31 lent shares and the remainder — so that all 32 slots are held at the
    remainder share: the whole buffer at that share, readable, beside the cut-off pieces.
-/
import proofs.«900824_g7700000000000825_dist_layernorm_colshard_i_m1024_n512_v7x_i32_bf16_1_alg».proof.Proof.KData
import proofs.«900824_g7700000000000825_dist_layernorm_colshard_i_m1024_n512_v7x_i32_bf16_1_alg».proof.Proof.KLaunchGhost
import proofs.«900824_g7700000000000825_dist_layernorm_colshard_i_m1024_n512_v7x_i32_bf16_1_alg».proof.Proof.KShares

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The whole gather buffer, in its two spellings -/

omit [FloatOps F] in
/-- The gather buffer held through its memref is the buffer held whole: the memref's view is all of it. -/
theorem comm_whole (c : Dev nD) (q : PosShare TreeShare) (f : Buf (Elt F) ((c : Thread nD τ).loc cc0_scratch0)) :
    (((commM : Memref sig .tc .vmem S32x2x1024 .bf16).view.loc (c : Thread nD τ)
        ↦[(commM : Memref sig .tc .vmem S32x2x1024 .bf16).view.set]{q} f) : sProp 𝕄)
      = (((c : Thread nD τ).loc cc0_scratch0) ↦{q} f) := by
  have hset : (commM : Memref sig .tc .vmem S32x2x1024 .bf16).view.set = Finset.univ := View.set_whole _
  rw [hset]

/-! ## The end of the body -/

/-- Everything back: the whole gather buffer at its final contents and the 64 transfer semaphores at zero. -/
theorem phi1_intro (m : (ℓ : Loc nD τ sig) → Buf (Elt F) ℓ) (c : Dev nD) :
    iprop(slotPts c 0 (remShare 31) (gathered m c) ∗ (bigSep offs fun d => slotPts c 0 (lentShare d) (gathered m c))
        ∗ (bigSep offs fun d => slotPts c d fullShare (gathered m c)) ∗ idleSems c
        ∗ (bigSep offs fun d => semVal (sendCell c d) 0) ∗ (bigSep offs fun d => semVal (recvCell c d) 0))
      ⊢ Φ₁ m c := by
  have hsem : iprop((semVal (sendCell c 0) 0 ∗ bigSep offs fun d => semVal (sendCell c d) 0)
        ∗ (semVal (recvCell c 0) 0 ∗ bigSep offs fun d => semVal (recvCell c d) 0))
      ⊢ (bigSep Finset.univ fun j : Fin 64 => semVal ((c : Thread nD τ), osem j) 0 : sProp 𝕄) :=
    Entails.of_eq (ownSems0_eq (F := F) c).symm
  unfold Φ₁ commPts idleSems
  iintro ⟨Hrem, Hlent, Hslots, ⟨Hs0, Hr0⟩, Hs, Hr⟩
  isplitl [Hrem Hlent Hslots]
  · iapply (comm_slot0 c fullShare (gathered m c)).2
    isplitl [Hrem Hlent]
    · iapply (slot0_lend c (gathered m c)).2
      isplitl [Hlent] <;> iassumption
    iexact Hslots
  · iapply hsem
    isplitl [Hs0 Hs]
    · isplitl [Hs0] <;> iassumption
    isplitl [Hr0] <;> iassumption

/-! ## The whole buffer at the share that stays in hand -/

omit [FloatOps F] in
/-- A full slot is its 31 lent shares and the share that stays in hand, as an equation. -/
theorem slot_lend_eq (c : Dev nD) (d : Fin 32) (f : Buf (Elt F) ((c : Thread nD τ).loc cc0_scratch0)) :
    (slotPts c d fullShare f : sProp 𝕄)
      = iprop((bigSep offs fun e => slotPts c d (lentShare e) f) ∗ slotPts c d (remShare 31) f) := by
  have h : (slotPts c d fullShare f : sProp 𝕄)
      ⊣⊢ iprop((bigSep offs fun e => slotPts c d (lentShare e) f) ∗ slotPts c d (remShare 31) f) := lend_all _ f
  exact BI.equiv_iff.mp ⟨h.1, h.2⟩

/-- Slot 0 at the share in hand and the slots 1 … 31 whole are the whole buffer at the share in hand and, of each of
    the slots 1 … 31, the 31 lent shares. -/
theorem comm_lower (m : (ℓ : Loc nD τ sig) → Buf (Elt F) ℓ) (c : Dev nD) :
    iprop(slotPts c 0 (remShare 31) (gathered m c) ∗ bigSep offs fun d => slotPts c d fullShare (gathered m c))
      ⊣⊢ iprop(((commM : Memref sig .tc .vmem S32x2x1024 .bf16).view.loc (c : Thread nD τ)
            ↦[(commM : Memref sig .tc .vmem S32x2x1024 .bf16).view.set]{remShare 31} gathered m c)
          ∗ bigSep offs fun d => bigSep offs fun e => slotPts c d (lentShare e) (gathered m c)) := by
  have hw := comm_slot0 c (remShare 31) (gathered m c)
  rw [comm_whole c (remShare 31) (gathered m c),
    bigSep_congr (s := offs) (fun d _ => slot_lend_eq (F := F) c d (gathered m c)), bigSep_sep']
  constructor
  · iintro ⟨H0, Hl, Hr⟩
    isplitl [H0 Hr]
    · iapply hw.2
      isplitl [H0] <;> iassumption
    iexact Hl
  · iintro ⟨Hw, Hl⟩
    ihave H := hw.1 $$ Hw
    icases H with ⟨H0, Hr⟩
    isplitl [H0]; · iexact H0
    isplitl [Hl] <;> iassumption

/-- info: 'Cert.Kernel.Proto.phi1_intro' depends on axioms: [propext, Classical.choice, Quot.sound] -/
#guard_msgs in #print axioms phi1_intro

/-- info: 'Cert.Kernel.Proto.comm_lower' depends on axioms: [propext, Classical.choice, Quot.sound] -/
#guard_msgs in #print axioms comm_lower

end Cert.Kernel.Proto

end
-- ==== Proof.KBarrierRule.lean ====
/-
  The wait of a device on its own barrier cell.

  The barrier cell of `c` has 31 duties of one unit in its single round, duty d paid by the device d places before `c`.
  A wait for 31 therefore takes the whole round, and with it all 31 payloads: duty d hands `c` the slot `opp d` of the
  device d places before it. The device d places before `c` is the device `opp d` places after it, so, counted by
  e = opp d (which runs through 1 … 31 as d does), `c` holds for every offset e the slot e of the device e places after
  it, together with the fact that the receive cell guarding that slot is at its round 0: what its copy number e needs.
  The barrier semaphore is not the kernel's own, and the cell is left open at round 1.
-/
import proofs.«900824_g7700000000000825_dist_layernorm_colshard_i_m1024_n512_v7x_i32_bf16_1_alg».proof.Proof.KProto
import proofs.«900824_g7700000000000825_dist_layernorm_colshard_i_m1024_n512_v7x_i32_bf16_1_alg».proof.Proof.KLevels

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The opposite offset permutes 1 … 31 -/

/-- `opp` as an embedding: it is its own inverse. -/
def oppEmb : Fin 32 ↪ Fin 32 := ⟨opp, fun a b h => by rw [← opp_opp a, ← opp_opp b, h]⟩

theorem offs_map_opp : offs.map oppEmb = offs := by
  ext e
  simp only [Finset.mem_map, Finset.mem_erase, Finset.mem_univ, and_true]
  constructor
  · rintro ⟨d, hd, rfl⟩; exact opp_ne_zero d hd
  · intro he; exact ⟨opp e, opp_ne_zero e he, opp_opp e⟩

/-! ## The whole round of the barrier cell, counted by the offset of the slot handed over -/

theorem rest_bar (c : Dev nD) :
    bigSep ((ringRd (F := F) m).duties (barCell c) 0 \ ∅) (fun d => (ringRd (F := F) m).payload (barCell c) 0 d)
      = bigSep offs fun e => iprop((∃ f, slotPts (F := F) (peer c e) e fullShare f) ∗ reached ER (recvCell (peer c e) e) 0) := by
  rw [Finset.sdiff_empty, duties_bar, ← offs_map_opp, bigSep_map]
  refine bigSep_congr fun e _ => ?_
  rw [payload_bar]
  show iprop((∃ f, slotPts (orig c e) (opp e) fullShare f) ∗ reached ER (recvCell (orig c e) (opp e)) 0)
    = iprop((∃ f, slotPts (peer c (opp e)) (opp e) fullShare f) ∗ reached ER (recvCell (peer c (opp e)) (opp e)) 0)
  rw [peer_opp]

/-! ## The wait -/

/-- The wait for 31 on the barrier cell, while still owing `O` at cells above the barrier's level: every other device's
    slot for `c` comes back, and the cell stands at round 1. -/
theorem wp_wait_bar (c : Dev nD) (κ : ℕ) {n : ℕ} {α : Type} {Q : α → sProp 𝕄}
    {k : PUnit → Prog (TpuEff nD τ sig (Elt F) Λ₀ .tc) α} (O : CellTallies nD τ sig Unit) (W : Waits sig Unit)
    (hmw : (levAts L lv : sProp 𝕄) ⊢ MayWait (c : Thread nD τ) (.reg barS) () O) (hn : n = 31 := by decide) :
    iprop(cellInv ER (ringRd m) κ (barCell c) ∗ cred (tallyAt (barCell c) () 31) ∗ owes (c : Thread nD τ) O W
        ∗ atPos ER (barCell c) 0 ∅ 0 ∗ levAts L lv)
      ⊢ iprop((((∃ W', owes (c : Thread nD τ) O W')
                ∗ (bigSep offs fun e => iprop((∃ f, slotPts (F := F) (peer c e) e fullShare f) ∗ reached ER (recvCell (peer c e) e) 0))
                ∗ atPos ER (barCell c) 1 ∅ 0)
              -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) := by
  subst hn
  iintro ⟨#HI, Hc, HO, Hat, #Hlev⟩ Hk
  iapply (Rounds.wp_wait_rest_token Variants.none ER (ringRd m) (c : Thread nD τ) none (κ := κ)
      (wpE_semWait_eq Variants.none (c : Thread nD τ) none Set.univ) (Set.mem_univ _) () (O := O) (W := W) (R := 0) (m := 0) (T := ∅)
      (by rw [Nat.zero_add, expect_bar])) $$ [Hc HO Hat]
  · isplitr; · iexact HI
    isplitl [Hc]; · iexact Hc
    isplitl [HO]; · iexact HO
    isplitr; · iapply hmw; iexact Hlev
    iexact Hat
  iintro ⟨HO, Hat, -, Hpay⟩
  ihave Hslots := (Entails.of_eq (rest_bar m c)) $$ Hpay
  iapply Hk
  isplitl [HO]; · iexists _; iexact HO
  isplitl [Hslots]; · iexact Hslots
  iexact Hat

/-- The same at what the device owes when it reaches that wait: the 31 landings. -/
theorem wp_wait_bar_Obar (c : Dev nD) (κ : ℕ) {n : ℕ} {α : Type} {Q : α → sProp 𝕄}
    {k : PUnit → Prog (TpuEff nD τ sig (Elt F) Λ₀ .tc) α} (W : Waits sig Unit) (hn : n = 31 := by decide) :
    let O := Obar c
    iprop(cellInv ER (ringRd m) κ (barCell c) ∗ cred (tallyAt (barCell c) () 31) ∗ owes (c : Thread nD τ) O W
        ∗ atPos ER (barCell c) 0 ∅ 0 ∗ levAts L lv)
      ⊢ iprop((((∃ W', owes (c : Thread nD τ) O W')
                ∗ (bigSep offs fun e => iprop((∃ f, slotPts (F := F) (peer c e) e fullShare f) ∗ reached ER (recvCell (peer c e) e) 0))
                ∗ atPos ER (barCell c) 1 ∅ 0)
              -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) :=
  wp_wait_bar m c κ (Obar c) W (mayWait_bar c) hn

/-- The same with the 31 landings listed in order. -/
theorem wp_wait_bar_chain (c : Dev nD) (κ : ℕ) {n : ℕ} {α : Type} {Q : α → sProp 𝕄}
    {k : PUnit → Prog (TpuEff nD τ sig (Elt F) Λ₀ .tc) α} (W : Waits sig Unit) (hn : n = 31 := by decide) :
    let O := (offL.map fun d => tallyAt (recvCell (peer c d) d) () N).sum
    iprop(cellInv ER (ringRd m) κ (barCell c) ∗ cred (tallyAt (barCell c) () 31) ∗ owes (c : Thread nD τ) O W
        ∗ atPos ER (barCell c) 0 ∅ 0 ∗ levAts L lv)
      ⊢ iprop((((∃ W', owes (c : Thread nD τ) O W')
                ∗ (bigSep offs fun e => iprop((∃ f, slotPts (F := F) (peer c e) e fullShare f) ∗ reached ER (recvCell (peer c e) e) 0))
                ∗ atPos ER (barCell c) 1 ∅ 0)
              -∗ wp frame (wpE (defs₀ (F := F)) Variants.none (c : Thread nD τ) none) Set.univ (k ⟨⟩) Q)
          -∗ wp frame (wpE (defs₀ (F := F)) Variants.none (c : Thread nD τ) none) Set.univ (.op (.semWait barS n) k) Q) := by
  rw [← Obar_chain]
  exact wp_wait_bar m c κ (Obar c) W (mayWait_bar c) hn

/-- info: 'Cert.Kernel.Proto.wp_wait_bar' depends on axioms: [propext, Classical.choice, Quot.sound] -/
#guard_msgs in #print axioms wp_wait_bar
/-- info: 'Cert.Kernel.Proto.wp_wait_bar_chain' depends on axioms: [propext, Classical.choice, Quot.sound] -/
#guard_msgs in #print axioms wp_wait_bar_chain

end Cert.Kernel.Proto

end
-- ==== Proof.KBodyWrap.lean ====
/-
  What the launch hands a device, sorted for the body; and the body's lemma in the form the pipeline asks for it.

  A device starts with: every cell's invariant and round (shared by all), its 63 positions, the tokens of the duties it
  pays, its launch credit, the level facts, its two idle semaphores, its gather buffer at some contents, what it owes,
  and its four staging buffers. The body uses them stage by stage, 31 offsets at a time:
  * signal d needs the addressed barrier cell's invariant and round, its duty's token, and what the duty hands over:
    slot `opp d` of the own buffer with its receive cell's round — so the slots 1 … 31 are counted by the opposite offset;
  * copy d needs both cells' invariants, rounds and duty tokens; the wait for landing d the receive cell's invariant,
    credit and position; the wait for departure d the send cell's invariant and position; the barrier wait the own
    barrier cell's invariant, its 31 units of credit and its position.
  Each family is a conjunction over the offsets 1 … 31, listed in order and set aside until its stage. At the end the
  gather buffer is whole again at its final contents, all 64 transfer semaphores are at zero, nothing is owed, the three
  input blocks are as they were and the output block is written: what the pipeline takes back.
-/
import proofs.«900824_g7700000000000825_dist_layernorm_colshard_i_m1024_n512_v7x_i32_bf16_1_alg».proof.Proof.KBodyDefs
import proofs.«900824_g7700000000000825_dist_layernorm_colshard_i_m1024_n512_v7x_i32_bf16_1_alg».proof.Proof.KData
import proofs.«900824_g7700000000000825_dist_layernorm_colshard_i_m1024_n512_v7x_i32_bf16_1_alg».proof.Proof.KCloseRule
import proofs.«900824_g7700000000000825_dist_layernorm_colshard_i_m1024_n512_v7x_i32_bf16_1_alg».proof.Proof.KBarrierRule
import proofs.«900824_g7700000000000825_dist_layernorm_colshard_i_m1024_n512_v7x_i32_bf16_1_alg».proof.Proof.KShares
import proofs.«900824_g7700000000000825_dist_layernorm_colshard_i_m1024_n512_v7x_i32_bf16_1_alg».proof.Proof.KLaunchGhost

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
/-! ## The records, cell by cell -/

theorem rec_inv (K : Dev nD × Fin 63 → ℕ) (ck : Dev nD × Fin 63) : records m K ⊢ cellInv ER (ringRd m) (K ck) (kcell ck) := by
  unfold records
  iintro ⟨HI, -⟩
  iapply (inv_at m K ck); iexact HI

theorem rec_reached (K : Dev nD × Fin 63 → ℕ) (ck : Dev nD × Fin 63) : records m K ⊢ reached ER (kcell ck) 0 := by
  unfold records
  iintro ⟨-, HR⟩
  iapply (reached_at (F := F) ck); iexact HR

theorem rec_inv_bar (K : Dev nD × Fin 63 → ℕ) (q : Dev nD) : records m K ⊢ cellInv ER (ringRd m) (K (q, 0)) (barCell q) :=
  rec_inv m K (q, 0)
theorem rec_inv_send (K : Dev nD × Fin 63 → ℕ) (q : Dev nD) (d : Fin 32) (hd : d ≠ 0) :
    records m K ⊢ cellInv ER (ringRd m) (K (q, sIdx d)) (sendCell q d) :=
  (rec_inv m K (q, sIdx d)).trans (Entails.of_eq (by rw [kcell_send q d hd]))
theorem rec_inv_recv (K : Dev nD × Fin 63 → ℕ) (q : Dev nD) (d : Fin 32) (hd : d ≠ 0) :
    records m K ⊢ cellInv ER (ringRd m) (K (q, rIdx d)) (recvCell q d) :=
  (rec_inv m K (q, rIdx d)).trans (Entails.of_eq (by rw [kcell_recv q d hd]))
theorem rec_reached_bar (K : Dev nD × Fin 63 → ℕ) (q : Dev nD) : records m K ⊢ reached ER (barCell q) 0 :=
  rec_reached m K (q, 0)
theorem rec_reached_send (K : Dev nD × Fin 63 → ℕ) (q : Dev nD) (d : Fin 32) (hd : d ≠ 0) :
    records m K ⊢ reached ER (sendCell q d) 0 :=
  (rec_reached m K (q, sIdx d)).trans (Entails.of_eq (by rw [kcell_send q d hd]))
theorem rec_reached_recv (K : Dev nD × Fin 63 → ℕ) (q : Dev nD) (d : Fin 32) (hd : d ≠ 0) :
    records m K ⊢ reached ER (recvCell q d) 0 :=
  (rec_reached m K (q, rIdx d)).trans (Entails.of_eq (by rw [kcell_recv q d hd]))

/-! ## The 31-fold parts, offset by offset -/

theorem sig_fold (K : Dev nD × Fin 63 → ℕ) (c : Dev nD) (f : Buf (Elt F) ((c : Thread nD τ).loc cc0_scratch0)) :
    iprop(records m K ∗ bigSep offs fun d => iprop(dutyTok ER (barCell (peer c d)) 0 d ∗ slotPts c (opp d) fullShare f))
      ⊢ bigSep offs (sigNeeds m K c f) :=
  bigSep_with_persistent (R := records m K) fun d hd => by
    have hd0 : d ≠ 0 := Finset.ne_of_mem_erase hd
    unfold sigNeeds
    iintro ⟨#HR, Ht, Hs⟩
    isplitr; · iapply (rec_inv_bar m K (peer c d)); iexact HR
    isplitr; · iapply (rec_reached_bar m K (peer c d)); iexact HR
    isplitr; · iapply (rec_reached_recv m K c (opp d) (opp_ne_zero d hd0)); iexact HR
    isplitl [Ht]; · iexact Ht
    iexact Hs

theorem send_fold (K : Dev nD × Fin 63 → ℕ) (c : Dev nD) :
    iprop(records m K ∗ bigSep offs fun d => iprop(dutyTok ER (sendCell c d) 0 0 ∗ dutyTok ER (recvCell (peer c d) d) 0 0))
      ⊢ bigSep offs (sendNeeds m K c) :=
  bigSep_with_persistent (R := records m K) fun d hd => by
    have hd0 : d ≠ 0 := Finset.ne_of_mem_erase hd
    unfold sendNeeds
    iintro ⟨#HR, Hs, Hr⟩
    isplitr; · iapply (rec_inv_send m K c d hd0); iexact HR
    isplitr; · iapply (rec_inv_recv m K (peer c d) d hd0); iexact HR
    isplitr; · iapply (rec_reached_send m K c d hd0); iexact HR
    isplitr; · iapply (rec_reached_recv m K (peer c d) d hd0); iexact HR
    isplitl [Hs]; · iexact Hs
    iexact Hr

theorem recv_fold (K : Dev nD × Fin 63 → ℕ) (c : Dev nD) :
    iprop(records m K ∗ bigSep offs fun d => iprop(cred (tallyAt (recvCell c d) () N) ∗ atPos ER (recvCell c d) 0 ∅ 0))
      ⊢ bigSep offs (recvNeeds m K c) :=
  bigSep_with_persistent (R := records m K) fun d hd => by
    have hd0 : d ≠ 0 := Finset.ne_of_mem_erase hd
    unfold recvNeeds
    iintro ⟨#HR, Hc, Hat⟩
    isplitr; · iapply (rec_inv_recv m K c d hd0); iexact HR
    isplitl [Hc]; · iexact Hc
    iexact Hat

theorem depart_fold (K : Dev nD × Fin 63 → ℕ) (c : Dev nD) :
    iprop(records m K ∗ bigSep offs fun d => atPos ER (sendCell c d) 0 ∅ 0)
      ⊢ bigSep offs (departNeeds m K c) :=
  bigSep_with_persistent (R := records m K) fun d hd => by
    have hd0 : d ≠ 0 := Finset.ne_of_mem_erase hd
    unfold departNeeds
    iintro ⟨#HR, Hat⟩
    isplitr; · iapply (rec_inv_send m K c d hd0); iexact HR
    iexact Hat

omit [FloatOps F] in
/-- The slots 1 … 31, counted by the opposite offset. -/
theorem slots_opp (c : Dev nD) (f : Buf (Elt F) ((c : Thread nD τ).loc cc0_scratch0)) :
    (bigSep offs fun d => slotPts c d fullShare f) = bigSep offs fun d => slotPts c (opp d) fullShare f := by
  conv_lhs => rw [← offs_map_opp, bigSep_map]
  rfl

/-! ## The 31-fold parts folded -/

theorem sig_ready (K : Dev nD × Fin 63 → ℕ) (c : Dev nD) (f : Buf (Elt F) ((c : Thread nD τ).loc cc0_scratch0)) :
    iprop(records m K ∗ (bigSep offs fun d => dutyTok ER (barCell (peer c d)) 0 d) ∗ bigSep offs fun d => slotPts c d fullShare f)
      ⊢ aside (chain offL (sigNeeds m K c f)) := by
  rw [slots_opp c f, ← bigSep_sep', ← bigSep_offs_chain]
  exact (sig_fold m K c f).trans (aside_in _)

theorem send_ready (K : Dev nD × Fin 63 → ℕ) (c : Dev nD) :
    iprop(records m K ∗ (bigSep offs fun d => dutyTok ER (sendCell c d) 0 0) ∗ bigSep offs fun d => dutyTok ER (recvCell (peer c d) d) 0 0)
      ⊢ aside (chain offL (sendNeeds m K c)) := by
  rw [← bigSep_sep', ← bigSep_offs_chain]
  exact (send_fold m K c).trans (aside_in _)

theorem recv_ready (K : Dev nD × Fin 63 → ℕ) (c : Dev nD) :
    iprop(records m K ∗ (bigSep offs fun d => cred (tallyAt (recvCell c d) () N)) ∗ bigSep offs fun d => atPos ER (recvCell c d) 0 ∅ 0)
      ⊢ aside (chain offL (recvNeeds m K c)) := by
  rw [← bigSep_sep', ← bigSep_offs_chain]
  exact (recv_fold m K c).trans (aside_in _)

theorem depart_ready (K : Dev nD × Fin 63 → ℕ) (c : Dev nD) :
    iprop(records m K ∗ bigSep offs fun d => atPos ER (sendCell c d) 0 ∅ 0)
      ⊢ aside (chain offL (departNeeds m K c)) := by
  rw [← bigSep_offs_chain]
  exact (depart_fold m K c).trans (aside_in _)

theorem bar_ready (K : Dev nD × Fin 63 → ℕ) (c : Dev nD) :
    iprop(records m K ∗ cred (tallyAt (barCell c) () 31) ∗ atPos ER (barCell c) 0 ∅ 0) ⊢ aside (barNeeds m K c) := by
  refine (?_ : _ ⊢ barNeeds m K c).trans (aside_in _)
  unfold barNeeds
  iintro ⟨#HR, Hc, Hat⟩
  isplitr; · iapply (rec_inv_bar m K c); iexact HR
  isplitl [Hc]; · iexact Hc
  iexact Hat

/-! ## A staging buffer held whole, in its two spellings -/

omit [FloatOps F] in
theorem held_x (c : Dev nD) (X : Buf (Elt F) ((c : Thread nD τ).loc cc0_stg0_0)) :
    (heldAt xM c X : sProp 𝕄) = (((c : Thread nD τ).loc cc0_stg0_0) ↦{fullShare} X) := by
  have hset : (xM : Memref sig .tc .vmem S1024x512 .f32).view.set = Finset.univ := View.set_whole _
  show ((xM : Memref sig .tc .vmem S1024x512 .f32).view.loc (c : Thread nD τ) ↦[(xM : Memref sig .tc .vmem S1024x512 .f32).view.set]{fullShare} X : sProp 𝕄) = _
  rw [hset]
omit [FloatOps F] in
theorem held_g (c : Dev nD) (X : Buf (Elt F) ((c : Thread nD τ).loc cc0_stg1_0)) :
    (heldAt gM c X : sProp 𝕄) = (((c : Thread nD τ).loc cc0_stg1_0) ↦{fullShare} X) := by
  have hset : (gM : Memref sig .tc .vmem S512 .f32).view.set = Finset.univ := View.set_whole _
  show ((gM : Memref sig .tc .vmem S512 .f32).view.loc (c : Thread nD τ) ↦[(gM : Memref sig .tc .vmem S512 .f32).view.set]{fullShare} X : sProp 𝕄) = _
  rw [hset]
omit [FloatOps F] in
theorem held_b (c : Dev nD) (X : Buf (Elt F) ((c : Thread nD τ).loc cc0_stg2_0)) :
    (heldAt bM c X : sProp 𝕄) = (((c : Thread nD τ).loc cc0_stg2_0) ↦{fullShare} X) := by
  have hset : (bM : Memref sig .tc .vmem S512 .f32).view.set = Finset.univ := View.set_whole _
  show ((bM : Memref sig .tc .vmem S512 .f32).view.loc (c : Thread nD τ) ↦[(bM : Memref sig .tc .vmem S512 .f32).view.set]{fullShare} X : sProp 𝕄) = _
  rw [hset]
omit [FloatOps F] in
theorem held_o (c : Dev nD) (X : Buf (Elt F) ((c : Thread nD τ).loc cc0_stg3_0)) :
    (heldAt oM c X : sProp 𝕄) = (((c : Thread nD τ).loc cc0_stg3_0) ↦{fullShare} X) := by
  have hset : (oM : Memref sig .tc .vmem S1024x512 .bf16).view.set = Finset.univ := View.set_whole _
  show ((oM : Memref sig .tc .vmem S1024x512 .bf16).view.loc (c : Thread nD τ) ↦[(oM : Memref sig .tc .vmem S1024x512 .bf16).view.set]{fullShare} X : sProp 𝕄) = _
  rw [hset]

/-! ## What the launch hands a device, sorted by stage -/

theorem work_intro (K : Dev nD × Fin 63 → ℕ) (c : Dev nD) (f : Buf (Elt F) ((c : Thread nD τ).loc cc0_scratch0)) (W : Waits sig Unit) :
    iprop(ghost m K c ∗ idleSems c ∗ credits c ∗ levAts L lv ∗ commPts c f ∗ owes (c : Thread nD τ) (O₀ c) W
        ∗ (((c : Thread nD τ).loc cc0_stg0_0) ↦{fullShare} xblk m c) ∗ (((c : Thread nD τ).loc cc0_stg1_0) ↦{fullShare} gblk m c)
        ∗ (((c : Thread nD τ).loc cc0_stg2_0) ↦{fullShare} bblk m c)
        ∗ ∃ fo : Buf (Elt F) ((c : Thread nD τ).loc cc0_stg3_0), ((c : Thread nD τ).loc cc0_stg3_0) ↦{fullShare} fo)
      ⊢ workPre m K c f W := by
  unfold ghost credits commPts workPre positions payToks
  rw [bigSep_cells c (fun g => (atPos ER g 0 ∅ 0 : sProp 𝕄)), bigSep_sep', bigSep_sep', ← O₀_owesL, held_x, held_g, held_b]
  iintro ⟨⟨#HR, ⟨HatB, HatS, HatV⟩, ⟨HtB, HtV, HtS⟩⟩, Hidle, ⟨HcB, HcV⟩, #Hlev, Hcomm, HO, Hx, Hg, Hb, ⟨%fo, Ho⟩⟩
  ihave Hsl := (comm_slot0 c fullShare f).1 $$ Hcomm
  icases Hsl with ⟨Hs0, Hsl⟩
  isplitl [HtB Hsl]
  · iapply (sig_ready m K c f)
    isplitr; · iexact HR
    isplitl [HtB]; · iexact HtB
    iexact Hsl
  isplitl [HtS HtV]
  · iapply (send_ready m K c)
    isplitr; · iexact HR
    isplitl [HtS]; · iexact HtS
    iexact HtV
  isplitl [HcV HatV]
  · iapply (recv_ready m K c)
    isplitr; · iexact HR
    isplitl [HcV]; · iexact HcV
    iexact HatV
  isplitl [HatS]
  · iapply (depart_ready m K c)
    isplitr; · iexact HR
    iexact HatS
  isplitl [HcB HatB]
  · iapply (bar_ready m K c)
    isplitr; · iexact HR
    isplitl [HcB]; · iexact HcB
    iexact HatB
  isplitr; · iexact Hlev
  isplitl [Hidle]; · iexact Hidle
  isplitl [Hs0]; · iexact Hs0
  isplitl [HO]; · iexact HO
  isplitl [Hx]; · iexact Hx
  isplitl [Hg]; · iexact Hg
  isplitl [Hb]; · iexact Hb
  iexists fo
  rw [held_o]
  iexact Ho

/-! ## The body lemma handed to the pipeline's obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- What the pipeline hands the body at its one point. -/
def obPre (c : Dev nD) : sProp 𝕄 :=
  iprop((dats m 0 c).Φ t0_0.castSucc ∗ (dats m 0 c).owesAt () t0_0.castSucc
    ∗ (∃ d, (∃ f : Buf (Elt F) ((c : Thread nD τ).loc cc0_stg0_0), ⌜f = (dats m 0 c).before (0 : Fin 4) t0_0 d⌝ ∗ (((c : Thread nD τ).loc cc0_stg0_0) ↦{fullShare} f)))
    ∗ (∃ d, (∃ f : Buf (Elt F) ((c : Thread nD τ).loc cc0_stg1_0), ⌜f = (dats m 0 c).before (1 : Fin 4) t0_0 d⌝ ∗ (((c : Thread nD τ).loc cc0_stg1_0) ↦{fullShare} f)))
    ∗ (∃ d, (∃ f : Buf (Elt F) ((c : Thread nD τ).loc cc0_stg2_0), ⌜f = (dats m 0 c).before (2 : Fin 4) t0_0 d⌝ ∗ (((c : Thread nD τ).loc cc0_stg2_0) ↦{fullShare} f)))
    ∗ (∃ d, (∃ f : Buf (Elt F) ((c : Thread nD τ).loc cc0_stg3_0), ⌜f = (dats m 0 c).before (3 : Fin 4) t0_0 d⌝ ∗ (((c : Thread nD τ).loc cc0_stg3_0) ↦{fullShare} f))))

/-- What it takes back. -/
def obPost (c : Dev nD) : sProp 𝕄 :=
  iprop((dats m 0 c).Φ t0_0.succ ∗ (dats m 0 c).owesAt () t0_0.succ
    ∗ (∃ f : Buf (Elt F) ((c : Thread nD τ).loc cc0_stg0_0), ⌜f = (dats m 0 c).after (0 : Fin 4) t0_0⌝ ∗ (((c : Thread nD τ).loc cc0_stg0_0) ↦{fullShare} f))
    ∗ (∃ f : Buf (Elt F) ((c : Thread nD τ).loc cc0_stg1_0), ⌜f = (dats m 0 c).after (1 : Fin 4) t0_0⌝ ∗ (((c : Thread nD τ).loc cc0_stg1_0) ↦{fullShare} f))
    ∗ (∃ f : Buf (Elt F) ((c : Thread nD τ).loc cc0_stg2_0), ⌜f = (dats m 0 c).after (2 : Fin 4) t0_0⌝ ∗ (((c : Thread nD τ).loc cc0_stg2_0) ↦{fullShare} f))
    ∗ (∃ f : Buf (Elt F) ((c : Thread nD τ).loc cc0_stg3_0), ⌜f = (dats m 0 c).after (3 : Fin 4) t0_0⌝ ∗ (((c : Thread nD τ).loc cc0_stg3_0) ↦{fullShare} f)))

set_option maxRecDepth 8000 in
theorem before_x (c : Dev nD) (d) : (dats m 0 c).before (0 : Fin 4) t0_0 d = xblk m c := by
  unfold Dat.before; rw [if_pos (fetch0_0 t0_0)]; rfl
set_option maxRecDepth 8000 in
theorem before_g (c : Dev nD) (d) : (dats m 0 c).before (1 : Fin 4) t0_0 d = gblk m c := by
  unfold Dat.before; rw [if_pos (fetch0_1 t0_0)]; rfl
set_option maxRecDepth 8000 in
theorem before_b (c : Dev nD) (d) : (dats m 0 c).before (2 : Fin 4) t0_0 d = bblk m c := by
  unfold Dat.before; rw [if_pos (fetch0_2 t0_0)]; rfl

/-- The end of the body in the form the pipeline takes it back. -/
theorem post_intro (c : Dev nD) : workPost m c ⊢ obPost m c := by
  unfold workPost obPost
  rw [show (dats m 0 c).Φ t0_0.succ = Φ₁ m c from rfl, held_x, held_g, held_b, held_o]
  iintro ⟨H1, H2, H3, H4, H5, H6, ⟨%W', HO⟩, Hx, Hg, Hb, Ho⟩
  isplitl [H1 H2 H3 H4 H5 H6]
  · iapply (phi1_intro m c)
    isplitl [H1]; · iexact H1
    isplitl [H2]; · iexact H2
    isplitl [H3]; · iexact H3
    isplitl [H4]; · iexact H4
    isplitl [H5]; · iexact H5
    iexact H6
  isplitl [HO]
  · iexists W'
    isplitr; · ipureintro; exact fun _ _ => Or.inl (Set.mem_univ _)
    iexact HO
  isplitl [Hx]; · iexists (xblk m c); isplitr; · ipureintro; rfl
                  iexact Hx
  isplitl [Hg]; · iexists (gblk m c); isplitr; · ipureintro; rfl
                  iexact Hg
  isplitl [Hb]; · iexists (bblk m c); isplitr; · ipureintro; rfl
                  iexact Hb
  iexists (outAt m c); isplitr; · ipureintro; rfl
  iexact Ho

set_option maxRecDepth 8000 in
/-- The library's body obligation on device `c`, from the body's own lemma. -/
theorem body_obligation_of
    (hsb : ∀ (K : Dev nD × Fin 63 → ℕ) (c : Dev nD) (f : Buf (Elt F) ((c : Thread nD τ).loc cc0_scratch0)) (W : Waits sig Unit)
        (Kt : PUnit → sProp 𝕄),
      iprop(workPre m K c f W ∗ (workPost m c -∗ Kt ⟨⟩))
        ⊢ wp frame (wpE (defs₀ (F := F)) Variants.none (c : Thread nD τ) none) Set.univ
            (cc0_body (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_scratch0) (Memref.isWhole_whole _) cc0_scratch1 cc0_scratch2) Kt)
    (c : Dev nD) : BodyObligation (dats (F := F) m 0 c) (defs₀ (F := F)) Variants.none () Set.univ := fun t => by
  rw [fin_N0 t]
  rw [bigSep_W0, bigSep_W0]
  simp only [owns_whole_eq]
  show obPre m c ⊢ wp frame (wpE (defs₀ (F := F)) Variants.none (c : Thread nD τ) none) Set.univ
            (cc0_body (Memref.whole cc0_stg0_0) (Memref.isWhole_whole _) (Memref.whole cc0_stg1_0) (Memref.isWhole_whole _)
              (Memref.whole cc0_stg2_0) (Memref.isWhole_whole _) (Memref.whole cc0_stg3_0) (Memref.isWhole_whole _)
              (Memref.whole cc0_scratch0) (Memref.isWhole_whole _) cc0_scratch1 cc0_scratch2) (fun _ => obPost m c)
  unfold obPre
  rw [show (dats m 0 c).Φ t0_0.castSucc = Φ₀ m c from rfl]
  unfold Φ₀ start
  iintro ⟨⟨⟨⟨%K, Hg⟩, Hidle, Hcred, Hlev⟩, ⟨%f, Hcomm⟩⟩, ⟨%W, -, HO⟩, ⟨%d0, %f0, %hf0, Hx⟩, ⟨%d1, %f1, %hf1, Hgm⟩, ⟨%d2, %f2, %hf2, Hb⟩, ⟨%d3, %f3, -, Ho⟩⟩
  rw [before_x] at hf0; rw [before_g] at hf1; rw [before_b] at hf2
  subst hf0 hf1 hf2
  iapply (hsb K c f W fun _ => obPost m c)
  isplitr []
  · iapply (work_intro m K c f W)
    isplitl [Hg]; · iexact Hg
    isplitl [Hidle]; · iexact Hidle
    isplitl [Hcred]; · iexact Hcred
    isplitl [Hlev]; · iexact Hlev
    isplitl [Hcomm]; · iexact Hcomm
    isplitl [HO]; · iexact HO
    isplitl [Hx]; · iexact Hx
    isplitl [Hgm]; · iexact Hgm
    isplitl [Hb]; · iexact Hb
    iexists f3; iexact Ho
  · iintro H
    iapply (post_intro m c); iexact H

/-- info: 'Cert.Kernel.Proto.work_intro' depends on axioms: [propext, Classical.choice, Quot.sound] -/
#guard_msgs in #print axioms work_intro
/-- info: 'Cert.Kernel.Proto.post_intro' depends on axioms: [propext, Classical.choice, Quot.sound] -/
#guard_msgs in #print axioms post_intro
/-- info: 'Cert.Kernel.Proto.body_obligation_of' depends on axioms: [propext, Classical.choice, Quot.sound] -/
#guard_msgs in #print axioms body_obligation_of

end Cert.Kernel.Proto

end
-- ==== Proof.KSignalRule.lean ====
/-
  A device's signal to the barrier of a peer, as one rule for every offset.

  Before any copy, device c tells each device d places after it that the slot that device will write on c is free:
  it raises that device's barrier cell by one. The duty it pays there is duty d of the peer's barrier cell, and the
  duty's payload is the slot of the signalling device that the peer will write, held whole, with that slot's receive
  cell at round 0. The signalling device is the device d places before the peer, which is c; the peer reaches c at the
  opposite offset, so the slot is c's slot number "opposite of d".
-/
import proofs.«900824_g7700000000000825_dist_layernorm_colshard_i_m1024_n512_v7x_i32_bf16_1_alg».proof.Proof.KProto
import Idealize.ShloMosaic.Lib.Rounds

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What device `c` holds of its slot "opposite of `d`", with that slot's receive cell at round 0, is the payload of
    duty `d` of the barrier cell of the device `d` places after `c`. -/
theorem barPay_of_slot (c : Dev nD) (d : Fin 32) (f : Buf (Elt F) ((c : Thread nD τ).loc cc0_scratch0)) :
    iprop(slotPts c (opp d) fullShare f ∗ reached ER (recvCell c (opp d)) 0) ⊢ (barPay (peer c d) d : sProp 𝕄) := by
  unfold barPay
  rw [orig_peer c d]
  iintro ⟨Hs, Hr⟩
  isplitl [Hs]
  · iexists f; iexact Hs
  · iexact Hr

/-- The signal number `d` of device `c`, addressed to `n`, the device `d` places after `c`. -/
theorem wp_signal_slot (m : (ℓ : Loc nD τ sig) → Buf (Elt F) ℓ) (c n : Dev nD) (d : Fin 32) (hd : d ≠ 0) (hn : n = peer c d) (κ : ℕ)
    {α : Type} {Q : α → sProp 𝕄} {k : PUnit → Prog (TpuEff nD τ sig (Elt F) Λ₀ .tc) α}
    (f : Buf (Elt F) ((c : Thread nD τ).loc cc0_scratch0)) (O : CellTallies nD τ sig Unit) (W : Waits sig Unit) :
    iprop(cellInv ER (ringRd m) κ (barCell (peer c d)) ∗ reached ER (barCell (peer c d)) 0 ∗ reached ER (recvCell c (opp d)) 0
        ∗ dutyTok ER (barCell (peer c d)) 0 d ∗ slotPts c (opp d) fullShare f
        ∗ owes (c : Thread nD τ) (tallyAt (barCell (peer c d)) () 1 + O) W)
      ⊢ iprop((owes (c : Thread nD τ) O W -∗ wp frame (wpE (defs₀ (F := F)) Variants.none (c : Thread nD τ) none) Set.univ (k ⟨⟩) Q)
          -∗ wp frame (wpE (defs₀ (F := F)) Variants.none (c : Thread nD τ) none) Set.univ (.op (.semSignal ((n : Thread nD τ)) barS 1) k) Q) := by
  subst hn
  have hpre : iprop(cellInv ER (ringRd m) κ (barCell (peer c d)) ∗ reached ER (barCell (peer c d)) 0 ∗ reached ER (recvCell c (opp d)) 0
        ∗ dutyTok ER (barCell (peer c d)) 0 d ∗ slotPts c (opp d) fullShare f
        ∗ owes (c : Thread nD τ) (tallyAt (barCell (peer c d)) () 1 + O) W)
      ⊢ (iprop(cellInv ER (ringRd m) κ (barCell (peer c d)) ∗ owes (c : Thread nD τ) (tallyAt (barCell (peer c d)) () 1 + O) W
        ∗ dutyTok ER (barCell (peer c d)) 0 d ∗ (ringRd m).payload (barCell (peer c d)) 0 d
        ∗ reached ER (barCell (peer c d)) 0) : sProp 𝕄) := by
    iintro ⟨HI, HrB, HrV, Htok, Hslot, HO⟩
    isplitl [HI]
    · iexact HI
    isplitl [HO]
    · iexact HO
    isplitl [Htok]
    · iexact Htok
    isplitr [HrB]
    · rw [payload_bar]
      iapply (barPay_of_slot c d f)
      isplitl [Hslot]
      · iexact Hslot
      · iexact HrV
    · iexact HrB
  exact hpre.trans (Rounds.wp_signal Variants.none ER (ringRd m) (c : Thread nD τ) none
    (dst := (peer c d : Thread nD τ)) (sem := barS) (κ := κ) (r := 0) (d := d) (k' := 1) (k := k) (Q := Q)
    (by rw [duties_bar]; exact Finset.mem_erase.mpr ⟨hd, Finset.mem_univ _⟩) (amount_bar m (peer c d) d) () O (add_comm _ _) (W := W))

/-- info: 'Cert.Kernel.Proto.barPay_of_slot' depends on axioms: [propext, Classical.choice, Quot.sound] -/
#guard_msgs in #print axioms barPay_of_slot

/-- info: 'Cert.Kernel.Proto.wp_signal_slot' depends on axioms: [propext, Classical.choice, Quot.sound] -/
#guard_msgs in #print axioms wp_signal_slot

end Cert.Kernel.Proto

end
-- ==== Proof.KSendRule.lean ====
/-
  The remote copy of slot 0 into a peer's slot, as one rule for every offset.

  Device c sends the two rows of its slot 0 (its own partial row sums) to slot e of the device e places after it.
  The copy pays two duties: on c's own send cell e, which gives back the share of slot 0 the copy was lent, and on
  the receive cell e of the peer, which hands the peer its slot e. What lands there is what slot 0 of c holds; since
  the device e places before the peer is c itself, and the device 0 places before c is c, that is exactly what the
  peer's gathered array holds in slot e. Element (t, r) of slot d is element (d, t, r) of the 32 x 2 x 1024 array,
  and the credit of a slot's transfer is the same for every slot: it depends on the array, the slot's extent and the
  element type only.
-/
import proofs.«900824_g7700000000000825_dist_layernorm_colshard_i_m1024_n512_v7x_i32_bf16_1_alg».proof.Proof.KProto
import Idealize.ShloMosaic.Lib.Rounds
import Idealize.ShloMosaic.Lib.ValueIdx
import Idealize.ShloMosaic.Lib.ValueLayout
import Idealize.ShloMosaic.Lib.Pipeline.Value
import Idealize.ShloMosaic.Rules.PointsTo

noncomputable section

namespace Cert.Kernel.Proto

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The ring: zero places before a device is the device -/

private theorem orig_zero : ∀ c : Dev nD, orig c 0 = c := by decide +kernel

/-! ## A slot's credit and a slot's elements -/

/-- The credit of a transfer into slot `e` completing on any DMA semaphore is the one credit `N`. -/
theorem slot_amount (e : Fin 32) (q : DmaSem sig) : (slotM e).view.amount (.dma q) = N := rfl

/-- Element `(t, r)` of slot `d` is element `(d, t, r)` of the gather buffer. -/
private theorem slot_emb (d : Fin 32) (t : Fin 2) (r : Fin 1024) :
    ((slotM d).view.emb (ix2 t r) : S32x2x1024.Idx) = ix3 d t r := by
  have h : ((slotM d).view.emb (ix2 t r) : S32x2x1024.Idx)
      = (Rect.unit (s := S32x2x1024) ![d.val, 0, 0] S1x2x1024.size (inb_slot d)).emb
          (Shape.reshapeEquiv (squeezes_S1x2x1024_S2x1024).numel_eq (ix2 t r)) := rfl
  rw [h, reshapeEquiv_ix2_1ab]
  funext a
  match a with
  | ⟨0, _⟩ => exact Fin.ext (by show d.val + 1 * 0 = d.val; omega)
  | ⟨1, _⟩ => exact Fin.ext (by show 0 + 1 * t.val = t.val; omega)
  | ⟨2, _⟩ => exact Fin.ext (by show 0 + 1 * r.val = r.val; omega)

/-- The gathered array at `(s, t, r)`: the row sums (row 0) or the row sums of squares (row 1) of the block of the
    device `s` places before `c`, at row `r`. -/
theorem gathered_ix3 (m : (ℓ : Loc nD τ sig) → Buf (Elt F) ℓ) (c : Dev nD) (s : Fin 32) (t : Fin 2) (r : Fin 1024) :
    gathered m c (ix3 s t r)
      = if t.val = 0 then k0_pay2 (xblk m (orig c s)) (ix3 0 0 r) else k0_pay3 (xblk m (orig c s)) (ix3 0 0 r) := rfl

/-- The gathered array read through slot `d` at `(t, r)` is its entry `(d, t, r)`. -/
private theorem slot_read (m : (ℓ : Loc nD τ sig) → Buf (Elt F) ℓ) (c : Dev nD) (d : Fin 32) (t : Fin 2) (r : Fin 1024) :
    (slotM d).view.read (Elt F) (gathered m c) (ix2 t r) = gathered m c (ix3 d t r) :=
  (cast_eq _ _).trans (congrArg (gathered m c) (slot_emb d t r))

/-- Slot 0 of `c`, landed in slot `e` of the device `e` places after `c`, is that device's gathered array there. -/
theorem slot_landed (m : (ℓ : Loc nD τ sig) → Buf (Elt F) ℓ) (c : Dev nD) (e : Fin 32)
    (fd : Buf (Elt F) ((peer c e : Thread nD τ).loc cc0_scratch0)) :
    (((slotM e).view.loc (peer c e : Thread nD τ)) ↦[(slotM e).view.set]{fullShare}
        ((slotM e).view.write (Elt F) fd ((slotM 0).view.read (Elt F) (gathered m c)) Finset.univ) : sProp 𝕄)
      = slotPts (peer c e) e fullShare (gathered m (peer c e)) := by
  unfold slotPts
  refine pointsTo_congr fun i hi => ?_
  obtain ⟨y, rfl⟩ := View.exists_emb_of_mem_set _ hi
  obtain ⟨t, r, rfl⟩ : ∃ (t : Fin 2) (r : Fin 1024), y = ix2 t r := ⟨y 0, y 1, eq_ix2 y⟩
  -- what the written buffer reads through slot `e` is what slot 0 of `c` reads; so does the peer's gathered array
  have hw : (slotM e).view.read (Elt F) ((slotM e).view.write (Elt F) fd ((slotM 0).view.read (Elt F) (gathered m c)) Finset.univ) (ix2 t r)
      = (slotM 0).view.read (Elt F) (gathered m c) (ix2 t r) :=
    View.read_write_of_mem (v := (slotM e).view) fd _ (Finset.mem_univ (ix2 t r))
  have hg : (slotM e).view.read (Elt F) (gathered m (peer c e)) (ix2 t r)
      = (slotM 0).view.read (Elt F) (gathered m c) (ix2 t r) := by
    rw [slot_read, slot_read, gathered_ix3, gathered_ix3, orig_zero, orig_peer]
  exact (cast_inj (congrArg (Elt F) (slotM e).view.elt_eq)).mp (hw.trans hg.symm)

/-! ## The rule -/

/-- The remote copy number `e` of device `c`, addressed to `n`, the device `e` places after `c`. -/
theorem wp_send_slot (m : (ℓ : Loc nD τ sig) → Buf (Elt F) ℓ) (c n : Dev nD) (e : Fin 32) (he : e ≠ 0) (hn : n = peer c e) (κ₁ κ₂ : ℕ)
    {hsc : (slotM e : Memref sig (Dev.tc n : Thread nD τ).2.kind .vmem S2x1024 .bf16).view.ref.isScScratch = false}
    {hsrc : (slotM 0 : Memref sig .tc .vmem S2x1024 .bf16).view.WordExact} {hdst : (slotM e : Memref sig .tc .vmem S2x1024 .bf16).view.WordExact}
    {hsem : DmaTarget.Typed .vmem (.dma (recvS e)) (.remote (Dev.tc n : Thread nD τ) (slotM e) (.dma (sendS e)) hsc)}
    {α : Type} {Q : α → sProp 𝕄} {k : PUnit → Prog (TpuEff nD τ sig (Elt F) Λ₀ .tc) α}
    (fd : Buf (Elt F) ((peer c e : Thread nD τ).loc cc0_scratch0)) (O : CellTallies nD τ sig Unit) (W : Waits sig Unit) :
    iprop(cellInv ER (ringRd m) κ₁ (sendCell c e) ∗ cellInv ER (ringRd m) κ₂ (recvCell (peer c e) e)
        ∗ slotPts c 0 (lentShare e) (gathered m c) ∗ slotPts (peer c e) e fullShare fd
        ∗ owes (c : Thread nD τ) (O + tallyAt (recvCell (peer c e) e) () N) W
        ∗ dutyTok ER (sendCell c e) 0 0 ∗ reached ER (sendCell c e) 0
        ∗ dutyTok ER (recvCell (peer c e) e) 0 0 ∗ reached ER (recvCell (peer c e) e) 0)
      ⊢ iprop(((cred (tallyAt (sendCell c e) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (slotM 0) (.remote (Dev.tc n : Thread nD τ) (slotM e) (.dma (sendS e)) hsc) (.dma (recvS e)) hsrc hdst hsem) k) Q) := by
  subst hn
  unfold slotPts
  exact Rounds.wp_send_pointsTo Variants.none ER (ringRd m) (c : Thread nD τ) none (κ₁ := κ₁) (κ₂ := κ₂)
    (c' := (peer c e : Thread nD τ)) (src := slotM 0) (dst := slotM e) (sS := .dma (sendS e)) (sem := .dma (recvS e))
    (hsc := hsc) (hsrc := hsrc) (hdst := hdst) (hsem := hsem) (k := k) (Q := Q) (q := lentShare e) (fs := gathered m c)
    (r₁ := 0) (r₂ := 0) (d₁ := 0) (d₂ := 0) (fd := fd)
    (by rw [duties_send m c e he]; exact Finset.mem_singleton_self _)
    (by rw [duties_recv m (peer c e) e he]; exact Finset.mem_singleton_self _)
    () () N (slot_amount e (recvS e)) (amount_send m c e 0) (amount_recv m (peer c e) e 0) O rfl (W := W)
    (by rw [payload_send]; exact BI.Entails.refl _)
    (by rw [payload_recv]; unfold recvPay; rw [slot_landed m c e fd])

/-- info: 'Cert.Kernel.Proto.slot_landed' depends on axioms: [propext, Classical.choice, Quot.sound] -/
#guard_msgs in #print axioms slot_landed

/-- info: 'Cert.Kernel.Proto.wp_send_slot' depends on axioms: [propext, Classical.choice, Quot.sound] -/
#guard_msgs in #print axioms wp_send_slot

end Cert.Kernel.Proto

end
-- ==== Proof.KWaitRules.lean ====
/-
  The two waits of a device on its own transfer cells, at any offset d = 1 … 31.

  Each of these cells has a single duty in its single round, so a wait for one slot's credit takes the whole round: the
  device hands in the credit token it holds for the cell and gets the duty's payload — for the receive cell d its slot d
  with the final contents, for the send cell d the share of slot 0 that copy d was lent — and then, no later round having
  a duty, closes the cell and has its counter back at zero.
-/
import proofs.«900824_g7700000000000825_dist_layernorm_colshard_i_m1024_n512_v7x_i32_bf16_1_alg».proof.Proof.KProto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The whole round of a transfer cell is its one payload -/

theorem rest_recv (c : Dev nD) (d : Fin 32) (hd : d ≠ 0) :
    bigSep ((ringRd (F := F) m).duties (recvCell c d) 0 \ ∅) (fun e => (ringRd (F := F) m).payload (recvCell c d) 0 e)
      = slotPts c d fullShare (gathered m c) := by
  rw [Finset.sdiff_empty, duties_recv m c d hd, bigSep_singleton, payload_recv]
  rfl

theorem rest_send (c : Dev nD) (d : Fin 32) (hd : d ≠ 0) :
    bigSep ((ringRd (F := F) m).duties (sendCell c d) 0 \ ∅) (fun e => (ringRd (F := F) m).payload (sendCell c d) 0 e)
      = slotPts c 0 (lentShare d) (gathered m c) := by
  rw [Finset.sdiff_empty, duties_send m c d hd, bigSep_singleton, payload_send]
  rfl

/-! ## The two waits -/

/-- The wait on the receive cell `d`: slot `d` comes back whole with its final contents, and the cell's counter at zero. -/
theorem wp_wait_recv (c : Dev nD) (d : Fin 32) (hd : d ≠ 0) (κ : ℕ)
    {src dst : Memref sig .tc .vmem S2x1024 .bf16} {hsrc : src.view.WordExact} {hdst : dst.view.WordExact}
    {α : Type} {Q : α → sProp 𝕄} {k : PUnit → Prog (TpuEff nD τ sig (Elt F) Λ₀ .tc) α} (W : Waits sig Unit)
    (hN : dst.view.dmaCredit = N := by rfl) :
    iprop(cellInv ER (ringRd m) κ (recvCell c d) ∗ cred (tallyAt (recvCell c d) () N) ∗ owes (c : Thread nD τ) 0 W
        ∗ atPos ER (recvCell c d) 0 ∅ 0)
      ⊢ iprop((((∃ W', owes (c : Thread nD τ) 0 W') ∗ slotPts c d fullShare (gathered m c) ∗ semVal (recvCell c d) 0)
              -∗ wp frame (wpE (defs₀ (F := F)) Variants.none (c : Thread nD τ) none) Set.univ (k ⟨⟩) Q)
          -∗ wp frame (wpE (defs₀ (F := F)) Variants.none (c : Thread nD τ) none) Set.univ
              (.op (.waitDma2 (recvS d) src dst hsrc hdst) k) Q) := by
  iintro ⟨#HI, Hc, HO, Hat⟩ Hk
  iapply (Rounds.wp_wait_rest_token Variants.none ER (ringRd m) (c : Thread nD τ) none (κ := κ)
      (fun K => (wpE_waitDma2_eq Variants.none (c : Thread nD τ) none Set.univ K).trans (by rw [hN]))
      (Set.mem_univ _) () (O := 0) (W := W) (R := 0) (m := 0) (T := ∅)
      (by rw [Nat.zero_add, expect_recv m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hslot := (Entails.of_eq (rest_recv m c d hd)) $$ Hpay
  imod (Rounds.cell_close ER (ringRd m) (Set.mem_univ κ) (fun h => h) (R := 0 + 1) (duties_later m (recvCell c d))) $$ [Hat] with Hz
  · isplitr; · iexact HI
    iexact Hat
  iapply Hk
  isplitl [HO]; · iexists _; iexact HO
  isplitl [Hslot]; · iexact Hslot
  iexact Hz

/-- The wait on the send cell `d`: the share of slot 0 lent to copy `d` comes back, and the cell's counter at zero. -/
theorem wp_wait_send (c : Dev nD) (d : Fin 32) (hd : d ≠ 0) (κ : ℕ)
    {src dst : Memref sig .tc .vmem S2x1024 .bf16} {hsrc : src.view.WordExact} {hdst : dst.view.WordExact}
    {α : Type} {Q : α → sProp 𝕄} {k : PUnit → Prog (TpuEff nD τ sig (Elt F) Λ₀ .tc) α} (W : Waits sig Unit)
    (hN : dst.view.dmaCredit = N := by rfl) :
    iprop(cellInv ER (ringRd m) κ (sendCell c d) ∗ cred (tallyAt (sendCell c d) () N) ∗ owes (c : Thread nD τ) 0 W
        ∗ atPos ER (sendCell c d) 0 ∅ 0)
      ⊢ iprop((((∃ W', owes (c : Thread nD τ) 0 W') ∗ slotPts c 0 (lentShare d) (gathered m c) ∗ semVal (sendCell c d) 0)
              -∗ wp frame (wpE (defs₀ (F := F)) Variants.none (c : Thread nD τ) none) Set.univ (k ⟨⟩) Q)
          -∗ wp frame (wpE (defs₀ (F := F)) Variants.none (c : Thread nD τ) none) Set.univ
              (.op (.waitDma2 (sendS d) src dst hsrc hdst) k) Q) := by
  iintro ⟨#HI, Hc, HO, Hat⟩ Hk
  iapply (Rounds.wp_wait_rest_token Variants.none ER (ringRd m) (c : Thread nD τ) none (κ := κ)
      (fun K => (wpE_waitDma2_eq Variants.none (c : Thread nD τ) none Set.univ K).trans (by rw [hN]))
      (Set.mem_univ _) () (O := 0) (W := W) (R := 0) (m := 0) (T := ∅)
      (by rw [Nat.zero_add, expect_send m c d hd])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hslot := (Entails.of_eq (rest_send m c d hd)) $$ Hpay
  imod (Rounds.cell_close ER (ringRd m) (Set.mem_univ κ) (fun h => h) (R := 0 + 1) (duties_later m (sendCell c d))) $$ [Hat] with Hz
  · isplitr; · iexact HI
    iexact Hat
  iapply Hk
  isplitl [HO]; · iexists _; iexact HO
  isplitl [Hslot]; · iexact Hslot
  iexact Hz

/-- info: 'Cert.Kernel.Proto.wp_wait_recv' depends on axioms: [propext, Classical.choice, Quot.sound] -/
#guard_msgs in #print axioms wp_wait_recv
/-- info: 'Cert.Kernel.Proto.wp_wait_send' depends on axioms: [propext, Classical.choice, Quot.sound] -/
#guard_msgs in #print axioms wp_wait_send

end Cert.Kernel.Proto

end
-- ==== Proof.KSlot0Rule.lean ====
/-
  A device writes its own two rows into slot 0 of its gather buffer, through the whole buffer, while it holds
  slot 0 only: the other 31 slots have just been handed to the devices that will fill them.

  * A load or a store through the whole 32 × 2 × 1024 buffer at a rectangle whose first coordinate is pinned to 0
    touches elements of slot 0 only (an element is in slot d exactly when its first coordinate is d), so holding
    slot 0 is enough: the rules for a load and a store ask for the elements accessed, not for the buffer.
  * A store of one row of a two-row block is two steps: the block's words are loaded, the row is put in its place
    among them, the words are stored. Doing this for row 0 and then for row 1 leaves the block holding the first
    row in row 0 and the second in row 1, whatever it held before.
  * Row 0 is the device's row sums and row 1 its row sums of squares; the final contents of the buffer hold in
    slot s the two rows of the device s places before, and 0 places before a device is the device itself. So after
    the two stores slot 0 holds the final contents.
-/
import proofs.«900824_g7700000000000825_dist_layernorm_colshard_i_m1024_n512_v7x_i32_bf16_1_alg».proof.Proof.KProto
import proofs.«900824_g7700000000000825_dist_layernorm_colshard_i_m1024_n512_v7x_i32_bf16_1_alg».proof.Proof.KShares
import Idealize.ShloMosaic.Rules.Step
import Idealize.ShloMosaic.Rules.PointsTo
import Idealize.ShloMosaic.Lib.ValueIdx
import Mathlib.Order.Interval.Finset.Nat
import Mathlib.Algebra.Order.Interval.Finset.Basic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## Rectangles of the gather buffer that lie in slot 0 -/

/-- A unit-stride rectangle of the buffer whose first coordinate is pinned to 0 lies in slot 0. -/
theorem setOn_unit_subset_slot0 (off size : Fin 3 → ℕ) (inb : ∀ a, off a + size a ≤ S32x2x1024.size a)
    (h0 : off 0 = 0) (h1 : size 0 = 1) :
    (commM.view.setOn (Rect.unit (s := S32x2x1024) off size inb).toLoadRect.set : Finset S32x2x1024.Idx) ⊆ slotSet 0 := by
  intro i hi
  obtain ⟨x, hx, rfl⟩ := Finset.mem_map.mp hi
  have hx0 := (Rect.mem_set_unit.mp hx) (0 : Fin 3)
  refine (mem_slotSet 0 _).mpr ?_
  show (x (0 : Fin 3)).val = 0
  omega

/-! ## A load through the whole buffer while only slot 0 is held -/

theorem wp_load_slot0 (c : Dev nD) (q : PosShare TreeShare) (f : Buf (Elt F) ((c : Thread nD τ).loc cc0_scratch0))
    {r : LoadRect S32x2x1024} {hl : commM.view.LoadsAt r} {α : Type} {Q : α → sProp 𝕄}
    {k : (r.shape.Idx → Elt F .bf16) → Prog (TpuEff nD τ sig (Elt F) Λ₀ .tc) α}
    (hr : (commM.view.setOn r.set : Finset S32x2x1024.Idx) ⊆ slotSet 0) :
    (slotPts c 0 q f : sProp 𝕄)
      ⊢ iprop((slotPts c 0 q f -∗ wp frame (wpE (defs₀ (F := F)) Variants.none (c : Thread nD τ) none) Set.univ (k (commM.view.readAt (Elt F) r f)) Q)
          -∗ wp frame (wpE (defs₀ (F := F)) Variants.none (c : Thread nD τ) none) Set.univ (.op (.load commM r hl) k) Q) := by
  unfold slotPts
  exact wp_load Variants.none (c : Thread nD τ) none Set.univ (m := commM) (S := slotSet 0) hr

/-- The elements a store through the same kind of rectangle touches lie in slot 0 as well. -/
theorem access_unit_subset_slot0 (off size : Fin 3 → ℕ) (inb : ∀ a, off a + size a ≤ S32x2x1024.size a)
    (h0 : off 0 = 0) (h1 : size 0 = 1) :
    ((commM.access (Rect.unit (s := S32x2x1024) off size inb)).setOn Finset.univ : Finset S32x2x1024.Idx) ⊆ slotSet 0 := by
  intro i hi
  obtain ⟨y, -, rfl⟩ := Finset.mem_map.mp hi
  refine (mem_slotSet 0 _).mpr ?_
  have hy : (y (0 : Fin 3)).val < size 0 := (y (0 : Fin 3)).isLt
  show ((Rect.unit (s := S32x2x1024) off size inb).emb y (0 : Fin 3) : ℕ) = 0
  rw [Rect.emb_apply]
  have e1 : (Rect.unit (s := S32x2x1024) off size inb).off (0 : Fin 3) = off 0 := rfl
  have e2 : (Rect.unit (s := S32x2x1024) off size inb).stride (0 : Fin 3) = 1 := rfl
  rw [e1, e2, h0]
  omega

/-! ## A store into slot 0 through the whole buffer -/

theorem wp_store_slot0 (c : Dev nD) (f : Buf (Elt F) ((c : Thread nD τ).loc cc0_scratch0))
    {off size : Fin 3 → ℕ} {inb : ∀ a, off a + size a ≤ S32x2x1024.size a} (h0 : off 0 = 0) (h1 : size 0 = 1)
    {w : (Rect.unit (s := S32x2x1024) off size inb).shape.Idx → Elt F .bf16}
    {hs : (commM.access (Rect.unit (s := S32x2x1024) off size inb)).Stores Finset.univ}
    {hm : (Finset.univ : Finset (Rect.unit (s := S32x2x1024) off size inb).shape.Idx) = Finset.univ
      ∨ ∀ a, (Rect.unit (s := S32x2x1024) off size inb).stride a = 1}
    {α : Type} {Q : α → sProp 𝕄} {k : PUnit → Prog (TpuEff nD τ sig (Elt F) Λ₀ .tc) α} :
    (slotPts c 0 fullShare f : sProp 𝕄)
      ⊢ iprop((slotPts c 0 fullShare ((commM.access (Rect.unit (s := S32x2x1024) off size inb)).write (Elt F) f w Finset.univ)
              -∗ wp frame (wpE (defs₀ (F := F)) Variants.none (c : Thread nD τ) none) Set.univ (k ⟨⟩) Q)
          -∗ wp frame (wpE (defs₀ (F := F)) Variants.none (c : Thread nD τ) none) Set.univ
              (.op (.store commM (Rect.unit (s := S32x2x1024) off size inb) w Finset.univ hs hm) k) Q) := by
  unfold slotPts
  exact wp_store Variants.none (c : Thread nD τ) none Set.univ (m := commM) (r := Rect.unit (s := S32x2x1024) off size inb)
    (S := slotSet 0) (access_unit_subset_slot0 off size inb h0 h1)

/-! ## A store of rows that are part of their words: the words loaded, blended, stored -/

theorem wp_storeSub_slot0 (c : Dev nD) (f : Buf (Elt F) ((c : Thread nD τ).loc cc0_scratch0))
    {inb : ∀ a, (![0, 0, 0] : Fin 3 → ℕ) a + S1x2x1024.size a ≤ S32x2x1024.size a}
    {w : ((Rect.unit (s := S32x2x1024) ![0, 0, 0] S1x2x1024.size inb).shape.Idx → Elt F .bf16)
      → ((Rect.unit (s := S32x2x1024) ![0, 0, 0] S1x2x1024.size inb).shape.Idx → Elt F .bf16)}
    {hl : commM.view.LoadsAt (Rect.unit (s := S32x2x1024) ![0, 0, 0] S1x2x1024.size inb).toLoadRect}
    {hs : (commM.access (Rect.unit (s := S32x2x1024) ![0, 0, 0] S1x2x1024.size inb)).Stores Finset.univ}
    {α : Type} {Q : α → sProp 𝕄} {k : PUnit → Prog (TpuEff nD τ sig (Elt F) Λ₀ .tc) α} :
    (slotPts c 0 fullShare f : sProp 𝕄)
      ⊢ iprop((slotPts c 0 fullShare ((commM.access (Rect.unit (s := S32x2x1024) ![0, 0, 0] S1x2x1024.size inb)).write (Elt F) f
                (w (commM.view.readAt (Elt F) (Rect.unit (s := S32x2x1024) ![0, 0, 0] S1x2x1024.size inb).toLoadRect f)) Finset.univ)
              -∗ wp frame (wpE (defs₀ (F := F)) Variants.none (c : Thread nD τ) none) Set.univ (k ⟨⟩) Q)
          -∗ wp frame (wpE (defs₀ (F := F)) Variants.none (c : Thread nD τ) none) Set.univ
              (.op (.load commM (Rect.unit (s := S32x2x1024) ![0, 0, 0] S1x2x1024.size inb).toLoadRect hl) fun old =>
                .op (.store commM (Rect.unit (s := S32x2x1024) ![0, 0, 0] S1x2x1024.size inb) (w old) Finset.univ hs (.inl rfl)) fun _ => k ⟨⟩) Q) := by
  iintro Hs Hk
  iapply (wp_load_slot0 c fullShare f (hl := hl) (setOn_unit_subset_slot0 _ _ inb rfl rfl)) $$ Hs
  iintro Hs
  iapply (wp_store_slot0 c f (inb := inb) rfl rfl) $$ Hs
  iexact Hk

/-! ## The value: after both stores slot 0 holds the device's own two rows -/

/-- A block of two rows with row 0 replaced, then row 1 replaced, reads the first replacement in row 0 and the second in row 1. -/
theorem blend_rows {α : Type} (o : S1x2x1024.Idx → α) (p2 p3 : S1x1x1024.Idx → α)
    (h0 : S1x2x1024.Slices ![0, 0, 0] S1x1x1024) (h1 : S1x2x1024.Slices ![0, 1, 0] S1x1x1024) (y : S1x2x1024.Idx) :
    updateSlice (updateSlice o p2 ![0, 0, 0] h0) p3 ![0, 1, 0] h1 y
      = if (y (1 : Fin 3)).val = 0 then p2 (ValueIdx.ix3 0 0 (y (2 : Fin 3))) else p3 (ValueIdx.ix3 0 0 (y (2 : Fin 3))) := by
  have hy0 : (y (0 : Fin 3)).val = 0 := by have := (y (0 : Fin 3)).isLt; change _ < 1 at this; omega
  have hy1 : (y (1 : Fin 3)).val < 2 := (y (1 : Fin 3)).isLt
  have hy2 : (y (2 : Fin 3)).val < 1024 := (y (2 : Fin 3)).isLt
  by_cases hy : (y (1 : Fin 3)).val = 0
  · rw [if_pos hy]
    unfold updateSlice
    rw [dif_neg (fun h => by have := (h (1 : Fin 3)).1; change 1 ≤ (y (1 : Fin 3)).val at this; omega)]
    rw [dif_pos (fun a => by
      match a with
      | ⟨0, _⟩ => exact ⟨Nat.zero_le _, by change (y (0 : Fin 3)).val < 0 + 1; omega⟩
      | ⟨1, _⟩ => exact ⟨Nat.zero_le _, by change (y (1 : Fin 3)).val < 0 + 1; omega⟩
      | ⟨2, _⟩ => exact ⟨Nat.zero_le _, by change (y (2 : Fin 3)).val < 0 + 1024; omega⟩)]
    refine congrArg p2 (funext fun b => Fin.ext ?_)
    match b with
    | ⟨0, _⟩ => change (y (0 : Fin 3)).val - 0 = 0; omega
    | ⟨1, _⟩ => change (y (1 : Fin 3)).val - 0 = 0; omega
    | ⟨2, _⟩ => change (y (2 : Fin 3)).val - 0 = (y (2 : Fin 3)).val; omega
  · rw [if_neg hy]
    unfold updateSlice
    rw [dif_pos (fun a => by
      match a with
      | ⟨0, _⟩ => exact ⟨Nat.zero_le _, by change (y (0 : Fin 3)).val < 0 + 1; omega⟩
      | ⟨1, _⟩ => exact ⟨by change 1 ≤ (y (1 : Fin 3)).val; omega, by change (y (1 : Fin 3)).val < 1 + 1; omega⟩
      | ⟨2, _⟩ => exact ⟨Nat.zero_le _, by change (y (2 : Fin 3)).val < 0 + 1024; omega⟩)]
    refine congrArg p3 (funext fun b => Fin.ext ?_)
    match b with
    | ⟨0, _⟩ => change (y (0 : Fin 3)).val - 0 = 0; omega
    | ⟨1, _⟩ => change (y (1 : Fin 3)).val - 1 = 0; omega
    | ⟨2, _⟩ => change (y (2 : Fin 3)).val - 0 = (y (2 : Fin 3)).val; omega

omit [FloatOps F] in
/-- The words of slot 0 after the two blended stores, at an index of the two-row block. -/
theorem stored2_apply {inb : ∀ a, (![0, 0, 0] : Fin 3 → ℕ) a + S1x2x1024.size a ≤ S32x2x1024.size a}
    (f0 : (commM.access (Rect.unit (s := S32x2x1024) ![0, 0, 0] S1x2x1024.size inb)).ty.Contents (Elt F))
    (p2 p3 : S1x1x1024.Idx → Elt F .bf16)
    (sl0 : S1x2x1024.Slices ![0, 0, 0] S1x1x1024) (sl1 : S1x2x1024.Slices ![0, 1, 0] S1x1x1024) (y : S1x2x1024.Idx) :
    (commM.access (Rect.unit (s := S32x2x1024) ![0, 0, 0] S1x2x1024.size inb)).write (Elt F)
        ((commM.access (Rect.unit (s := S32x2x1024) ![0, 0, 0] S1x2x1024.size inb)).write (Elt F) f0
          (updateSlice (commM.view.readAt (Elt F) (Rect.unit (s := S32x2x1024) ![0, 0, 0] S1x2x1024.size inb).toLoadRect f0) p2 ![0, 0, 0] sl0) Finset.univ)
        (updateSlice (commM.view.readAt (Elt F) (Rect.unit (s := S32x2x1024) ![0, 0, 0] S1x2x1024.size inb).toLoadRect
          ((commM.access (Rect.unit (s := S32x2x1024) ![0, 0, 0] S1x2x1024.size inb)).write (Elt F) f0
            (updateSlice (commM.view.readAt (Elt F) (Rect.unit (s := S32x2x1024) ![0, 0, 0] S1x2x1024.size inb).toLoadRect f0) p2 ![0, 0, 0] sl0) Finset.univ))
          p3 ![0, 1, 0] sl1) Finset.univ
        ((commM.access (Rect.unit (s := S32x2x1024) ![0, 0, 0] S1x2x1024.size inb)).emb y)
      = if (y (1 : Fin 3)).val = 0 then p2 (ValueIdx.ix3 0 0 (y (2 : Fin 3))) else p3 (ValueIdx.ix3 0 0 (y (2 : Fin 3))) := by
  rw [View.write_emb_of_mem _ _ (Finset.mem_univ y), View.readAt_rect, View.readAt_rect]
  rw [View.read_write_univ, blend_rows]
  exact cast_eq _ _

variable (m : (ℓ : Loc nD τ sig) → Buf (Elt F) ℓ)

/-- The final contents at an element of the two-row block at slot 0: the device's own row sums (row 0) or row sums of
    squares (row 1), because the device 0 places before a device is the device. -/
theorem gathered_block0 (c : Dev nD) {inb : ∀ a, (![0, 0, 0] : Fin 3 → ℕ) a + S1x2x1024.size a ≤ S32x2x1024.size a}
    (y : S1x2x1024.Idx) :
    gathered m c ((commM.access (Rect.unit (s := S32x2x1024) ![0, 0, 0] S1x2x1024.size inb)).emb y)
      = if (y (1 : Fin 3)).val = 0 then k0_pay2 (xblk m c) (ValueIdx.ix3 0 0 (y (2 : Fin 3)))
        else k0_pay3 (xblk m c) (ValueIdx.ix3 0 0 (y (2 : Fin 3))) := by
  have hy0 : (y (0 : Fin 3)).val = 0 := by have := (y (0 : Fin 3)).isLt; change _ < 1 at this; omega
  generalize hi : ((commM.access (Rect.unit (s := S32x2x1024) ![0, 0, 0] S1x2x1024.size inb)).emb y : S32x2x1024.Idx) = i
  have h0 : (i (0 : Fin 3)).val = 0 := by rw [← hi]; show 0 + 1 * (y (0 : Fin 3)).val = 0; omega
  have h1 : (i (1 : Fin 3)).val = (y (1 : Fin 3)).val := by rw [← hi]; show 0 + 1 * (y (1 : Fin 3)).val = _; omega
  have h2 : (i (2 : Fin 3)).val = (y (2 : Fin 3)).val := by rw [← hi]; show 0 + 1 * (y (2 : Fin 3)).val = _; omega
  have e0 : (⟨(i (0 : Fin 3)).val, (i (0 : Fin 3)).isLt⟩ : Fin 32) = 0 := Fin.ext h0
  have e2 : (⟨(i (2 : Fin 3)).val, (i (2 : Fin 3)).isLt⟩ : Fin 1024) = y (2 : Fin 3) := Fin.ext h2
  show gathered m c i = _
  unfold gathered
  rw [e0, e2, h1, orig_at_zero]

/-- After the two blended stores slot 0 holds, on its own elements, the final contents of the buffer. -/
theorem slot0_stored (c : Dev nD) (f0 : Buf (Elt F) ((c : Thread nD τ).loc cc0_scratch0))
    {inb : ∀ a, (![0, 0, 0] : Fin 3 → ℕ) a + S1x2x1024.size a ≤ S32x2x1024.size a}
    (sl0 : S1x2x1024.Slices ![0, 0, 0] S1x1x1024) (sl1 : S1x2x1024.Slices ![0, 1, 0] S1x1x1024) :
    (slotPts c 0 fullShare
      ((commM.access (Rect.unit (s := S32x2x1024) ![0, 0, 0] S1x2x1024.size inb)).write (Elt F)
        ((commM.access (Rect.unit (s := S32x2x1024) ![0, 0, 0] S1x2x1024.size inb)).write (Elt F) f0
          (updateSlice (commM.view.readAt (Elt F) (Rect.unit (s := S32x2x1024) ![0, 0, 0] S1x2x1024.size inb).toLoadRect f0)
            (k0_pay2 (xblk m c)) ![0, 0, 0] sl0) Finset.univ)
        (updateSlice (commM.view.readAt (Elt F) (Rect.unit (s := S32x2x1024) ![0, 0, 0] S1x2x1024.size inb).toLoadRect
          ((commM.access (Rect.unit (s := S32x2x1024) ![0, 0, 0] S1x2x1024.size inb)).write (Elt F) f0
            (updateSlice (commM.view.readAt (Elt F) (Rect.unit (s := S32x2x1024) ![0, 0, 0] S1x2x1024.size inb).toLoadRect f0)
              (k0_pay2 (xblk m c)) ![0, 0, 0] sl0) Finset.univ))
          (k0_pay3 (xblk m c)) ![0, 1, 0] sl1) Finset.univ) : sProp 𝕄)
      = slotPts c 0 fullShare (gathered m c) := by
  unfold slotPts
  refine pointsTo_congr fun i hi => ?_
  obtain ⟨x, -, rfl⟩ := Finset.mem_map.mp hi
  exact (stored2_apply (inb := inb) f0 (k0_pay2 (xblk m c)) (k0_pay3 (xblk m c)) sl0 sl1
      (Shape.reshapeEquiv squeezes_S1x2x1024_S2x1024.numel_eq x)).trans
    (gathered_block0 m c (inb := inb) (Shape.reshapeEquiv squeezes_S1x2x1024_S2x1024.numel_eq x)).symm

/-! ## The block of x, read whole -/

omit [FloatOps F] in
/-- A load of the whole staged block of x reads the block. -/
theorem read_xblk (c : Dev nD) {inbx : ∀ a, (![0, 0] : Fin 2 → ℕ) a + S1024x512.size a ≤ S1024x512.size a} :
    xM.view.readAt (Elt F) (Rect.unit (s := S1024x512) ![0, 0] S1024x512.size inbx).toLoadRect (xblk m c) = xblk m c :=
  Memref.readAt_unit_zero (Elt F) cc0_stg0_0 (funext fun a => by fin_cases a <;> rfl) _ _

/-! ## The same rules against programs written with binds -/

theorem wp_load_slot0_bind (c : Dev nD) (q : PosShare TreeShare) (f : Buf (Elt F) ((c : Thread nD τ).loc cc0_scratch0))
    {r : LoadRect S32x2x1024} {hl : commM.view.LoadsAt r} {α : Type} {Q : α → sProp 𝕄}
    {k : (r.shape.Idx → Elt F .bf16) → Prog (TpuEff nD τ sig (Elt F) Λ₀ .tc) α}
    (hr : (commM.view.setOn r.set : Finset S32x2x1024.Idx) ⊆ slotSet 0) :
    (slotPts c 0 q f : sProp 𝕄)
      ⊢ iprop((slotPts c 0 q f -∗ wp frame (wpE (defs₀ (F := F)) Variants.none (c : Thread nD τ) none) Set.univ (k (commM.view.readAt (Elt F) r f)) Q)
          -∗ wp frame (wpE (defs₀ (F := F)) Variants.none (c : Thread nD τ) none) Set.univ (Prog.lift (.load commM r hl) >>= k) Q) :=
  wp_load_slot0 c q f hr

theorem wp_storeSub_slot0_bind (c : Dev nD) (f : Buf (Elt F) ((c : Thread nD τ).loc cc0_scratch0))
    {inb : ∀ a, (![0, 0, 0] : Fin 3 → ℕ) a + S1x2x1024.size a ≤ S32x2x1024.size a}
    {w : ((Rect.unit (s := S32x2x1024) ![0, 0, 0] S1x2x1024.size inb).shape.Idx → Elt F .bf16)
      → ((Rect.unit (s := S32x2x1024) ![0, 0, 0] S1x2x1024.size inb).shape.Idx → Elt F .bf16)}
    {hl : commM.view.LoadsAt (Rect.unit (s := S32x2x1024) ![0, 0, 0] S1x2x1024.size inb).toLoadRect}
    {hs : (commM.access (Rect.unit (s := S32x2x1024) ![0, 0, 0] S1x2x1024.size inb)).Stores Finset.univ}
    {α : Type} {Q : α → sProp 𝕄} {k : PUnit → Prog (TpuEff nD τ sig (Elt F) Λ₀ .tc) α} :
    (slotPts c 0 fullShare f : sProp 𝕄)
      ⊢ iprop((slotPts c 0 fullShare ((commM.access (Rect.unit (s := S32x2x1024) ![0, 0, 0] S1x2x1024.size inb)).write (Elt F) f
                (w (commM.view.readAt (Elt F) (Rect.unit (s := S32x2x1024) ![0, 0, 0] S1x2x1024.size inb).toLoadRect f)) Finset.univ)
              -∗ wp frame (wpE (defs₀ (F := F)) Variants.none (c : Thread nD τ) none) Set.univ (k ⟨⟩) Q)
          -∗ wp frame (wpE (defs₀ (F := F)) Variants.none (c : Thread nD τ) none) Set.univ
              (storeSubelements commM (Rect.unit (s := S32x2x1024) ![0, 0, 0] S1x2x1024.size inb) w hl hs >>= k) Q) :=
  wp_storeSub_slot0 c f (w := w)

/-! ## The whole fragment: two dead loads and the two stores of the device's own rows -/

theorem wp_slot0_rows (c : Dev nD) (f : Buf (Elt F) ((c : Thread nD τ).loc cc0_scratch0))
    (X : Vec F S1024x512 .f32) (hX : X = xblk m c)
    {inb1 : ∀ a, (![0, 0, 0] : Fin 3 → ℕ) a + S1x1x1024.size a ≤ S32x2x1024.size a}
    {inb2 : ∀ a, (![0, 1, 0] : Fin 3 → ℕ) a + S1x1x1024.size a ≤ S32x2x1024.size a}
    {inb : ∀ a, (![0, 0, 0] : Fin 3 → ℕ) a + S1x2x1024.size a ≤ S32x2x1024.size a}
    {sl0 : S1x2x1024.Slices ![0, 0, 0] S1x1x1024} {sl1 : S1x2x1024.Slices ![0, 1, 0] S1x1x1024}
    {hl1 : commM.view.LoadsAt (Rect.unit (s := S32x2x1024) ![0, 0, 0] S1x1x1024.size inb1).toLoadRect}
    {hl2 : commM.view.LoadsAt (Rect.unit (s := S32x2x1024) ![0, 1, 0] S1x1x1024.size inb2).toLoadRect}
    {hl : commM.view.LoadsAt (Rect.unit (s := S32x2x1024) ![0, 0, 0] S1x2x1024.size inb).toLoadRect}
    {hs : (commM.access (Rect.unit (s := S32x2x1024) ![0, 0, 0] S1x2x1024.size inb)).Stores Finset.univ}
    {α : Type} {Q : α → sProp 𝕄} (rest : Prog (TpuEff nD τ sig (Elt F) Λ₀ .tc) α) :
    (slotPts c 0 fullShare f : sProp 𝕄)
      ⊢ iprop((slotPts c 0 fullShare (gathered m c)
              -∗ wp frame (wpE (defs₀ (F := F)) Variants.none (c : Thread nD τ) none) Set.univ rest Q)
          -∗ wp frame (wpE (defs₀ (F := F)) Variants.none (c : Thread nD τ) none) Set.univ
              (Prog.op (TpuEff.load commM (Rect.unit (s := S32x2x1024) ![0, 0, 0] S1x1x1024.size inb1).toLoadRect hl1)
                fun (v411 : Vec F S1x1x1024 .bf16) => do
                  storeSubelements commM (Rect.unit (s := S32x2x1024) ![0, 0, 0] S1x2x1024.size inb)
                    (fun old => updateSlice old (k0_pay2 X) ![0, 0, 0] sl0) hl hs
                  let v417 : Vec F S1x1x1024 .bf16 ← Prog.lift (TpuEff.load commM (Rect.unit (s := S32x2x1024) ![0, 1, 0] S1x1x1024.size inb2).toLoadRect hl2)
                  storeSubelements commM (Rect.unit (s := S32x2x1024) ![0, 0, 0] S1x2x1024.size inb)
                    (fun old => updateSlice old (k0_pay3 X) ![0, 1, 0] sl1) hl hs
                  rest) Q) := by
  subst hX
  iintro Hs Hk
  iapply (wp_load_slot0 c fullShare f (hl := hl1) (setOn_unit_subset_slot0 _ _ inb1 rfl rfl)) $$ Hs
  iintro Hs
  iapply (wp_storeSub_slot0_bind c f (inb := inb) (hl := hl) (hs := hs)
    (w := fun old => updateSlice old (k0_pay2 (xblk m c)) ![0, 0, 0] sl0)) $$ Hs
  iintro Hs
  iapply (wp_load_slot0_bind c fullShare _ (hl := hl2) (setOn_unit_subset_slot0 _ _ inb2 rfl rfl)) $$ Hs
  iintro Hs
  iapply (wp_storeSub_slot0_bind c _ (inb := inb) (hl := hl) (hs := hs)
    (w := fun old => updateSlice old (k0_pay3 (xblk m c)) ![0, 1, 0] sl1)) $$ Hs
  rw [slot0_stored m c f sl0 sl1]
  iexact Hk

/-- info: 'Cert.Kernel.Proto.wp_load_slot0' depends on axioms: [propext, Classical.choice, Quot.sound] -/
#guard_msgs in #print axioms wp_load_slot0

/-- info: 'Cert.Kernel.Proto.wp_store_slot0' depends on axioms: [propext, Classical.choice, Quot.sound] -/
#guard_msgs in #print axioms wp_store_slot0

/-- info: 'Cert.Kernel.Proto.wp_storeSub_slot0' depends on axioms: [propext, Classical.choice, Quot.sound] -/
#guard_msgs in #print axioms wp_storeSub_slot0

/-- info: 'Cert.Kernel.Proto.slot0_stored' depends on axioms: [propext, Classical.choice, Quot.sound] -/
#guard_msgs in #print axioms slot0_stored

/-- info: 'Cert.Kernel.Proto.wp_slot0_rows' depends on axioms: [propext, Classical.choice, Quot.sound] -/
#guard_msgs in #print axioms wp_slot0_rows

end Cert.Kernel.Proto

end
-- ==== Proof.KBodyLemmas.lean ====
/-
  Small facts the body's stages use: folded conjunctions taken apart and put together, reversed and turned back into
  conjunctions over the set of offsets; the evidence that the wait on the own barrier cell is below what is still owed.
-/
import proofs.«900824_g7700000000000825_dist_layernorm_colshard_i_m1024_n512_v7x_i32_bf16_1_alg».proof.Proof.KBodyDefs

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- One more conjunct in front of a folded conjunction, whatever its length. -/
theorem chain_cons_intro (i : Fin 32) (l : List (Fin 32)) (Φ : Fin 32 → sProp 𝕄) : iprop(Φ i ∗ chain l Φ) ⊢ chain (i :: l) Φ := by
  cases l with
  | nil => exact (sep_emp (PROP := sProp 𝕄)).1
  | cons j l => exact Entails.of_eq rfl

omit [FloatOps F] in
/-- The empty conjunction, to start a pile from. -/
theorem chain_nil_intro (Φ : Fin 32 → sProp 𝕄) : (BI.emp : sProp 𝕄) ⊢ chain [] Φ := Entails.of_eq rfl

omit [FloatOps F] in
theorem chain_eq_bigSep (l : List (Fin 32)) (hl : l.Nodup) (Φ : Fin 32 → sProp 𝕄) : chain l Φ = bigSep l.toFinset Φ := by
  rw [← bigSepL_eq_chain, ← bigSep_eq_bigSepL l hl Φ]

/-- The offsets 31 … 1: the order in which a stage's results pile up when each is put in front. -/
abbrev offLr : List (Fin 32) := [31, 30, 29, 28, 27, 26, 25, 24, 23, 22, 21, 20, 19, 18, 17, 16, 15, 14, 13, 12, 11, 10, 9, 8, 7, 6, 5, 4, 3, 2, 1]
theorem offs_eq_r : offs = offLr.toFinset := by decide
theorem offLr_nodup : offLr.Nodup := by decide

omit [FloatOps F] in
/-- A pile in reverse order is the conjunction over the offsets. -/
theorem chain_offLr (Φ : Fin 32 → sProp 𝕄) : chain offLr Φ = bigSep offs Φ := by
  rw [chain_eq_bigSep offLr offLr_nodup Φ, ← offs_eq_r]
omit [FloatOps F] in
theorem chain_offL (Φ : Fin 32 → sProp 𝕄) : chain offL Φ = bigSep offs Φ := (bigSep_offs_chain Φ).symm

omit [FloatOps F] in
/-- Waiting on the own barrier cell is allowed while only the 31 landings are owed. -/
theorem mayWait_bar_owesL (c : Dev nD) :
    (levAts L lv : sProp 𝕄) ⊢ MayWait (c : Thread nD τ) (.reg barS) () (owesL (recvOwe c) 0 offL) := by
  rw [owesL_eq_sum, add_zero, ← Obar_chain]; exact mayWait_bar c

end Cert.Kernel.Proto

end
-- ==== Proof.KReadWrite.lean ====
/-
  Reading a whole buffer reads its contents; writing a whole buffer unmasked leaves the payload.

  The compute stage of the body loads the whole gather buffer, the whole blocks of the scale and of the shift, and
  stores the whole output block. Each of these accesses is through the rectangle of the buffer's own sizes at zero
  offsets, which is the whole buffer: the load returns the contents and the store replaces them.
-/
import proofs.«900824_g7700000000000825_dist_layernorm_colshard_i_m1024_n512_v7x_i32_bf16_1_alg».proof.Proof.KProto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

omit [FloatOps F] in
/-- A load of the whole gather buffer reads its contents. -/
theorem read_comm (c : Dev nD) {inb : ∀ a, (![0, 0, 0] : Fin 3 → ℕ) a + S32x2x1024.size a ≤ S32x2x1024.size a}
    (f : Buf (Elt F) ((c : Thread nD τ).loc cc0_scratch0)) :
    commM.view.readAt (Elt F) (Rect.unit (s := S32x2x1024) ![0, 0, 0] S32x2x1024.size inb).toLoadRect f = f :=
  Memref.readAt_unit_zero (Elt F) cc0_scratch0 (funext fun a => by fin_cases a <;> rfl) _ _

omit [FloatOps F] in
/-- A load of the whole staged block of the scale reads the block. -/
theorem read_g (c : Dev nD) {inb : ∀ a, (![0] : Fin 1 → ℕ) a + S512.size a ≤ S512.size a}
    (f : Buf (Elt F) ((c : Thread nD τ).loc cc0_stg1_0)) :
    gM.view.readAt (Elt F) (Rect.unit (s := S512) ![0] S512.size inb).toLoadRect f = f :=
  Memref.readAt_unit_zero (Elt F) cc0_stg1_0 (funext fun a => by fin_cases a; rfl) _ _

omit [FloatOps F] in
/-- A load of the whole staged block of the shift reads the block. -/
theorem read_b (c : Dev nD) {inb : ∀ a, (![0] : Fin 1 → ℕ) a + S512.size a ≤ S512.size a}
    (f : Buf (Elt F) ((c : Thread nD τ).loc cc0_stg2_0)) :
    bM.view.readAt (Elt F) (Rect.unit (s := S512) ![0] S512.size inb).toLoadRect f = f :=
  Memref.readAt_unit_zero (Elt F) cc0_stg2_0 (funext fun a => by fin_cases a; rfl) _ _

omit [FloatOps F] in
/-- A load of the whole staged output block reads whatever it holds. -/
theorem read_o (c : Dev nD) {inb : ∀ a, (![0, 0] : Fin 2 → ℕ) a + S1024x512.size a ≤ S1024x512.size a}
    (f : Buf (Elt F) ((c : Thread nD τ).loc cc0_stg3_0)) :
    oM.view.readAt (Elt F) (Rect.unit (s := S1024x512) ![0, 0] S1024x512.size inb).toLoadRect f = f :=
  Memref.readAt_unit_zero (Elt F) cc0_stg3_0 (funext fun a => by fin_cases a <;> rfl) _ _

omit [FloatOps F] in
/-- An unmasked store over the whole staged output block leaves the payload. -/
theorem write_out (c : Dev nD) {inb : ∀ a, (![0, 0] : Fin 2 → ℕ) a + S1024x512.size a ≤ S1024x512.size a}
    (fo w : Buf (Elt F) ((c : Thread nD τ).loc cc0_stg3_0)) :
    ((oM.access (Rect.unit (s := S1024x512) ![0, 0] S1024x512.size inb)) : View sig .tc _ _ _).write (Elt F) fo w Finset.univ = w :=
  Memref.write_access_unit_zero_univ (Elt F) cc0_stg3_0 (funext fun a => by fin_cases a <;> rfl) _ _ _

/-- info: 'Cert.Kernel.Proto.read_comm' depends on axioms: [propext, Classical.choice, Quot.sound] -/
#guard_msgs in #print axioms read_comm

/-- info: 'Cert.Kernel.Proto.write_out' depends on axioms: [propext, Classical.choice, Quot.sound] -/
#guard_msgs in #print axioms write_out

end Cert.Kernel.Proto

end
-- ==== Proof.KBody.lean ====
/-
  The body of the distributed layer norm on one device, run stage by stage from the folded working precondition.
-/
import proofs.«900824_g7700000000000825_dist_layernorm_colshard_i_m1024_n512_v7x_i32_bf16_1_alg».proof.Proof.KBodyDefs
import proofs.«900824_g7700000000000825_dist_layernorm_colshard_i_m1024_n512_v7x_i32_bf16_1_alg».proof.Proof.KSignalRule
import proofs.«900824_g7700000000000825_dist_layernorm_colshard_i_m1024_n512_v7x_i32_bf16_1_alg».proof.Proof.KSendRule
import proofs.«900824_g7700000000000825_dist_layernorm_colshard_i_m1024_n512_v7x_i32_bf16_1_alg».proof.Proof.KWaitRules
import proofs.«900824_g7700000000000825_dist_layernorm_colshard_i_m1024_n512_v7x_i32_bf16_1_alg».proof.Proof.KBarrierRule
import proofs.«900824_g7700000000000825_dist_layernorm_colshard_i_m1024_n512_v7x_i32_bf16_1_alg».proof.Proof.KCloseRule
import proofs.«900824_g7700000000000825_dist_layernorm_colshard_i_m1024_n512_v7x_i32_bf16_1_alg».proof.Proof.KSlot0Rule
import proofs.«900824_g7700000000000825_dist_layernorm_colshard_i_m1024_n512_v7x_i32_bf16_1_alg».proof.Proof.KBodyLemmas
import proofs.«900824_g7700000000000825_dist_layernorm_colshard_i_m1024_n512_v7x_i32_bf16_1_alg».proof.Proof.KReadWrite

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]
local notation "𝕄" => MT nD τ sig Unit (Elt F) ℕ UU ℕ
variable (m : (ℓ : Loc nD τ sig) → Buf (Elt F) ℓ)

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq dev36_eq dev37_eq dev38_eq dev39_eq dev40_eq dev41_eq dev42_eq dev43_eq dev44_eq dev45_eq dev46_eq dev47_eq dev48_eq dev49_eq dev50_eq dev51_eq dev52_eq dev53_eq dev54_eq dev55_eq dev56_eq dev57_eq dev58_eq dev59_eq dev60_eq dev61_eq dev62_eq

open Lean Elab Tactic in
/-- `for_copies d from a to b => tac`: as `for_offs`; besides, in `tac` the identifier `copyDevEq` stands for the equation of
    the printed device chain of copy `d` (chain number `31 + d`) and `HcN` for a hypothesis name of copy `d`'s own. -/
elab "for_copies " x:ident " from " a:num " to " b:num " => " t:tacticSeq : tactic => do
  for i in [a.getNat : b.getNat + 1] do
    let lit := Syntax.mkNumLit (toString i)
    let eqn := mkIdent (Name.mkSimple s!"dev{i + 31}_eq")
    let hc := mkIdent (Name.mkSimple s!"Hc_{i}")
    let t' ← t.raw.replaceM fun s => do
      if s.isIdent && s.getId == x.getId then return some lit
      else if s.isIdent && s.getId == `copyDevEq then return some eqn
      else if s.isIdent && s.getId == `HcN then return some hc
      else return none
    evalTactic t'

/-- The send rule with the landing's credit first among what is owed, as the body's list of dues has it. -/
theorem wp_send_slot' (c n : Dev nD) (e : Fin 32) (he : e ≠ 0) (hn : n = peer c e) (κ₁ κ₂ : ℕ)
    {hsc : (slotM e : Memref sig (Dev.tc n : Thread nD τ).2.kind .vmem S2x1024 .bf16).view.ref.isScScratch = false}
    {hsrc : (slotM 0 : Memref sig .tc .vmem S2x1024 .bf16).view.WordExact} {hdst : (slotM e : Memref sig .tc .vmem S2x1024 .bf16).view.WordExact}
    {hsem : DmaTarget.Typed .vmem (.dma (recvS e)) (.remote (Dev.tc n : Thread nD τ) (slotM e) (.dma (sendS e)) hsc)}
    {α : Type} {Q : α → sProp 𝕄} {k : PUnit → Prog (TpuEff nD τ sig (Elt F) Λ₀ .tc) α}
    (fd : Buf (Elt F) ((peer c e : Thread nD τ).loc cc0_scratch0)) (O : CellTallies nD τ sig Unit) (W : Waits sig Unit) :
    iprop(cellInv ER (ringRd m) κ₁ (sendCell c e) ∗ cellInv ER (ringRd m) κ₂ (recvCell (peer c e) e)
        ∗ slotPts c 0 (lentShare e) (gathered m c) ∗ slotPts (peer c e) e fullShare fd
        ∗ owes (c : Thread nD τ) (tallyAt (recvCell (peer c e) e) () N + O) W
        ∗ dutyTok ER (sendCell c e) 0 0 ∗ reached ER (sendCell c e) 0
        ∗ dutyTok ER (recvCell (peer c e) e) 0 0 ∗ reached ER (recvCell (peer c e) e) 0)
      ⊢ iprop(((cred (tallyAt (sendCell c e) () N) ∗ owes (c : Thread nD τ) O W) -∗ wp frame (wpE (defs₀ (F := F)) Variants.none (c : Thread nD τ) none) Set.univ (k ⟨⟩) Q)
          -∗ wp frame (wpE (defs₀ (F := F)) Variants.none (c : Thread nD τ) none) Set.univ
              (.op (.enqueueDma (slotM 0) (.remote (Dev.tc n : Thread nD τ) (slotM e) (.dma (sendS e)) hsc) (.dma (recvS e)) hsrc hdst hsem) k) Q) := by
  rw [add_comm (tallyAt (recvCell (peer c e) e) () N) O]
  exact wp_send_slot m c n e he hn κ₁ κ₂ fd O W

/-- The output block as the run leaves it — one whole-array write of the body's arithmetic over what the loads read —
    is the normalised block. -/
theorem out_restate (c : Dev nD) (fo : Buf (Elt F) ((c : Thread nD τ).loc cc0_stg3_0))
    {inbo : ∀ a, (![0, 0] : Fin 2 → ℕ) a + S1024x512.size a ≤ S1024x512.size a}
    {inbx : ∀ a, (![0, 0] : Fin 2 → ℕ) a + S1024x512.size a ≤ S1024x512.size a}
    {inbc : ∀ a, (![0, 0, 0] : Fin 3 → ℕ) a + S32x2x1024.size a ≤ S32x2x1024.size a}
    {inbg : ∀ a, (![0] : Fin 1 → ℕ) a + S512.size a ≤ S512.size a} {inbb : ∀ a, (![0] : Fin 1 → ℕ) a + S512.size a ≤ S512.size a} :
    (heldAt oM c (oM.view.writes (Elt F) fo [⟨Rect.unit (s := S1024x512) ![0, 0] S1024x512.size inbo,
        k0_pay4 (k0_pay1 (xM.view.readAt (Elt F) (Rect.unit (s := S1024x512) ![0, 0] S1024x512.size inbx).toLoadRect (xblk m c)))
          (commM.view.readAt (Elt F) (Rect.unit (s := S32x2x1024) ![0, 0, 0] S32x2x1024.size inbc).toLoadRect (gathered m c))
          (gM.view.readAt (Elt F) (Rect.unit (s := S512) ![0] S512.size inbg).toLoadRect (gblk m c))
          (bM.view.readAt (Elt F) (Rect.unit (s := S512) ![0] S512.size inbb).toLoadRect (bblk m c))⟩]) : sProp 𝕄)
      ⊢ heldAt oM c (k0_pay4 (k0_pay1 (xblk m c)) (gathered m c) (gblk m c) (bblk m c)) := by
  rw [View.writes_singleton, read_xblk m c, read_comm c, read_g c, read_b c]
  exact Entails.of_eq (congrArg (fun X => (heldAt oM c X : sProp 𝕄)) (write_out c fo _))

set_option maxHeartbeats 4000000 in
theorem sound_body (K : Dev nD × Fin 63 → ℕ) (c : Dev nD) (f : Buf (Elt F) ((c : Thread nD τ).loc cc0_scratch0)) (W : Waits sig Unit) (Kt : PUnit → sProp 𝕄) :
    iprop(workPre m K c f W ∗ (workPost m c -∗ Kt ⟨⟩))
      ⊢ wp frame (wpE (defs₀ (F := F)) Variants.none c none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) cc0_scratch1 cc0_scratch2) Kt := by
  unfold workPre
  simp only [offL, chain, sigNeeds, sendNeeds, recvNeeds, departNeeds, barNeeds]
  iintro ⟨⟨Hsig, Hsend, Hrecv, Hdep, Hbar, #Hlev, Hidle, Hs0, HO, Hx, Hg, Hb, ⟨%fo, Ho⟩⟩, Hk⟩
  -- the 31 signals
  for_offs d from 1 to 30 =>
    sl_exec
    ihave Hsig := (aside_out _) $$ Hsig
    icases Hsig with ⟨⟨HI, Hr, Hv, Ht, Hsl⟩, Hsig⟩
    ihave Hsig := (aside_in _) $$ Hsig
    rw [owesL_cons]
    iapply (wp_signal_slot m c _ d (by decide) rfl _ _ _ _) $$ [HI Hr Hv Ht Hsl HO]
    · isplitl [HI]; · iexact HI
      isplitl [Hr]; · iexact Hr
      isplitl [Hv]; · iexact Hv
      isplitl [Ht]; · iexact Ht
      isplitl [Hsl]; · iexact Hsl
      iexact HO
    iintro HO
  for_offs d from 31 to 31 =>
    sl_exec
    ihave Hsig := (aside_out _) $$ Hsig
    icases Hsig with ⟨HI, Hr, Hv, Ht, Hsl⟩
    rw [owesL_cons]
    iapply (wp_signal_slot m c _ d (by decide) rfl _ _ _ _) $$ [HI Hr Hv Ht Hsl HO]
    · isplitl [HI]; · iexact HI
      isplitl [Hr]; · iexact Hr
      isplitl [Hv]; · iexact Hv
      isplitl [Ht]; · iexact Ht
      isplitl [Hsl]; · iexact Hsl
      iexact HO
    iintro HO
  sl_exec
  -- the two partial row sums into slot 0
  iapply (wp_slot0_rows m c f _ (read_xblk m c) _) $$ Hs0
  iintro Hs0
  sl_exec
  -- the wait for the 31 units on the own barrier cell
  ihave Hbar := (aside_out _) $$ Hbar
  icases Hbar with ⟨#HIb, Hcb, Hab⟩
  rw [owesL_nil]
  iapply (wp_wait_bar m c _ _ _ (mayWait_bar_owesL c)) $$ [Hcb HO Hab]
  · isplitr; · iexact HIb
    isplitl [Hcb]; · iexact Hcb
    isplitl [HO]; · iexact HO
    isplitl [Hab]; · iexact Hab
    iexact Hlev
  rw [bigSep_offs_chain]
  simp only [offL, chain]
  iintro ⟨⟨%W1, HO⟩, Hdst, Hab⟩
  ihave Hdst := (aside_in _) $$ Hdst
  -- slot 0 lent share by share to the 31 copies
  ihave Hsh := (slot0_lend c _).1 $$ Hs0
  rw [bigSep_offs_chain]
  simp only [offL, chain]
  icases Hsh with ⟨Hsh, Hs0⟩
  ihave Hsh := (aside_in _) $$ Hsh
  for_copies d from 1 to 30 =>
    sl_exec
    ihave Hsend := (aside_out _) $$ Hsend
    icases Hsend with ⟨⟨HIs, HIr, Hrs, Hrr, Hts, Htr⟩, Hsend⟩
    ihave Hsend := (aside_in _) $$ Hsend
    ihave Hdst := (aside_out _) $$ Hdst
    icases Hdst with ⟨⟨⟨%fd, Hd⟩, -⟩, Hdst⟩
    ihave Hdst := (aside_in _) $$ Hdst
    ihave Hsh := (aside_out _) $$ Hsh
    icases Hsh with ⟨Hq, Hsh⟩
    ihave Hsh := (aside_in _) $$ Hsh
    rw [owesL_cons]
    iapply (wp_send_slot' m c _ d (by decide) (copyDevEq c) _ _ fd _ _) $$ [HIs HIr Hq Hd HO Hts Hrs Htr Hrr]
    · isplitl [HIs]; · iexact HIs
      isplitl [HIr]; · iexact HIr
      isplitl [Hq]; · iexact Hq
      isplitl [Hd]; · iexact Hd
      isplitl [HO]; · iexact HO
      isplitl [Hts]; · iexact Hts
      isplitl [Hrs]; · iexact Hrs
      isplitl [Htr]; · iexact Htr
      iexact Hrr
    iintro ⟨Hc, HO⟩
    ihave HcN := (aside_in _) $$ Hc
  for_copies d from 31 to 31 =>
    sl_exec
    ihave Hsend := (aside_out _) $$ Hsend
    icases Hsend with ⟨HIs, HIr, Hrs, Hrr, Hts, Htr⟩
    ihave Hdst := (aside_out _) $$ Hdst
    icases Hdst with ⟨⟨%fd, Hd⟩, -⟩
    ihave Hsh := (aside_out _) $$ Hsh
    icases Hsh with Hq
    rw [owesL_cons]
    iapply (wp_send_slot' m c _ d (by decide) (copyDevEq c) _ _ fd _ _) $$ [HIs HIr Hq Hd HO Hts Hrs Htr Hrr]
    · isplitl [HIs]; · iexact HIs
      isplitl [HIr]; · iexact HIr
      isplitl [Hq]; · iexact Hq
      isplitl [Hd]; · iexact Hd
      isplitl [HO]; · iexact HO
      isplitl [Hts]; · iexact Hts
      isplitl [Hrs]; · iexact Hrs
      isplitl [Htr]; · iexact Htr
      iexact Hrr
    iintro ⟨Hc, HO⟩
    ihave HcN := (aside_in _) $$ Hc
  -- the 31 landings
  rw [owesL_nil]
  ihave Hslots := (chain_nil_intro (fun e => slotPts c e fullShare (gathered m c))) $$ []
  · iempintro
  ihave Hslots := (aside_in _) $$ Hslots
  ihave Hzr := (chain_nil_intro (fun e => semVal (recvCell c e) 0)) $$ []
  · iempintro
  ihave Hzr := (aside_in _) $$ Hzr
  for_offs d from 1 to 30 =>
    sl_exec
    ihave Hrecv := (aside_out _) $$ Hrecv
    icases Hrecv with ⟨⟨HI, Hcd, Hat⟩, Hrecv⟩
    ihave Hrecv := (aside_in _) $$ Hrecv
    iapply (wp_wait_recv m c d (by decide) _ _) $$ [HI Hcd HO Hat]
    · isplitl [HI]; · iexact HI
      isplitl [Hcd]; · iexact Hcd
      isplitl [HO]; · iexact HO
      iexact Hat
    iintro ⟨⟨%W2, HO⟩, Hsl, Hz⟩
    ihave Hslots := (aside_out _) $$ Hslots
    ihave Hslots := (chain_cons_intro d _ (fun e => slotPts c e fullShare (gathered m c))) $$ [Hsl Hslots]
    · isplitl [Hsl]; · iexact Hsl
      iexact Hslots
    ihave Hslots := (aside_in _) $$ Hslots
    ihave Hzr := (aside_out _) $$ Hzr
    ihave Hzr := (chain_cons_intro d _ (fun e => semVal (recvCell c e) 0)) $$ [Hz Hzr]
    · isplitl [Hz]; · iexact Hz
      iexact Hzr
    ihave Hzr := (aside_in _) $$ Hzr
  for_offs d from 31 to 31 =>
    sl_exec
    ihave Hrecv := (aside_out _) $$ Hrecv
    icases Hrecv with ⟨HI, Hcd, Hat⟩
    iapply (wp_wait_recv m c d (by decide) _ _) $$ [HI Hcd HO Hat]
    · isplitl [HI]; · iexact HI
      isplitl [Hcd]; · iexact Hcd
      isplitl [HO]; · iexact HO
      iexact Hat
    iintro ⟨⟨%W2, HO⟩, Hsl, Hz⟩
    ihave Hslots := (aside_out _) $$ Hslots
    ihave Hslots := (chain_cons_intro d _ (fun e => slotPts c e fullShare (gathered m c))) $$ [Hsl Hslots]
    · isplitl [Hsl]; · iexact Hsl
      iexact Hslots
    ihave Hslots := (aside_in _) $$ Hslots
    ihave Hzr := (aside_out _) $$ Hzr
    ihave Hzr := (chain_cons_intro d _ (fun e => semVal (recvCell c e) 0)) $$ [Hz Hzr]
    · isplitl [Hz]; · iexact Hz
      iexact Hzr
    ihave Hzr := (aside_in _) $$ Hzr
  -- the whole buffer read at the share still in hand, the normalised block stored
  ihave Hslots := (aside_out _) $$ Hslots
  ihave Hslots := (Entails.of_eq (chain_offLr _)) $$ Hslots
  ihave Hw := (comm_lower m c).1 $$ [Hs0 Hslots]
  · isplitl [Hs0]; · iexact Hs0
    iexact Hslots
  icases Hw with ⟨Hwhole, Hpieces⟩
  ihave Hpieces := (aside_in _) $$ Hpieces
  sl_exec
  -- the gathered slots back at their full share
  ihave Hpieces := (aside_out _) $$ Hpieces
  ihave Hw := (comm_lower m c).2 $$ [Hwhole Hpieces]
  · isplitl [Hwhole]; · iexact Hwhole
    iexact Hpieces
  icases Hw with ⟨Hs0, Hslots⟩
  ihave Hslots := (aside_in _) $$ Hslots
  -- the 31 departures
  ihave Hqs := (chain_nil_intro (fun e => slotPts c 0 (lentShare e) (gathered m c))) $$ []
  · iempintro
  ihave Hqs := (aside_in _) $$ Hqs
  ihave Hzs := (chain_nil_intro (fun e => semVal (sendCell c e) 0)) $$ []
  · iempintro
  ihave Hzs := (aside_in _) $$ Hzs
  for_copies d from 1 to 30 =>
    try sl_exec
    ihave Hdep := (aside_out _) $$ Hdep
    icases Hdep with ⟨⟨HI, Hat⟩, Hdep⟩
    ihave Hdep := (aside_in _) $$ Hdep
    ihave Hc := (aside_out _) $$ HcN
    iapply (wp_wait_send m c d (by decide) _ _) $$ [HI Hc HO Hat]
    · isplitl [HI]; · iexact HI
      isplitl [Hc]; · iexact Hc
      isplitl [HO]; · iexact HO
      iexact Hat
    iintro ⟨⟨%W3, HO⟩, Hq, Hz⟩
    ihave Hqs := (aside_out _) $$ Hqs
    ihave Hqs := (chain_cons_intro d _ (fun e => slotPts c 0 (lentShare e) (gathered m c))) $$ [Hq Hqs]
    · isplitl [Hq]; · iexact Hq
      iexact Hqs
    ihave Hqs := (aside_in _) $$ Hqs
    ihave Hzs := (aside_out _) $$ Hzs
    ihave Hzs := (chain_cons_intro d _ (fun e => semVal (sendCell c e) 0)) $$ [Hz Hzs]
    · isplitl [Hz]; · iexact Hz
      iexact Hzs
    ihave Hzs := (aside_in _) $$ Hzs
  for_copies d from 31 to 31 =>
    try sl_exec
    ihave Hdep := (aside_out _) $$ Hdep
    icases Hdep with ⟨HI, Hat⟩
    ihave Hc := (aside_out _) $$ HcN
    iapply (wp_wait_send m c d (by decide) _ _) $$ [HI Hc HO Hat]
    · isplitl [HI]; · iexact HI
      isplitl [Hc]; · iexact Hc
      isplitl [HO]; · iexact HO
      iexact Hat
    iintro ⟨⟨%W3, HO⟩, Hq, Hz⟩
    ihave Hqs := (aside_out _) $$ Hqs
    ihave Hqs := (chain_cons_intro d _ (fun e => slotPts c 0 (lentShare e) (gathered m c))) $$ [Hq Hqs]
    · isplitl [Hq]; · iexact Hq
      iexact Hqs
    ihave Hqs := (aside_in _) $$ Hqs
    ihave Hzs := (aside_out _) $$ Hzs
    ihave Hzs := (chain_cons_intro d _ (fun e => semVal (sendCell c e) 0)) $$ [Hz Hzs]
    · isplitl [Hz]; · iexact Hz
      iexact Hzs
    ihave Hzs := (aside_in _) $$ Hzs
  try sl_exec
  -- the end: everything back in the shape the launch takes
  sl_unfold_run_names
  rw [show ((Prog.ret PUnit.unit).bind fun __r => (Pure.pure PUnit.unit : Prog (TpuEff nD τ sig (Elt F) Λ₀ .tc) PUnit)) = Prog.ret PUnit.unit from rfl, wp_ret]
  imodintro
  iapply Hk
  unfold workPost
  ihave Hqs := (aside_out _) $$ Hqs
  ihave Hqs := (Entails.of_eq (chain_offLr _)) $$ Hqs
  ihave Hzs := (aside_out _) $$ Hzs
  ihave Hzs := (Entails.of_eq (chain_offLr _)) $$ Hzs
  ihave Hzr := (aside_out _) $$ Hzr
  ihave Hzr := (Entails.of_eq (chain_offLr _)) $$ Hzr
  ihave Hslots := (aside_out _) $$ Hslots
  isplitl [Hs0]; · iexact Hs0
  isplitl [Hqs]; · iexact Hqs
  isplitl [Hslots]; · iexact Hslots
  isplitl [Hidle]; · iexact Hidle
  isplitl [Hzs]; · iexact Hzs
  isplitl [Hzr]; · iexact Hzr
  isplitl [HO]; · iexists _; iexact HO
  isplitl [Hx]; · iexact Hx
  isplitl [Hg]; · iexact Hg
  isplitl [Hb]; · iexact Hb
  iapply (out_restate m c fo)
  iexact Ho

end Cert.Kernel.Proto

end
-- ==== Proof.lean ====
/-
  The certificate of the distributed layer norm on 32 devices against the one-device reference.

  Each device holds a block of 512 columns of `x`, of the scale and of the shift. It adds up, row by row, its block's
  entries and their squares, sends the two partial sums to every other device (after a handshake on the barrier
  semaphore that tells it the others' gather buffers exist), waits for the 31 partial pairs sent to it, adds the 32
  pairs, and normalises its block with mean T0 · 2⁻¹⁴ and variance T1 · 2⁻¹⁴ - mean². Over the extended reals, for
  finite inputs, the sum of the 32 partial sums is the row's sum in any order, the mean of squares minus the squared
  mean is the centred variance, and multiplying by the reciprocal square root is dividing by the square root: each
  device's result is its block of the reference's. The run itself — every fair interleaving of the 32 devices
  terminates, faults nowhere, leaves the arguments as they were and each result at that value — is proved once,
  for any float instance, and used at the word-level instance and at the ideal one.
-/
import proofs.«900824_g7700000000000825_dist_layernorm_colshard_i_m1024_n512_v7x_i32_bf16_1_alg».proof.Proof.Assemble
import proofs.«900824_g7700000000000825_dist_layernorm_colshard_i_m1024_n512_v7x_i32_bf16_1_alg».proof.Proof.Launch
import proofs.«900824_g7700000000000825_dist_layernorm_colshard_i_m1024_n512_v7x_i32_bf16_1_alg».proof.Proof.BodyWrap
import proofs.«900824_g7700000000000825_dist_layernorm_colshard_i_m1024_n512_v7x_i32_bf16_1_alg».proof.Proof.Body
import proofs.«900824_g7700000000000825_dist_layernorm_colshard_i_m1024_n512_v7x_i32_bf16_1_alg».proof.Proof.KLaunch
import proofs.«900824_g7700000000000825_dist_layernorm_colshard_i_m1024_n512_v7x_i32_bf16_1_alg».proof.Proof.KBodyWrap
import proofs.«900824_g7700000000000825_dist_layernorm_colshard_i_m1024_n512_v7x_i32_bf16_1_alg».proof.Proof.KBody

noncomputable section

namespace Cert.Proof

open Idealize.ShloMosaic Idealize.SL.Sem

/-- The word-level program's run, with each device's result named. -/
theorem run_Kernel : Cert.Assemble.RunK (fun m c => Cert.Kernel.Proto.outAt m c) := fun m ρ =>
  Cert.Kernel.Proto.run_values m ρ (fun c => Cert.Kernel.Proto.body_obligation_of m (Cert.Kernel.Proto.sound_body m) c)

/-- The idealized program's run, with each device's result named. -/
theorem run_KernelIdeal : Cert.Assemble.RunI := fun m ρ =>
  Cert.KernelIdeal.Proto.run_values m ρ (fun c => Cert.KernelIdeal.Proto.body_obligation_of m (Cert.KernelIdeal.Proto.sound_body m) c)

theorem claim : Cert.Claim := Cert.Assemble.claim_of _ run_Kernel run_KernelIdeal

end Cert.Proof

end
